-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  bcast_S_S256x128x2x2 : S_.BroadcastsInDim S256x128x2x2 (![] : Fin 0 → Fin S256x128x2x2.rank)
  reducesTo_S256x128x2x2_S_d0_1_2_3 : S256x128x2x2.ReducesTo [0, 1, 2, 3] S_
  bcast_S_S128 : S_.BroadcastsInDim S128 (![] : Fin 0 → Fin S128.rank)
  reducesTo_S128_S_d0 : S128.ReducesTo [0] S_
  bcast_S_S128x256x3x3 : S_.BroadcastsInDim S128x256x3x3 (![] : Fin 0 → Fin S128x256x3x3.rank)
  reducesTo_S128x256x3x3_S_d0_1_2_3 : S128x256x3x3.ReducesTo [0, 1, 2, 3] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S128 .f32) (main_arg15 : FVec F S128 .f32) (main_v48 : IVec S_ 1) (main_v49 : FVec F S128x128x3x3 .f32) (main_v50 : FVec F S128x128x3x3 .f32) : IVec S_ 1 :=
  let main_v51 : IVec S128x128x3x3 1 := cmpf .olt main_v49 main_v50
  let main_c_19 : IVec S_ 1 := constantI S_ 1 1#1
  let main_v52 : IVec S_ 1 := (fun x v => Host.reduce IntOp.andi x v reducesTo_S128x128x3x3_S_d0_1_2_3 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S128x128x3x3 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128x3x3 .f32 := Host.absf main_arg10
  let main_cst_18 : FVec F S_ .f32 := constant S_ .f32 0x7F800000#32
  let main_v50 : FVec F S128x128x3x3 .f32 := broadcastInDim S128x128x3x3 ![] bcast_S_S128x128x3x3 main_cst_18
  fn_part3 (F := F) main_arg11 main_arg12 main_arg13 main_arg14 main_arg15 main_v48 main_v49 main_v50

def fn_part1 {F : FTy → Type} [FloatOps F] (main_arg4 : FVec F S128x256x3x3 .f32) (main_arg5 : FVec F S128 .f32) (main_arg6 : FVec F S128 .f32) (main_arg7 : FVec F S128 .f32) (main_arg8 : FVec F S128 .f32) (main_arg9 : FVec F S128 .f32) (main_arg10 : FVec F S128x128x3x3 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256x3x3 .f32 := Host.absf main_arg4
  let main_cst_6 : FVec F S_ .f32 := constant S_ .f32 0x7F800000#32
  let main_v20 : FVec F S128x256x3x3 .f32 := broadcastInDim S128x256x3x3 ![] bcast_S_S128x256x3x3 main_cst_6
  let main_v21 : IVec S128x256x3x3 1 := cmpf .olt main_v19 main_v20
  let main_c_7 : IVec S_ 1 := constantI S_ 1 1#1
  let main_v22 : IVec S_ 1 := (fun x v => Host.reduce IntOp.andi x v reducesTo_S128x256x3x3_S_d0_1_2_3 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16x256x32x32 .f32) (main_arg1 : FVec F S16x128x64x64 .f32) (main_arg2 : FVec F S256x128x2x2 .f32) (main_arg3 : FVec F S128 .f32) (main_arg4 : FVec F S128x256x3x3 .f32) (main_arg5 : FVec F S128 .f32) (main_arg6 : FVec F S128 .f32) (main_arg7 : FVec F S128 .f32) (main_arg8 : FVec F S128 .f32) (main_arg9 : FVec F S128 .f32) (main_arg10 : FVec F S128x128x3x3 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S16x128x64x64 .f32 := Host.absf main_arg1
  let main_cst_0 : FVec F S_ .f32 := constant S_ .f32 0x7F800000#32
  let main_v5 : FVec F S16x128x64x64 .f32 := broadcastInDim S16x128x64x64 ![] bcast_S_S16x128x64x64 main_cst_0
  let main_v6 : IVec S16x128x64x64 1 := cmpf .olt main_v4 main_v5
  let main_c_1 : IVec S_ 1 := constantI S_ 1 1#1
  let main_v7 : IVec S_ 1 := (fun x v => Host.reduce IntOp.andi x v reducesTo_S16x128x64x64_S_d0_1_2_3 h_S_) main_v6 main_c_1
  let main_v8 : IVec S_ 1 := andi main_v3 main_v7
  let main_v9 : FVec F S256x128x2x2 .f32 := Host.absf main_arg2
  let main_cst_2 : FVec F S_ .f32 := constant S_ .f32 0x7F800000#32
  let main_v10 : FVec F S256x128x2x2 .f32 := broadcastInDim S256x128x2x2 ![] bcast_S_S256x128x2x2 main_cst_2
  let main_v11 : IVec S256x128x2x2 1 := cmpf .olt main_v9 main_v10
  let main_c_3 : IVec S_ 1 := constantI S_ 1 1#1
  let main_v12 : IVec S_ 1 := (fun x v => Host.reduce IntOp.andi x v reducesTo_S256x128x2x2_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S_ : Shape := ⟨0, ![]⟩
abbrev S128x1x1x1 : Shape := ⟨4, ![128, 1, 1, 1]⟩
abbrev S256x2x2x128 : Shape := ⟨4, ![256, 2, 2, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S3x3x256x128 : Shape := ⟨4, ![3, 3, 256, 128]⟩
abbrev S9x256x128 : Shape := ⟨3, ![9, 256, 128]⟩
abbrev S3x3x128x128 : Shape := ⟨4, ![3, 3, 128, 128]⟩
abbrev S9x128x128 : Shape := ⟨3, ![9, 128, 128]⟩
abbrev S16x32x32x256 : Shape := ⟨4, ![16, 32, 32, 256]⟩
abbrev S16x1024x256 : Shape := ⟨3, ![16, 1024, 256]⟩
abbrev S16x64x64x128 : Shape := ⟨4, ![16, 64, 64, 128]⟩
abbrev S16x64x72x128 : Shape := ⟨4, ![16, 64, 72, 128]⟩
abbrev S16x4608x128 : Shape := ⟨3, ![16, 4608, 128]⟩
abbrev S4608 : Shape := ⟨1, ![4608]⟩
abbrev S4608x1 : Shape := ⟨2, ![4608, 1]⟩
abbrev S1x4608x1x1 : Shape := ⟨4, ![1, 4608, 1, 1]⟩
abbrev S1x4608x128x1 : Shape := ⟨4, ![1, 4608, 128, 1]⟩
abbrev S4608x128 : Shape := ⟨2, ![4608, 128]⟩
abbrev S1x1024x256 : Shape := ⟨3, ![1, 1024, 256]⟩
abbrev S1x4608x128 : Shape := ⟨3, ![1, 4608, 128]⟩
abbrev S4896x256 : Shape := ⟨2, ![4896, 256]⟩
abbrev S4896x128 : Shape := ⟨2, ![4896, 128]⟩
abbrev S1024x512 : Shape := ⟨2, ![1024, 512]⟩
abbrev S1024x256 : Shape := ⟨2, ![1024, 256]⟩
abbrev S144x256 : Shape := ⟨2, ![144, 256]⟩
abbrev S32x256 : Shape := ⟨2, ![32, 256]⟩
abbrev S64x128 : Shape := ⟨2, ![64, 128]⟩
abbrev S4608x256 : Shape := ⟨2, ![4608, 256]⟩
abbrev S1x256x128 : Shape := ⟨3, ![1, 256, 128]⟩
abbrev S256x128 : Shape := ⟨2, ![256, 128]⟩
abbrev S144x128 : Shape := ⟨2, ![144, 128]⟩
abbrev S1x128x128 : Shape := ⟨3, ![1, 128, 128]⟩
abbrev S128x128 : Shape := ⟨2, ![128, 128]⟩

abbrev nBuf : Space → Nat
  | .hbm => 101
  | .vmem => 16
  | .smem => 0
  | _ => 0

abbrev bufTy : (tb : Table) → Fin (tcTables nBuf tb) → BufTy
  | .hbm, ⟨0, _⟩ => ⟨S16x256x32x32, .f32⟩
  | .hbm, ⟨1, _⟩ => ⟨S16x128x64x64, .f32⟩
  | .hbm, ⟨2, _⟩ => ⟨S256x128x2x2, .f32⟩
  | .hbm, ⟨3, _⟩ => ⟨S128, .f32⟩
  | .hbm, ⟨4, _⟩ => ⟨S128x256x3x3, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128x3x3, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x1x1x1, .f32⟩
  | .hbm, ⟨22, _⟩ => ⟨S128x256x3x3, .f32⟩
  | .hbm, ⟨23, _⟩ => ⟨S128x256x3x3, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128x1x1x1, .f32⟩
  | .hbm, ⟨33, _⟩ => ⟨S128x128x3x3, .f32⟩
  | .hbm, ⟨34, _⟩ => ⟨S128x128x3x3, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S256x2x2x128, .f32⟩
  | .hbm, ⟨39, _⟩ => ⟨S256x512, .f32⟩
  | .hbm, ⟨40, _⟩ => ⟨S256x512, .bf16⟩
  | .hbm, ⟨41, _⟩ => ⟨S1x128, .f32⟩
  | .hbm, ⟨42, _⟩ => ⟨S4x128, .f32⟩
  | .hbm, ⟨43, _⟩ => ⟨S512, .f32⟩
  | .hbm, ⟨44, _⟩ => ⟨S1x512, .f32⟩
  | .hbm, ⟨45, _⟩ => ⟨S3x3x256x128, .f32⟩
  | .hbm, ⟨46, _⟩ => ⟨S9x256x128, .f32⟩
  | .hbm, ⟨47, _⟩ => ⟨S9x256x128, .bf16⟩
  | .hbm, ⟨48, _⟩ => ⟨S3x3x128x128, .f32⟩
  | .hbm, ⟨49, _⟩ => ⟨S9x128x128, .f32⟩
  | .hbm, ⟨50, _⟩ => ⟨S9x128x128, .bf16⟩
  | .hbm, ⟨51, _⟩ => ⟨S1x128, .f32⟩
  | .hbm, ⟨52, _⟩ => ⟨S1x128, .f32⟩
  | .hbm, ⟨53, _⟩ => ⟨S16x32x32x256, .f32⟩
  | .hbm, ⟨54, _⟩ => ⟨S16x1024x256, .f32⟩
  | .hbm, ⟨55, _⟩ => ⟨S16x1024x256, .bf16⟩
  | .hbm, ⟨56, _⟩ => ⟨S16x64x64x128, .f32⟩
  | .hbm, ⟨57, _⟩ => ⟨S16x64x64x128, .bf16⟩
  | .hbm, ⟨58, _⟩ => ⟨S_, .i32⟩
  | .hbm, ⟨59, _⟩ => ⟨S_, .bf16⟩
  | .hbm, ⟨60, _⟩ => ⟨S16x64x72x128, .bf16⟩
  | .hbm, ⟨61, _⟩ => ⟨S16x4608x128, .bf16⟩
  | .hbm, ⟨62, _⟩ => ⟨S4608, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S4608, .i32⟩
  | .hbm, ⟨70, _⟩ => ⟨S4608, .i32⟩
  | .hbm, ⟨71, _⟩ => ⟨S_, .i32⟩
  | .hbm, ⟨72, _⟩ => ⟨S4608, .i32⟩
  | .hbm, ⟨73, _⟩ => ⟨S4608, .i1⟩
  | .hbm, ⟨74, _⟩ => ⟨S_, .i32⟩
  | .hbm, ⟨75, _⟩ => ⟨S4608, .i32⟩
  | .hbm, ⟨76, _⟩ => ⟨S4608, .i1⟩
  | .hbm, ⟨77, _⟩ => ⟨S_, .i32⟩
  | .hbm, ⟨78, _⟩ => ⟨S_, .i1⟩
  | .hbm, ⟨79, _⟩ => ⟨S4608, .i1⟩
  | .hbm, ⟨80, _⟩ => ⟨S4608, .i1⟩
  | .hbm, ⟨81, _⟩ => ⟨S4608, .i1⟩
  | .hbm, ⟨82, _⟩ => ⟨S4608, .i32⟩
  | .hbm, ⟨83, _⟩ => ⟨S4608, .i32⟩
  | .hbm, ⟨84, _⟩ => ⟨S4608, .i32⟩
  | .hbm, ⟨85, _⟩ => ⟨S_, .i32⟩
  | .hbm, ⟨86, _⟩ => ⟨S4608, .i32⟩
  | .hbm, ⟨87, _⟩ => ⟨S4608, .i1⟩
  | .hbm, ⟨88, _⟩ => ⟨S_, .i32⟩
  | .hbm, ⟨89, _⟩ => ⟨S4608, .i32⟩
  | .hbm, ⟨90, _⟩ => ⟨S4608, .i1⟩
  | .hbm, ⟨91, _⟩ => ⟨S4608, .i1⟩
  | .hbm, ⟨92, _⟩ => ⟨S4608, .f32⟩
  | .hbm, ⟨93, _⟩ => ⟨S4608x1, .f32⟩
  | .hbm, ⟨94, _⟩ => ⟨S1x4608x1x1, .f32⟩
  | .hbm, ⟨95, _⟩ => ⟨S1x4608x128x1, .f32⟩
  | .hbm, ⟨96, _⟩ => ⟨S4608x128, .f32⟩
  | .hbm, ⟨97, _⟩ => ⟨S16x4608x128, .f32⟩
  | .hbm, ⟨98, _⟩ => ⟨S16x64x72x128, .f32⟩
  | .hbm, ⟨99, _⟩ => ⟨S16x64x64x128, .f32⟩
  | .hbm, ⟨100, _⟩ => ⟨S16x128x64x64, .f32⟩
  | .local _ .vmem, ⟨0, _⟩ => ⟨S1x1024x256, .bf16⟩
  | .local _ .vmem, ⟨1, _⟩ => ⟨S1x1024x256, .bf16⟩
  | .local _ .vmem, ⟨2, _⟩ => ⟨S1x4608x128, .bf16⟩
  | .local _ .vmem, ⟨3, _⟩ => ⟨S1x4608x128, .bf16⟩
  | .local _ .vmem, ⟨4, _⟩ => ⟨S4608x128, .f32⟩
  | .local _ .vmem, ⟨5, _⟩ => ⟨S256x512, .bf16⟩
  | .local _ .vmem, ⟨6, _⟩ => ⟨S1x512, .f32⟩
  | .local _ .vmem, ⟨7, _⟩ => ⟨S9x256x128, .bf16⟩
  | .local _ .vmem, ⟨8, _⟩ => ⟨S1x128, .f32⟩
  | .local _ .vmem, ⟨9, _⟩ => ⟨S9x128x128, .bf16⟩
  | .local _ .vmem, ⟨10, _⟩ => ⟨S1x128, .f32⟩
  | .local _ .vmem, ⟨11, _⟩ => ⟨S1x4608x128, .f32⟩
  | .local _ .vmem, ⟨12, _⟩ => ⟨S1x4608x128, .f32⟩
  | .local _ .vmem, ⟨13, _⟩ => ⟨S4896x256, .bf16⟩
  | .local _ .vmem, ⟨14, _⟩ => ⟨S4896x128, .bf16⟩
  | .local _ .vmem, ⟨15, _⟩ => ⟨S1024x512, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_1 : Ref sig .tc := ⟨.hbm, 63, rfl⟩
abbrev main_call1_v0 : Ref sig .tc := ⟨.hbm, 64, rfl⟩
abbrev main_call1_c : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_c_1 : Ref sig .tc := ⟨.hbm, 71, rfl⟩
abbrev main_call1_v5 : Ref sig .tc := ⟨.hbm, 72, rfl⟩
abbrev main_call1_v6 : Ref sig .tc := ⟨.hbm, 73, rfl⟩
abbrev main_call1_c_2 : Ref sig .tc := ⟨.hbm, 74, rfl⟩
abbrev main_call1_v7 : Ref sig .tc := ⟨.hbm, 75, rfl⟩
abbrev main_call1_v8 : Ref sig .tc := ⟨.hbm, 76, rfl⟩
abbrev main_call1_c_3 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_v43 : Ref sig .tc := ⟨.hbm, 84, rfl⟩
abbrev main_c_2 : Ref sig .tc := ⟨.hbm, 85, rfl⟩
abbrev main_v44 : Ref sig .tc := ⟨.hbm, 86, rfl⟩
abbrev main_v45 : Ref sig .tc := ⟨.hbm, 87, rfl⟩
abbrev main_c_3 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4608x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4608x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S128 : S_.BroadcastsInDim S128 (![] : Fin 0 → Fin S128.rank)
  bcast_S128_S128x1x1x1_0 : S128.BroadcastsInDim S128x1x1x1 (![0] : Fin 1 → Fin S128x1x1x1.rank)
  bcast_S128x1x1x1_S128x256x3x3_0_1_2_3 : S128x1x1x1.BroadcastsInDim S128x256x3x3 (![0, 1, 2, 3] : Fin 4 → Fin S128x256x3x3.rank)
  bcast_S128x1x1x1_S128x128x3x3_0_1_2_3 : S128x1x1x1.BroadcastsInDim S128x128x3x3 (![0, 1, 2, 3] : Fin 4 → Fin S128x128x3x3.rank)
  transposes_S256x128x2x2_S256x2x2x128_0_2_3_1 : S256x128x2x2.Transposes [0, 2, 3, 1] S256x2x2x128
  shapeCasts_S256x2x2x128_S256x512 : S256x2x2x128.ShapeCasts S256x512
  bitsLt_bf16_f32 : FTy.bits .bf16 < FTy.bits .f32
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  transposes_S128x256x3x3_S3x3x256x128_2_3_1_0 : S128x256x3x3.Transposes [2, 3, 1, 0] S3x3x256x128
  shapeCasts_S3x3x256x128_S9x256x128 : S3x3x256x128.ShapeCasts S9x256x128
  transposes_S128x128x3x3_S3x3x128x128_2_3_1_0 : S128x128x3x3.Transposes [2, 3, 1, 0] S3x3x128x128
  shapeCasts_S3x3x128x128_S9x128x128 : S3x3x128x128.ShapeCasts S9x128x128
  transposes_S16x256x32x32_S16x32x32x256_0_2_3_1 : S16x256x32x32.Transposes [0, 2, 3, 1] S16x32x32x256
  shapeCasts_S16x32x32x256_S16x1024x256 : S16x32x32x256.ShapeCasts S16x1024x256
  transposes_S16x128x64x64_S16x64x64x128_0_2_3_1 : S16x128x64x64.Transposes [0, 2, 3, 1] S16x64x64x128
  pads_S16x64x64x128_S16x64x72x128_000_000_440_000 : S16x64x64x128.Pads (![0, 0, 4, 0] : Fin 4 → Nat) ![0, 0, 4, 0] ![0, 0, 0, 0] S16x64x72x128
  h_S_ : 0 < S_.numel
  shapeCasts_S16x64x72x128_S16x4608x128 : S16x64x72x128.ShapeCasts S16x4608x128
  bcast_S_S4608 : S_.BroadcastsInDim S4608 (![] : Fin 0 → Fin S4608.rank)
  bcast_S4608_S4608x1_0 : S4608.BroadcastsInDim S4608x1 (![0] : Fin 1 → Fin S4608x1.rank)
  shapeCasts_S4608x1_S1x4608x1x1 : S4608x1.ShapeCasts S1x4608x1x1
  bcast_S1x4608x1x1_S1x4608x128x1_0_1_2_3 : S1x4608x1x1.BroadcastsInDim S1x4608x128x1 (![0, 1, 2, 3] : Fin 4 → Fin S1x4608x128x1.rank)
  shapeCasts_S1x4608x128x1_S4608x128 : S1x4608x128x1.ShapeCasts S4608x128
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S4896x256_S144x256_0_0 : ∀ a, (![0, 0] : Fin 2 → Nat) a + S144x256.size a ≤ S4896x256.size a
  h_S144x256 : 0 < S144x256.numel
  shapeCasts_S144x256_S144x256 : S144x256.ShapeCasts S144x256
  packedbf16_S4896x256_S144x256_0_0 : (Rect.unit (s := S4896x256) ![0, 0] S144x256.size inb_S4896x256_S144x256_0_0).PackedRows (EltTy.packing .bf16)
  inb_S4896x256_S144x256_4752_0 : ∀ a, (![4752, 0] : Fin 2 → Nat) a + S144x256.size a ≤ S4896x256.size a
  packedbf16_S4896x256_S144x256_4752_0 : (Rect.unit (s := S4896x256) ![4752, 0] S144x256.size inb_S4896x256_S144x256_4752_0).PackedRows (EltTy.packing .bf16)
  inb_S4896x256_S4896x128_0_128 : ∀ a, (![0, 128] : Fin 2 → Nat) a + S4896x128.size a ≤ S4896x256.size a
  h_S4896x128 : 0 < S4896x128.numel
  shapeCasts_S4896x128_S4896x128 : S4896x128.ShapeCasts S4896x128
  packedbf16_S4896x256_S4896x128_0_128 : (Rect.unit (s := S4896x256) ![0, 128] S4896x128.size inb_S4896x256_S4896x128_0_128).PackedRows (EltTy.packing .bf16)
  inb_S1x4608x128_S1x4608x128_0_0_0 : ∀ a, (![0, 0, 0] : Fin 3 → Nat) a + S1x4608x128.size a ≤ S1x4608x128.size a
  h_S1x4608x128 : 0 < S1x4608x128.numel
  shapeCasts_S1x4608x128_S4608x128 : S1x4608x128.ShapeCasts S4608x128
  inb_S4896x256_S4608x128_144_0 : ∀ a, (![144, 0] : Fin 2 → Nat) a + S4608x128.size a ≤ S4896x256.size a
  h_S4608x128 : 0 < S4608x128.numel
  shapeCasts_S4608x128_S4608x128 : S4608x128.ShapeCasts S4608x128
  packedbf16_S4896x256_S4608x128_144_0 : (Rect.unit (s := S4896x256) ![144, 0] S4608x128.size inb_S4896x256_S4608x128_144_0).PackedRows (EltTy.packing .bf16)
  inb_S1024x512_S32x256_0_0 : ∀ a, (![0, 0] : Fin 2 → Nat) a + S32x256.size a ≤ S1024x512.size a
  h_S32x256 : 0 < S32x256.numel
  shapeCasts_S32x256_S64x128 : S32x256.ShapeCasts S64x128
  inb_S4896x256_S64x128_148_128 : ∀ a, (![148, 128] : Fin 2 → Nat) a + S64x128.size a ≤ S4896x256.size a
  h_S64x128 : 0 < S64x128.numel
  shapeCasts_S64x128_S64x128 : S64x128.ShapeCasts S64x128
  packedbf16_S4896x256_S64x128_148_128 : (Rect.unit (s := S4896x256) ![148, 128] S64x128.size inb_S4896x256_S64x128_148_128).PackedRows (EltTy.packing .bf16)
  inb_S1024x512_S32x256_0_256 : ∀ a, (![0, 256] : Fin 2 → Nat) a + S32x256.size a ≤ S1024x512.size a
  inb_S4896x256_S64x128_220_128 : ∀ a, (![220, 128] : Fin 2 → Nat) a + S64x128.size a ≤ S4896x256.size a
  packedbf16_S4896x256_S64x128_220_128 : (Rect.unit (s := S4896x256) ![220, 128] S64x128.size inb_S4896x256_S64x128_220_128).PackedRows (EltTy.packing .bf16)
  inb_S1024x512_S32x256_32_0 : ∀ a, (![32, 0] : Fin 2 → Nat) a + S32x256.size a ≤ S1024x512.size a
  inb_S4896x256_S64x128_292_128 : ∀ a, (![292, 128] : Fin 2 → Nat) a + S64x128.size a ≤ S4896x256.size a
  packedbf16_S4896x256_S64x128_292_128 : (Rect.unit (s := S4896x256) ![292, 128] S64x128.size inb_S4896x256_S64x128_292_128).PackedRows (EltTy.packing .bf16)
  inb_S1024x512_S32x256_32_256 : ∀ a, (![32, 256] : Fin 2 → Nat) a + S32x256.size a ≤ S1024x512.size a
  inb_S4896x256_S64x128_364_128 : ∀ a, (![364, 128] : Fin 2 → Nat) a + S64x128.size a ≤ S4896x256.size a
  packedbf16_S4896x256_S64x128_364_128 : (Rect.unit (s := S4896x256) ![364, 128] S64x128.size inb_S4896x256_S64x128_364_128).PackedRows (EltTy.packing .bf16)
  inb_S1024x512_S32x256_64_0 : ∀ a, (![64, 0] : Fin 2 → Nat) a + S32x256.size a ≤ S1024x512.size a
  inb_S4896x256_S64x128_436_128 : ∀ a, (![436, 128] : Fin 2 → Nat) a + S64x128.size a ≤ S4896x256.size a
  packedbf16_S4896x256_S64x128_436_128 : (Rect.unit (s := S4896x256) ![436, 128] S64x128.size inb_S4896x256_S64x128_436_128).PackedRows (EltTy.packing .bf16)
  inb_S1024x512_S32x256_64_256 : ∀ a, (![64, 256] : Fin 2 → Nat) a + S32x256.size a ≤ S1024x512.size a
  inb_S4896x256_S64x128_508_128 : ∀ a, (![508, 128] : Fin 2 → Nat) a + S64x128.size a ≤ S4896x256.size a
  packedbf16_S4896x256_S64x128_508_128 : (Rect.unit (s := S4896x256) ![508, 128] S64x128.size inb_S4896x256_S64x128_508_128).PackedRows (EltTy.packing .bf16)
  inb_S1024x512_S32x256_96_0 : ∀ a, (![96, 0] : Fin 2 → Nat) a + S32x256.size a ≤ S1024x512.size a
  inb_S4896x256_S64x128_580_128 : ∀ a, (![580, 128] : Fin 2 → Nat) a + S64x128.size a ≤ S4896x256.size a
  packedbf16_S4896x256_S64x128_580_128 : (Rect.unit (s := S4896x256) ![580, 128] S64x128.size inb_S4896x256_S64x128_580_128).PackedRows (EltTy.packing .bf16)
  inb_S1024x512_S32x256_96_256 : ∀ a, (![96, 256] : Fin 2 → Nat) a + S32x256.size a ≤ S1024x512.size a
  inb_S4896x256_S64x128_652_128 : ∀ a, (![652, 128] : Fin 2 → Nat) a + S64x128.size a ≤ S4896x256.size a
  packedbf16_S4896x256_S64x128_652_128 : (Rect.unit (s := S4896x256) ![652, 128] S64x128.size inb_S4896x256_S64x128_652_128).PackedRows (EltTy.packing .bf16)
  inb_S1024x512_S32x256_128_0 : ∀ a, (![128, 0] : Fin 2 → Nat) a + S32x256.size a ≤ S1024x512.size a
  inb_S4896x256_S64x128_724_128 : ∀ a, (![724, 128] : Fin 2 → Nat) a + S64x128.size a ≤ S4896x256.size a
  packedbf16_S4896x256_S64x128_724_128 : (Rect.unit (s := S4896x256) ![724, 128] S64x128.size inb_S4896x256_S64x128_724_128).PackedRows (EltTy.packing .bf16)
  inb_S1024x512_S32x256_128_256 : ∀ a, (![128, 256] : Fin 2 → Nat) a + S32x256.size a ≤ S1024x512.size a
  inb_S4896x256_S64x128_796_128 : ∀ a, (![796, 128] : Fin 2 → Nat) a + S64x128.size a ≤ S4896x256.size a
  packedbf16_S4896x256_S64x128_796_128 : (Rect.unit (s := S4896x256) ![796, 128] S64x128.size inb_S4896x256_S64x128_796_128).PackedRows (EltTy.packing .bf16)
  inb_S1024x512_S32x256_160_0 : ∀ a, (![160, 0] : Fin 2 → Nat) a + S32x256.size a ≤ S1024x512.size a
  inb_S4896x256_S64x128_868_128 : ∀ a, (![868, 128] : Fin 2 → Nat) a + S64x128.size a ≤ S4896x256.size a
  packedbf16_S4896x256_S64x128_868_128 : (Rect.unit (s := S4896x256) ![868, 128] S64x128.size inb_S4896x256_S64x128_868_128).PackedRows (EltTy.packing .bf16)
  inb_S1024x512_S32x256_160_256 : ∀ a, (![160, 256] : Fin 2 → Nat) a + S32x256.size a ≤ S1024x512.size a
  inb_S4896x256_S64x128_940_128 : ∀ a, (![940, 128] : Fin 2 → Nat) a + S64x128.size a ≤ S4896x256.size a
  packedbf16_S4896x256_S64x128_940_128 : (Rect.unit (s := S4896x256) ![940, 128] S64x128.size inb_S4896x256_S64x128_940_128).PackedRows (EltTy.packing .bf16)
  inb_S1024x512_S32x256_192_0 : ∀ a, (![192, 0] : Fin 2 → Nat) a + S32x256.size a ≤ S1024x512.size a
  inb_S4896x256_S64x128_1012_128 : ∀ a, (![1012, 128] : Fin 2 → Nat) a + S64x128.size a ≤ S4896x256.size a
  packedbf16_S4896x256_S64x128_1012_128 : (Rect.unit (s := S4896x256) ![1012, 128] S64x128.size inb_S4896x256_S64x128_1012_128).PackedRows (EltTy.packing .bf16)
  inb_S1024x512_S32x256_192_256 : ∀ a, (![192, 256] : Fin 2 → Nat) a + S32x256.size a ≤ S1024x512.size a
  inb_S4896x256_S64x128_1084_128 : ∀ a, (![1084, 128] : Fin 2 → Nat) a + S64x128.size a ≤ S4896x256.size a
  packedbf16_S4896x256_S64x128_1084_128 : (Rect.unit (s := S4896x256) ![1084, 128] S64x128.size inb_S4896x256_S64x128_1084_128).PackedRows (EltTy.packing .bf16)
  inb_S1024x512_S32x256_224_0 : ∀ a, (![224, 0] : Fin 2 → Nat) a + S32x256.size a ≤ S1024x512.size a
  inb_S4896x256_S64x128_1156_128 : ∀ a, (![1156, 128] : Fin 2 → Nat) a + S64x128.size a ≤ S4896x256.size a
  packedbf16_S4896x256_S64x128_1156_128 : (Rect.unit (s := S4896x256) ![1156, 128] S64x128.size inb_S4896x256_S64x128_1156_128).PackedRows (EltTy.packing .bf16)
  inb_S1024x512_S32x256_224_256 : ∀ a, (![224, 256] : Fin 2 → Nat) a + S32x256.size a ≤ S1024x512.size a
  inb_S4896x256_S64x128_1228_128 : ∀ a, (![1228, 128] : Fin 2 → Nat) a + S64x128.size a ≤ S4896x256.size a
  packedbf16_S4896x256_S64x128_1228_128 : (Rect.unit (s := S4896x256) ![1228, 128] S64x128.size inb_S4896x256_S64x128_1228_128).PackedRows (EltTy.packing .bf16)
  inb_S1024x512_S32x256_256_0 : ∀ a, (![256, 0] : Fin 2 → Nat) a + S32x256.size a ≤ S1024x512.size a
  inb_S4896x256_S64x128_1300_128 : ∀ a, (![1300, 128] : Fin 2 → Nat) a + S64x128.size a ≤ S4896x256.size a
  packedbf16_S4896x256_S64x128_1300_128 : (Rect.unit (s := S4896x256) ![1300, 128] S64x128.size inb_S4896x256_S64x128_1300_128).PackedRows (EltTy.packing .bf16)
  inb_S1024x512_S32x256_256_256 : ∀ a, (![256, 256] : Fin 2 → Nat) a + S32x256.size a ≤ S1024x512.size a
  inb_S4896x256_S64x128_1372_128 : ∀ a, (![1372, 128] : Fin 2 → Nat) a + S64x128.size a ≤ S4896x256.size a
  packedbf16_S4896x256_S64x128_1372_128 : (Rect.unit (s := S4896x256) ![1372, 128] S64x128.size inb_S4896x256_S64x128_1372_128).PackedRows (EltTy.packing .bf16)
  inb_S1024x512_S32x256_288_0 : ∀ a, (![288, 0] : Fin 2 → Nat) a + S32x256.size a ≤ S1024x512.size a
  inb_S4896x256_S64x128_1444_128 : ∀ a, (![1444, 128] : Fin 2 → Nat) a + S64x128.size a ≤ S4896x256.size a
  packedbf16_S4896x256_S64x128_1444_128 : (Rect.unit (s := S4896x256) ![1444, 128] S64x128.size inb_S4896x256_S64x128_1444_128).PackedRows (EltTy.packing .bf16)
  inb_S1024x512_S32x256_288_256 : ∀ a, (![288, 256] : Fin 2 → Nat) a + S32x256.size a ≤ S1024x512.size a
  inb_S4896x256_S64x128_1516_128 : ∀ a, (![1516, 128] : Fin 2 → Nat) a + S64x128.size a ≤ S4896x256.size a
  packedbf16_S4896x256_S64x128_1516_128 : (Rect.unit (s := S4896x256) ![1516, 128] S64x128.size inb_S4896x256_S64x128_1516_128).PackedRows (EltTy.packing .bf16)
  inb_S1024x512_S32x256_320_0 : ∀ a, (![320, 0] : Fin 2 → Nat) a + S32x256.size a ≤ S1024x512.size a
  inb_S4896x256_S64x128_1588_128 : ∀ a, (![1588, 128] : Fin 2 → Nat) a + S64x128.size a ≤ S4896x256.size a
  packedbf16_S4896x256_S64x128_1588_128 : (Rect.unit (s := S4896x256) ![1588, 128] S64x128.size inb_S4896x256_S64x128_1588_128).PackedRows (EltTy.packing .bf16)
  inb_S1024x512_S32x256_320_256 : ∀ a, (![320, 256] : Fin 2 → Nat) a + S32x256.size a ≤ S1024x512.size a
  inb_S4896x256_S64x128_1660_128 : ∀ a, (![1660, 128] : Fin 2 → Nat) a + S64x128.size a ≤ S4896x256.size a
  packedbf16_S4896x256_S64x128_1660_128 : (Rect.unit (s := S4896x256) ![1660, 128] S64x128.size inb_S4896x256_S64x128_1660_128).PackedRows (EltTy.packing .bf16)
  inb_S1024x512_S32x256_352_0 : ∀ a, (![352, 0] : Fin 2 → Nat) a + S32x256.size a ≤ S1024x512.size a
  inb_S4896x256_S64x128_1732_128 : ∀ a, (![1732, 128] : Fin 2 → Nat) a + S64x128.size a ≤ S4896x256.size a
  packedbf16_S4896x256_S64x128_1732_128 : (Rect.unit (s := S4896x256) ![1732, 128] S64x128.size inb_S4896x256_S64x128_1732_128).PackedRows (EltTy.packing .bf16)
  inb_S1024x512_S32x256_352_256 : ∀ a, (![352, 256] : Fin 2 → Nat) a + S32x256.size a ≤ S1024x512.size a
  inb_S4896x256_S64x128_1804_128 : ∀ a, (![1804, 128] : Fin 2 → Nat) a + S64x128.size a ≤ S4896x256.size a
  packedbf16_S4896x256_S64x128_1804_128 : (Rect.unit (s := S4896x256) ![1804, 128] S64x128.size inb_S4896x256_S64x128_1804_128).PackedRows (EltTy.packing .bf16)
  inb_S1024x512_S32x256_384_0 : ∀ a, (![384, 0] : Fin 2 → Nat) a + S32x256.size a ≤ S1024x512.size a
  inb_S4896x256_S64x128_1876_128 : ∀ a, (![1876, 128] : Fin 2 → Nat) a + S64x128.size a ≤ S4896x256.size a
  packedbf16_S4896x256_S64x128_1876_128 : (Rect.unit (s := S4896x256) ![1876, 128] S64x128.size inb_S4896x256_S64x128_1876_128).PackedRows (EltTy.packing .bf16)
  inb_S1024x512_S32x256_384_256 : ∀ a, (![384, 256] : Fin 2 → Nat) a + S32x256.size a ≤ S1024x512.size a
  inb_S4896x256_S64x128_1948_128 : ∀ a, (![1948, 128] : Fin 2 → Nat) a + S64x128.size a ≤ S4896x256.size a
  packedbf16_S4896x256_S64x128_1948_128 : (Rect.unit (s := S4896x256) ![1948, 128] S64x128.size inb_S4896x256_S64x128_1948_128).PackedRows (EltTy.packing .bf16)
  inb_S1024x512_S32x256_416_0 : ∀ a, (![416, 0] : Fin 2 → Nat) a + S32x256.size a ≤ S1024x512.size a
  inb_S4896x256_S64x128_2020_128 : ∀ a, (![2020, 128] : Fin 2 → Nat) a + S64x128.size a ≤ S4896x256.size a
  packedbf16_S4896x256_S64x128_2020_128 : (Rect.unit (s := S4896x256) ![2020, 128] S64x128.size inb_S4896x256_S64x128_2020_128).PackedRows (EltTy.packing .bf16)
  inb_S1024x512_S32x256_416_256 : ∀ a, (![416, 256] : Fin 2 → Nat) a + S32x256.size a ≤ S1024x512.size a
  inb_S4896x256_S64x128_2092_128 : ∀ a, (![2092, 128] : Fin 2 → Nat) a + S64x128.size a ≤ S4896x256.size a
  packedbf16_S4896x256_S64x128_2092_128 : (Rect.unit (s := S4896x256) ![2092, 128] S64x128.size inb_S4896x256_S64x128_2092_128).PackedRows (EltTy.packing .bf16)
  inb_S1024x512_S32x256_448_0 : ∀ a, (![448, 0] : Fin 2 → Nat) a + S32x256.size a ≤ S1024x512.size a
  inb_S4896x256_S64x128_2164_128 : ∀ a, (![2164, 128] : Fin 2 → Nat) a + S64x128.size a ≤ S4896x256.size a
  packedbf16_S4896x256_S64x128_2164_128 : (Rect.unit (s := S4896x256) ![2164, 128] S64x128.size inb_S4896x256_S64x128_2164_128).PackedRows (EltTy.packing .bf16)
  inb_S1024x512_S32x256_448_256 : ∀ a, (![448, 256] : Fin 2 → Nat) a + S32x256.size a ≤ S1024x512.size a
  inb_S4896x256_S64x128_2236_128 : ∀ a, (![2236, 128] : Fin 2 → Nat) a + S64x128.size a ≤ S4896x256.size a
  packedbf16_S4896x256_S64x128_2236_128 : (Rect.unit (s := S4896x256) ![2236, 128] S64x128.size inb_S4896x256_S64x128_2236_128).PackedRows (EltTy.packing .bf16)
  inb_S1024x512_S32x256_480_0 : ∀ a, (![480, 0] : Fin 2 → Nat) a + S32x256.size a ≤ S1024x512.size a
  inb_S4896x256_S64x128_2308_128 : ∀ a, (![2308, 128] : Fin 2 → Nat) a + S64x128.size a ≤ S4896x256.size a
  packedbf16_S4896x256_S64x128_2308_128 : (Rect.unit (s := S4896x256) ![2308, 128] S64x128.size inb_S4896x256_S64x128_2308_128).PackedRows (EltTy.packing .bf16)
  inb_S1024x512_S32x256_480_256 : ∀ a, (![480, 256] : Fin 2 → Nat) a + S32x256.size a ≤ S1024x512.size a
  inb_S4896x256_S64x128_2380_128 : ∀ a, (![2380, 128] : Fin 2 → Nat) a + S64x128.size a ≤ S4896x256.size a
  packedbf16_S4896x256_S64x128_2380_128 : (Rect.unit (s := S4896x256) ![2380, 128] S64x128.size inb_S4896x256_S64x128_2380_128).PackedRows (EltTy.packing .bf16)
  inb_S1024x512_S32x256_512_0 : ∀ a, (![512, 0] : Fin 2 → Nat) a + S32x256.size a ≤ S1024x512.size a
  inb_S4896x256_S64x128_2452_128 : ∀ a, (![2452, 128] : Fin 2 → Nat) a + S64x128.size a ≤ S4896x256.size a
  packedbf16_S4896x256_S64x128_2452_128 : (Rect.unit (s := S4896x256) ![2452, 128] S64x128.size inb_S4896x256_S64x128_2452_128).PackedRows (EltTy.packing .bf16)
  inb_S1024x512_S32x256_512_256 : ∀ a, (![512, 256] : Fin 2 → Nat) a + S32x256.size a ≤ S1024x512.size a
  inb_S4896x256_S64x128_2524_128 : ∀ a, (![2524, 128] : Fin 2 → Nat) a + S64x128.size a ≤ S4896x256.size a
  packedbf16_S4896x256_S64x128_2524_128 : (Rect.unit (s := S4896x256) ![2524, 128] S64x128.size inb_S4896x256_S64x128_2524_128).PackedRows (EltTy.packing .bf16)
  inb_S1024x512_S32x256_544_0 : ∀ a, (![544, 0] : Fin 2 → Nat) a + S32x256.size a ≤ S1024x512.size a
  inb_S4896x256_S64x128_2596_128 : ∀ a, (![2596, 128] : Fin 2 → Nat) a + S64x128.size a ≤ S4896x256.size a
  packedbf16_S4896x256_S64x128_2596_128 : (Rect.unit (s := S4896x256) ![2596, 128] S64x128.size inb_S4896x256_S64x128_2596_128).PackedRows (EltTy.packing .bf16)
  inb_S1024x512_S32x256_544_256 : ∀ a, (![544, 256] : Fin 2 → Nat) a + S32x256.size a ≤ S1024x512.size a
  inb_S4896x256_S64x128_2668_128 : ∀ a, (![2668, 128] : Fin 2 → Nat) a + S64x128.size a ≤ S4896x256.size a
  packedbf16_S4896x256_S64x128_2668_128 : (Rect.unit (s := S4896x256) ![2668, 128] S64x128.size inb_S4896x256_S64x128_2668_128).PackedRows (EltTy.packing .bf16)
  inb_S1024x512_S32x256_576_0 : ∀ a, (![576, 0] : Fin 2 → Nat) a + S32x256.size a ≤ S1024x512.size a
  inb_S4896x256_S64x128_2740_128 : ∀ a, (![2740, 128] : Fin 2 → Nat) a + S64x128.size a ≤ S4896x256.size a
  packedbf16_S4896x256_S64x128_2740_128 : (Rect.unit (s := S4896x256) ![2740, 128] S64x128.size inb_S4896x256_S64x128_2740_128).PackedRows (EltTy.packing .bf16)
  inb_S1024x512_S32x256_576_256 : ∀ a, (![576, 256] : Fin 2 → Nat) a + S32x256.size a ≤ S1024x512.size a
  inb_S4896x256_S64x128_2812_128 : ∀ a, (![2812, 128] : Fin 2 → Nat) a + S64x128.size a ≤ S4896x256.size a
  packedbf16_S4896x256_S64x128_2812_128 : (Rect.unit (s := S4896x256) ![2812, 128] S64x128.size inb_S4896x256_S64x128_2812_128).PackedRows (EltTy.packing .bf16)
  inb_S1024x512_S32x256_608_0 : ∀ a, (![608, 0] : Fin 2 → Nat) a + S32x256.size a ≤ S1024x512.size a
  inb_S4896x256_S64x128_2884_128 : ∀ a, (![2884, 128] : Fin 2 → Nat) a + S64x128.size a ≤ S4896x256.size a
  packedbf16_S4896x256_S64x128_2884_128 : (Rect.unit (s := S4896x256) ![2884, 128] S64x128.size inb_S4896x256_S64x128_2884_128).PackedRows (EltTy.packing .bf16)
  inb_S1024x512_S32x256_608_256 : ∀ a, (![608, 256] : Fin 2 → Nat) a + S32x256.size a ≤ S1024x512.size a
  inb_S4896x256_S64x128_2956_128 : ∀ a, (![2956, 128] : Fin 2 → Nat) a + S64x128.size a ≤ S4896x256.size a
  packedbf16_S4896x256_S64x128_2956_128 : (Rect.unit (s := S4896x256) ![2956, 128] S64x128.size inb_S4896x256_S64x128_2956_128).PackedRows (EltTy.packing .bf16)
  inb_S1024x512_S32x256_640_0 : ∀ a, (![640, 0] : Fin 2 → Nat) a + S32x256.size a ≤ S1024x512.size a
  inb_S4896x256_S64x128_3028_128 : ∀ a, (![3028, 128] : Fin 2 → Nat) a + S64x128.size a ≤ S4896x256.size a
  packedbf16_S4896x256_S64x128_3028_128 : (Rect.unit (s := S4896x256) ![3028, 128] S64x128.size inb_S4896x256_S64x128_3028_128).PackedRows (EltTy.packing .bf16)
  inb_S1024x512_S32x256_640_256 : ∀ a, (![640, 256] : Fin 2 → Nat) a + S32x256.size a ≤ S1024x512.size a
  inb_S4896x256_S64x128_3100_128 : ∀ a, (![3100, 128] : Fin 2 → Nat) a + S64x128.size a ≤ S4896x256.size a
  packedbf16_S4896x256_S64x128_3100_128 : (Rect.unit (s := S4896x256) ![3100, 128] S64x128.size inb_S4896x256_S64x128_3100_128).PackedRows (EltTy.packing .bf16)
  inb_S1024x512_S32x256_672_0 : ∀ a, (![672, 0] : Fin 2 → Nat) a + S32x256.size a ≤ S1024x512.size a
  inb_S4896x256_S64x128_3172_128 : ∀ a, (![3172, 128] : Fin 2 → Nat) a + S64x128.size a ≤ S4896x256.size a
  packedbf16_S4896x256_S64x128_3172_128 : (Rect.unit (s := S4896x256) ![3172, 128] S64x128.size inb_S4896x256_S64x128_3172_128).PackedRows (EltTy.packing .bf16)
  inb_S1024x512_S32x256_672_256 : ∀ a, (![672, 256] : Fin 2 → Nat) a + S32x256.size a ≤ S1024x512.size a
  inb_S4896x256_S64x128_3244_128 : ∀ a, (![3244, 128] : Fin 2 → Nat) a + S64x128.size a ≤ S4896x256.size a
  packedbf16_S4896x256_S64x128_3244_128 : (Rect.unit (s := S4896x256) ![3244, 128] S64x128.size inb_S4896x256_S64x128_3244_128).PackedRows (EltTy.packing .bf16)
  inb_S1024x512_S32x256_704_0 : ∀ a, (![704, 0] : Fin 2 → Nat) a + S32x256.size a ≤ S1024x512.size a
  inb_S4896x256_S64x128_3316_128 : ∀ a, (![3316, 128] : Fin 2 → Nat) a + S64x128.size a ≤ S4896x256.size a
  packedbf16_S4896x256_S64x128_3316_128 : (Rect.unit (s := S4896x256) ![3316, 128] S64x128.size inb_S4896x256_S64x128_3316_128).PackedRows (EltTy.packing .bf16)
  inb_S1024x512_S32x256_704_256 : ∀ a, (![704, 256] : Fin 2 → Nat) a + S32x256.size a ≤ S1024x512.size a
  inb_S4896x256_S64x128_3388_128 : ∀ a, (![3388, 128] : Fin 2 → Nat) a + S64x128.size a ≤ S4896x256.size a
  packedbf16_S4896x256_S64x128_3388_128 : (Rect.unit (s := S4896x256) ![3388, 128] S64x128.size inb_S4896x256_S64x128_3388_128).PackedRows (EltTy.packing .bf16)
  inb_S1024x512_S32x256_736_0 : ∀ a, (![736, 0] : Fin 2 → Nat) a + S32x256.size a ≤ S1024x512.size a
  inb_S4896x256_S64x128_3460_128 : ∀ a, (![3460, 128] : Fin 2 → Nat) a + S64x128.size a ≤ S4896x256.size a
  packedbf16_S4896x256_S64x128_3460_128 : (Rect.unit (s := S4896x256) ![3460, 128] S64x128.size inb_S4896x256_S64x128_3460_128).PackedRows (EltTy.packing .bf16)
  inb_S1024x512_S32x256_736_256 : ∀ a, (![736, 256] : Fin 2 → Nat) a + S32x256.size a ≤ S1024x512.size a
  inb_S4896x256_S64x128_3532_128 : ∀ a, (![3532, 128] : Fin 2 → Nat) a + S64x128.size a ≤ S4896x256.size a
  packedbf16_S4896x256_S64x128_3532_128 : (Rect.unit (s := S4896x256) ![3532, 128] S64x128.size inb_S4896x256_S64x128_3532_128).PackedRows (EltTy.packing .bf16)
  inb_S1024x512_S32x256_768_0 : ∀ a, (![768, 0] : Fin 2 → Nat) a + S32x256.size a ≤ S1024x512.size a
  inb_S4896x256_S64x128_3604_128 : ∀ a, (![3604, 128] : Fin 2 → Nat) a + S64x128.size a ≤ S4896x256.size a
  packedbf16_S4896x256_S64x128_3604_128 : (Rect.unit (s := S4896x256) ![3604, 128] S64x128.size inb_S4896x256_S64x128_3604_128).PackedRows (EltTy.packing .bf16)
  inb_S1024x512_S32x256_768_256 : ∀ a, (![768, 256] : Fin 2 → Nat) a + S32x256.size a ≤ S1024x512.size a
  inb_S4896x256_S64x128_3676_128 : ∀ a, (![3676, 128] : Fin 2 → Nat) a + S64x128.size a ≤ S4896x256.size a
  packedbf16_S4896x256_S64x128_3676_128 : (Rect.unit (s := S4896x256) ![3676, 128] S64x128.size inb_S4896x256_S64x128_3676_128).PackedRows (EltTy.packing .bf16)
  inb_S1024x512_S32x256_800_0 : ∀ a, (![800, 0] : Fin 2 → Nat) a + S32x256.size a ≤ S1024x512.size a
  inb_S4896x256_S64x128_3748_128 : ∀ a, (![3748, 128] : Fin 2 → Nat) a + S64x128.size a ≤ S4896x256.size a
  packedbf16_S4896x256_S64x128_3748_128 : (Rect.unit (s := S4896x256) ![3748, 128] S64x128.size inb_S4896x256_S64x128_3748_128).PackedRows (EltTy.packing .bf16)
  inb_S1024x512_S32x256_800_256 : ∀ a, (![800, 256] : Fin 2 → Nat) a + S32x256.size a ≤ S1024x512.size a
  inb_S4896x256_S64x128_3820_128 : ∀ a, (![3820, 128] : Fin 2 → Nat) a + S64x128.size a ≤ S4896x256.size a
  packedbf16_S4896x256_S64x128_3820_128 : (Rect.unit (s := S4896x256) ![3820, 128] S64x128.size inb_S4896x256_S64x128_3820_128).PackedRows (EltTy.packing .bf16)
  inb_S1024x512_S32x256_832_0 : ∀ a, (![832, 0] : Fin 2 → Nat) a + S32x256.size a ≤ S1024x512.size a
  inb_S4896x256_S64x128_3892_128 : ∀ a, (![3892, 128] : Fin 2 → Nat) a + S64x128.size a ≤ S4896x256.size a
  packedbf16_S4896x256_S64x128_3892_128 : (Rect.unit (s := S4896x256) ![3892, 128] S64x128.size inb_S4896x256_S64x128_3892_128).PackedRows (EltTy.packing .bf16)
  inb_S1024x512_S32x256_832_256 : ∀ a, (![832, 256] : Fin 2 → Nat) a + S32x256.size a ≤ S1024x512.size a
  inb_S4896x256_S64x128_3964_128 : ∀ a, (![3964, 128] : Fin 2 → Nat) a + S64x128.size a ≤ S4896x256.size a
  packedbf16_S4896x256_S64x128_3964_128 : (Rect.unit (s := S4896x256) ![3964, 128] S64x128.size inb_S4896x256_S64x128_3964_128).PackedRows (EltTy.packing .bf16)
  inb_S1024x512_S32x256_864_0 : ∀ a, (![864, 0] : Fin 2 → Nat) a + S32x256.size a ≤ S1024x512.size a
  inb_S4896x256_S64x128_4036_128 : ∀ a, (![4036, 128] : Fin 2 → Nat) a + S64x128.size a ≤ S4896x256.size a
  packedbf16_S4896x256_S64x128_4036_128 : (Rect.unit (s := S4896x256) ![4036, 128] S64x128.size inb_S4896x256_S64x128_4036_128).PackedRows (EltTy.packing .bf16)
  inb_S1024x512_S32x256_864_256 : ∀ a, (![864, 256] : Fin 2 → Nat) a + S32x256.size a ≤ S1024x512.size a
  inb_S4896x256_S64x128_4108_128 : ∀ a, (![4108, 128] : Fin 2 → Nat) a + S64x128.size a ≤ S4896x256.size a
  packedbf16_S4896x256_S64x128_4108_128 : (Rect.unit (s := S4896x256) ![4108, 128] S64x128.size inb_S4896x256_S64x128_4108_128).PackedRows (EltTy.packing .bf16)
  inb_S1024x512_S32x256_896_0 : ∀ a, (![896, 0] : Fin 2 → Nat) a + S32x256.size a ≤ S1024x512.size a
  inb_S4896x256_S64x128_4180_128 : ∀ a, (![4180, 128] : Fin 2 → Nat) a + S64x128.size a ≤ S4896x256.size a
  packedbf16_S4896x256_S64x128_4180_128 : (Rect.unit (s := S4896x256) ![4180, 128] S64x128.size inb_S4896x256_S64x128_4180_128).PackedRows (EltTy.packing .bf16)
  inb_S1024x512_S32x256_896_256 : ∀ a, (![896, 256] : Fin 2 → Nat) a + S32x256.size a ≤ S1024x512.size a
  inb_S4896x256_S64x128_4252_128 : ∀ a, (![4252, 128] : Fin 2 → Nat) a + S64x128.size a ≤ S4896x256.size a
  packedbf16_S4896x256_S64x128_4252_128 : (Rect.unit (s := S4896x256) ![4252, 128] S64x128.size inb_S4896x256_S64x128_4252_128).PackedRows (EltTy.packing .bf16)
  inb_S1024x512_S32x256_928_0 : ∀ a, (![928, 0] : Fin 2 → Nat) a + S32x256.size a ≤ S1024x512.size a
  inb_S4896x256_S64x128_4324_128 : ∀ a, (![4324, 128] : Fin 2 → Nat) a + S64x128.size a ≤ S4896x256.size a
  packedbf16_S4896x256_S64x128_4324_128 : (Rect.unit (s := S4896x256) ![4324, 128] S64x128.size inb_S4896x256_S64x128_4324_128).PackedRows (EltTy.packing .bf16)
  inb_S1024x512_S32x256_928_256 : ∀ a, (![928, 256] : Fin 2 → Nat) a + S32x256.size a ≤ S1024x512.size a
  inb_S4896x256_S64x128_4396_128 : ∀ a, (![4396, 128] : Fin 2 → Nat) a + S64x128.size a ≤ S4896x256.size a
  packedbf16_S4896x256_S64x128_4396_128 : (Rect.unit (s := S4896x256) ![4396, 128] S64x128.size inb_S4896x256_S64x128_4396_128).PackedRows (EltTy.packing .bf16)
  inb_S1024x512_S32x256_960_0 : ∀ a, (![960, 0] : Fin 2 → Nat) a + S32x256.size a ≤ S1024x512.size a
  inb_S4896x256_S64x128_4468_128 : ∀ a, (![4468, 128] : Fin 2 → Nat) a + S64x128.size a ≤ S4896x256.size a
  packedbf16_S4896x256_S64x128_4468_128 : (Rect.unit (s := S4896x256) ![4468, 128] S64x128.size inb_S4896x256_S64x128_4468_128).PackedRows (EltTy.packing .bf16)
  inb_S1024x512_S32x256_960_256 : ∀ a, (![960, 256] : Fin 2 → Nat) a + S32x256.size a ≤ S1024x512.size a
  inb_S4896x256_S64x128_4540_128 : ∀ a, (![4540, 128] : Fin 2 → Nat) a + S64x128.size a ≤ S4896x256.size a
  packedbf16_S4896x256_S64x128_4540_128 : (Rect.unit (s := S4896x256) ![4540, 128] S64x128.size inb_S4896x256_S64x128_4540_128).PackedRows (EltTy.packing .bf16)
  inb_S1024x512_S32x256_992_0 : ∀ a, (![992, 0] : Fin 2 → Nat) a + S32x256.size a ≤ S1024x512.size a
  inb_S4896x256_S64x128_4612_128 : ∀ a, (![4612, 128] : Fin 2 → Nat) a + S64x128.size a ≤ S4896x256.size a
  packedbf16_S4896x256_S64x128_4612_128 : (Rect.unit (s := S4896x256) ![4612, 128] S64x128.size inb_S4896x256_S64x128_4612_128).PackedRows (EltTy.packing .bf16)
  inb_S1024x512_S32x256_992_256 : ∀ a, (![992, 256] : Fin 2 → Nat) a + S32x256.size a ≤ S1024x512.size a
  inb_S4896x256_S64x128_4684_128 : ∀ a, (![4684, 128] : Fin 2 → Nat) a + S64x128.size a ≤ S4896x256.size a
  packedbf16_S4896x256_S64x128_4684_128 : (Rect.unit (s := S4896x256) ![4684, 128] S64x128.size inb_S4896x256_S64x128_4684_128).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4608x128 : S1x128.Broadcasts S4608x128
  inb_S4896x256_S4608x256_71_0 : ∀ a, (![71, 0] : Fin 2 → Nat) a + S4608x256.size a ≤ S4896x256.size a
  h_S4608x256 : 0 < S4608x256.numel
  inb_S9x256x128_S1x256x128_0_0_0 : ∀ a, (![0, 0, 0] : Fin 3 → Nat) a + S1x256x128.size a ≤ S9x256x128.size a
  h_S1x256x128 : 0 < S1x256x128.numel
  shapeCasts_S1x256x128_S256x128 : S1x256x128.ShapeCasts S256x128
  inb_S4896x256_S4608x256_72_0 : ∀ a, (![72, 0] : Fin 2 → Nat) a + S4608x256.size a ≤ S4896x256.size a
  inb_S9x256x128_S1x256x128_1_0_0 : ∀ a, (![1, 0, 0] : Fin 3 → Nat) a + S1x256x128.size a ≤ S9x256x128.size a
  inb_S4896x256_S4608x256_73_0 : ∀ a, (![73, 0] : Fin 2 → Nat) a + S4608x256.size a ≤ S4896x256.size a
  inb_S9x256x128_S1x256x128_2_0_0 : ∀ a, (![2, 0, 0] : Fin 3 → Nat) a + S1x256x128.size a ≤ S9x256x128.size a
  inb_S4896x256_S4608x256_143_0 : ∀ a, (![143, 0] : Fin 2 → Nat) a + S4608x256.size a ≤ S4896x256.size a
  inb_S9x256x128_S1x256x128_3_0_0 : ∀ a, (![3, 0, 0] : Fin 3 → Nat) a + S1x256x128.size a ≤ S9x256x128.size a
  inb_S4896x256_S4608x256_144_0 : ∀ a, (![144, 0] : Fin 2 → Nat) a + S4608x256.size a ≤ S4896x256.size a
  inb_S9x256x128_S1x256x128_4_0_0 : ∀ a, (![4, 0, 0] : Fin 3 → Nat) a + S1x256x128.size a ≤ S9x256x128.size a
  inb_S4896x256_S4608x256_145_0 : ∀ a, (![145, 0] : Fin 2 → Nat) a + S4608x256.size a ≤ S4896x256.size a
  inb_S9x256x128_S1x256x128_5_0_0 : ∀ a, (![5, 0, 0] : Fin 3 → Nat) a + S1x256x128.size a ≤ S9x256x128.size a
  inb_S4896x256_S4608x256_215_0 : ∀ a, (![215, 0] : Fin 2 → Nat) a + S4608x256.size a ≤ S4896x256.size a
  inb_S9x256x128_S1x256x128_6_0_0 : ∀ a, (![6, 0, 0] : Fin 3 → Nat) a + S1x256x128.size a ≤ S9x256x128.size a
  inb_S4896x256_S4608x256_216_0 : ∀ a, (![216, 0] : Fin 2 → Nat) a + S4608x256.size a ≤ S4896x256.size a
  inb_S9x256x128_S1x256x128_7_0_0 : ∀ a, (![7, 0, 0] : Fin 3 → Nat) a + S1x256x128.size a ≤ S9x256x128.size a
  inb_S4896x256_S4608x256_217_0 : ∀ a, (![217, 0] : Fin 2 → Nat) a + S4608x256.size a ≤ S4896x256.size a
  inb_S9x256x128_S1x256x128_8_0_0 : ∀ a, (![8, 0, 0] : Fin 3 → Nat) a + S1x256x128.size a ≤ S9x256x128.size a
  inb_S4608x128_S4608x128_0_0 : ∀ a, (![0, 0] : Fin 2 → Nat) a + S4608x128.size a ≤ S4608x128.size a
  inb_S4896x128_S144x128_0_0 : ∀ a, (![0, 0] : Fin 2 → Nat) a + S144x128.size a ≤ S4896x128.size a
  h_S144x128 : 0 < S144x128.numel
  shapeCasts_S144x128_S144x128 : S144x128.ShapeCasts S144x128
  packedbf16_S4896x128_S144x128_0_0 : (Rect.unit (s := S4896x128) ![0, 0] S144x128.size inb_S4896x128_S144x128_0_0).PackedRows (EltTy.packing .bf16)
  inb_S4896x128_S144x128_4752_0 : ∀ a, (![4752, 0] : Fin 2 → Nat) a + S144x128.size a ≤ S4896x128.size a
  packedbf16_S4896x128_S144x128_4752_0 : (Rect.unit (s := S4896x128) ![4752, 0] S144x128.size inb_S4896x128_S144x128_4752_0).PackedRows (EltTy.packing .bf16)
  inb_S4896x128_S4608x128_144_0 : ∀ a, (![144, 0] : Fin 2 → Nat) a + S4608x128.size a ≤ S4896x128.size a
  packedbf16_S4896x128_S4608x128_144_0 : (Rect.unit (s := S4896x128) ![144, 0] S4608x128.size inb_S4896x128_S4608x128_144_0).PackedRows (EltTy.packing .bf16)
  inb_S4896x128_S4608x128_71_0 : ∀ a, (![71, 0] : Fin 2 → Nat) a + S4608x128.size a ≤ S4896x128.size a
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S4896x128_S4608x128_72_0 : ∀ a, (![72, 0] : Fin 2 → Nat) a + S4608x128.size a ≤ S4896x128.size a
  inb_S9x128x128_S1x128x128_1_0_0 : ∀ a, (![1, 0, 0] : Fin 3 → Nat) a + S1x128x128.size a ≤ S9x128x128.size a
  inb_S4896x128_S4608x128_73_0 : ∀ a, (![73, 0] : Fin 2 → Nat) a + S4608x128.size a ≤ S4896x128.size a
  inb_S9x128x128_S1x128x128_2_0_0 : ∀ a, (![2, 0, 0] : Fin 3 → Nat) a + S1x128x128.size a ≤ S9x128x128.size a
  inb_S4896x128_S4608x128_143_0 : ∀ a, (![143, 0] : Fin 2 → Nat) a + S4608x128.size a ≤ S4896x128.size a
  inb_S9x128x128_S1x128x128_3_0_0 : ∀ a, (![3, 0, 0] : Fin 3 → Nat) a + S1x128x128.size a ≤ S9x128x128.size a
  inb_S9x128x128_S1x128x128_4_0_0 : ∀ a, (![4, 0, 0] : Fin 3 → Nat) a + S1x128x128.size a ≤ S9x128x128.size a
  inb_S4896x128_S4608x128_145_0 : ∀ a, (![145, 0] : Fin 2 → Nat) a + S4608x128.size a ≤ S4896x128.size a
  inb_S9x128x128_S1x128x128_5_0_0 : ∀ a, (![5, 0, 0] : Fin 3 → Nat) a + S1x128x128.size a ≤ S9x128x128.size a
  inb_S4896x128_S4608x128_215_0 : ∀ a, (![215, 0] : Fin 2 → Nat) a + S4608x128.size a ≤ S4896x128.size a
  inb_S9x128x128_S1x128x128_6_0_0 : ∀ a, (![6, 0, 0] : Fin 3 → Nat) a + S1x128x128.size a ≤ S9x128x128.size a
  inb_S4896x128_S4608x128_216_0 : ∀ a, (![216, 0] : Fin 2 → Nat) a + S4608x128.size a ≤ S4896x128.size a
  inb_S9x128x128_S1x128x128_7_0_0 : ∀ a, (![7, 0, 0] : Fin 3 → Nat) a + S1x128x128.size a ≤ S9x128x128.size a
  inb_S4896x128_S4608x128_217_0 : ∀ a, (![217, 0] : Fin 2 → Nat) a + S4608x128.size a ≤ S4896x128.size a
  inb_S9x128x128_S1x128x128_8_0_0 : ∀ a, (![8, 0, 0] : Fin 3 → Nat) a + S1x128x128.size a ≤ S9x128x128.size a
  shapeCasts_S4608x128_S1x4608x128 : S4608x128.ShapeCasts S1x4608x128
  shapeCasts_S16x4608x128_S16x64x72x128 : S16x4608x128.ShapeCasts S16x64x72x128
  slices_S16x64x72x128_S16x64x64x128_0_0_4_0 : S16x64x72x128.Slices ![0, 0, 4, 0] S16x64x64x128
  transposes_S16x64x64x128_S16x128x64x64_0_3_1_2 : S16x64x64x128.Transposes [0, 3, 1, 2] S16x128x64x64
  dot_S1024x256_S256x512_S1024x512_1_0_0_1_n_n_wf : DotDims.WF S1024x256 S256x512 S1024x512 [1] [0] [0] [1] [] []
  dot_S4608x256_S256x128_S4608x128_1_0_0_1_n_n_wf : DotDims.WF S4608x256 S256x128 S4608x128 [1] [0] [0] [1] [] []
  dot_S4608x128_S128x128_S4608x128_1_0_0_1_n_n_wf : DotDims.WF S4608x128 S128x128 S4608x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .bf16 = 32 ∨ (Rect.block (s := S16x1024x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4608x128.size a ≤ S16x4608x128.size a
  hwx0_1 : ∀ i : grid0.Coords, EltTy.bits .bf16 = 32 ∨ (Rect.block (s := S16x4608x128) S1x4608x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4608x128.size a ≤ S4608x128.size a
  hwx0_2 : ∀ i : grid0.Coords, EltTy.bits .f32 = 32 ∨ (Rect.block (s := S4608x128) S4608x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x256x128.size a ≤ S9x256x128.size a
  hwx0_5 : ∀ i : grid0.Coords, EltTy.bits .bf16 = 32 ∨ (Rect.block (s := S9x256x128) S9x256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S9x128x128.size a ≤ S9x128x128.size a
  hwx0_7 : ∀ i : grid0.Coords, EltTy.bits .bf16 = 32 ∨ (Rect.block (s := S9x128x128) S9x128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4608x128.size a ≤ S16x4608x128.size a
  hwx0_9 : ∀ i : grid0.Coords, EltTy.bits .f32 = 32 ∨ (Rect.block (s := S16x4608x128) S1x4608x128.size (cc0_transform_9 i) (hinb0_9 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S4608x256_S256x128_S4608x128_1_0_0_1_n_n : DotDims S4608x256 S256x128 S4608x128 where
  lhsContracting := [1]
  rhsContracting := [0]
  lhsNonContracting := [0]
  rhsNonContracting := [1]
  lhsBatch := []
  rhsBatch := []
  wf := dot_S4608x256_S256x128_S4608x128_1_0_0_1_n_n_wf
def dot_S4608x128_S128x128_S4608x128_1_0_0_1_n_n : DotDims S4608x128 S128x128 S4608x128 where
  lhsContracting := [1]
  rhsContracting := [0]
  lhsNonContracting := [0]
  rhsNonContracting := [1]
  lhsBatch := []
  rhsBatch := []
  wf := dot_S4608x128_S128x128_S4608x128_1_0_0_1_n_n_wf

abbrev win0_0 : Pipeline.Window sig grid0 :=
  Pipeline.Window.ofSpec (Memref.whole main_v37) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x4608x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S4608x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S9x256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S9x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1x4608x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S16x32x32x256 : Shape := ⟨4, ![16, 32, 32, 256]⟩
abbrev S16x64x64x128 : Shape := ⟨4, ![16, 64, 64, 128]⟩
abbrev S256x2x2x128 : Shape := ⟨4, ![256, 2, 2, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S16x1024x256 : Shape := ⟨3, ![16, 1024, 256]⟩
abbrev S16x32x2x32x256 : Shape := ⟨5, ![16, 32, 2, 32, 256]⟩
abbrev S1x1024x256 : Shape := ⟨3, ![1, 1024, 256]⟩
abbrev S1x32x2x32x256 : Shape := ⟨5, ![1, 32, 2, 32, 256]⟩
abbrev S1024x256 : Shape := ⟨2, ![1024, 256]⟩
abbrev S1024x512 : Shape := ⟨2, ![1024, 512]⟩
abbrev S32x512 : Shape := ⟨2, ![32, 512]⟩
abbrev S32x256 : Shape := ⟨2, ![32, 256]⟩
abbrev S1x1x1x32x256 : Shape := ⟨5, ![1, 1, 1, 32, 256]⟩
abbrev S_ : Shape := ⟨0, ![]⟩
abbrev S128x1x1x1 : Shape := ⟨4, ![128, 1, 1, 1]⟩
abbrev S3x3x128x128 : Shape := ⟨4, ![3, 3, 128, 128]⟩
abbrev S9x128x128 : Shape := ⟨3, ![9, 128, 128]⟩
abbrev S4352 : Shape := ⟨1, ![4352]⟩
abbrev S4352x1 : Shape := ⟨2, ![4352, 1]⟩
abbrev S16x4352x128 : Shape := ⟨3, ![16, 4352, 128]⟩
abbrev S1x64x64x128 : Shape := ⟨4, ![1, 64, 64, 128]⟩
abbrev S1x4352x128 : Shape := ⟨3, ![1, 4352, 128]⟩
abbrev S4624x128 : Shape := ⟨2, ![4624, 128]⟩
abbrev S1x1x64x128 : Shape := ⟨4, ![1, 1, 64, 128]⟩
abbrev S64x128 : Shape := ⟨2, ![64, 128]⟩
abbrev S4352x128 : Shape := ⟨2, ![4352, 128]⟩
abbrev S1x128x128 : Shape := ⟨3, ![1, 128, 128]⟩
abbrev S128x128 : Shape := ⟨2, ![128, 128]⟩
abbrev S136x128 : Shape := ⟨2, ![136, 128]⟩
abbrev S16x64x68x128 : Shape := ⟨4, ![16, 64, 68, 128]⟩

abbrev nBuf : Space → Nat
  | .hbm => 95
  | .vmem => 21
  | .smem => 0
  | _ => 0

abbrev bufTy : (tb : Table) → Fin (tcTables nBuf tb) → BufTy
  | .hbm, ⟨0, _⟩ => ⟨S16x256x32x32, .f32⟩
  | .hbm, ⟨1, _⟩ => ⟨S16x128x64x64, .f32⟩
  | .hbm, ⟨2, _⟩ => ⟨S256x128x2x2, .f32⟩
  | .hbm, ⟨3, _⟩ => ⟨S128, .f32⟩
  | .hbm, ⟨4, _⟩ => ⟨S128x256x3x3, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128x3x3, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S16x32x32x256, .f32⟩
  | .hbm, ⟨17, _⟩ => ⟨S16x64x64x128, .f32⟩
  | .hbm, ⟨18, _⟩ => ⟨S256x2x2x128, .f32⟩
  | .hbm, ⟨19, _⟩ => ⟨S256x512, .f32⟩
  | .hbm, ⟨20, _⟩ => ⟨S1x128, .f32⟩
  | .hbm, ⟨21, _⟩ => ⟨S4x128, .f32⟩
  | .hbm, ⟨22, _⟩ => ⟨S512, .f32⟩
  | .hbm, ⟨23, _⟩ => ⟨S1x512, .f32⟩
  | .hbm, ⟨24, _⟩ => ⟨S16x1024x256, .f32⟩
  | .hbm, ⟨25, _⟩ => ⟨S16x32x2x32x256, .f32⟩
  | .hbm, ⟨26, _⟩ => ⟨S16x64x64x128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128x1x1x1, .f32⟩
  | .hbm, ⟨33, _⟩ => ⟨S128x256x3x3, .f32⟩
  | .hbm, ⟨34, _⟩ => ⟨S128x256x3x3, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128x1x1x1, .f32⟩
  | .hbm, ⟨44, _⟩ => ⟨S128x128x3x3, .f32⟩
  | .hbm, ⟨45, _⟩ => ⟨S128x128x3x3, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128x128x3x3, .f32⟩
  | .hbm, ⟨50, _⟩ => ⟨S3x3x128x128, .f32⟩
  | .hbm, ⟨51, _⟩ => ⟨S9x128x128, .f32⟩
  | .hbm, ⟨52, _⟩ => ⟨S128x128x3x3, .f32⟩
  | .hbm, ⟨53, _⟩ => ⟨S3x3x128x128, .f32⟩
  | .hbm, ⟨54, _⟩ => ⟨S9x128x128, .f32⟩
  | .hbm, ⟨55, _⟩ => ⟨S3x3x128x128, .f32⟩
  | .hbm, ⟨56, _⟩ => ⟨S9x128x128, .f32⟩
  | .hbm, ⟨57, _⟩ => ⟨S1x128, .f32⟩
  | .hbm, ⟨58, _⟩ => ⟨S1x128, .f32⟩
  | .hbm, ⟨59, _⟩ => ⟨S4352, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S4352, .i32⟩
  | .hbm, ⟨67, _⟩ => ⟨S4352, .i32⟩
  | .hbm, ⟨68, _⟩ => ⟨S_, .i32⟩
  | .hbm, ⟨69, _⟩ => ⟨S4352, .i32⟩
  | .hbm, ⟨70, _⟩ => ⟨S4352, .i1⟩
  | .hbm, ⟨71, _⟩ => ⟨S_, .i32⟩
  | .hbm, ⟨72, _⟩ => ⟨S4352, .i32⟩
  | .hbm, ⟨73, _⟩ => ⟨S4352, .i1⟩
  | .hbm, ⟨74, _⟩ => ⟨S_, .i32⟩
  | .hbm, ⟨75, _⟩ => ⟨S_, .i1⟩
  | .hbm, ⟨76, _⟩ => ⟨S4352, .i1⟩
  | .hbm, ⟨77, _⟩ => ⟨S4352, .i1⟩
  | .hbm, ⟨78, _⟩ => ⟨S4352, .i1⟩
  | .hbm, ⟨79, _⟩ => ⟨S4352, .i32⟩
  | .hbm, ⟨80, _⟩ => ⟨S4352, .i32⟩
  | .hbm, ⟨81, _⟩ => ⟨S4352, .i32⟩
  | .hbm, ⟨82, _⟩ => ⟨S_, .i32⟩
  | .hbm, ⟨83, _⟩ => ⟨S4352, .i32⟩
  | .hbm, ⟨84, _⟩ => ⟨S4352, .i1⟩
  | .hbm, ⟨85, _⟩ => ⟨S_, .i32⟩
  | .hbm, ⟨86, _⟩ => ⟨S4352, .i32⟩
  | .hbm, ⟨87, _⟩ => ⟨S4352, .i1⟩
  | .hbm, ⟨88, _⟩ => ⟨S4352, .i1⟩
  | .hbm, ⟨89, _⟩ => ⟨S4352, .f32⟩
  | .hbm, ⟨90, _⟩ => ⟨S4352x1, .f32⟩
  | .hbm, ⟨91, _⟩ => ⟨S16x4352x128, .f32⟩
  | .hbm, ⟨92, _⟩ => ⟨S16x64x68x128, .f32⟩
  | .hbm, ⟨93, _⟩ => ⟨S16x64x64x128, .f32⟩
  | .hbm, ⟨94, _⟩ => ⟨S16x128x64x64, .f32⟩
  | .local _ .vmem, ⟨0, _⟩ => ⟨S1x1024x256, .f32⟩
  | .local _ .vmem, ⟨1, _⟩ => ⟨S1x1024x256, .f32⟩
  | .local _ .vmem, ⟨2, _⟩ => ⟨S256x512, .f32⟩
  | .local _ .vmem, ⟨3, _⟩ => ⟨S1x512, .f32⟩
  | .local _ .vmem, ⟨4, _⟩ => ⟨S1x32x2x32x256, .f32⟩
  | .local _ .vmem, ⟨5, _⟩ => ⟨S1x32x2x32x256, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | .local _ .vmem, ⟨10, _⟩ => ⟨S4352x1, .f32⟩
  | .local _ .vmem, ⟨11, _⟩ => ⟨S9x128x128, .f32⟩
  | .local _ .vmem, ⟨12, _⟩ => ⟨S9x128x128, .f32⟩
  | .local _ .vmem, ⟨13, _⟩ => ⟨S1x128, .f32⟩
  | .local _ .vmem, ⟨14, _⟩ => ⟨S9x128x128, .f32⟩
  | .local _ .vmem, ⟨15, _⟩ => ⟨S1x128, .f32⟩
  | .local _ .vmem, ⟨16, _⟩ => ⟨S1x4352x128, .f32⟩
  | .local _ .vmem, ⟨17, _⟩ => ⟨S1x4352x128, .f32⟩
  | .local _ .vmem, ⟨18, _⟩ => ⟨S4624x128, .f32⟩
  | .local _ .vmem, ⟨19, _⟩ => ⟨S4624x128, .f32⟩
  | .local _ .vmem, ⟨20, _⟩ => ⟨S4624x128, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_1 : Ref sig .tc := ⟨.hbm, 68, rfl⟩
abbrev main_call0_v5 : Ref sig .tc := ⟨.hbm, 69, rfl⟩
abbrev main_call0_v6 : Ref sig .tc := ⟨.hbm, 70, rfl⟩
abbrev main_call0_c_2 : Ref sig .tc := ⟨.hbm, 71, rfl⟩
abbrev main_call0_v7 : Ref sig .tc := ⟨.hbm, 72, rfl⟩
abbrev main_call0_v8 : Ref sig .tc := ⟨.hbm, 73, rfl⟩
abbrev main_call0_c_3 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_v42 : Ref sig .tc := ⟨.hbm, 81, rfl⟩
abbrev main_c_1 : Ref sig .tc := ⟨.hbm, 82, rfl⟩
abbrev main_v43 : Ref sig .tc := ⟨.hbm, 83, rfl⟩
abbrev main_v44 : Ref sig .tc := ⟨.hbm, 84, rfl⟩
abbrev main_c_2 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x2x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4352x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S9x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x4352x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S16x256x32x32_S16x32x32x256_0_2_3_1 : S16x256x32x32.Transposes [0, 2, 3, 1] S16x32x32x256
  transposes_S16x128x64x64_S16x64x64x128_0_2_3_1 : S16x128x64x64.Transposes [0, 2, 3, 1] S16x64x64x128
  transposes_S256x128x2x2_S256x2x2x128_0_2_3_1 : S256x128x2x2.Transposes [0, 2, 3, 1] S256x2x2x128
  shapeCasts_S256x2x2x128_S256x512 : S256x2x2x128.ShapeCasts S256x512
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  shapeCasts_S16x32x32x256_S16x1024x256 : S16x32x32x256.ShapeCasts S16x1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S32x512 : S1024x512.Slices ![0, 0] S32x512
  slices_S32x512_o0_0_S32x256 : S32x512.Slices ![0, 0] S32x256
  inb_S1x32x2x32x256_S1x1x1x32x256_0_0_0_0_0 : ∀ a, (![0, 0, 0, 0, 0] : Fin 5 → Nat) a + S1x1x1x32x256.size a ≤ S1x32x2x32x256.size a
  h_S1x1x1x32x256 : 0 < S1x1x1x32x256.numel
  shapeCasts_S1x1x1x32x256_S32x256 : S1x1x1x32x256.ShapeCasts S32x256
  shapeCasts_S32x256_S1x1x1x32x256 : S32x256.ShapeCasts S1x1x1x32x256
  slices_S32x512_o0_256_S32x256 : S32x512.Slices ![0, 256] S32x256
  inb_S1x32x2x32x256_S1x1x1x32x256_0_0_1_0_0 : ∀ a, (![0, 0, 1, 0, 0] : Fin 5 → Nat) a + S1x1x1x32x256.size a ≤ S1x32x2x32x256.size a
  slices_S1024x512_o32_0_S32x512 : S1024x512.Slices ![32, 0] S32x512
  inb_S1x32x2x32x256_S1x1x1x32x256_0_1_0_0_0 : ∀ a, (![0, 1, 0, 0, 0] : Fin 5 → Nat) a + S1x1x1x32x256.size a ≤ S1x32x2x32x256.size a
  inb_S1x32x2x32x256_S1x1x1x32x256_0_1_1_0_0 : ∀ a, (![0, 1, 1, 0, 0] : Fin 5 → Nat) a + S1x1x1x32x256.size a ≤ S1x32x2x32x256.size a
  slices_S1024x512_o64_0_S32x512 : S1024x512.Slices ![64, 0] S32x512
  inb_S1x32x2x32x256_S1x1x1x32x256_0_2_0_0_0 : ∀ a, (![0, 2, 0, 0, 0] : Fin 5 → Nat) a + S1x1x1x32x256.size a ≤ S1x32x2x32x256.size a
  inb_S1x32x2x32x256_S1x1x1x32x256_0_2_1_0_0 : ∀ a, (![0, 2, 1, 0, 0] : Fin 5 → Nat) a + S1x1x1x32x256.size a ≤ S1x32x2x32x256.size a
  slices_S1024x512_o96_0_S32x512 : S1024x512.Slices ![96, 0] S32x512
  inb_S1x32x2x32x256_S1x1x1x32x256_0_3_0_0_0 : ∀ a, (![0, 3, 0, 0, 0] : Fin 5 → Nat) a + S1x1x1x32x256.size a ≤ S1x32x2x32x256.size a
  inb_S1x32x2x32x256_S1x1x1x32x256_0_3_1_0_0 : ∀ a, (![0, 3, 1, 0, 0] : Fin 5 → Nat) a + S1x1x1x32x256.size a ≤ S1x32x2x32x256.size a
  slices_S1024x512_o128_0_S32x512 : S1024x512.Slices ![128, 0] S32x512
  inb_S1x32x2x32x256_S1x1x1x32x256_0_4_0_0_0 : ∀ a, (![0, 4, 0, 0, 0] : Fin 5 → Nat) a + S1x1x1x32x256.size a ≤ S1x32x2x32x256.size a
  inb_S1x32x2x32x256_S1x1x1x32x256_0_4_1_0_0 : ∀ a, (![0, 4, 1, 0, 0] : Fin 5 → Nat) a + S1x1x1x32x256.size a ≤ S1x32x2x32x256.size a
  slices_S1024x512_o160_0_S32x512 : S1024x512.Slices ![160, 0] S32x512
  inb_S1x32x2x32x256_S1x1x1x32x256_0_5_0_0_0 : ∀ a, (![0, 5, 0, 0, 0] : Fin 5 → Nat) a + S1x1x1x32x256.size a ≤ S1x32x2x32x256.size a
  inb_S1x32x2x32x256_S1x1x1x32x256_0_5_1_0_0 : ∀ a, (![0, 5, 1, 0, 0] : Fin 5 → Nat) a + S1x1x1x32x256.size a ≤ S1x32x2x32x256.size a
  slices_S1024x512_o192_0_S32x512 : S1024x512.Slices ![192, 0] S32x512
  inb_S1x32x2x32x256_S1x1x1x32x256_0_6_0_0_0 : ∀ a, (![0, 6, 0, 0, 0] : Fin 5 → Nat) a + S1x1x1x32x256.size a ≤ S1x32x2x32x256.size a
  inb_S1x32x2x32x256_S1x1x1x32x256_0_6_1_0_0 : ∀ a, (![0, 6, 1, 0, 0] : Fin 5 → Nat) a + S1x1x1x32x256.size a ≤ S1x32x2x32x256.size a
  slices_S1024x512_o224_0_S32x512 : S1024x512.Slices ![224, 0] S32x512
  inb_S1x32x2x32x256_S1x1x1x32x256_0_7_0_0_0 : ∀ a, (![0, 7, 0, 0, 0] : Fin 5 → Nat) a + S1x1x1x32x256.size a ≤ S1x32x2x32x256.size a
  inb_S1x32x2x32x256_S1x1x1x32x256_0_7_1_0_0 : ∀ a, (![0, 7, 1, 0, 0] : Fin 5 → Nat) a + S1x1x1x32x256.size a ≤ S1x32x2x32x256.size a
  slices_S1024x512_o256_0_S32x512 : S1024x512.Slices ![256, 0] S32x512
  inb_S1x32x2x32x256_S1x1x1x32x256_0_8_0_0_0 : ∀ a, (![0, 8, 0, 0, 0] : Fin 5 → Nat) a + S1x1x1x32x256.size a ≤ S1x32x2x32x256.size a
  inb_S1x32x2x32x256_S1x1x1x32x256_0_8_1_0_0 : ∀ a, (![0, 8, 1, 0, 0] : Fin 5 → Nat) a + S1x1x1x32x256.size a ≤ S1x32x2x32x256.size a
  slices_S1024x512_o288_0_S32x512 : S1024x512.Slices ![288, 0] S32x512
  inb_S1x32x2x32x256_S1x1x1x32x256_0_9_0_0_0 : ∀ a, (![0, 9, 0, 0, 0] : Fin 5 → Nat) a + S1x1x1x32x256.size a ≤ S1x32x2x32x256.size a
  inb_S1x32x2x32x256_S1x1x1x32x256_0_9_1_0_0 : ∀ a, (![0, 9, 1, 0, 0] : Fin 5 → Nat) a + S1x1x1x32x256.size a ≤ S1x32x2x32x256.size a
  slices_S1024x512_o320_0_S32x512 : S1024x512.Slices ![320, 0] S32x512
  inb_S1x32x2x32x256_S1x1x1x32x256_0_10_0_0_0 : ∀ a, (![0, 10, 0, 0, 0] : Fin 5 → Nat) a + S1x1x1x32x256.size a ≤ S1x32x2x32x256.size a
  inb_S1x32x2x32x256_S1x1x1x32x256_0_10_1_0_0 : ∀ a, (![0, 10, 1, 0, 0] : Fin 5 → Nat) a + S1x1x1x32x256.size a ≤ S1x32x2x32x256.size a
  slices_S1024x512_o352_0_S32x512 : S1024x512.Slices ![352, 0] S32x512
  inb_S1x32x2x32x256_S1x1x1x32x256_0_11_0_0_0 : ∀ a, (![0, 11, 0, 0, 0] : Fin 5 → Nat) a + S1x1x1x32x256.size a ≤ S1x32x2x32x256.size a
  inb_S1x32x2x32x256_S1x1x1x32x256_0_11_1_0_0 : ∀ a, (![0, 11, 1, 0, 0] : Fin 5 → Nat) a + S1x1x1x32x256.size a ≤ S1x32x2x32x256.size a
  slices_S1024x512_o384_0_S32x512 : S1024x512.Slices ![384, 0] S32x512
  inb_S1x32x2x32x256_S1x1x1x32x256_0_12_0_0_0 : ∀ a, (![0, 12, 0, 0, 0] : Fin 5 → Nat) a + S1x1x1x32x256.size a ≤ S1x32x2x32x256.size a
  inb_S1x32x2x32x256_S1x1x1x32x256_0_12_1_0_0 : ∀ a, (![0, 12, 1, 0, 0] : Fin 5 → Nat) a + S1x1x1x32x256.size a ≤ S1x32x2x32x256.size a
  slices_S1024x512_o416_0_S32x512 : S1024x512.Slices ![416, 0] S32x512
  inb_S1x32x2x32x256_S1x1x1x32x256_0_13_0_0_0 : ∀ a, (![0, 13, 0, 0, 0] : Fin 5 → Nat) a + S1x1x1x32x256.size a ≤ S1x32x2x32x256.size a
  inb_S1x32x2x32x256_S1x1x1x32x256_0_13_1_0_0 : ∀ a, (![0, 13, 1, 0, 0] : Fin 5 → Nat) a + S1x1x1x32x256.size a ≤ S1x32x2x32x256.size a
  slices_S1024x512_o448_0_S32x512 : S1024x512.Slices ![448, 0] S32x512
  inb_S1x32x2x32x256_S1x1x1x32x256_0_14_0_0_0 : ∀ a, (![0, 14, 0, 0, 0] : Fin 5 → Nat) a + S1x1x1x32x256.size a ≤ S1x32x2x32x256.size a
  inb_S1x32x2x32x256_S1x1x1x32x256_0_14_1_0_0 : ∀ a, (![0, 14, 1, 0, 0] : Fin 5 → Nat) a + S1x1x1x32x256.size a ≤ S1x32x2x32x256.size a
  slices_S1024x512_o480_0_S32x512 : S1024x512.Slices ![480, 0] S32x512
  inb_S1x32x2x32x256_S1x1x1x32x256_0_15_0_0_0 : ∀ a, (![0, 15, 0, 0, 0] : Fin 5 → Nat) a + S1x1x1x32x256.size a ≤ S1x32x2x32x256.size a
  inb_S1x32x2x32x256_S1x1x1x32x256_0_15_1_0_0 : ∀ a, (![0, 15, 1, 0, 0] : Fin 5 → Nat) a + S1x1x1x32x256.size a ≤ S1x32x2x32x256.size a
  slices_S1024x512_o512_0_S32x512 : S1024x512.Slices ![512, 0] S32x512
  inb_S1x32x2x32x256_S1x1x1x32x256_0_16_0_0_0 : ∀ a, (![0, 16, 0, 0, 0] : Fin 5 → Nat) a + S1x1x1x32x256.size a ≤ S1x32x2x32x256.size a
  inb_S1x32x2x32x256_S1x1x1x32x256_0_16_1_0_0 : ∀ a, (![0, 16, 1, 0, 0] : Fin 5 → Nat) a + S1x1x1x32x256.size a ≤ S1x32x2x32x256.size a
  slices_S1024x512_o544_0_S32x512 : S1024x512.Slices ![544, 0] S32x512
  inb_S1x32x2x32x256_S1x1x1x32x256_0_17_0_0_0 : ∀ a, (![0, 17, 0, 0, 0] : Fin 5 → Nat) a + S1x1x1x32x256.size a ≤ S1x32x2x32x256.size a
  inb_S1x32x2x32x256_S1x1x1x32x256_0_17_1_0_0 : ∀ a, (![0, 17, 1, 0, 0] : Fin 5 → Nat) a + S1x1x1x32x256.size a ≤ S1x32x2x32x256.size a
  slices_S1024x512_o576_0_S32x512 : S1024x512.Slices ![576, 0] S32x512
  inb_S1x32x2x32x256_S1x1x1x32x256_0_18_0_0_0 : ∀ a, (![0, 18, 0, 0, 0] : Fin 5 → Nat) a + S1x1x1x32x256.size a ≤ S1x32x2x32x256.size a
  inb_S1x32x2x32x256_S1x1x1x32x256_0_18_1_0_0 : ∀ a, (![0, 18, 1, 0, 0] : Fin 5 → Nat) a + S1x1x1x32x256.size a ≤ S1x32x2x32x256.size a
  slices_S1024x512_o608_0_S32x512 : S1024x512.Slices ![608, 0] S32x512
  inb_S1x32x2x32x256_S1x1x1x32x256_0_19_0_0_0 : ∀ a, (![0, 19, 0, 0, 0] : Fin 5 → Nat) a + S1x1x1x32x256.size a ≤ S1x32x2x32x256.size a
  inb_S1x32x2x32x256_S1x1x1x32x256_0_19_1_0_0 : ∀ a, (![0, 19, 1, 0, 0] : Fin 5 → Nat) a + S1x1x1x32x256.size a ≤ S1x32x2x32x256.size a
  slices_S1024x512_o640_0_S32x512 : S1024x512.Slices ![640, 0] S32x512
  inb_S1x32x2x32x256_S1x1x1x32x256_0_20_0_0_0 : ∀ a, (![0, 20, 0, 0, 0] : Fin 5 → Nat) a + S1x1x1x32x256.size a ≤ S1x32x2x32x256.size a
  inb_S1x32x2x32x256_S1x1x1x32x256_0_20_1_0_0 : ∀ a, (![0, 20, 1, 0, 0] : Fin 5 → Nat) a + S1x1x1x32x256.size a ≤ S1x32x2x32x256.size a
  slices_S1024x512_o672_0_S32x512 : S1024x512.Slices ![672, 0] S32x512
  inb_S1x32x2x32x256_S1x1x1x32x256_0_21_0_0_0 : ∀ a, (![0, 21, 0, 0, 0] : Fin 5 → Nat) a + S1x1x1x32x256.size a ≤ S1x32x2x32x256.size a
  inb_S1x32x2x32x256_S1x1x1x32x256_0_21_1_0_0 : ∀ a, (![0, 21, 1, 0, 0] : Fin 5 → Nat) a + S1x1x1x32x256.size a ≤ S1x32x2x32x256.size a
  slices_S1024x512_o704_0_S32x512 : S1024x512.Slices ![704, 0] S32x512
  inb_S1x32x2x32x256_S1x1x1x32x256_0_22_0_0_0 : ∀ a, (![0, 22, 0, 0, 0] : Fin 5 → Nat) a + S1x1x1x32x256.size a ≤ S1x32x2x32x256.size a
  inb_S1x32x2x32x256_S1x1x1x32x256_0_22_1_0_0 : ∀ a, (![0, 22, 1, 0, 0] : Fin 5 → Nat) a + S1x1x1x32x256.size a ≤ S1x32x2x32x256.size a
  slices_S1024x512_o736_0_S32x512 : S1024x512.Slices ![736, 0] S32x512
  inb_S1x32x2x32x256_S1x1x1x32x256_0_23_0_0_0 : ∀ a, (![0, 23, 0, 0, 0] : Fin 5 → Nat) a + S1x1x1x32x256.size a ≤ S1x32x2x32x256.size a
  inb_S1x32x2x32x256_S1x1x1x32x256_0_23_1_0_0 : ∀ a, (![0, 23, 1, 0, 0] : Fin 5 → Nat) a + S1x1x1x32x256.size a ≤ S1x32x2x32x256.size a
  slices_S1024x512_o768_0_S32x512 : S1024x512.Slices ![768, 0] S32x512
  inb_S1x32x2x32x256_S1x1x1x32x256_0_24_0_0_0 : ∀ a, (![0, 24, 0, 0, 0] : Fin 5 → Nat) a + S1x1x1x32x256.size a ≤ S1x32x2x32x256.size a
  inb_S1x32x2x32x256_S1x1x1x32x256_0_24_1_0_0 : ∀ a, (![0, 24, 1, 0, 0] : Fin 5 → Nat) a + S1x1x1x32x256.size a ≤ S1x32x2x32x256.size a
  slices_S1024x512_o800_0_S32x512 : S1024x512.Slices ![800, 0] S32x512
  inb_S1x32x2x32x256_S1x1x1x32x256_0_25_0_0_0 : ∀ a, (![0, 25, 0, 0, 0] : Fin 5 → Nat) a + S1x1x1x32x256.size a ≤ S1x32x2x32x256.size a
  inb_S1x32x2x32x256_S1x1x1x32x256_0_25_1_0_0 : ∀ a, (![0, 25, 1, 0, 0] : Fin 5 → Nat) a + S1x1x1x32x256.size a ≤ S1x32x2x32x256.size a
  slices_S1024x512_o832_0_S32x512 : S1024x512.Slices ![832, 0] S32x512
  inb_S1x32x2x32x256_S1x1x1x32x256_0_26_0_0_0 : ∀ a, (![0, 26, 0, 0, 0] : Fin 5 → Nat) a + S1x1x1x32x256.size a ≤ S1x32x2x32x256.size a
  inb_S1x32x2x32x256_S1x1x1x32x256_0_26_1_0_0 : ∀ a, (![0, 26, 1, 0, 0] : Fin 5 → Nat) a + S1x1x1x32x256.size a ≤ S1x32x2x32x256.size a
  slices_S1024x512_o864_0_S32x512 : S1024x512.Slices ![864, 0] S32x512
  inb_S1x32x2x32x256_S1x1x1x32x256_0_27_0_0_0 : ∀ a, (![0, 27, 0, 0, 0] : Fin 5 → Nat) a + S1x1x1x32x256.size a ≤ S1x32x2x32x256.size a
  inb_S1x32x2x32x256_S1x1x1x32x256_0_27_1_0_0 : ∀ a, (![0, 27, 1, 0, 0] : Fin 5 → Nat) a + S1x1x1x32x256.size a ≤ S1x32x2x32x256.size a
  slices_S1024x512_o896_0_S32x512 : S1024x512.Slices ![896, 0] S32x512
  inb_S1x32x2x32x256_S1x1x1x32x256_0_28_0_0_0 : ∀ a, (![0, 28, 0, 0, 0] : Fin 5 → Nat) a + S1x1x1x32x256.size a ≤ S1x32x2x32x256.size a
  inb_S1x32x2x32x256_S1x1x1x32x256_0_28_1_0_0 : ∀ a, (![0, 28, 1, 0, 0] : Fin 5 → Nat) a + S1x1x1x32x256.size a ≤ S1x32x2x32x256.size a
  slices_S1024x512_o928_0_S32x512 : S1024x512.Slices ![928, 0] S32x512
  inb_S1x32x2x32x256_S1x1x1x32x256_0_29_0_0_0 : ∀ a, (![0, 29, 0, 0, 0] : Fin 5 → Nat) a + S1x1x1x32x256.size a ≤ S1x32x2x32x256.size a
  inb_S1x32x2x32x256_S1x1x1x32x256_0_29_1_0_0 : ∀ a, (![0, 29, 1, 0, 0] : Fin 5 → Nat) a + S1x1x1x32x256.size a ≤ S1x32x2x32x256.size a
  slices_S1024x512_o960_0_S32x512 : S1024x512.Slices ![960, 0] S32x512
  inb_S1x32x2x32x256_S1x1x1x32x256_0_30_0_0_0 : ∀ a, (![0, 30, 0, 0, 0] : Fin 5 → Nat) a + S1x1x1x32x256.size a ≤ S1x32x2x32x256.size a
  inb_S1x32x2x32x256_S1x1x1x32x256_0_30_1_0_0 : ∀ a, (![0, 30, 1, 0, 0] : Fin 5 → Nat) a + S1x1x1x32x256.size a ≤ S1x32x2x32x256.size a
  slices_S1024x512_o992_0_S32x512 : S1024x512.Slices ![992, 0] S32x512
  inb_S1x32x2x32x256_S1x1x1x32x256_0_31_0_0_0 : ∀ a, (![0, 31, 0, 0, 0] : Fin 5 → Nat) a + S1x1x1x32x256.size a ≤ S1x32x2x32x256.size a
  inb_S1x32x2x32x256_S1x1x1x32x256_0_31_1_0_0 : ∀ a, (![0, 31, 1, 0, 0] : Fin 5 → Nat) a + S1x1x1x32x256.size a ≤ S1x32x2x32x256.size a
  shapeCasts_S16x32x2x32x256_S16x64x64x128 : S16x32x2x32x256.ShapeCasts S16x64x64x128
  bcast_S_S128 : S_.BroadcastsInDim S128 (![] : Fin 0 → Fin S128.rank)
  bcast_S128_S128x1x1x1_0 : S128.BroadcastsInDim S128x1x1x1 (![0] : Fin 1 → Fin S128x1x1x1.rank)
  bcast_S128x1x1x1_S128x256x3x3_0_1_2_3 : S128x1x1x1.BroadcastsInDim S128x256x3x3 (![0, 1, 2, 3] : Fin 4 → Fin S128x256x3x3.rank)
  bcast_S128x1x1x1_S128x128x3x3_0_1_2_3 : S128x1x1x1.BroadcastsInDim S128x128x3x3 (![0, 1, 2, 3] : Fin 4 → Fin S128x128x3x3.rank)
  slices_S128x256x3x3_S128x128x3x3_0_0_0_0 : S128x256x3x3.Slices ![0, 0, 0, 0] S128x128x3x3
  transposes_S128x128x3x3_S3x3x128x128_2_3_1_0 : S128x128x3x3.Transposes [2, 3, 1, 0] S3x3x128x128
  shapeCasts_S3x3x128x128_S9x128x128 : S3x3x128x128.ShapeCasts S9x128x128
  slices_S128x256x3x3_S128x128x3x3_0_128_0_0 : S128x256x3x3.Slices ![0, 128, 0, 0] S128x128x3x3
  bcast_S_S4352 : S_.BroadcastsInDim S4352 (![] : Fin 0 → Fin S4352.rank)
  shapeCasts_S4352_S4352x1 : S4352.ShapeCasts S4352x1
  inb_S4624x128_S4624x128_0_0 : ∀ a, (![0, 0] : Fin 2 → Nat) a + S4624x128.size a ≤ S4624x128.size a
  h_S4624x128 : 0 < S4624x128.numel
  shapeCasts_S4624x128_S4624x128 : S4624x128.ShapeCasts S4624x128
  inb_S1x64x64x128_S1x1x64x128_0_0_0_0 : ∀ a, (![0, 0, 0, 0] : Fin 4 → Nat) a + S1x1x64x128.size a ≤ S1x64x64x128.size a
  h_S1x1x64x128 : 0 < S1x1x64x128.numel
  shapeCasts_S1x1x64x128_S64x128 : S1x1x64x128.ShapeCasts S64x128
  inb_S4624x128_S64x128_138_0 : ∀ a, (![138, 0] : Fin 2 → Nat) a + S64x128.size a ≤ S4624x128.size a
  h_S64x128 : 0 < S64x128.numel
  shapeCasts_S64x128_S64x128 : S64x128.ShapeCasts S64x128
  inb_S1x64x64x128_S1x1x64x128_0_1_0_0 : ∀ a, (![0, 1, 0, 0] : Fin 4 → Nat) a + S1x1x64x128.size a ≤ S1x64x64x128.size a
  inb_S4624x128_S64x128_206_0 : ∀ a, (![206, 0] : Fin 2 → Nat) a + S64x128.size a ≤ S4624x128.size a
  inb_S1x64x64x128_S1x1x64x128_0_2_0_0 : ∀ a, (![0, 2, 0, 0] : Fin 4 → Nat) a + S1x1x64x128.size a ≤ S1x64x64x128.size a
  inb_S4624x128_S64x128_274_0 : ∀ a, (![274, 0] : Fin 2 → Nat) a + S64x128.size a ≤ S4624x128.size a
  inb_S1x64x64x128_S1x1x64x128_0_3_0_0 : ∀ a, (![0, 3, 0, 0] : Fin 4 → Nat) a + S1x1x64x128.size a ≤ S1x64x64x128.size a
  inb_S4624x128_S64x128_342_0 : ∀ a, (![342, 0] : Fin 2 → Nat) a + S64x128.size a ≤ S4624x128.size a
  inb_S1x64x64x128_S1x1x64x128_0_4_0_0 : ∀ a, (![0, 4, 0, 0] : Fin 4 → Nat) a + S1x1x64x128.size a ≤ S1x64x64x128.size a
  inb_S4624x128_S64x128_410_0 : ∀ a, (![410, 0] : Fin 2 → Nat) a + S64x128.size a ≤ S4624x128.size a
  inb_S1x64x64x128_S1x1x64x128_0_5_0_0 : ∀ a, (![0, 5, 0, 0] : Fin 4 → Nat) a + S1x1x64x128.size a ≤ S1x64x64x128.size a
  inb_S4624x128_S64x128_478_0 : ∀ a, (![478, 0] : Fin 2 → Nat) a + S64x128.size a ≤ S4624x128.size a
  inb_S1x64x64x128_S1x1x64x128_0_6_0_0 : ∀ a, (![0, 6, 0, 0] : Fin 4 → Nat) a + S1x1x64x128.size a ≤ S1x64x64x128.size a
  inb_S4624x128_S64x128_546_0 : ∀ a, (![546, 0] : Fin 2 → Nat) a + S64x128.size a ≤ S4624x128.size a
  inb_S1x64x64x128_S1x1x64x128_0_7_0_0 : ∀ a, (![0, 7, 0, 0] : Fin 4 → Nat) a + S1x1x64x128.size a ≤ S1x64x64x128.size a
  inb_S4624x128_S64x128_614_0 : ∀ a, (![614, 0] : Fin 2 → Nat) a + S64x128.size a ≤ S4624x128.size a
  inb_S1x64x64x128_S1x1x64x128_0_8_0_0 : ∀ a, (![0, 8, 0, 0] : Fin 4 → Nat) a + S1x1x64x128.size a ≤ S1x64x64x128.size a
  inb_S4624x128_S64x128_682_0 : ∀ a, (![682, 0] : Fin 2 → Nat) a + S64x128.size a ≤ S4624x128.size a
  inb_S1x64x64x128_S1x1x64x128_0_9_0_0 : ∀ a, (![0, 9, 0, 0] : Fin 4 → Nat) a + S1x1x64x128.size a ≤ S1x64x64x128.size a
  inb_S4624x128_S64x128_750_0 : ∀ a, (![750, 0] : Fin 2 → Nat) a + S64x128.size a ≤ S4624x128.size a
  inb_S1x64x64x128_S1x1x64x128_0_10_0_0 : ∀ a, (![0, 10, 0, 0] : Fin 4 → Nat) a + S1x1x64x128.size a ≤ S1x64x64x128.size a
  inb_S4624x128_S64x128_818_0 : ∀ a, (![818, 0] : Fin 2 → Nat) a + S64x128.size a ≤ S4624x128.size a
  inb_S1x64x64x128_S1x1x64x128_0_11_0_0 : ∀ a, (![0, 11, 0, 0] : Fin 4 → Nat) a + S1x1x64x128.size a ≤ S1x64x64x128.size a
  inb_S4624x128_S64x128_886_0 : ∀ a, (![886, 0] : Fin 2 → Nat) a + S64x128.size a ≤ S4624x128.size a
  inb_S1x64x64x128_S1x1x64x128_0_12_0_0 : ∀ a, (![0, 12, 0, 0] : Fin 4 → Nat) a + S1x1x64x128.size a ≤ S1x64x64x128.size a
  inb_S4624x128_S64x128_954_0 : ∀ a, (![954, 0] : Fin 2 → Nat) a + S64x128.size a ≤ S4624x128.size a
  inb_S1x64x64x128_S1x1x64x128_0_13_0_0 : ∀ a, (![0, 13, 0, 0] : Fin 4 → Nat) a + S1x1x64x128.size a ≤ S1x64x64x128.size a
  inb_S4624x128_S64x128_1022_0 : ∀ a, (![1022, 0] : Fin 2 → Nat) a + S64x128.size a ≤ S4624x128.size a
  inb_S1x64x64x128_S1x1x64x128_0_14_0_0 : ∀ a, (![0, 14, 0, 0] : Fin 4 → Nat) a + S1x1x64x128.size a ≤ S1x64x64x128.size a
  inb_S4624x128_S64x128_1090_0 : ∀ a, (![1090, 0] : Fin 2 → Nat) a + S64x128.size a ≤ S4624x128.size a
  inb_S1x64x64x128_S1x1x64x128_0_15_0_0 : ∀ a, (![0, 15, 0, 0] : Fin 4 → Nat) a + S1x1x64x128.size a ≤ S1x64x64x128.size a
  inb_S4624x128_S64x128_1158_0 : ∀ a, (![1158, 0] : Fin 2 → Nat) a + S64x128.size a ≤ S4624x128.size a
  inb_S1x64x64x128_S1x1x64x128_0_16_0_0 : ∀ a, (![0, 16, 0, 0] : Fin 4 → Nat) a + S1x1x64x128.size a ≤ S1x64x64x128.size a
  inb_S4624x128_S64x128_1226_0 : ∀ a, (![1226, 0] : Fin 2 → Nat) a + S64x128.size a ≤ S4624x128.size a
  inb_S1x64x64x128_S1x1x64x128_0_17_0_0 : ∀ a, (![0, 17, 0, 0] : Fin 4 → Nat) a + S1x1x64x128.size a ≤ S1x64x64x128.size a
  inb_S4624x128_S64x128_1294_0 : ∀ a, (![1294, 0] : Fin 2 → Nat) a + S64x128.size a ≤ S4624x128.size a
  inb_S1x64x64x128_S1x1x64x128_0_18_0_0 : ∀ a, (![0, 18, 0, 0] : Fin 4 → Nat) a + S1x1x64x128.size a ≤ S1x64x64x128.size a
  inb_S4624x128_S64x128_1362_0 : ∀ a, (![1362, 0] : Fin 2 → Nat) a + S64x128.size a ≤ S4624x128.size a
  inb_S1x64x64x128_S1x1x64x128_0_19_0_0 : ∀ a, (![0, 19, 0, 0] : Fin 4 → Nat) a + S1x1x64x128.size a ≤ S1x64x64x128.size a
  inb_S4624x128_S64x128_1430_0 : ∀ a, (![1430, 0] : Fin 2 → Nat) a + S64x128.size a ≤ S4624x128.size a
  inb_S1x64x64x128_S1x1x64x128_0_20_0_0 : ∀ a, (![0, 20, 0, 0] : Fin 4 → Nat) a + S1x1x64x128.size a ≤ S1x64x64x128.size a
  inb_S4624x128_S64x128_1498_0 : ∀ a, (![1498, 0] : Fin 2 → Nat) a + S64x128.size a ≤ S4624x128.size a
  inb_S1x64x64x128_S1x1x64x128_0_21_0_0 : ∀ a, (![0, 21, 0, 0] : Fin 4 → Nat) a + S1x1x64x128.size a ≤ S1x64x64x128.size a
  inb_S4624x128_S64x128_1566_0 : ∀ a, (![1566, 0] : Fin 2 → Nat) a + S64x128.size a ≤ S4624x128.size a
  inb_S1x64x64x128_S1x1x64x128_0_22_0_0 : ∀ a, (![0, 22, 0, 0] : Fin 4 → Nat) a + S1x1x64x128.size a ≤ S1x64x64x128.size a
  inb_S4624x128_S64x128_1634_0 : ∀ a, (![1634, 0] : Fin 2 → Nat) a + S64x128.size a ≤ S4624x128.size a
  inb_S1x64x64x128_S1x1x64x128_0_23_0_0 : ∀ a, (![0, 23, 0, 0] : Fin 4 → Nat) a + S1x1x64x128.size a ≤ S1x64x64x128.size a
  inb_S4624x128_S64x128_1702_0 : ∀ a, (![1702, 0] : Fin 2 → Nat) a + S64x128.size a ≤ S4624x128.size a
  inb_S1x64x64x128_S1x1x64x128_0_24_0_0 : ∀ a, (![0, 24, 0, 0] : Fin 4 → Nat) a + S1x1x64x128.size a ≤ S1x64x64x128.size a
  inb_S4624x128_S64x128_1770_0 : ∀ a, (![1770, 0] : Fin 2 → Nat) a + S64x128.size a ≤ S4624x128.size a
  inb_S1x64x64x128_S1x1x64x128_0_25_0_0 : ∀ a, (![0, 25, 0, 0] : Fin 4 → Nat) a + S1x1x64x128.size a ≤ S1x64x64x128.size a
  inb_S4624x128_S64x128_1838_0 : ∀ a, (![1838, 0] : Fin 2 → Nat) a + S64x128.size a ≤ S4624x128.size a
  inb_S1x64x64x128_S1x1x64x128_0_26_0_0 : ∀ a, (![0, 26, 0, 0] : Fin 4 → Nat) a + S1x1x64x128.size a ≤ S1x64x64x128.size a
  inb_S4624x128_S64x128_1906_0 : ∀ a, (![1906, 0] : Fin 2 → Nat) a + S64x128.size a ≤ S4624x128.size a
  inb_S1x64x64x128_S1x1x64x128_0_27_0_0 : ∀ a, (![0, 27, 0, 0] : Fin 4 → Nat) a + S1x1x64x128.size a ≤ S1x64x64x128.size a
  inb_S4624x128_S64x128_1974_0 : ∀ a, (![1974, 0] : Fin 2 → Nat) a + S64x128.size a ≤ S4624x128.size a
  inb_S1x64x64x128_S1x1x64x128_0_28_0_0 : ∀ a, (![0, 28, 0, 0] : Fin 4 → Nat) a + S1x1x64x128.size a ≤ S1x64x64x128.size a
  inb_S4624x128_S64x128_2042_0 : ∀ a, (![2042, 0] : Fin 2 → Nat) a + S64x128.size a ≤ S4624x128.size a
  inb_S1x64x64x128_S1x1x64x128_0_29_0_0 : ∀ a, (![0, 29, 0, 0] : Fin 4 → Nat) a + S1x1x64x128.size a ≤ S1x64x64x128.size a
  inb_S4624x128_S64x128_2110_0 : ∀ a, (![2110, 0] : Fin 2 → Nat) a + S64x128.size a ≤ S4624x128.size a
  inb_S1x64x64x128_S1x1x64x128_0_30_0_0 : ∀ a, (![0, 30, 0, 0] : Fin 4 → Nat) a + S1x1x64x128.size a ≤ S1x64x64x128.size a
  inb_S4624x128_S64x128_2178_0 : ∀ a, (![2178, 0] : Fin 2 → Nat) a + S64x128.size a ≤ S4624x128.size a
  inb_S1x64x64x128_S1x1x64x128_0_31_0_0 : ∀ a, (![0, 31, 0, 0] : Fin 4 → Nat) a + S1x1x64x128.size a ≤ S1x64x64x128.size a
  inb_S4624x128_S64x128_2246_0 : ∀ a, (![2246, 0] : Fin 2 → Nat) a + S64x128.size a ≤ S4624x128.size a
  inb_S1x64x64x128_S1x1x64x128_0_32_0_0 : ∀ a, (![0, 32, 0, 0] : Fin 4 → Nat) a + S1x1x64x128.size a ≤ S1x64x64x128.size a
  inb_S4624x128_S64x128_2314_0 : ∀ a, (![2314, 0] : Fin 2 → Nat) a + S64x128.size a ≤ S4624x128.size a
  inb_S1x64x64x128_S1x1x64x128_0_33_0_0 : ∀ a, (![0, 33, 0, 0] : Fin 4 → Nat) a + S1x1x64x128.size a ≤ S1x64x64x128.size a
  inb_S4624x128_S64x128_2382_0 : ∀ a, (![2382, 0] : Fin 2 → Nat) a + S64x128.size a ≤ S4624x128.size a
  inb_S1x64x64x128_S1x1x64x128_0_34_0_0 : ∀ a, (![0, 34, 0, 0] : Fin 4 → Nat) a + S1x1x64x128.size a ≤ S1x64x64x128.size a
  inb_S4624x128_S64x128_2450_0 : ∀ a, (![2450, 0] : Fin 2 → Nat) a + S64x128.size a ≤ S4624x128.size a
  inb_S1x64x64x128_S1x1x64x128_0_35_0_0 : ∀ a, (![0, 35, 0, 0] : Fin 4 → Nat) a + S1x1x64x128.size a ≤ S1x64x64x128.size a
  inb_S4624x128_S64x128_2518_0 : ∀ a, (![2518, 0] : Fin 2 → Nat) a + S64x128.size a ≤ S4624x128.size a
  inb_S1x64x64x128_S1x1x64x128_0_36_0_0 : ∀ a, (![0, 36, 0, 0] : Fin 4 → Nat) a + S1x1x64x128.size a ≤ S1x64x64x128.size a
  inb_S4624x128_S64x128_2586_0 : ∀ a, (![2586, 0] : Fin 2 → Nat) a + S64x128.size a ≤ S4624x128.size a
  inb_S1x64x64x128_S1x1x64x128_0_37_0_0 : ∀ a, (![0, 37, 0, 0] : Fin 4 → Nat) a + S1x1x64x128.size a ≤ S1x64x64x128.size a
  inb_S4624x128_S64x128_2654_0 : ∀ a, (![2654, 0] : Fin 2 → Nat) a + S64x128.size a ≤ S4624x128.size a
  inb_S1x64x64x128_S1x1x64x128_0_38_0_0 : ∀ a, (![0, 38, 0, 0] : Fin 4 → Nat) a + S1x1x64x128.size a ≤ S1x64x64x128.size a
  inb_S4624x128_S64x128_2722_0 : ∀ a, (![2722, 0] : Fin 2 → Nat) a + S64x128.size a ≤ S4624x128.size a
  inb_S1x64x64x128_S1x1x64x128_0_39_0_0 : ∀ a, (![0, 39, 0, 0] : Fin 4 → Nat) a + S1x1x64x128.size a ≤ S1x64x64x128.size a
  inb_S4624x128_S64x128_2790_0 : ∀ a, (![2790, 0] : Fin 2 → Nat) a + S64x128.size a ≤ S4624x128.size a
  inb_S1x64x64x128_S1x1x64x128_0_40_0_0 : ∀ a, (![0, 40, 0, 0] : Fin 4 → Nat) a + S1x1x64x128.size a ≤ S1x64x64x128.size a
  inb_S4624x128_S64x128_2858_0 : ∀ a, (![2858, 0] : Fin 2 → Nat) a + S64x128.size a ≤ S4624x128.size a
  inb_S1x64x64x128_S1x1x64x128_0_41_0_0 : ∀ a, (![0, 41, 0, 0] : Fin 4 → Nat) a + S1x1x64x128.size a ≤ S1x64x64x128.size a
  inb_S4624x128_S64x128_2926_0 : ∀ a, (![2926, 0] : Fin 2 → Nat) a + S64x128.size a ≤ S4624x128.size a
  inb_S1x64x64x128_S1x1x64x128_0_42_0_0 : ∀ a, (![0, 42, 0, 0] : Fin 4 → Nat) a + S1x1x64x128.size a ≤ S1x64x64x128.size a
  inb_S4624x128_S64x128_2994_0 : ∀ a, (![2994, 0] : Fin 2 → Nat) a + S64x128.size a ≤ S4624x128.size a
  inb_S1x64x64x128_S1x1x64x128_0_43_0_0 : ∀ a, (![0, 43, 0, 0] : Fin 4 → Nat) a + S1x1x64x128.size a ≤ S1x64x64x128.size a
  inb_S4624x128_S64x128_3062_0 : ∀ a, (![3062, 0] : Fin 2 → Nat) a + S64x128.size a ≤ S4624x128.size a
  inb_S1x64x64x128_S1x1x64x128_0_44_0_0 : ∀ a, (![0, 44, 0, 0] : Fin 4 → Nat) a + S1x1x64x128.size a ≤ S1x64x64x128.size a
  inb_S4624x128_S64x128_3130_0 : ∀ a, (![3130, 0] : Fin 2 → Nat) a + S64x128.size a ≤ S4624x128.size a
  inb_S1x64x64x128_S1x1x64x128_0_45_0_0 : ∀ a, (![0, 45, 0, 0] : Fin 4 → Nat) a + S1x1x64x128.size a ≤ S1x64x64x128.size a
  inb_S4624x128_S64x128_3198_0 : ∀ a, (![3198, 0] : Fin 2 → Nat) a + S64x128.size a ≤ S4624x128.size a
  inb_S1x64x64x128_S1x1x64x128_0_46_0_0 : ∀ a, (![0, 46, 0, 0] : Fin 4 → Nat) a + S1x1x64x128.size a ≤ S1x64x64x128.size a
  inb_S4624x128_S64x128_3266_0 : ∀ a, (![3266, 0] : Fin 2 → Nat) a + S64x128.size a ≤ S4624x128.size a
  inb_S1x64x64x128_S1x1x64x128_0_47_0_0 : ∀ a, (![0, 47, 0, 0] : Fin 4 → Nat) a + S1x1x64x128.size a ≤ S1x64x64x128.size a
  inb_S4624x128_S64x128_3334_0 : ∀ a, (![3334, 0] : Fin 2 → Nat) a + S64x128.size a ≤ S4624x128.size a
  inb_S1x64x64x128_S1x1x64x128_0_48_0_0 : ∀ a, (![0, 48, 0, 0] : Fin 4 → Nat) a + S1x1x64x128.size a ≤ S1x64x64x128.size a
  inb_S4624x128_S64x128_3402_0 : ∀ a, (![3402, 0] : Fin 2 → Nat) a + S64x128.size a ≤ S4624x128.size a
  inb_S1x64x64x128_S1x1x64x128_0_49_0_0 : ∀ a, (![0, 49, 0, 0] : Fin 4 → Nat) a + S1x1x64x128.size a ≤ S1x64x64x128.size a
  inb_S4624x128_S64x128_3470_0 : ∀ a, (![3470, 0] : Fin 2 → Nat) a + S64x128.size a ≤ S4624x128.size a
  inb_S1x64x64x128_S1x1x64x128_0_50_0_0 : ∀ a, (![0, 50, 0, 0] : Fin 4 → Nat) a + S1x1x64x128.size a ≤ S1x64x64x128.size a
  inb_S4624x128_S64x128_3538_0 : ∀ a, (![3538, 0] : Fin 2 → Nat) a + S64x128.size a ≤ S4624x128.size a
  inb_S1x64x64x128_S1x1x64x128_0_51_0_0 : ∀ a, (![0, 51, 0, 0] : Fin 4 → Nat) a + S1x1x64x128.size a ≤ S1x64x64x128.size a
  inb_S4624x128_S64x128_3606_0 : ∀ a, (![3606, 0] : Fin 2 → Nat) a + S64x128.size a ≤ S4624x128.size a
  inb_S1x64x64x128_S1x1x64x128_0_52_0_0 : ∀ a, (![0, 52, 0, 0] : Fin 4 → Nat) a + S1x1x64x128.size a ≤ S1x64x64x128.size a
  inb_S4624x128_S64x128_3674_0 : ∀ a, (![3674, 0] : Fin 2 → Nat) a + S64x128.size a ≤ S4624x128.size a
  inb_S1x64x64x128_S1x1x64x128_0_53_0_0 : ∀ a, (![0, 53, 0, 0] : Fin 4 → Nat) a + S1x1x64x128.size a ≤ S1x64x64x128.size a
  inb_S4624x128_S64x128_3742_0 : ∀ a, (![3742, 0] : Fin 2 → Nat) a + S64x128.size a ≤ S4624x128.size a
  inb_S1x64x64x128_S1x1x64x128_0_54_0_0 : ∀ a, (![0, 54, 0, 0] : Fin 4 → Nat) a + S1x1x64x128.size a ≤ S1x64x64x128.size a
  inb_S4624x128_S64x128_3810_0 : ∀ a, (![3810, 0] : Fin 2 → Nat) a + S64x128.size a ≤ S4624x128.size a
  inb_S1x64x64x128_S1x1x64x128_0_55_0_0 : ∀ a, (![0, 55, 0, 0] : Fin 4 → Nat) a + S1x1x64x128.size a ≤ S1x64x64x128.size a
  inb_S4624x128_S64x128_3878_0 : ∀ a, (![3878, 0] : Fin 2 → Nat) a + S64x128.size a ≤ S4624x128.size a
  inb_S1x64x64x128_S1x1x64x128_0_56_0_0 : ∀ a, (![0, 56, 0, 0] : Fin 4 → Nat) a + S1x1x64x128.size a ≤ S1x64x64x128.size a
  inb_S4624x128_S64x128_3946_0 : ∀ a, (![3946, 0] : Fin 2 → Nat) a + S64x128.size a ≤ S4624x128.size a
  inb_S1x64x64x128_S1x1x64x128_0_57_0_0 : ∀ a, (![0, 57, 0, 0] : Fin 4 → Nat) a + S1x1x64x128.size a ≤ S1x64x64x128.size a
  inb_S4624x128_S64x128_4014_0 : ∀ a, (![4014, 0] : Fin 2 → Nat) a + S64x128.size a ≤ S4624x128.size a
  inb_S1x64x64x128_S1x1x64x128_0_58_0_0 : ∀ a, (![0, 58, 0, 0] : Fin 4 → Nat) a + S1x1x64x128.size a ≤ S1x64x64x128.size a
  inb_S4624x128_S64x128_4082_0 : ∀ a, (![4082, 0] : Fin 2 → Nat) a + S64x128.size a ≤ S4624x128.size a
  inb_S1x64x64x128_S1x1x64x128_0_59_0_0 : ∀ a, (![0, 59, 0, 0] : Fin 4 → Nat) a + S1x1x64x128.size a ≤ S1x64x64x128.size a
  inb_S4624x128_S64x128_4150_0 : ∀ a, (![4150, 0] : Fin 2 → Nat) a + S64x128.size a ≤ S4624x128.size a
  inb_S1x64x64x128_S1x1x64x128_0_60_0_0 : ∀ a, (![0, 60, 0, 0] : Fin 4 → Nat) a + S1x1x64x128.size a ≤ S1x64x64x128.size a
  inb_S4624x128_S64x128_4218_0 : ∀ a, (![4218, 0] : Fin 2 → Nat) a + S64x128.size a ≤ S4624x128.size a
  inb_S1x64x64x128_S1x1x64x128_0_61_0_0 : ∀ a, (![0, 61, 0, 0] : Fin 4 → Nat) a + S1x1x64x128.size a ≤ S1x64x64x128.size a
  inb_S4624x128_S64x128_4286_0 : ∀ a, (![4286, 0] : Fin 2 → Nat) a + S64x128.size a ≤ S4624x128.size a
  inb_S1x64x64x128_S1x1x64x128_0_62_0_0 : ∀ a, (![0, 62, 0, 0] : Fin 4 → Nat) a + S1x1x64x128.size a ≤ S1x64x64x128.size a
  inb_S4624x128_S64x128_4354_0 : ∀ a, (![4354, 0] : Fin 2 → Nat) a + S64x128.size a ≤ S4624x128.size a
  inb_S1x64x64x128_S1x1x64x128_0_63_0_0 : ∀ a, (![0, 63, 0, 0] : Fin 4 → Nat) a + S1x1x64x128.size a ≤ S1x64x64x128.size a
  inb_S4624x128_S64x128_4422_0 : ∀ a, (![4422, 0] : Fin 2 → Nat) a + S64x128.size a ≤ S4624x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4352x128 : S1x128.Broadcasts S4352x128
  inb_S4624x128_S4352x128_67_0 : ∀ a, (![67, 0] : Fin 2 → Nat) a + S4352x128.size a ≤ S4624x128.size a
  h_S4352x128 : 0 < S4352x128.numel
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S4624x128_S4352x128_68_0 : ∀ a, (![68, 0] : Fin 2 → Nat) a + S4352x128.size a ≤ S4624x128.size a
  inb_S9x128x128_S1x128x128_1_0_0 : ∀ a, (![1, 0, 0] : Fin 3 → Nat) a + S1x128x128.size a ≤ S9x128x128.size a
  inb_S4624x128_S4352x128_69_0 : ∀ a, (![69, 0] : Fin 2 → Nat) a + S4352x128.size a ≤ S4624x128.size a
  inb_S9x128x128_S1x128x128_2_0_0 : ∀ a, (![2, 0, 0] : Fin 3 → Nat) a + S1x128x128.size a ≤ S9x128x128.size a
  inb_S4624x128_S4352x128_135_0 : ∀ a, (![135, 0] : Fin 2 → Nat) a + S4352x128.size a ≤ S4624x128.size a
  inb_S9x128x128_S1x128x128_3_0_0 : ∀ a, (![3, 0, 0] : Fin 3 → Nat) a + S1x128x128.size a ≤ S9x128x128.size a
  inb_S4624x128_S4352x128_136_0 : ∀ a, (![136, 0] : Fin 2 → Nat) a + S4352x128.size a ≤ S4624x128.size a
  inb_S9x128x128_S1x128x128_4_0_0 : ∀ a, (![4, 0, 0] : Fin 3 → Nat) a + S1x128x128.size a ≤ S9x128x128.size a
  inb_S4624x128_S4352x128_137_0 : ∀ a, (![137, 0] : Fin 2 → Nat) a + S4352x128.size a ≤ S4624x128.size a
  inb_S9x128x128_S1x128x128_5_0_0 : ∀ a, (![5, 0, 0] : Fin 3 → Nat) a + S1x128x128.size a ≤ S9x128x128.size a
  inb_S4624x128_S4352x128_203_0 : ∀ a, (![203, 0] : Fin 2 → Nat) a + S4352x128.size a ≤ S4624x128.size a
  inb_S9x128x128_S1x128x128_6_0_0 : ∀ a, (![6, 0, 0] : Fin 3 → Nat) a + S1x128x128.size a ≤ S9x128x128.size a
  inb_S4624x128_S4352x128_204_0 : ∀ a, (![204, 0] : Fin 2 → Nat) a + S4352x128.size a ≤ S4624x128.size a
  inb_S9x128x128_S1x128x128_7_0_0 : ∀ a, (![7, 0, 0] : Fin 3 → Nat) a + S1x128x128.size a ≤ S9x128x128.size a
  inb_S4624x128_S4352x128_205_0 : ∀ a, (![205, 0] : Fin 2 → Nat) a + S4352x128.size a ≤ S4624x128.size a
  inb_S9x128x128_S1x128x128_8_0_0 : ∀ a, (![8, 0, 0] : Fin 3 → Nat) a + S1x128x128.size a ≤ S9x128x128.size a
  inb_S4624x128_S136x128_0_0 : ∀ a, (![0, 0] : Fin 2 → Nat) a + S136x128.size a ≤ S4624x128.size a
  h_S136x128 : 0 < S136x128.numel
  shapeCasts_S136x128_S136x128 : S136x128.ShapeCasts S136x128
  inb_S4624x128_S136x128_4488_0 : ∀ a, (![4488, 0] : Fin 2 → Nat) a + S136x128.size a ≤ S4624x128.size a
  inb_S4352x1_S4352x1_0_0 : ∀ a, (![0, 0] : Fin 2 → Nat) a + S4352x1.size a ≤ S4352x1.size a
  h_S4352x1 : 0 < S4352x1.numel
  shapeCasts_S4352x1_S4352x1 : S4352x1.ShapeCasts S4352x1
  broadcasts_S4352x1_S4352x128 : S4352x1.Broadcasts S4352x128
  shapeCasts_S4352x128_S4352x128 : S4352x128.ShapeCasts S4352x128
  inb_S1x4352x128_S1x4352x128_0_0_0 : ∀ a, (![0, 0, 0] : Fin 3 → Nat) a + S1x4352x128.size a ≤ S1x4352x128.size a
  h_S1x4352x128 : 0 < S1x4352x128.numel
  shapeCasts_S1x4352x128_S4352x128 : S1x4352x128.ShapeCasts S4352x128
  shapeCasts_S4352x128_S1x4352x128 : S4352x128.ShapeCasts S1x4352x128
  shapeCasts_S16x4352x128_S16x64x68x128 : S16x4352x128.ShapeCasts S16x64x68x128
  slices_S16x64x68x128_S16x64x64x128_0_0_2_0 : S16x64x68x128.Slices ![0, 0, 2, 0] S16x64x64x128
  transposes_S16x64x64x128_S16x128x64x64_0_3_1_2 : S16x64x64x128.Transposes [0, 3, 1, 2] S16x128x64x64
  dot_S1024x256_S256x512_S1024x512_1_0_0_1_n_n_wf : DotDims.WF S1024x256 S256x512 S1024x512 [1] [0] [0] [1] [] []
  dot_S4352x128_S128x128_S4352x128_1_0_0_1_n_n_wf : DotDims.WF S4352x128 S128x128 S4352x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2x32x256.size a ≤ S16x32x2x32x256.size a
  hwx0_3 : ∀ i : grid0.Coords, EltTy.bits .f32 = 32 ∨ (Rect.block (s := S16x32x2x32x256) S1x32x2x32x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S16x64x64x128.size a
  hwx1_0 : ∀ i : grid1.Coords, EltTy.bits .f32 = 32 ∨ (Rect.block (s := S16x64x64x128) S1x64x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64x128.size a ≤ S16x64x64x128.size a
  hwx1_1 : ∀ i : grid1.Coords, EltTy.bits .f32 = 32 ∨ (Rect.block (s := S16x64x64x128) S1x64x64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4352x1.size a ≤ S4352x1.size a
  hwx1_2 : ∀ i : grid1.Coords, EltTy.bits .f32 = 32 ∨ (Rect.block (s := S4352x1) S4352x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x128x128.size a ≤ S9x128x128.size a
  hwx1_3 : ∀ i : grid1.Coords, EltTy.bits .f32 = 32 ∨ (Rect.block (s := S9x128x128) S9x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9x128x128.size a ≤ S9x128x128.size a
  hwx1_4 : ∀ i : grid1.Coords, EltTy.bits .f32 = 32 ∨ (Rect.block (s := S9x128x128) S9x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x128x128.size a ≤ S9x128x128.size a
  hwx1_6 : ∀ i : grid1.Coords, EltTy.bits .f32 = 32 ∨ (Rect.block (s := S9x128x128) S9x128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x4352x128.size a ≤ S16x4352x128.size a
  hwx1_8 : ∀ i : grid1.Coords, EltTy.bits .f32 = 32 ∨ (Rect.block (s := S16x4352x128) S1x4352x128.size (cc1_transform_8 i) (hinb1_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S4352x128_S128x128_S4352x128_1_0_0_1_n_n : DotDims S4352x128 S128x128 S4352x128 where
  lhsContracting := [1]
  rhsContracting := [0]
  lhsNonContracting := [0]
  rhsNonContracting := [1]
  lhsBatch := []
  rhsBatch := []
  wf := dot_S4352x128_S128x128_S4352x128_1_0_0_1_n_n_wf

abbrev win0_0 : Pipeline.Window sig grid0 :=
  Pipeline.Window.ofSpec (Memref.whole main_v8) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x32x2x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x64x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4352x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S9x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S9x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S9x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S1x4352x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== Proof.Spec.lean ====
/-
  The mathematics of one sample of the block, on the extended reals, as ONE function of its arrays.

  A 2×2, stride-2 transposed convolution doubles a [256, 32, 32] image to [128, 64, 64]:
  `up co y x = (∑ ci, x1 ci (y/2) (x/2) · wt ci co (y%2) (x%2)) + bt co`. It is concatenated UNDER the skip image
  `x2` along channels (channels 0..127 are `x2`, channels 128..255 are `up`), padded by a ring of zeros, and sent through
  two 3×3 convolutions with bias, each followed by `max · 0`. Padded coordinates are naturals shifted by one:
  `Y = y + 1`, so the image occupies `1 ≤ Y ≤ 64` and everything else is the zero ring; a tap `(dh, dw)` of the
  output pixel `(y, x)` reads padded position `(y + dh, x + dw)`.

  The last section holds the three rearrangements of finite sums by which an unrolled chain of nine (or eighteen)
  additions is the double sum over the taps, and a sum over 256 channels splits into its two halves: the extended reals
  are a commutative additive monoid, so none of them needs a finiteness hypothesis.
-/
import Idealize.ShloMosaic.PureOps.Ideal

noncomputable section

namespace Cert.UpBlock

open scoped BigOperators

/-- Inside the image, in padded coordinates. -/
abbrev Inside (Y X : ℕ) : Prop := 1 ≤ Y ∧ Y ≤ 64 ∧ 1 ≤ X ∧ X ≤ 64

theorem Inside.y_lt {Y X : ℕ} (h : Inside Y X) : Y - 1 < 64 := by have := h.1; have := h.2.1; omega
theorem Inside.x_lt {Y X : ℕ} (h : Inside Y X) : X - 1 < 64 := by have := h.2.2.1; have := h.2.2.2; omega

section
variable (x1 : Fin 256 → Fin 32 → Fin 32 → EReal) (x2 : Fin 128 → Fin 64 → Fin 64 → EReal)
  (wt : Fin 256 → Fin 128 → Fin 2 → Fin 2 → EReal) (bt : Fin 128 → EReal)
  (upv : Fin 128 → Fin 64 → Fin 64 → EReal)
  (w1 : Fin 128 → Fin 256 → Fin 3 → Fin 3 → EReal) (b1 : Fin 128 → EReal)
  (w2 : Fin 128 → Fin 128 → Fin 3 → Fin 3 → EReal) (b2 : Fin 128 → EReal)

/-- The transposed convolution: output pixel `(y, x)` takes input pixel `(y/2, x/2)` through the kernel entry
    `(y%2, x%2)`. -/
def up (co : Fin 128) (y x : Fin 64) : EReal :=
  (∑ ci : Fin 256, x1 ci ⟨y.val / 2, by have := y.isLt; omega⟩ ⟨x.val / 2, by have := x.isLt; omega⟩
      * wt ci co ⟨y.val % 2, Nat.mod_lt _ (by decide)⟩ ⟨x.val % 2, Nat.mod_lt _ (by decide)⟩) + bt co

/-- The padded concatenation at padded position `(Y, X)`: the skip image `x2` below channel 128, a second image
    `upv` (the upsampled one) from channel 128 on, zero outside the image. -/
def cat (Y X : ℕ) (ci : Fin 256) : EReal :=
  if h : Inside Y X then
    if hc : ci.val < 128 then x2 ⟨ci.val, hc⟩ ⟨Y - 1, h.y_lt⟩ ⟨X - 1, h.x_lt⟩
    else upv ⟨ci.val - 128, by have := ci.isLt; omega⟩ ⟨Y - 1, h.y_lt⟩ ⟨X - 1, h.x_lt⟩
  else 0

/-- The first 3×3 convolution with its bias, at image pixel `(y, x)`. -/
def conv1 (cm : Fin 128) (y x : Fin 64) : EReal :=
  b1 cm + ∑ dh : Fin 3, ∑ dw : Fin 3, ∑ ci : Fin 256, cat x2 upv (y.val + dh.val) (x.val + dw.val) ci * w1 cm ci dh dw

/-- The hidden activation at padded position `(Y, X)`: `max (conv1) 0` inside the image, the zero ring outside. -/
def hid (Y X : ℕ) (cm : Fin 128) : EReal :=
  if h : Inside Y X then max (conv1 x2 upv w1 b1 cm ⟨Y - 1, h.y_lt⟩ ⟨X - 1, h.x_lt⟩) 0 else 0

/-- The two convolutions' result at image pixel `(y, x)`, channel `co`, over the skip image and a second image. -/
def out (co : Fin 128) (y x : Fin 64) : EReal :=
  max (b2 co + ∑ dh : Fin 3, ∑ dw : Fin 3, ∑ cm : Fin 128,
    hid x2 upv w1 b1 (y.val + dh.val) (x.val + dw.val) cm * w2 co cm dh dw) 0

/-- The whole block on one sample: the second image is the transposed convolution of `x1`. -/
def block (co : Fin 128) (y x : Fin 64) : EReal := out x2 (up x1 wt bt) w1 b1 w2 b2 co y x

end

/-! ## Rearrangements of finite sums on the extended reals -/

/-- Nine taps added one after the other onto `b + 0` are `b` plus the double sum over the taps. -/
theorem chain9 (b : EReal) (d : Fin 3 → Fin 3 → EReal) :
    b + 0 + d 0 0 + d 0 1 + d 0 2 + d 1 0 + d 1 1 + d 1 2 + d 2 0 + d 2 1 + d 2 2 = b + ∑ dh : Fin 3, ∑ dw : Fin 3, d dh dw := by
  simp only [Fin.sum_univ_three, add_zero]
  abel

/-- Eighteen half-taps, the two halves of each tap one after the other, onto `0 + b`. -/
theorem chain18 (b : EReal) (a e : Fin 3 → Fin 3 → EReal) :
    0 + b + a 0 0 + e 0 0 + a 0 1 + e 0 1 + a 0 2 + e 0 2 + a 1 0 + e 1 0 + a 1 1 + e 1 1 + a 1 2 + e 1 2
      + a 2 0 + e 2 0 + a 2 1 + e 2 1 + a 2 2 + e 2 2 = b + ∑ dh : Fin 3, ∑ dw : Fin 3, (a dh dw + e dh dw) := by
  simp only [Fin.sum_univ_three, zero_add]
  abel

/-- Nine taps onto `0 + b`. -/
theorem chain9' (b : EReal) (d : Fin 3 → Fin 3 → EReal) :
    0 + b + d 0 0 + d 0 1 + d 0 2 + d 1 0 + d 1 1 + d 1 2 + d 2 0 + d 2 1 + d 2 2 = b + ∑ dh : Fin 3, ∑ dw : Fin 3, d dh dw := by
  simp only [Fin.sum_univ_three, zero_add]
  abel

/-- A sum over 256 channels is the sum over the lower 128 plus the sum over the upper 128. -/
theorem sum256_split (f : Fin 256 → EReal) :
    ∑ ci : Fin 256, f ci = (∑ c : Fin 128, f ⟨c.val, by have := c.isLt; omega⟩) + ∑ c : Fin 128, f ⟨128 + c.val, by have := c.isLt; omega⟩ := by
  have h := Fin.sum_univ_add (a := 128) (b := 128) (fun i : Fin (128 + 128) => f i)
  refine h.trans ?_
  rfl

end Cert.UpBlock

end
-- ==== Proof.KDefs.lean ====
/-
  The kernel's block at one grid point, in closed form, as functions of the nine input blocks read as extended reals:
  `psv` is the product of the sample's [1024, 256] image with the [256, 512] transposed-convolution weight plus its bias;
  `slabv q ci` is what row `q` of the [4896, 256] slab holds: channels below 128 the skip image's padded block on the band
  rows 144..4751 and zero elsewhere; channels from 128 on the upsampled rows (row `r` of the upsampled image, 64 pixels
  wide, sits at band offset `72 r + 4`; its pixel `j` is row `32 (r / 2) + j / 2`, column
  `256 (r % 2) + 128 (j % 2) + co` of `psv`) and zero elsewhere; `acc1v` adds nine shifted windows of the slab, each
  contracted with its tap's [256, 128] weight, to the bias; `hsv` is `max · 0` of it times the mask on the band and zero
  off it; `outv` is the second convolution of `hsv` with `max · 0`. A tap `(dh, dw)` reads row `71 + 72 dh + dw + p`.
  The accessors at the end read the blocks as the arrays of the specification.
-/
import proofs.«177498_g2000606872001322_pallasbulk_142_4_alg».proof.KernelIdeal
import proofs.«177498_g2000606872001322_pallasbulk_142_4_alg».proof.Proof.Spec
import Idealize.ShloMosaic.Lib.ValueIdx

noncomputable section

namespace Cert.KernelIdeal.BodyValue

open Idealize.ShloMosaic Idealize.ShloMosaic.TcCoe Idealize.ShloMosaic.ValueIdx Cert.KernelIdeal
open scoped BigOperators

variable (x0 : Vec Ideal S1x1024x256 .bf16) (x1 : Vec Ideal S1x4608x128 .bf16) (x2 : Vec Ideal S4608x128 .f32)
  (x3 : Vec Ideal S256x512 .bf16) (x4 : Vec Ideal S1x512 .f32) (x5 : Vec Ideal S9x256x128 .bf16) (x6 : Vec Ideal S1x128 .f32)
  (x7 : Vec Ideal S9x128x128 .bf16) (x8 : Vec Ideal S1x128 .f32)

/-- The transposed convolution's four planes side by side: image row `a`, column `b = 128 (2 di + dj) + co`. -/
def psv (a : Fin 1024) (b : Fin 512) : EReal :=
  (∑ ci : Fin 256, (x0 (ix3 (0 : Fin 1) a ci) : EReal) * (x3 (ix2 ci b) : EReal)) + (x4 (ix2 (0 : Fin 1) b) : EReal)

/-- The slab at row `q`, channel `ci`. -/
def slabv (q : ℕ) (ci : Fin 256) : EReal :=
  if hc : ci.val < 128 then
    if hq : 144 ≤ q ∧ q < 4752 then (x1 (ix3 (0 : Fin 1) (⟨q - 144, by omega⟩ : Fin 4608) (⟨ci.val, hc⟩ : Fin 128)) : EReal) else 0
  else
    if hq : 144 ≤ q ∧ q < 4752 ∧ 4 ≤ (q - 144) % 72 ∧ (q - 144) % 72 < 68 then
      psv x0 x3 x4 ⟨32 * ((q - 144) / 72 / 2) + ((q - 144) % 72 - 4) / 2, by omega⟩
        ⟨256 * ((q - 144) / 72 % 2) + 128 * (((q - 144) % 72 - 4) % 2) + (ci.val - 128), by have := ci.isLt; omega⟩
    else 0

/-- The first convolution before its `max`, at band row `p`. -/
def acc1v (p : Fin 4608) (cm : Fin 128) : EReal :=
  (x6 (ix2 (0 : Fin 1) cm) : EReal) + ∑ dh : Fin 3, ∑ dw : Fin 3, ∑ ci : Fin 256,
    slabv x0 x1 x3 x4 (71 + 72 * dh.val + dw.val + p.val) ci
      * (x5 (ix3 (⟨3 * dh.val + dw.val, by have := dh.isLt; have := dw.isLt; omega⟩ : Fin 9) ci cm) : EReal)

/-- The hidden scratch at row `q`. -/
def hsv (q : ℕ) (cm : Fin 128) : EReal :=
  if hq : 144 ≤ q ∧ q < 4752 then
    max (acc1v x0 x1 x3 x4 x5 x6 ⟨q - 144, by omega⟩ cm) 0 * (x2 (ix2 (⟨q - 144, by omega⟩ : Fin 4608) cm) : EReal)
  else 0

/-- The output block at band row `p`. -/
def outv (p : Fin 4608) (co : Fin 128) : EReal :=
  max ((x8 (ix2 (0 : Fin 1) co) : EReal) + ∑ dh : Fin 3, ∑ dw : Fin 3, ∑ cm : Fin 128,
    hsv x0 x1 x2 x3 x4 x5 x6 (71 + 72 * dh.val + dw.val + p.val) cm
      * (x7 (ix3 (⟨3 * dh.val + dw.val, by have := dh.isLt; have := dw.isLt; omega⟩ : Fin 9) cm co) : EReal)) 0

/-! ## The blocks read as the specification's arrays -/

def X1 : Fin 256 → Fin 32 → Fin 32 → EReal := fun ci h w =>
  x0 (ix3 (0 : Fin 1) (⟨h.val * 32 + w.val, by have := h.isLt; have := w.isLt; omega⟩ : Fin 1024) ci)
def X2 : Fin 128 → Fin 64 → Fin 64 → EReal := fun ch y x =>
  x1 (ix3 (0 : Fin 1) (⟨y.val * 72 + 4 + x.val, by have := y.isLt; have := x.isLt; omega⟩ : Fin 4608) ch)
def WT : Fin 256 → Fin 128 → Fin 2 → Fin 2 → EReal := fun ci co di dj =>
  x3 (ix2 ci (⟨(di.val * 2 + dj.val) * 128 + co.val, by have := di.isLt; have := dj.isLt; have := co.isLt; omega⟩ : Fin 512))
def BT : Fin 128 → EReal := fun co => x4 (ix2 (0 : Fin 1) (⟨co.val, by have := co.isLt; omega⟩ : Fin 512))
def W1 : Fin 128 → Fin 256 → Fin 3 → Fin 3 → EReal := fun cm ci dh dw =>
  x5 (ix3 (⟨3 * dh.val + dw.val, by have := dh.isLt; have := dw.isLt; omega⟩ : Fin 9) ci cm)
def B1 : Fin 128 → EReal := fun cm => x6 (ix2 (0 : Fin 1) cm)
def W2 : Fin 128 → Fin 128 → Fin 3 → Fin 3 → EReal := fun co cm dh dw =>
  x7 (ix3 (⟨3 * dh.val + dw.val, by have := dh.isLt; have := dw.isLt; omega⟩ : Fin 9) cm co)
def B2 : Fin 128 → EReal := fun co => x8 (ix2 (0 : Fin 1) co)

end Cert.KernelIdeal.BodyValue

end
-- ==== Proof.KMask.lean ====
/-
  The column mask the kernel multiplies its hidden activation by, read at an index on the extended reals.

  The host builds it from the positions 0 .. 4607 of a band of 64 rows of padded width 72: each position is reduced
  modulo 72 (a floored remainder: the truncated one, corrected by the divisor when the remainder is negative or the
  divisor is, neither of which happens for a position below 4608 and the divisor 72), compared with 4 from below and
  with 68 from above, the conjunction turned into a float and spread over the 128 channels by a chain of reshapes and
  broadcasts. So at pixel row y, padded column X and any channel it is one exactly when 4 ≤ X < 68: the 64 image columns
  inside the two margins of four.
-/
import proofs.«177498_g2000606872001322_pallasbulk_142_4_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.Lib.Affine
import Idealize.ShloMosaic.Lib.Tactic
import Idealize.ShloMosaic.Lib.StableHlo.Predicate

noncomputable section

open Idealize.ShloMosaic Idealize.ShloMosaic.TcCoe Idealize.ShloMosaic.ValueIdx Idealize.SL.Sem

namespace Cert.KernelIdeal.MaskValue

open Cert.KernelIdeal Cert.KernelIdeal.Gen

variable (m : (ℓ : Loc nD τ sig) → Buf (Elt Ideal) ℓ)

/-! ## Words -/

/-- The divisor the remainder is taken by: 72, a zero divisor having been replaced by one. -/
theorem divisor_word : (Scalar.select (IntOp.cmpi .eq (72#32) (0#32)) (1#32) (72#32)) = BitVec.ofNat 32 72 := by decide

/-- The remainder modulo 72 of a small word, with the floor correction for a negative remainder or divisor, which is
    never taken: the word of the natural remainder. -/
theorem rem72_word (x : BitVec 32) (hx : x.toNat < 4608) :
    Scalar.select
        (IntOp.andi
          (IntOp.cmpi .ne (IntOp.cmpi .slt (IntOp.remsi .host x (Scalar.select (IntOp.cmpi .eq (72#32) (0#32)) (1#32) (72#32))) (0#32)) (IntOp.cmpi .slt (Scalar.select (IntOp.cmpi .eq (72#32) (0#32)) (1#32) (72#32)) (0#32)))
          (IntOp.cmpi .ne (IntOp.remsi .host x (Scalar.select (IntOp.cmpi .eq (72#32) (0#32)) (1#32) (72#32))) (0#32)))
        (IntOp.addi (IntOp.remsi .host x (Scalar.select (IntOp.cmpi .eq (72#32) (0#32)) (1#32) (72#32))) (Scalar.select (IntOp.cmpi .eq (72#32) (0#32)) (1#32) (72#32)))
        (IntOp.remsi .host x (Scalar.select (IntOp.cmpi .eq (72#32) (0#32)) (1#32) (72#32)))
      = BitVec.ofNat 32 (x.toNat % 72) := by
  rw [divisor_word]
  have hr : (IntOp.remsi .host x (BitVec.ofNat 32 72)).toNat = x.toNat % 72 :=
    IntOp.toNat_remsi .host (by omega) 72 (by decide) (by decide)
  generalize IntOp.remsi .host x (BitVec.ofNat 32 72) = r at hr ⊢
  have hr72 : r.toNat < 72 := by rw [hr]; exact Nat.mod_lt _ (by decide)
  have h1 : IntOp.cmpi .slt r (0#32) = 0#1 := by
    apply eq_zero_of_ne_one
    rw [IntOp.cmpi_slt, StableHlo.Predicate.toInt_eq_toNat_of_lt (a := r) (by omega)]
    have : (0#32 : BitVec 32).toInt = 0 := by decide
    rw [this]; omega
  have h2 : IntOp.cmpi .slt (BitVec.ofNat 32 72) (0#32) = 0#1 := by decide
  have h3 : IntOp.cmpi .ne (0#1) (0#1) = 0#1 := by decide
  have h4 : ∀ d : BitVec 1, IntOp.andi (0#1) d = 0#1 := by decide
  rw [h1, h2, h3, h4, select_zero]
  exact BitVec.eq_of_toNat_eq (by rw [hr, BitVec.toNat_ofNat]; omega)

/-- The two comparisons of a column position below 72 against 4 and 68, and their conjunction. -/
theorem mask_word : ∀ n : Fin 72,
    IntOp.andi (IntOp.cmpi .sge (BitVec.ofNat 32 n.val) (4#32)) (IntOp.cmpi .slt (BitVec.ofNat 32 n.val) (68#32))
      = if 4 ≤ n.val ∧ n.val < 68 then 1#1 else 0#1 := by decide

/-! ## The position array and the mask -/

set_option maxHeartbeats 400000 in
/-- The position array: entry q is q modulo 72. -/
theorem v43_apply (c : Dev nD) (q : Fin 4608) :
    (V m c main_v43 : S4608.Idx → BitVec 32) (ix1 q) = BitVec.ofNat 32 (q.val % 72) := by
  have hq : (BitVec.ofNat 32 q.val).toNat = q.val := by
    rw [BitVec.toNat_ofNat]; exact Nat.mod_eq_of_lt (by have := q.isLt; omega)
  refine Eq.trans ?_ ((rem72_word (BitVec.ofNat 32 q.val) (by rw [hq]; exact q.isLt)).trans (by rw [hq]))
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 400000 in
/-- The mask array over the position array: the two comparisons, their conjunction as a float, and the layout
    operations that spread it over the 128 channels. -/
theorem v53_term (c : Dev nD) :
    (V m c main_v53 : S4608x128.Idx → EReal)
      = shapeCast S4608x128
          (broadcastInDim S1x4608x128x1 ![0, 1, 2, 3] bcast_S1x4608x1x1_S1x4608x128x1_0_1_2_3
            (shapeCast S1x4608x1x1
              (broadcastInDim S4608x1 ![0] bcast_S4608_S4608x1_0
                (uitofp (F := Ideal) .f32
                  (andi
                    (cmpi .sge (V m c main_v43 : S4608.Idx → BitVec 32)
                      (broadcastInDim S4608 ![] bcast_S_S4608 (constantI S_ 32 4#32)))
                    (cmpi .slt (V m c main_v43 : S4608.Idx → BitVec 32)
                      (broadcastInDim S4608 ![] bcast_S_S4608 (constantI S_ 32 68#32))))))
              shapeCasts_S4608x1_S1x4608x1x1))
          shapeCasts_S1x4608x128x1_S4608x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The mask at row q of the 4608 and any channel: one where q modulo 72 lies in 4..67, zero elsewhere. -/
theorem mask_row_apply (c : Dev nD) (q : Fin 4608) (cm : Fin 128) :
    (V m c main_v53 : S4608x128.Idx → EReal) (ix2 q cm)
      = if 4 ≤ q.val % 72 ∧ q.val % 72 < 68 then (1 : EReal) else 0 := by
  rw [v53_term]
  refine (shapeCast_apply _ _ (ix2 q cm) (ix4 (0 : Fin 1) q cm (0 : Fin 1)) ?_).trans ?_
  · rw [Shape.rowMajor_val_four, Shape.rowMajor_val_two]
    show ((0 * 4608 + q.val) * 128 + cm.val) * 1 + 0 = q.val * 128 + cm.val
    omega
  refine (broadcastInDim_apply _ _ _ (ix4 (0 : Fin 1) q cm (0 : Fin 1)) (ix4 (0 : Fin 1) q (0 : Fin 1) (0 : Fin 1)) ?_).trans ?_
  · intro a
    match a with
    | ⟨0, _⟩ => rfl
    | ⟨1, _⟩ => rfl
    | ⟨2, _⟩ => rfl
    | ⟨3, _⟩ => rfl
  refine (shapeCast_apply _ _ (ix4 (0 : Fin 1) q (0 : Fin 1) (0 : Fin 1)) (ix2 q (0 : Fin 1)) ?_).trans ?_
  · rw [Shape.rowMajor_val_two, Shape.rowMajor_val_four]
    show q.val * 1 + 0 = ((0 * 4608 + q.val) * 1 + 0) * 1 + 0
    omega
  refine (broadcastInDim_apply _ _ _ (ix2 q (0 : Fin 1)) (ix1 q) ?_).trans ?_
  · intro a
    match a with
    | ⟨0, _⟩ => rfl
  show (((IntOp.andi (IntOp.cmpi .sge ((V m c main_v43 : S4608.Idx → BitVec 32) (ix1 q)) (4#32))
      (IntOp.cmpi .slt ((V m c main_v43 : S4608.Idx → BitVec 32) (ix1 q)) (68#32))).toNat : ℝ) : EReal) = _
  rw [v43_apply, mask_word ⟨q.val % 72, Nat.mod_lt _ (by decide)⟩]
  show (((if 4 ≤ q.val % 72 ∧ q.val % 72 < 68 then 1#1 else 0#1 : BitVec 1).toNat : ℝ) : EReal) = _
  by_cases h : 4 ≤ q.val % 72 ∧ q.val % 72 < 68
  · rw [if_pos h, if_pos h]; simp
  · rw [if_neg h, if_neg h]; simp

/-- The mask at pixel row y, padded column X and any channel. -/
theorem mask_apply (c : Dev nD) (y : Fin 64) (X : Fin 72) (cm : Fin 128) :
    (V m c main_v53 : S4608x128.Idx → EReal)
        (ix2 (⟨y.val * 72 + X.val, by have := y.isLt; have := X.isLt; omega⟩ : Fin 4608) cm)
      = if 4 ≤ X.val ∧ X.val < 68 then (1 : EReal) else 0 := by
  rw [mask_row_apply]
  have hX : (y.val * 72 + X.val) % 72 = X.val := by have := X.isLt; omega
  show (if 4 ≤ (y.val * 72 + X.val) % 72 ∧ (y.val * 72 + X.val) % 72 < 68 then (1 : EReal) else 0) = _
  rw [hX]

end Cert.KernelIdeal.MaskValue

end
-- ==== Proof.KHost.lean ====
/-
  What the host operations before the kernel's call leave in the nine arrays its windows stage, read at an index
  (the extended-real instance): transposes, reshapes and format changes of the arguments re-index them; the skip image is
  padded by four zero columns on each side of its width; the column mask is one on columns 4..67 of every 72-wide row;
  the two convolutions' scaled weights and biases are read through as arrays, never opened.
-/
import proofs.«177498_g2000606872001322_pallasbulk_142_4_alg».proof.Proof.Gen.KernelIdeal.Frame
import proofs.«177498_g2000606872001322_pallasbulk_142_4_alg».proof.Proof.KDefs
import proofs.«177498_g2000606872001322_pallasbulk_142_4_alg».proof.Proof.KMask
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.Lib.KernelVsHost

noncomputable section

open Idealize.ShloMosaic Idealize.ShloMosaic.TcCoe Idealize.ShloMosaic.ValueIdx Idealize.SL.Sem
open Idealize.ShloMosaic.Pipeline (Dat)

namespace Cert.KernelIdeal.HostValue

open Cert.KernelIdeal Cert.KernelIdeal.Gen

variable (m : (ℓ : Loc nD τ sig) → Buf (Elt Ideal) ℓ)

/-! ## The arrays written by transposes, reshapes and format changes

Each array's term is named once from the fold of the host operations (`…_term`), then read at an index: a reshape keeps the
row-major position, a transpose permutes the coordinates, the format change is the identity on extended reals. -/

set_option maxHeartbeats 400000 in
/-- The first image as the kernel stages it: channels moved last, the 32 × 32 pixels flattened to 1024 rows. -/
theorem v37_term (c : Dev nD) :
    (V m c main_v37 : S16x1024x256.Idx → EReal) =
      truncf (F := Ideal) .bf16 (shapeCast S16x1024x256
          (transpose S16x32x32x256 [0, 2, 3, 1] (m ((c : Thread nD τ).loc main_arg0) : FVec Ideal S16x256x32x32 .f32)
            transposes_S16x256x32x32_S16x32x32x256_0_2_3_1)
          shapeCasts_S16x32x32x256_S16x1024x256) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 400000 in
/-- Row `h * 32 + w`, channel `ci` of sample `n` is the argument's entry `(n, ci, h, w)`. -/
theorem v37_apply (c : Dev nD) (n : Fin 16) (h w : Fin 32) (ci : Fin 256) :
    (V m c main_v37 : S16x1024x256.Idx → EReal) (ix3 n (⟨h.val * 32 + w.val, by have := h.isLt; have := w.isLt; omega⟩ : Fin 1024) ci)
      = (m ((c : Thread nD τ).loc main_arg0) : S16x256x32x32.Idx → EReal) (ix4 n ci h w) := by
  rw [v37_term]
  refine (truncf_apply (ψ := .bf16) _ bitsLt_bf16_f32 _).trans ?_
  refine (shapeCast_apply _ _ _ (ix4 n h w ci) ?_).trans ?_
  · rw [Shape.rowMajor_val_four, Shape.rowMajor_val_three]
    show ((n.val * 32 + h.val) * 32 + w.val) * 256 + ci.val = (n.val * 1024 + (h.val * 32 + w.val)) * 256 + ci.val
    omega
  · exact transpose_apply _ _ _ _ (ix4 n ci h w) (fun b => match b with | ⟨0, _⟩ => rfl | ⟨1, _⟩ => rfl | ⟨2, _⟩ => rfl | ⟨3, _⟩ => rfl)

set_option maxHeartbeats 400000 in
/-- The transposed convolution's weight as a [256, 512] matrix: output channels moved last, then `(di, dj, co)` flattened. -/
theorem v22_term (c : Dev nD) :
    (V m c main_v22 : S256x512.Idx → EReal) =
      truncf (F := Ideal) .bf16 (shapeCast S256x512
          (transpose S256x2x2x128 [0, 2, 3, 1] (m ((c : Thread nD τ).loc main_arg2) : FVec Ideal S256x128x2x2 .f32)
            transposes_S256x128x2x2_S256x2x2x128_0_2_3_1)
          shapeCasts_S256x2x2x128_S256x512) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 400000 in
/-- Column `(di * 2 + dj) * 128 + co` of row `ci` is the weight's entry `(ci, co, di, dj)`. -/
theorem v22_apply (c : Dev nD) (ci : Fin 256) (di dj : Fin 2) (co : Fin 128) :
    (V m c main_v22 : S256x512.Idx → EReal) (ix2 ci (⟨(di.val * 2 + dj.val) * 128 + co.val, by have := di.isLt; have := dj.isLt; have := co.isLt; omega⟩ : Fin 512))
      = (m ((c : Thread nD τ).loc main_arg2) : S256x128x2x2.Idx → EReal) (ix4 ci co di dj) := by
  rw [v22_term]
  refine (truncf_apply (ψ := .bf16) _ bitsLt_bf16_f32 _).trans ?_
  refine (shapeCast_apply _ _ _ (ix4 ci di dj co) ?_).trans ?_
  · rw [Shape.rowMajor_val_four, Shape.rowMajor_val_two]
    show ((ci.val * 2 + di.val) * 2 + dj.val) * 128 + co.val = ci.val * 512 + ((di.val * 2 + dj.val) * 128 + co.val)
    omega
  · exact transpose_apply _ _ _ _ (ix4 ci co di dj) (fun b => match b with | ⟨0, _⟩ => rfl | ⟨1, _⟩ => rfl | ⟨2, _⟩ => rfl | ⟨3, _⟩ => rfl)

set_option maxHeartbeats 400000 in
/-- The transposed convolution's bias, repeated four times along one row of 512. -/
theorem v26_term (c : Dev nD) :
    (V m c main_v26 : S1x512.Idx → EReal) =
      shapeCast S1x512 (shapeCast S512 (broadcastInDim S4x128 ![0, 1] bcast_S1x128_S4x128_0_1
        (shapeCast S1x128 (m ((c : Thread nD τ).loc main_arg3) : FVec Ideal S128 .f32) shapeCasts_S128_S1x128))
        shapeCasts_S4x128_S512) shapeCasts_S512_S1x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 400000 in
/-- Column `k * 128 + co` of the bias row is the bias at `co`, for each of the four copies `k`. -/
theorem v26_apply (c : Dev nD) (k : Fin 4) (co : Fin 128) :
    (V m c main_v26 : S1x512.Idx → EReal) (ix2 (0 : Fin 1) (⟨k.val * 128 + co.val, by have := k.isLt; have := co.isLt; omega⟩ : Fin 512))
      = (m ((c : Thread nD τ).loc main_arg3) : S128.Idx → EReal) (ix1 co) := by
  rw [v26_term]
  refine (shapeCast_apply _ _ _ (ix1 (⟨k.val * 128 + co.val, by have := k.isLt; have := co.isLt; omega⟩ : Fin 512)) ?_).trans ?_
  · rw [Shape.rowMajor_val_one, Shape.rowMajor_val_two]
    show k.val * 128 + co.val = 0 * 512 + (k.val * 128 + co.val)
    omega
  refine (shapeCast_apply _ _ _ (ix2 k co) ?_).trans ?_
  · rw [Shape.rowMajor_val_two, Shape.rowMajor_val_one]
    rfl
  refine (broadcastInDim_apply _ _ _ _ (ix2 (0 : Fin 1) co) (fun a => match a with | ⟨0, _⟩ => rfl | ⟨1, _⟩ => rfl)).trans ?_
  exact shapeCast_a_1a_apply _ _ _ _

set_option maxHeartbeats 400000 in
/-- The first convolution's scaled weight, taps first: `(dh, dw)` flattened to nine, then input and output channels. -/
theorem v29_term (c : Dev nD) :
    (V m c main_v29 : S9x256x128.Idx → EReal) =
      truncf (F := Ideal) .bf16 (shapeCast S9x256x128
          (transpose S3x3x256x128 [2, 3, 1, 0] (V m c main_v6 : FVec Ideal S128x256x3x3 .f32)
            transposes_S128x256x3x3_S3x3x256x128_2_3_1_0)
          shapeCasts_S3x3x256x128_S9x256x128) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 400000 in
/-- Tap `3 * dh + dw`, input channel `ci`, output channel `cm` is the scaled weight's entry `(cm, ci, dh, dw)`. -/
theorem v29_apply (c : Dev nD) (dh dw : Fin 3) (ci : Fin 256) (cm : Fin 128) :
    (V m c main_v29 : S9x256x128.Idx → EReal) (ix3 (⟨3 * dh.val + dw.val, by have := dh.isLt; have := dw.isLt; omega⟩ : Fin 9) ci cm)
      = (V m c main_v6 : S128x256x3x3.Idx → EReal) (ix4 cm ci dh dw) := by
  rw [v29_term]
  refine (truncf_apply (ψ := .bf16) _ bitsLt_bf16_f32 _).trans ?_
  refine (shapeCast_apply _ _ _ (ix4 dh dw ci cm) ?_).trans ?_
  · rw [Shape.rowMajor_val_four, Shape.rowMajor_val_three]
    show ((dh.val * 3 + dw.val) * 256 + ci.val) * 128 + cm.val = ((3 * dh.val + dw.val) * 256 + ci.val) * 128 + cm.val
    omega
  · exact transpose_apply _ _ _ _ (ix4 cm ci dh dw) (fun b => match b with | ⟨0, _⟩ => rfl | ⟨1, _⟩ => rfl | ⟨2, _⟩ => rfl | ⟨3, _⟩ => rfl)

set_option maxHeartbeats 400000 in
/-- The first convolution's bias as one row. -/
theorem v33_term (c : Dev nD) :
    (V m c main_v33 : S1x128.Idx → EReal) =
      shapeCast S1x128 (V m c main_v9 : FVec Ideal S128 .f32) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

/-- The bias row at `cm` is the bias at `cm`. -/
theorem v33_apply (c : Dev nD) (cm : Fin 128) :
    (V m c main_v33 : S1x128.Idx → EReal) (ix2 (0 : Fin 1) cm) = (V m c main_v9 : S128.Idx → EReal) (ix1 cm) := by
  rw [v33_term]
  exact shapeCast_a_1a_apply _ _ _ _

set_option maxHeartbeats 400000 in
/-- The second convolution's scaled weight, taps first. -/
theorem v32_term (c : Dev nD) :
    (V m c main_v32 : S9x128x128.Idx → EReal) =
      truncf (F := Ideal) .bf16 (shapeCast S9x128x128
          (transpose S3x3x128x128 [2, 3, 1, 0] (V m c main_v16 : FVec Ideal S128x128x3x3 .f32)
            transposes_S128x128x3x3_S3x3x128x128_2_3_1_0)
          shapeCasts_S3x3x128x128_S9x128x128) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 400000 in
/-- Tap `3 * dh + dw`, input channel `cm`, output channel `co` is the scaled weight's entry `(co, cm, dh, dw)`. -/
theorem v32_apply (c : Dev nD) (dh dw : Fin 3) (cm co : Fin 128) :
    (V m c main_v32 : S9x128x128.Idx → EReal) (ix3 (⟨3 * dh.val + dw.val, by have := dh.isLt; have := dw.isLt; omega⟩ : Fin 9) cm co)
      = (V m c main_v16 : S128x128x3x3.Idx → EReal) (ix4 co cm dh dw) := by
  rw [v32_term]
  refine (truncf_apply (ψ := .bf16) _ bitsLt_bf16_f32 _).trans ?_
  refine (shapeCast_apply _ _ _ (ix4 dh dw cm co) ?_).trans ?_
  · rw [Shape.rowMajor_val_four, Shape.rowMajor_val_three]
    show ((dh.val * 3 + dw.val) * 128 + cm.val) * 128 + co.val = ((3 * dh.val + dw.val) * 128 + cm.val) * 128 + co.val
    omega
  · exact transpose_apply _ _ _ _ (ix4 co cm dh dw) (fun b => match b with | ⟨0, _⟩ => rfl | ⟨1, _⟩ => rfl | ⟨2, _⟩ => rfl | ⟨3, _⟩ => rfl)

set_option maxHeartbeats 400000 in
/-- The second convolution's bias as one row. -/
theorem v34_term (c : Dev nD) :
    (V m c main_v34 : S1x128.Idx → EReal) =
      shapeCast S1x128 (V m c main_v19 : FVec Ideal S128 .f32) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

/-- The bias row at `co` is the bias at `co`. -/
theorem v34_apply (c : Dev nD) (co : Fin 128) :
    (V m c main_v34 : S1x128.Idx → EReal) (ix2 (0 : Fin 1) co) = (V m c main_v19 : S128.Idx → EReal) (ix1 co) := by
  rw [v34_term]
  exact shapeCast_a_1a_apply _ _ _ _

/-! ## The skip image, padded

The reshape of the padded [16, 64, 72, 128] image reads row `y * 72 + X` at `(y, X)`; the pad reads the operand at
`X - 4` on columns 4..67 and its padding value, the integer zero converted, elsewhere. -/

set_option maxHeartbeats 400000 in
/-- Band row `y * 72 + X`, channel `ch` of sample `n`: the skip image's entry `(n, ch, y, X - 4)` on the 64 image columns,
    zero on the four margin columns on each side. -/
theorem v41_apply (c : Dev nD) (n : Fin 16) (y : Fin 64) (X : Fin 72) (ch : Fin 128) :
    (V m c main_v41 : S16x4608x128.Idx → EReal) (ix3 n (⟨y.val * 72 + X.val, by have := y.isLt; have := X.isLt; omega⟩ : Fin 4608) ch)
      = if h : 4 ≤ X.val ∧ X.val < 68 then
          (m ((c : Thread nD τ).loc main_arg1) : S16x128x64x64.Idx → EReal) (ix4 n ch y (⟨X.val - 4, by omega⟩ : Fin 64))
        else (0 : EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  refine (shapeCast_apply _ _ _ (ix4 n y X ch) ?_).trans ?_
  · show (S16x64x72x128.rowMajor (ix4 n y X ch)).val = (S16x4608x128.rowMajor (ix3 n (⟨y.val * 72 + X.val, by have := y.isLt; have := X.isLt; omega⟩ : Fin 4608) ch)).val
    rw [Shape.rowMajor_val_four, Shape.rowMajor_val_three]
    show ((n.val * 64 + y.val) * 72 + X.val) * 128 + ch.val = (n.val * 4608 + (y.val * 72 + X.val)) * 128 + ch.val
    omega
  show pad (s := S16x64x64x128) S16x64x72x128 ![0, 0, 4, 0] ![0, 0, 4, 0] ![0, 0, 0, 0] _ _ pads_S16x64x64x128_S16x64x72x128_000_000_440_000 h_S_ (ix4 n y X ch) = _
  by_cases hX : 4 ≤ X.val ∧ X.val < 68
  · rw [dif_pos hX]
    refine (pad_apply_of_inside _ _ _ _ _ _ _ _ (ix4 n y (⟨X.val - 4, by omega⟩ : Fin 64) ch) ?_).trans ?_
    · intro a
      match a with
      | ⟨0, _⟩ => show n.val = 0 + n.val * (0 + 1); omega
      | ⟨1, _⟩ => show y.val = 0 + y.val * (0 + 1); omega
      | ⟨2, _⟩ => show X.val = 4 + (X.val - 4) * (0 + 1); omega
      | ⟨3, _⟩ => show ch.val = 0 + ch.val * (0 + 1); omega
    show transpose S16x64x64x128 [0, 2, 3, 1] _ transposes_S16x128x64x64_S16x64x64x128_0_2_3_1 (ix4 n y (⟨X.val - 4, by omega⟩ : Fin 64) ch) = _
    exact transpose_apply _ _ _ _ (ix4 n ch y (⟨X.val - 4, by omega⟩ : Fin 64)) (fun b => match b with | ⟨0, _⟩ => rfl | ⟨1, _⟩ => rfl | ⟨2, _⟩ => rfl | ⟨3, _⟩ => rfl)
  · rw [dif_neg hX]
    refine (pad_apply_of_not_inside _ _ _ _ _ _ _ _ (2 : Fin 4) ?_).trans ?_
    · show ¬(4 ≤ X.val ∧ (X.val - 4) % (0 + 1) = 0 ∧ (X.val - 4) / (0 + 1) < 64)
      omega
    · show ((((0#32 : BitVec 32).toInt : ℤ) : ℝ) : EReal) = 0
      simp

/-! ## The column mask

Position `y * 72 + X` of the band is reduced modulo 72 to `X` and tested against the two margins: the mask module reads
the whole chain at an index. -/

/-- The mask at band row `y * 72 + X` is one on the 64 image columns and zero on the margins, whatever the channel. -/
theorem v53_apply (c : Dev nD) (y : Fin 64) (X : Fin 72) (cm : Fin 128) :
    (V m c main_v53 : S4608x128.Idx → EReal) (ix2 (⟨y.val * 72 + X.val, by have := y.isLt; have := X.isLt; omega⟩ : Fin 4608) cm)
      = if 4 ≤ X.val ∧ X.val < 68 then (1 : EReal) else 0 :=
  Cert.KernelIdeal.MaskValue.mask_apply m c y X cm

end Cert.KernelIdeal.HostValue

end
-- ==== Proof.KPay.lean ====
/-
  The kernel body's stored values, each read at an index on the extended reals, over arbitrary loaded blocks.

  On the extended reals narrowing and widening are the identity, the bf16 and f32 zero words are `0`, and a matrix
  product into the zero accumulator is the plain sum over the contracted axis. So:
  * the transposed convolution's product at `(a, b)` is `(∑ ci, x (0, a, ci) · w (ci, b)) + bias (0, b)`;
  * the fills are the zero function; the skip image's block is read with its leading unit axis dropped;
  * each of the 64 upsampled rows is one row-major reshape [32, 256] → [64, 128]: pixel `j`, channel `co` is entry
    `(j / 2, 128 (j % 2) + co)` of the loaded block, because `256 (j / 2) + 128 (j % 2) + co = 128 j + co`;
  * the first convolution at band row `p`, channel `cm` is `max (b1 cm + 0 + d₀ + d₁ + … + d₈) 0 · mask (p, cm)`, the nine
    taps `d_k = ∑ ci, L_k (p, ci) · w_k (0, ci, cm)` added one after the other in the order the body loads them;
  * the second convolution at `(0, p, co)` is `max (b2 co + 0 + e₀ + … + e₈) 0` with `e_k = ∑ cm, H_k (p, cm) · u_k (0, cm, co)`.
  Every product here is the plain [M, K] × [K, N] contraction, whose operand indices at output `(a, b)` and contraction
  position `k` are `(a, k)` and `(k, b)`; one lemma reads it at an index for all three sizes.
-/
import proofs.«177498_g2000606872001322_pallasbulk_142_4_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxHeartbeats 400000

noncomputable section

namespace Cert.KernelIdeal.PayValue

open Idealize.ShloMosaic Idealize.SL.Sem Idealize.ShloMosaic.ValueIdx Cert.KernelIdeal.Gen
open scoped BigOperators

/-! ## A plain matrix product into the zero accumulator -/

theorem plain_contr_rank (M K N : ℕ) : (DotDims.plain M K N).contr.rank = 1 := rfl

theorem plain_contr_size (M K N : ℕ) : (DotDims.plain M K N).contr.size ⟨0, Nat.one_pos⟩ = K := rfl

theorem plain_lhs_0 {M K N : ℕ} (j : (⟨2, ![M, N]⟩ : Shape).Idx) (k : (DotDims.plain M K N).contr.Idx) :
    ((DotDims.plain M K N).lhsIdx j k 0).val = (j 0).val := rfl

theorem plain_lhs_1 {M K N : ℕ} (j : (⟨2, ![M, N]⟩ : Shape).Idx) (k : (DotDims.plain M K N).contr.Idx) :
    ((DotDims.plain M K N).lhsIdx j k 1).val = (k ⟨0, Nat.one_pos⟩).val := rfl

theorem plain_rhs_0 {M K N : ℕ} (j : (⟨2, ![M, N]⟩ : Shape).Idx) (k : (DotDims.plain M K N).contr.Idx) :
    ((DotDims.plain M K N).rhsIdx j k 0).val = (k ⟨0, Nat.one_pos⟩).val := rfl

theorem plain_rhs_1 {M K N : ℕ} (j : (⟨2, ![M, N]⟩ : Shape).Idx) (k : (DotDims.plain M K N).contr.Idx) :
    ((DotDims.plain M K N).rhsIdx j k 1).val = (j 1).val := rfl

theorem plain_matmul_zero_apply {M K N : ℕ} {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul (DotDims.plain M K N) prec lhs rhs (constant (F := Ideal) ⟨2, ![M, N]⟩ .f32 0x00000000#32) (ix2 a b)
      = ∑ ci : Fin K, lhs (ix2 a ci) * rhs (ix2 ci b) := by
  refine (Ideal.matmul_constant_zero_apply _ prec lhs rhs (ix2 a b)).trans ?_
  refine ((Equiv.sum_comp (contrEquiv1 (DotDims.plain M K N) K (plain_contr_rank M K N) (plain_contr_size M K N)).symm _).symm).trans ?_
  refine Finset.sum_congr rfl fun ci _ => ?_
  have hk : (((contrEquiv1 (DotDims.plain M K N) K (plain_contr_rank M K N) (plain_contr_size M K N)).symm ci) ⟨0, Nat.one_pos⟩ : ℕ) = ci.val :=
    contrEquiv1_symm_val _ _ _ _ ci
  have hl : (DotDims.plain M K N).lhsIdx (ix2 a b) ((contrEquiv1 (DotDims.plain M K N) K (plain_contr_rank M K N) (plain_contr_size M K N)).symm ci) = ix2 a ci := by
    funext ax
    refine Fin.ext ?_
    match ax with
    | ⟨0, _⟩ => exact plain_lhs_0 _ _
    | ⟨1, _⟩ => exact (plain_lhs_1 _ _).trans hk
  have hr : (DotDims.plain M K N).rhsIdx (ix2 a b) ((contrEquiv1 (DotDims.plain M K N) K (plain_contr_rank M K N) (plain_contr_size M K N)).symm ci) = ix2 ci b := by
    funext ax
    refine Fin.ext ?_
    match ax with
    | ⟨0, _⟩ => exact (plain_rhs_0 _ _).trans hk
    | ⟨1, _⟩ => exact plain_rhs_1 _ _
  rw [hl, hr]

theorem dotU_eq : dot_S1024x256_S256x512_S1024x512_1_0_0_1_n_n = DotDims.plain 1024 256 512 := rfl
theorem dotA_eq : dot_S4608x256_S256x128_S4608x128_1_0_0_1_n_n = DotDims.plain 4608 256 128 := rfl
theorem dotB_eq : dot_S4608x128_S128x128_S4608x128_1_0_0_1_n_n = DotDims.plain 4608 128 128 := rfl

/-! ## The transposed convolution's product -/

theorem pay2_apply (v0 : Vec Ideal S1x1024x256 .bf16) (v2 : Vec Ideal S256x512 .bf16) (v5 : Vec Ideal S1x512 .f32)
    (a : Fin 1024) (b : Fin 512) :
    k0_pay2 v0 v2 v5 (ix2 a b) = (∑ ci : Fin 256, v0 (ix3 0 a ci) * v2 (ix2 ci b)) + v5 (ix2 0 b) := by
  unfold k0_pay2
  simp only [shapeCast_self]
  refine (addf_apply _ _ _).trans ?_
  refine congrArg₂ (· + ·) ?_ (broadcastTo_1b_ab_apply v5 _ a b)
  rw [dotU_eq]
  refine (plain_matmul_zero_apply (φ₁ := .bf16) (φ₂ := .bf16) none _ v2 a b).trans ?_
  exact Finset.sum_congr rfl fun ci _ => congrArg (· * v2 (ix2 ci b)) (shapeCast_1ab_ab_apply v0 _ a ci)

/-! ## The zero payloads -/

theorem pay3_eq : (k0_pay3 (F := Ideal)) = fun _ => (0 : EReal) := by
  unfold k0_pay3
  simp only [shapeCast_self]
  funext j
  exact Ideal.ofBits_zero_bf16

theorem pay4_eq : (k0_pay4 (F := Ideal)) = fun _ => (0 : EReal) := by
  unfold k0_pay4
  simp only [shapeCast_self]
  funext j
  exact Ideal.ofBits_zero_bf16

theorem pay5_eq : (k0_pay5 (F := Ideal)) = fun _ => (0 : EReal) := by
  unfold k0_pay5
  simp only [shapeCast_self]
  funext j
  exact Ideal.ofBits_zero_bf16

theorem pay80_eq : (k0_pay80 (F := Ideal)) = fun _ => (0 : EReal) := by
  unfold k0_pay80
  simp only [shapeCast_self]
  funext j
  exact Ideal.ofBits_zero_bf16

theorem pay81_eq : (k0_pay81 (F := Ideal)) = fun _ => (0 : EReal) := by
  unfold k0_pay81
  simp only [shapeCast_self]
  funext j
  exact Ideal.ofBits_zero_bf16

theorem pay3_apply (j : S144x256.Idx) : (k0_pay3 (F := Ideal)) j = 0 := congrFun pay3_eq j
theorem pay4_apply (j : S144x256.Idx) : (k0_pay4 (F := Ideal)) j = 0 := congrFun pay4_eq j
theorem pay5_apply (j : S4896x128.Idx) : (k0_pay5 (F := Ideal)) j = 0 := congrFun pay5_eq j
theorem pay80_apply (j : S144x128.Idx) : (k0_pay80 (F := Ideal)) j = 0 := congrFun pay80_eq j
theorem pay81_apply (j : S144x128.Idx) : (k0_pay81 (F := Ideal)) j = 0 := congrFun pay81_eq j

/-! ## The skip image's block -/

theorem pay6_apply (v24 : Vec Ideal S1x4608x128 .bf16) (q : Fin 4608) (ch : Fin 128) :
    k0_pay6 v24 (ix2 q ch) = v24 (ix3 0 q ch) := by
  unfold k0_pay6
  simp only [shapeCast_self]
  exact shapeCast_1ab_ab_apply v24 _ q ch

/-! ## One upsampled row -/

/-- Pixel `j`, channel `co` of an upsampled row is entry `(j / 2, 128 (j % 2) + co)` of the [32, 256] block it was
    loaded as: the row-major reshape [32, 256] → [64, 128] splits each row of 256 into two of 128. -/
def rowPay (v : Vec Ideal S32x256 .f32) : FVec Ideal S64x128 .bf16 := fun j =>
  v (ix2 (⟨(j 0).val / 2, by have := idx2_lt0 j; omega⟩ : Fin 32)
    (⟨((j 0).val % 2) * 128 + (j 1).val, by have := idx2_lt1 j; omega⟩ : Fin 256))

theorem rowPay_apply (v : Vec Ideal S32x256 .f32) (j : Fin 64) (co : Fin 128) :
    rowPay v (ix2 j co)
      = v (ix2 (⟨j.val / 2, by have := j.isLt; omega⟩ : Fin 32) (⟨(j.val % 2) * 128 + co.val, by have := co.isLt; omega⟩ : Fin 256)) := rfl

theorem row_cast_apply {α : Type} (v : S32x256.Idx → α) (h : S32x256.ShapeCasts S64x128) (j : Fin 64) (co : Fin 128) :
    shapeCast S64x128 v h (ix2 j co)
      = v (ix2 (⟨j.val / 2, by have := j.isLt; omega⟩ : Fin 32) (⟨(j.val % 2) * 128 + co.val, by have := co.isLt; omega⟩ : Fin 256)) :=
  shapeCast_apply v h _ _ (by
    rw [Shape.rowMajor_val_two, Shape.rowMajor_val_two]
    show (j.val / 2) * 256 + ((j.val % 2) * 128 + co.val) = j.val * 128 + co.val
    omega)

/-- The shared term of the 64 row payloads: reshape, narrow (the identity on the extended reals), identity cast. -/
theorem row_pay_eq (v : Vec Ideal S32x256 .f32) :
    (shapeCast S64x128 (truncf (F := Ideal) .bf16 (shapeCast S64x128 v shapeCasts_S32x256_S64x128) bitsLt_bf16_f32)
      shapeCasts_S64x128_S64x128 : FVec Ideal S64x128 .bf16) = rowPay v := by
  rw [shapeCast_self]
  funext j
  obtain ⟨a, b, rfl⟩ : ∃ (a : Fin 64) (b : Fin 128), j = ix2 a b := ⟨j 0, j 1, eq_ix2 j⟩
  exact row_cast_apply v _ a b

/-! The 64 row payloads, numbered by the payload their store takes; six of them are split over two payloads where the
    body's text is cut, and are stated for the composition the body makes. -/

theorem row7_eq (v : Vec Ideal S32x256 .f32) : k0_pay7 v = rowPay v := row_pay_eq v
theorem row8_eq (v : Vec Ideal S32x256 .f32) : k0_pay8 v = rowPay v := row_pay_eq v
theorem row9_eq (v : Vec Ideal S32x256 .f32) : k0_pay9 v = rowPay v := row_pay_eq v
theorem row10_eq (v : Vec Ideal S32x256 .f32) : k0_pay10 v = rowPay v := row_pay_eq v
theorem row11_eq (v : Vec Ideal S32x256 .f32) : k0_pay11 v = rowPay v := row_pay_eq v
theorem row13_eq (v : Vec Ideal S32x256 .f32) : k0_pay13 (k0_pay12 v) = rowPay v := row_pay_eq v
theorem row14_eq (v : Vec Ideal S32x256 .f32) : k0_pay14 v = rowPay v := row_pay_eq v
theorem row15_eq (v : Vec Ideal S32x256 .f32) : k0_pay15 v = rowPay v := row_pay_eq v
theorem row16_eq (v : Vec Ideal S32x256 .f32) : k0_pay16 v = rowPay v := row_pay_eq v
theorem row17_eq (v : Vec Ideal S32x256 .f32) : k0_pay17 v = rowPay v := row_pay_eq v
theorem row18_eq (v : Vec Ideal S32x256 .f32) : k0_pay18 v = rowPay v := row_pay_eq v
theorem row19_eq (v : Vec Ideal S32x256 .f32) : k0_pay19 v = rowPay v := row_pay_eq v
theorem row20_eq (v : Vec Ideal S32x256 .f32) : k0_pay20 v = rowPay v := row_pay_eq v
theorem row21_eq (v : Vec Ideal S32x256 .f32) : k0_pay21 v = rowPay v := row_pay_eq v
theorem row22_eq (v : Vec Ideal S32x256 .f32) : k0_pay22 v = rowPay v := row_pay_eq v
theorem row23_eq (v : Vec Ideal S32x256 .f32) : k0_pay23 v = rowPay v := row_pay_eq v
theorem row25_eq (v : Vec Ideal S32x256 .f32) : k0_pay25 (k0_pay24 v) = rowPay v := row_pay_eq v
theorem row26_eq (v : Vec Ideal S32x256 .f32) : k0_pay26 v = rowPay v := row_pay_eq v
theorem row27_eq (v : Vec Ideal S32x256 .f32) : k0_pay27 v = rowPay v := row_pay_eq v
theorem row28_eq (v : Vec Ideal S32x256 .f32) : k0_pay28 v = rowPay v := row_pay_eq v
theorem row29_eq (v : Vec Ideal S32x256 .f32) : k0_pay29 v = rowPay v := row_pay_eq v
theorem row30_eq (v : Vec Ideal S32x256 .f32) : k0_pay30 v = rowPay v := row_pay_eq v
theorem row31_eq (v : Vec Ideal S32x256 .f32) : k0_pay31 v = rowPay v := row_pay_eq v
theorem row32_eq (v : Vec Ideal S32x256 .f32) : k0_pay32 v = rowPay v := row_pay_eq v
theorem row33_eq (v : Vec Ideal S32x256 .f32) : k0_pay33 v = rowPay v := row_pay_eq v
theorem row34_eq (v : Vec Ideal S32x256 .f32) : k0_pay34 v = rowPay v := row_pay_eq v
theorem row35_eq (v : Vec Ideal S32x256 .f32) : k0_pay35 v = rowPay v := row_pay_eq v
theorem row37_eq (v : Vec Ideal S32x256 .f32) : k0_pay37 (k0_pay36 v) = rowPay v := row_pay_eq v
theorem row38_eq (v : Vec Ideal S32x256 .f32) : k0_pay38 v = rowPay v := row_pay_eq v
theorem row39_eq (v : Vec Ideal S32x256 .f32) : k0_pay39 v = rowPay v := row_pay_eq v
theorem row40_eq (v : Vec Ideal S32x256 .f32) : k0_pay40 v = rowPay v := row_pay_eq v
theorem row41_eq (v : Vec Ideal S32x256 .f32) : k0_pay41 v = rowPay v := row_pay_eq v
theorem row43_eq (v : Vec Ideal S32x256 .f32) : k0_pay43 (k0_pay42 v) = rowPay v := row_pay_eq v
theorem row44_eq (v : Vec Ideal S32x256 .f32) : k0_pay44 v = rowPay v := row_pay_eq v
theorem row45_eq (v : Vec Ideal S32x256 .f32) : k0_pay45 v = rowPay v := row_pay_eq v
theorem row46_eq (v : Vec Ideal S32x256 .f32) : k0_pay46 v = rowPay v := row_pay_eq v
theorem row47_eq (v : Vec Ideal S32x256 .f32) : k0_pay47 v = rowPay v := row_pay_eq v
theorem row48_eq (v : Vec Ideal S32x256 .f32) : k0_pay48 v = rowPay v := row_pay_eq v
theorem row49_eq (v : Vec Ideal S32x256 .f32) : k0_pay49 v = rowPay v := row_pay_eq v
theorem row50_eq (v : Vec Ideal S32x256 .f32) : k0_pay50 v = rowPay v := row_pay_eq v
theorem row51_eq (v : Vec Ideal S32x256 .f32) : k0_pay51 v = rowPay v := row_pay_eq v
theorem row52_eq (v : Vec Ideal S32x256 .f32) : k0_pay52 v = rowPay v := row_pay_eq v
theorem row53_eq (v : Vec Ideal S32x256 .f32) : k0_pay53 v = rowPay v := row_pay_eq v
theorem row55_eq (v : Vec Ideal S32x256 .f32) : k0_pay55 (k0_pay54 v) = rowPay v := row_pay_eq v
theorem row56_eq (v : Vec Ideal S32x256 .f32) : k0_pay56 v = rowPay v := row_pay_eq v
theorem row57_eq (v : Vec Ideal S32x256 .f32) : k0_pay57 v = rowPay v := row_pay_eq v
theorem row58_eq (v : Vec Ideal S32x256 .f32) : k0_pay58 v = rowPay v := row_pay_eq v
theorem row59_eq (v : Vec Ideal S32x256 .f32) : k0_pay59 v = rowPay v := row_pay_eq v
theorem row60_eq (v : Vec Ideal S32x256 .f32) : k0_pay60 v = rowPay v := row_pay_eq v
theorem row61_eq (v : Vec Ideal S32x256 .f32) : k0_pay61 v = rowPay v := row_pay_eq v
theorem row62_eq (v : Vec Ideal S32x256 .f32) : k0_pay62 v = rowPay v := row_pay_eq v
theorem row63_eq (v : Vec Ideal S32x256 .f32) : k0_pay63 v = rowPay v := row_pay_eq v
theorem row64_eq (v : Vec Ideal S32x256 .f32) : k0_pay64 v = rowPay v := row_pay_eq v
theorem row65_eq (v : Vec Ideal S32x256 .f32) : k0_pay65 v = rowPay v := row_pay_eq v
theorem row67_eq (v : Vec Ideal S32x256 .f32) : k0_pay67 (k0_pay66 v) = rowPay v := row_pay_eq v
theorem row68_eq (v : Vec Ideal S32x256 .f32) : k0_pay68 v = rowPay v := row_pay_eq v
theorem row69_eq (v : Vec Ideal S32x256 .f32) : k0_pay69 v = rowPay v := row_pay_eq v
theorem row70_eq (v : Vec Ideal S32x256 .f32) : k0_pay70 v = rowPay v := row_pay_eq v
theorem row71_eq (v : Vec Ideal S32x256 .f32) : k0_pay71 v = rowPay v := row_pay_eq v
theorem row72_eq (v : Vec Ideal S32x256 .f32) : k0_pay72 v = rowPay v := row_pay_eq v
theorem row73_eq (v : Vec Ideal S32x256 .f32) : k0_pay73 v = rowPay v := row_pay_eq v
theorem row74_eq (v : Vec Ideal S32x256 .f32) : k0_pay74 v = rowPay v := row_pay_eq v
theorem row75_eq (v : Vec Ideal S32x256 .f32) : k0_pay75 v = rowPay v := row_pay_eq v
theorem row76_eq (v : Vec Ideal S32x256 .f32) : k0_pay76 v = rowPay v := row_pay_eq v

/-- A row payload at a pixel and a channel, whichever of the 64 it is. -/
theorem rowPay_of_eq {f : FVec Ideal S64x128 .bf16} {v : Vec Ideal S32x256 .f32} (h : f = rowPay v) (j : Fin 64) (co : Fin 128) :
    f (ix2 j co)
      = v (ix2 (⟨j.val / 2, by have := j.isLt; omega⟩ : Fin 32) (⟨(j.val % 2) * 128 + co.val, by have := co.isLt; omega⟩ : Fin 256)) :=
  (congrFun h (ix2 j co)).trans (rowPay_apply v j co)

/-! ## The first convolution -/

/-- One tap of the first convolution: a slab window against its [256, 128] weight. -/
theorem tapA_apply (L : Vec Ideal S4608x256 .bf16) (w : Vec Ideal S1x256x128 .bf16) (p : Fin 4608) (cm : Fin 128) :
    matmul (F := Ideal) (φ₁ := .bf16) (φ₂ := .bf16) dot_S4608x256_S256x128_S4608x128_1_0_0_1_n_n none L (shapeCast S256x128 w shapeCasts_S1x256x128_S256x128)
        (constant (F := Ideal) S4608x128 .f32 0x00000000#32) (ix2 p cm)
      = ∑ ci : Fin 256, L (ix2 p ci) * w (ix3 0 ci cm) := by
  rw [dotA_eq]
  refine (plain_matmul_zero_apply (φ₁ := .bf16) (φ₂ := .bf16) none L _ p cm).trans ?_
  exact Finset.sum_congr rfl fun ci _ => congrArg (L (ix2 p ci) * ·) (shapeCast_1ab_ab_apply w _ ci cm)

theorem pay77_apply (b1 : Vec Ideal S1x128 .f32) (p : Fin 4608) (cm : Fin 128) :
    k0_pay77 b1 (ix2 p cm) = b1 (ix2 0 cm) + 0 := by
  unfold k0_pay77
  simp only [shapeCast_self]
  refine (addf_apply _ _ _).trans ?_
  exact congrArg₂ (· + ·) (broadcastTo_1b_ab_apply b1 _ p cm) Ideal.ofBits_zero_f32

theorem pay78_apply (w : Vec Ideal S1x256x128 .bf16) (ci : Fin 256) (cm : Fin 128) :
    k0_pay78 w (ix2 ci cm) = w (ix3 0 ci cm) := by
  unfold k0_pay78
  exact shapeCast_1ab_ab_apply w _ ci cm

theorem pay79_apply (acc : FVec Ideal S4608x128 .f32) (L0 : Vec Ideal S4608x256 .bf16) (W0 : FVec Ideal S256x128 .bf16)
    (L1 : Vec Ideal S4608x256 .bf16) (w1 : Vec Ideal S1x256x128 .bf16) (L2 : Vec Ideal S4608x256 .bf16) (w2 : Vec Ideal S1x256x128 .bf16)
    (L3 : Vec Ideal S4608x256 .bf16) (w3 : Vec Ideal S1x256x128 .bf16) (L4 : Vec Ideal S4608x256 .bf16) (w4 : Vec Ideal S1x256x128 .bf16)
    (L5 : Vec Ideal S4608x256 .bf16) (w5 : Vec Ideal S1x256x128 .bf16) (p : Fin 4608) (cm : Fin 128) :
    k0_pay79 acc L0 W0 (constant (F := Ideal) S4608x128 .f32 0x00000000#32) L1 w1 L2 w2 L3 w3 L4 w4 L5 w5 (ix2 p cm)
      = acc (ix2 p cm) + (∑ ci : Fin 256, L0 (ix2 p ci) * W0 (ix2 ci cm))
          + (∑ ci : Fin 256, L1 (ix2 p ci) * w1 (ix3 0 ci cm)) + (∑ ci : Fin 256, L2 (ix2 p ci) * w2 (ix3 0 ci cm))
          + (∑ ci : Fin 256, L3 (ix2 p ci) * w3 (ix3 0 ci cm)) + (∑ ci : Fin 256, L4 (ix2 p ci) * w4 (ix3 0 ci cm))
          + (∑ ci : Fin 256, L5 (ix2 p ci) * w5 (ix3 0 ci cm)) := by
  unfold k0_pay79
  refine (addf_apply _ _ _).trans (congrArg₂ (· + ·) ?_ (tapA_apply L5 w5 p cm))
  refine (addf_apply _ _ _).trans (congrArg₂ (· + ·) ?_ (tapA_apply L4 w4 p cm))
  refine (addf_apply _ _ _).trans (congrArg₂ (· + ·) ?_ (tapA_apply L3 w3 p cm))
  refine (addf_apply _ _ _).trans (congrArg₂ (· + ·) ?_ (tapA_apply L2 w2 p cm))
  refine (addf_apply _ _ _).trans (congrArg₂ (· + ·) ?_ (tapA_apply L1 w1 p cm))
  refine (addf_apply _ _ _).trans (congrArg₂ (· + ·) rfl ?_)
  rw [dotA_eq]
  exact plain_matmul_zero_apply (φ₁ := .bf16) (φ₂ := .bf16) none L0 W0 p cm

theorem pay82_apply (acc : FVec Ideal S4608x128 .f32) (L6 : Vec Ideal S4608x256 .bf16) (w6 : Vec Ideal S1x256x128 .bf16)
    (L7 : Vec Ideal S4608x256 .bf16) (w7 : Vec Ideal S1x256x128 .bf16) (L8 : Vec Ideal S4608x256 .bf16) (w8 : Vec Ideal S1x256x128 .bf16)
    (mask : Vec Ideal S4608x128 .f32) (p : Fin 4608) (cm : Fin 128) :
    k0_pay82 acc L6 w6 L7 w7 L8 w8 mask (ix2 p cm)
      = max (acc (ix2 p cm) + (∑ ci : Fin 256, L6 (ix2 p ci) * w6 (ix3 0 ci cm)) + (∑ ci : Fin 256, L7 (ix2 p ci) * w7 (ix3 0 ci cm))
          + (∑ ci : Fin 256, L8 (ix2 p ci) * w8 (ix3 0 ci cm))) 0 * mask (ix2 p cm) := by
  unfold k0_pay82
  simp only [shapeCast_self]
  refine (truncf_apply (φ := .f32) (ψ := .bf16) _ bitsLt_bf16_f32 (ix2 p cm)).trans ?_
  refine (mulf_apply _ _ _).trans (congrArg (· * mask (ix2 p cm)) ?_)
  refine (maximumf_apply _ _ _).trans (congrArg₂ max ?_ Ideal.ofBits_zero_f32)
  refine (addf_apply _ _ _).trans (congrArg₂ (· + ·) ?_ (tapA_apply L8 w8 p cm))
  refine (addf_apply _ _ _).trans (congrArg₂ (· + ·) ?_ (tapA_apply L7 w7 p cm))
  exact (addf_apply _ _ _).trans (congrArg₂ (· + ·) rfl (tapA_apply L6 w6 p cm))

/-- The first convolution's chain as the body composes it: the bias row plus zero, nine taps added one after the other,
    `max · 0`, times the mask. -/
theorem conv1_apply (b1 : Vec Ideal S1x128 .f32)
    (L0 : Vec Ideal S4608x256 .bf16) (w0 : Vec Ideal S1x256x128 .bf16) (L1 : Vec Ideal S4608x256 .bf16) (w1 : Vec Ideal S1x256x128 .bf16)
    (L2 : Vec Ideal S4608x256 .bf16) (w2 : Vec Ideal S1x256x128 .bf16) (L3 : Vec Ideal S4608x256 .bf16) (w3 : Vec Ideal S1x256x128 .bf16)
    (L4 : Vec Ideal S4608x256 .bf16) (w4 : Vec Ideal S1x256x128 .bf16) (L5 : Vec Ideal S4608x256 .bf16) (w5 : Vec Ideal S1x256x128 .bf16)
    (L6 : Vec Ideal S4608x256 .bf16) (w6 : Vec Ideal S1x256x128 .bf16) (L7 : Vec Ideal S4608x256 .bf16) (w7 : Vec Ideal S1x256x128 .bf16)
    (L8 : Vec Ideal S4608x256 .bf16) (w8 : Vec Ideal S1x256x128 .bf16) (mask : Vec Ideal S4608x128 .f32) (p : Fin 4608) (cm : Fin 128) :
    k0_pay82 (k0_pay79 (k0_pay77 b1) L0 (k0_pay78 w0) (constant (F := Ideal) S4608x128 .f32 0x00000000#32) L1 w1 L2 w2 L3 w3 L4 w4 L5 w5)
        L6 w6 L7 w7 L8 w8 mask (ix2 p cm)
      = max (b1 (ix2 0 cm) + 0
          + (∑ ci : Fin 256, L0 (ix2 p ci) * w0 (ix3 0 ci cm)) + (∑ ci : Fin 256, L1 (ix2 p ci) * w1 (ix3 0 ci cm))
          + (∑ ci : Fin 256, L2 (ix2 p ci) * w2 (ix3 0 ci cm)) + (∑ ci : Fin 256, L3 (ix2 p ci) * w3 (ix3 0 ci cm))
          + (∑ ci : Fin 256, L4 (ix2 p ci) * w4 (ix3 0 ci cm)) + (∑ ci : Fin 256, L5 (ix2 p ci) * w5 (ix3 0 ci cm))
          + (∑ ci : Fin 256, L6 (ix2 p ci) * w6 (ix3 0 ci cm)) + (∑ ci : Fin 256, L7 (ix2 p ci) * w7 (ix3 0 ci cm))
          + (∑ ci : Fin 256, L8 (ix2 p ci) * w8 (ix3 0 ci cm))) 0 * mask (ix2 p cm) := by
  rw [pay82_apply, pay79_apply, pay77_apply]
  simp only [pay78_apply]

/-! ## The second convolution -/

/-- One tap of the second convolution: a window of the hidden scratch against its [128, 128] weight. -/
theorem tapB_apply (H : Vec Ideal S4608x128 .bf16) (u : Vec Ideal S1x128x128 .bf16) (p : Fin 4608) (co : Fin 128) :
    matmul (F := Ideal) (φ₁ := .bf16) (φ₂ := .bf16) dot_S4608x128_S128x128_S4608x128_1_0_0_1_n_n none H (shapeCast S128x128 u shapeCasts_S1x128x128_S128x128)
        (constant (F := Ideal) S4608x128 .f32 0x00000000#32) (ix2 p co)
      = ∑ cm : Fin 128, H (ix2 p cm) * u (ix3 0 cm co) := by
  rw [dotB_eq]
  refine (plain_matmul_zero_apply (φ₁ := .bf16) (φ₂ := .bf16) none H _ p co).trans ?_
  exact Finset.sum_congr rfl fun cm _ => congrArg (H (ix2 p cm) * ·) (shapeCast_1ab_ab_apply u _ cm co)

theorem pay83_apply (b2 : Vec Ideal S1x128 .f32) (H0 : Vec Ideal S4608x128 .bf16) (u0 : Vec Ideal S1x128x128 .bf16)
    (H1 : Vec Ideal S4608x128 .bf16) (u1 : Vec Ideal S1x128x128 .bf16) (H2 : Vec Ideal S4608x128 .bf16) (u2 : Vec Ideal S1x128x128 .bf16)
    (H3 : Vec Ideal S4608x128 .bf16) (u3 : Vec Ideal S1x128x128 .bf16) (p : Fin 4608) (co : Fin 128) :
    k0_pay83 b2 H0 u0 H1 u1 H2 u2 H3 u3 (ix2 p co)
      = b2 (ix2 0 co) + 0
          + (∑ cm : Fin 128, H0 (ix2 p cm) * u0 (ix3 0 cm co)) + (∑ cm : Fin 128, H1 (ix2 p cm) * u1 (ix3 0 cm co))
          + (∑ cm : Fin 128, H2 (ix2 p cm) * u2 (ix3 0 cm co)) + (∑ cm : Fin 128, H3 (ix2 p cm) * u3 (ix3 0 cm co)) := by
  unfold k0_pay83
  simp only [shapeCast_self]
  refine (addf_apply _ _ _).trans (congrArg₂ (· + ·) ?_ (tapB_apply H3 u3 p co))
  refine (addf_apply _ _ _).trans (congrArg₂ (· + ·) ?_ (tapB_apply H2 u2 p co))
  refine (addf_apply _ _ _).trans (congrArg₂ (· + ·) ?_ (tapB_apply H1 u1 p co))
  refine (addf_apply _ _ _).trans (congrArg₂ (· + ·) ?_ (tapB_apply H0 u0 p co))
  refine (addf_apply _ _ _).trans ?_
  exact congrArg₂ (· + ·) (broadcastTo_1b_ab_apply b2 _ p co) Ideal.ofBits_zero_f32

theorem pay84_apply (acc : FVec Ideal S4608x128 .f32) (H4 : Vec Ideal S4608x128 .bf16) (u4 : Vec Ideal S1x128x128 .bf16)
    (H5 : Vec Ideal S4608x128 .bf16) (u5 : Vec Ideal S1x128x128 .bf16) (H6 : Vec Ideal S4608x128 .bf16) (u6 : Vec Ideal S1x128x128 .bf16)
    (H7 : Vec Ideal S4608x128 .bf16) (u7 : Vec Ideal S1x128x128 .bf16) (p : Fin 4608) (co : Fin 128) :
    k0_pay84 acc H4 u4 H5 u5 H6 u6 H7 u7 (ix2 p co)
      = acc (ix2 p co)
          + (∑ cm : Fin 128, H4 (ix2 p cm) * u4 (ix3 0 cm co)) + (∑ cm : Fin 128, H5 (ix2 p cm) * u5 (ix3 0 cm co))
          + (∑ cm : Fin 128, H6 (ix2 p cm) * u6 (ix3 0 cm co)) + (∑ cm : Fin 128, H7 (ix2 p cm) * u7 (ix3 0 cm co)) := by
  unfold k0_pay84
  refine (addf_apply _ _ _).trans (congrArg₂ (· + ·) ?_ (tapB_apply H7 u7 p co))
  refine (addf_apply _ _ _).trans (congrArg₂ (· + ·) ?_ (tapB_apply H6 u6 p co))
  refine (addf_apply _ _ _).trans (congrArg₂ (· + ·) ?_ (tapB_apply H5 u5 p co))
  exact (addf_apply _ _ _).trans (congrArg₂ (· + ·) rfl (tapB_apply H4 u4 p co))

theorem pay1_apply (acc : FVec Ideal S4608x128 .f32) (H8 : Vec Ideal S4608x128 .bf16) (u8 : Vec Ideal S1x128x128 .bf16)
    (p : Fin 4608) (co : Fin 128) :
    k0_pay1 acc H8 u8 (ix3 0 p co) = max (acc (ix2 p co) + (∑ cm : Fin 128, H8 (ix2 p cm) * u8 (ix3 0 cm co))) 0 := by
  unfold k0_pay1
  refine (shapeCast_ab_1ab_apply _ _ 0 p co).trans ?_
  refine (maximumf_apply _ _ _).trans (congrArg₂ max ?_ Ideal.ofBits_zero_f32)
  exact (addf_apply _ _ _).trans (congrArg₂ (· + ·) rfl (tapB_apply H8 u8 p co))

/-- The second convolution's chain as the body composes it. -/
theorem conv2_apply (b2 : Vec Ideal S1x128 .f32)
    (H0 : Vec Ideal S4608x128 .bf16) (u0 : Vec Ideal S1x128x128 .bf16) (H1 : Vec Ideal S4608x128 .bf16) (u1 : Vec Ideal S1x128x128 .bf16)
    (H2 : Vec Ideal S4608x128 .bf16) (u2 : Vec Ideal S1x128x128 .bf16) (H3 : Vec Ideal S4608x128 .bf16) (u3 : Vec Ideal S1x128x128 .bf16)
    (H4 : Vec Ideal S4608x128 .bf16) (u4 : Vec Ideal S1x128x128 .bf16) (H5 : Vec Ideal S4608x128 .bf16) (u5 : Vec Ideal S1x128x128 .bf16)
    (H6 : Vec Ideal S4608x128 .bf16) (u6 : Vec Ideal S1x128x128 .bf16) (H7 : Vec Ideal S4608x128 .bf16) (u7 : Vec Ideal S1x128x128 .bf16)
    (H8 : Vec Ideal S4608x128 .bf16) (u8 : Vec Ideal S1x128x128 .bf16) (p : Fin 4608) (co : Fin 128) :
    k0_pay1 (k0_pay84 (k0_pay83 b2 H0 u0 H1 u1 H2 u2 H3 u3) H4 u4 H5 u5 H6 u6 H7 u7) H8 u8 (ix3 0 p co)
      = max (b2 (ix2 0 co) + 0
          + (∑ cm : Fin 128, H0 (ix2 p cm) * u0 (ix3 0 cm co)) + (∑ cm : Fin 128, H1 (ix2 p cm) * u1 (ix3 0 cm co))
          + (∑ cm : Fin 128, H2 (ix2 p cm) * u2 (ix3 0 cm co)) + (∑ cm : Fin 128, H3 (ix2 p cm) * u3 (ix3 0 cm co))
          + (∑ cm : Fin 128, H4 (ix2 p cm) * u4 (ix3 0 cm co)) + (∑ cm : Fin 128, H5 (ix2 p cm) * u5 (ix3 0 cm co))
          + (∑ cm : Fin 128, H6 (ix2 p cm) * u6 (ix3 0 cm co)) + (∑ cm : Fin 128, H7 (ix2 p cm) * u7 (ix3 0 cm co))
          + (∑ cm : Fin 128, H8 (ix2 p cm) * u8 (ix3 0 cm co))) 0 := by
  rw [pay1_apply, pay84_apply, pay83_apply]

end Cert.KernelIdeal.PayValue

end
-- ==== Proof.KRun.lean ====
/-
  The kernel's body read back as values: the output block the body's run leaves, at band row `p` and channel `co`, is
  the closed form `outv` of the nine input blocks — the slab, the hidden scratch and the upsampling scratch each read
  back as ONE function of their index from the stores the run made.

  The road, from the output backwards. The output block is one whole store whose value at `(p, co)` is `max · 0` of the
  second bias plus nine sums over the hidden channels, each the product of a 4608-row window of the hidden scratch (from
  rows 71, 72, 73, 143, 144, 145, 215, 216, 217) with one tap's weight. The hidden scratch was filled by three disjoint
  stores — the band over two zero margins — so a window row `off + p` reads `hsv`; the band's value is `max · 0` of the first
  bias plus nine sums over the 256 slab channels, times the mask. The slab was filled by sixty-eight stores that OVERLAP:
  sixty-four row stores (slab rows `148 + 72 r … + 63`, channels 128 … 255, each a re-laid 32 × 256 window of the
  upsampling scratch) lie over the zero store of all upper channels, beside the skip image's store on the band's lower
  channels and the two zero margins. An index inside a row store reads that store (all sixty-four are blocks of one
  function of the slab index); an index outside them reads the four older stores, newest first. The upsampling scratch is
  one whole store of the transposed convolution's matrix product. Nine-tap sums meet `acc1v` and `outv` by the
  specification's rearrangement of an unrolled chain of nine additions into the double sum over the taps.
-/
import proofs.«177498_g2000606872001322_pallasbulk_142_4_alg».proof.Proof.Gen.KernelIdeal.Frame
import proofs.«177498_g2000606872001322_pallasbulk_142_4_alg».proof.Proof.KDefs
import proofs.«177498_g2000606872001322_pallasbulk_142_4_alg».proof.Proof.KPay
import Idealize.ShloMosaic.Lib.Pipeline.Value
import Idealize.ShloMosaic.Lib.Pipeline.CanonAppend
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RunValue

open Cert.KernelIdeal Cert.KernelIdeal.Gen Cert.KernelIdeal.BodyValue
open Cert.KernelIdeal.PayValue
open scoped BigOperators

/-! ## Lists of stores read one group at a time -/

section General

variable {Val : EltTy → Type} [∀ e, Nonempty (Val e)] {S : Shape} {e : EltTy}

/-- At an index none of the newer stores `L₁` holds, the canon is that of the older stores `L₂`. -/
theorem canon_append_of_forall_not_mem :
    ∀ (L₁ L₂ : List (View.Piece Val S e)) (y : S.Idx) (_ : ∀ p ∈ L₁, y ∉ p.1.set),
      View.canon (L₁ ++ L₂) y = View.canon L₂ y
  | [], _, _, _ => rfl
  | p :: L₁, L₂, y, h => by
    rw [List.cons_append, View.canon_cons_of_not_mem _ _ (h p (by simp))]
    exact canon_append_of_forall_not_mem L₁ L₂ y (fun q hq => h q (by simp [hq]))

/-- `P` holds of each of the first `n` stores of a list. -/
def AllFirst (P : View.Piece Val S e → Prop) : ℕ → List (View.Piece Val S e) → Prop
  | 0, _ => True
  | _ + 1, [] => True
  | n + 1, p :: L => P p ∧ AllFirst P n L

theorem AllFirst.forall_mem_take {P : View.Piece Val S e → Prop} :
    ∀ (n : ℕ) (L : List (View.Piece Val S e)), AllFirst P n L → ∀ p ∈ L.take n, P p
  | 0, _, _, p, hp => by simp at hp
  | _ + 1, [], _, p, hp => by simp at hp
  | n + 1, q :: L, h, p, hp => by
    rw [List.take_succ_cons, List.mem_cons] at hp
    rcases hp with rfl | hp
    · exact h.1
    · exact AllFirst.forall_mem_take n L h.2 p hp

/-- The offsets, sizes and strides of a rank-2 store's rectangle. -/
def geom2 {d : Fin 2 → ℕ} (p : View.Piece Val (⟨2, d⟩ : Shape) e) : ℕ × ℕ × ℕ × ℕ × ℕ × ℕ :=
  (p.1.off 0, p.1.off 1, p.1.size 0, p.1.size 1, p.1.stride 0, p.1.stride 1)

/-- Membership in a unit-stride rank-2 rectangle known by its numbers. -/
theorem mem_set_of_geom2 {d : Fin 2 → ℕ} (p : View.Piece Val (⟨2, d⟩ : Shape) e) (y : (⟨2, d⟩ : Shape).Idx)
    {o0 o1 z0 z1 : ℕ} (h : geom2 p = (o0, o1, z0, z1, 1, 1)) :
    y ∈ p.1.set ↔ (o0 ≤ (y 0).val ∧ (y 0).val < o0 + z0) ∧ (o1 ≤ (y 1).val ∧ (y 1).val < o1 + z1) := by
  simp only [geom2, Prod.mk.injEq] at h
  obtain ⟨h1, h2, h3, h4, h5, h6⟩ := h
  rw [LoadRect.mem_set, Fin.forall_fin_two, h1, h2, h3, h4, h5, h6]
  constructor
  · rintro ⟨⟨j0, hj0, e0⟩, ⟨j1, hj1, e1⟩⟩
    omega
  · rintro ⟨⟨a, b⟩, ⟨c, d'⟩⟩
    exact ⟨⟨(y 0).val - o0, by omega, by omega⟩, ⟨(y 1).val - o1, by omega, by omega⟩⟩

/-- A list of rank-2 stores whose rectangles are the unit-stride boxes `(o0 k, o1, z0, z1)`, `k` over a list `K`:
    an index inside box `k` is held by one of them; -/
theorem exists_mem_of_geom2 {d : Fin 2 → ℕ} (L : List (View.Piece Val (⟨2, d⟩ : Shape) e)) (K : List ℕ) (o0 : ℕ → ℕ)
    (o1 z0 z1 : ℕ) (hT : L.map geom2 = K.map fun k => (o0 k, o1, z0, z1, 1, 1)) (y : (⟨2, d⟩ : Shape).Idx) (k : ℕ)
    (hk : k ∈ K) (hy : (o0 k ≤ (y 0).val ∧ (y 0).val < o0 k + z0) ∧ (o1 ≤ (y 1).val ∧ (y 1).val < o1 + z1)) :
    ∃ p ∈ L, y ∈ p.1.set := by
  have hm : (o0 k, o1, z0, z1, 1, 1) ∈ L.map geom2 := by rw [hT]; exact List.mem_map_of_mem hk
  obtain ⟨p, hp, e'⟩ := List.mem_map.mp hm
  exact ⟨p, hp, (mem_set_of_geom2 p y e').mpr hy⟩

/-- an index outside every box is held by none. -/
theorem forall_not_mem_of_geom2 {d : Fin 2 → ℕ} (L : List (View.Piece Val (⟨2, d⟩ : Shape) e)) (K : List ℕ) (o0 : ℕ → ℕ)
    (o1 z0 z1 : ℕ) (hT : L.map geom2 = K.map fun k => (o0 k, o1, z0, z1, 1, 1)) (y : (⟨2, d⟩ : Shape).Idx)
    (hy : ∀ k ∈ K, ¬((o0 k ≤ (y 0).val ∧ (y 0).val < o0 k + z0) ∧ (o1 ≤ (y 1).val ∧ (y 1).val < o1 + z1))) :
    ∀ p ∈ L, y ∉ p.1.set := by
  intro p hp
  have hm : geom2 p ∈ K.map fun k => (o0 k, o1, z0, z1, 1, 1) := by rw [← hT]; exact List.mem_map_of_mem hp
  obtain ⟨k, hk, e'⟩ := List.mem_map.mp hm
  rw [mem_set_of_geom2 p y e'.symm]
  exact hy k hk

end General
/-! ## One store through a unit-stride rectangle, newest of a list -/

section UnitStore

variable {Val : EltTy → Type} [∀ e, Nonempty (Val e)] {S : Shape} {e : EltTy}

/-- An index at position `x` of the newest store's rectangle (each coordinate the offset plus `x`'s) holds that store's
    value at `x`. -/
theorem canon_cons_unit_hit {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb _ w L x

/-- An index that misses the newest store's rectangle on one axis holds what the older stores left. -/
theorem canon_cons_unit_miss {off size : Fin S.rank → ℕ} (inb : ∀ a, off a + size a ≤ S.size a)
    (w : (Rect.unit off size inb).shape.Idx → Val e) (L : List (View.Piece Val S e)) (y : S.Idx)
    (a : Fin S.rank) (ha : (y a).val < off a ∨ off a + size a ≤ (y a).val) :
    View.canon ((⟨Rect.unit off size inb, w⟩ : View.Piece Val S e) :: L) y = View.canon L y := by
  refine View.canon_cons_of_not_mem _ L ?_
  show y ∉ (Rect.unit off size inb).set
  rw [Rect.mem_set_unit]
  intro hall
  have := hall a
  omega

end UnitStore

/-! ## The slab and the hidden scratch as functions of their index -/

/-- The slab's closed form as a function of the scratch index. -/
def slabG (x0 : Vec Ideal S1x1024x256 .bf16) (x1 : Vec Ideal S1x4608x128 .bf16) (x3 : Vec Ideal S256x512 .bf16)
    (x4 : Vec Ideal S1x512 .f32) : S4896x256.Idx → EReal :=
  fun y => slabv x0 x1 x3 x4 (y 0).val ⟨(y 1).val, idx2_lt1 y⟩

/-- The slab's stores, newest first: sixty-four row stores whose rectangles are rows `148 + 72 r … + 63`, columns
    `128 … 255` (`r` from 63 down to 0) and whose payloads are blocks of `slabG`, over the four older stores — the skip
    image on the band's lower columns, the zero upper columns, the two zero margins. Their canon is `slabv`. -/
theorem slab_canon (x0 : Vec Ideal S1x1024x256 .bf16) (x1 : Vec Ideal S1x4608x128 .bf16) (x3 : Vec Ideal S256x512 .bf16)
    (x4 : Vec Ideal S1x512 .f32) (L : List (View.Piece (Elt Ideal) S4896x256 .bf16))
    (w6 : S4608x128.Idx → EReal) (hw6 : ∀ (q : Fin 4608) (ch : Fin 128), w6 (ix2 q ch) = x1 (ix3 (0 : Fin 1) q ch))
    (hgeo : (L.take 64).map geom2 = (List.range 64).reverse.map fun r => (148 + 72 * r, 128, 64, 128, 1, 1))
    (hG : ∀ p ∈ L.take 64, ∀ x : p.1.shape.Idx, p.2 x = slabG x0 x1 x3 x4 (p.1.emb x))
    (hold : L.drop 64 = [⟨Rect.unit ![144, 0] S4608x128.size inb_S4896x256_S4608x128_144_0, w6⟩,
      ⟨Rect.unit ![0, 128] S4896x128.size inb_S4896x256_S4896x128_0_128, fun _ => (0 : EReal)⟩,
      ⟨Rect.unit ![4752, 0] S144x256.size inb_S4896x256_S144x256_4752_0, fun _ => (0 : EReal)⟩,
      ⟨Rect.unit ![0, 0] S144x256.size inb_S4896x256_S144x256_0_0, fun _ => (0 : EReal)⟩])
    (q : Fin 4896) (ci : Fin 256) : View.canon L (ix2 q ci) = slabv x0 x1 x3 x4 q.val ci := by
  have eL : L = L.take 64 ++ L.drop 64 := (List.take_append_drop 64 L).symm
  rw [eL, hold]
  by_cases hU : 128 ≤ ci.val ∧ 148 ≤ q.val ∧ q.val < 148 + 72 * 64 ∧ (q.val - 148) % 72 < 64
  · -- inside one of the sixty-four upsampled rows: that row's store wins
    rw [View.canon_append_of_pieces (slabG x0 x1 x3 x4) _ (L.take 64) hG (ix2 q ci)
      (exists_mem_of_geom2 (L.take 64) (List.range 64).reverse (fun r => 148 + 72 * r) 128 64 128 hgeo (ix2 q ci)
        ((q.val - 148) / 72) (List.mem_reverse.mpr (List.mem_range.mpr (by omega)))
        ⟨⟨by show 148 + 72 * ((q.val - 148) / 72) ≤ q.val; omega,
          by show q.val < 148 + 72 * ((q.val - 148) / 72) + 64; omega⟩,
         ⟨by show 128 ≤ ci.val; omega, by show ci.val < 128 + 128; have := ci.isLt; omega⟩⟩)]
    rfl
  · -- outside all of them: the four older stores
    rw [canon_append_of_forall_not_mem _ _ _
      (forall_not_mem_of_geom2 (L.take 64) (List.range 64).reverse (fun r => 148 + 72 * r) 128 64 128 hgeo (ix2 q ci)
        (fun k hk => by
          have hk' : k < 64 := List.mem_range.mp (List.mem_reverse.mp hk)
          show ¬((148 + 72 * k ≤ q.val ∧ q.val < 148 + 72 * k + 64) ∧ (128 ≤ ci.val ∧ ci.val < 128 + 128))
          omega))]
    have hq := q.isLt
    have hci := ci.isLt
    unfold slabv
    by_cases hc : ci.val < 128
    · rw [dif_pos hc]
      by_cases hb : 144 ≤ q.val ∧ q.val < 4752
      · rw [dif_pos hb]
        refine (canon_cons_unit_hit _ _ _ (ix2 q ci)
          (ix2 (⟨q.val - 144, by omega⟩ : Fin 4608) (⟨ci.val, hc⟩ : Fin 128) : S4608x128.Idx)
          (Fin.forall_fin_two.mpr ⟨by show q.val = 144 + (q.val - 144); omega, by show ci.val = 0 + ci.val; omega⟩)).trans ?_
        exact hw6 _ _
      · rw [dif_neg hb]
        refine (canon_cons_unit_miss _ _ _ (ix2 q ci) 0 (by show q.val < 144 ∨ 144 + 4608 ≤ q.val; omega)).trans ?_
        refine (canon_cons_unit_miss _ _ _ (ix2 q ci) 1 (by show ci.val < 128 ∨ 128 + 128 ≤ ci.val; omega)).trans ?_
        by_cases h3 : 4752 ≤ q.val
        · exact canon_cons_unit_hit _ _ _ (ix2 q ci) (ix2 (⟨q.val - 4752, by omega⟩ : Fin 144) ci : S144x256.Idx)
            (Fin.forall_fin_two.mpr ⟨by show q.val = 4752 + (q.val - 4752); omega, by show ci.val = 0 + ci.val; omega⟩)
        · refine (canon_cons_unit_miss _ _ _ (ix2 q ci) 0 (by show q.val < 4752 ∨ 4752 + 144 ≤ q.val; omega)).trans ?_
          exact canon_cons_unit_hit _ _ _ (ix2 q ci) (ix2 (⟨q.val, by omega⟩ : Fin 144) ci : S144x256.Idx)
            (Fin.forall_fin_two.mpr ⟨by show q.val = 0 + q.val; omega, by show ci.val = 0 + ci.val; omega⟩)
    · have hb : ¬(144 ≤ q.val ∧ q.val < 4752 ∧ 4 ≤ (q.val - 144) % 72 ∧ (q.val - 144) % 72 < 68) := by omega
      rw [dif_neg hc, dif_neg hb]
      refine (canon_cons_unit_miss _ _ _ (ix2 q ci) 1 (by show ci.val < 0 ∨ 0 + 128 ≤ ci.val; omega)).trans ?_
      exact canon_cons_unit_hit _ _ _ (ix2 q ci) (ix2 q (⟨ci.val - 128, by omega⟩ : Fin 128) : S4896x128.Idx)
        (Fin.forall_fin_two.mpr ⟨by show q.val = 0 + q.val; omega, by show ci.val = 128 + (ci.val - 128); omega⟩)

/-- The hidden scratch's three stores: the band (whose payload at band row `q` is `max (acc1v) 0` times the mask) over the
    two zero margins. Their canon is `hsv`. -/
theorem hs_canon (x0 : Vec Ideal S1x1024x256 .bf16) (x1 : Vec Ideal S1x4608x128 .bf16) (x2 : Vec Ideal S4608x128 .f32)
    (x3 : Vec Ideal S256x512 .bf16) (x4 : Vec Ideal S1x512 .f32) (x5 : Vec Ideal S9x256x128 .bf16) (x6 : Vec Ideal S1x128 .f32)
    (w : S4608x128.Idx → EReal)
    (hw : ∀ (q : Fin 4608) (cm : Fin 128), w (ix2 q cm) = max (acc1v x0 x1 x3 x4 x5 x6 q cm) 0 * (x2 (ix2 q cm) : EReal))
    (q : Fin 4896) (cm : Fin 128) :
    View.canon (Val := Elt Ideal) (e := .bf16) [⟨Rect.unit (s := S4896x128) ![144, 0] S4608x128.size inb_S4896x128_S4608x128_144_0, w⟩,
      ⟨Rect.unit (s := S4896x128) ![4752, 0] S144x128.size inb_S4896x128_S144x128_4752_0, fun _ => (0 : EReal)⟩,
      ⟨Rect.unit (s := S4896x128) ![0, 0] S144x128.size inb_S4896x128_S144x128_0_0, fun _ => (0 : EReal)⟩] (ix2 q cm)
      = hsv x0 x1 x2 x3 x4 x5 x6 q.val cm := by
  have hq := q.isLt
  unfold hsv
  by_cases hb : 144 ≤ q.val ∧ q.val < 4752
  · rw [dif_pos hb]
    refine (canon_cons_unit_hit _ _ _ (ix2 q cm) (ix2 (⟨q.val - 144, by omega⟩ : Fin 4608) cm : S4608x128.Idx)
      (Fin.forall_fin_two.mpr ⟨by show q.val = 144 + (q.val - 144); omega, by show cm.val = 0 + cm.val; omega⟩)).trans ?_
    exact hw _ _
  · rw [dif_neg hb]
    refine (canon_cons_unit_miss _ _ _ (ix2 q cm) 0 (by show q.val < 144 ∨ 144 + 4608 ≤ q.val; omega)).trans ?_
    by_cases h3 : 4752 ≤ q.val
    · exact canon_cons_unit_hit _ _ _ (ix2 q cm) (ix2 (⟨q.val - 4752, by omega⟩ : Fin 144) cm : S144x128.Idx)
        (Fin.forall_fin_two.mpr ⟨by show q.val = 4752 + (q.val - 4752); omega, by show cm.val = 0 + cm.val; omega⟩)
    · refine (canon_cons_unit_miss _ _ _ (ix2 q cm) 0 (by show q.val < 4752 ∨ 4752 + 144 ≤ q.val; omega)).trans ?_
      exact canon_cons_unit_hit _ _ _ (ix2 q cm) (ix2 (⟨q.val, by omega⟩ : Fin 144) cm : S144x128.Idx)
        (Fin.forall_fin_two.mpr ⟨by show q.val = 0 + q.val; omega, by show cm.val = 0 + cm.val; omega⟩)

/-! ## Windows read at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- A unit-stride rank-2 window at offsets `(o, c)` places its local index `(u, v)` at `(o + u, c + v)`. -/
theorem idx_unit2 {n0 n1 m0 m1 : ℕ} (o c : ℕ) (h0 : o + m0 ≤ n0) (h1 : c + m1 ≤ n1)
    (inb : ∀ a, (![o, c] : Fin 2 → ℕ) a + (⟨2, ![m0, m1]⟩ : Shape).size a ≤ (⟨2, ![n0, n1]⟩ : Shape).size a)
    (u : Fin m0) (v : Fin m1) :
    (Rect.unit (s := ⟨2, ![n0, n1]⟩) ![o, c] (⟨2, ![m0, m1]⟩ : Shape).size inb).toLoadRect.idx (ix2 u v)
      = ix2 (⟨o + u.val, by have := u.isLt; omega⟩ : Fin n0) (⟨c + v.val, by have := v.isLt; omega⟩ : Fin n1) := by
  funext a
  match a with
  | ⟨0, _⟩ => exact Fin.ext (by show o + 1 * u.val = o + u.val; omega)
  | ⟨1, _⟩ => exact Fin.ext (by show c + 1 * v.val = c + v.val; omega)

/-- A window of whole rows from row `o` places `(u, v)` at `(o + u, v)`. -/
theorem idx_rows2 {n0 n1 m0 : ℕ} (o : ℕ) (h0 : o + m0 ≤ n0)
    (inb : ∀ a, (![o, 0] : Fin 2 → ℕ) a + (⟨2, ![m0, n1]⟩ : Shape).size a ≤ (⟨2, ![n0, n1]⟩ : Shape).size a)
    (u : Fin m0) (v : Fin n1) :
    (Rect.unit (s := ⟨2, ![n0, n1]⟩) ![o, 0] (⟨2, ![m0, n1]⟩ : Shape).size inb).toLoadRect.idx (ix2 u v)
      = ix2 (⟨o + u.val, by have := u.isLt; omega⟩ : Fin n0) v := by
  funext a
  match a with
  | ⟨0, _⟩ => exact Fin.ext (by show o + 1 * u.val = o + u.val; omega)
  | ⟨1, _⟩ => exact Fin.ext (by show 0 + 1 * v.val = v.val; omega)

/-- One leading slice `k` of a rank-3 array places `(0, u, v)` at `(k, u, v)`. -/
theorem idx_lead3 {n0 n1 n2 : ℕ} (k : ℕ) (hk : k < n0)
    (inb : ∀ a, (![k, 0, 0] : Fin 3 → ℕ) a + (⟨3, ![1, n1, n2]⟩ : Shape).size a ≤ (⟨3, ![n0, n1, n2]⟩ : Shape).size a)
    (u : Fin n1) (v : Fin n2) :
    (Rect.unit (s := ⟨3, ![n0, n1, n2]⟩) ![k, 0, 0] (⟨3, ![1, n1, n2]⟩ : Shape).size inb).toLoadRect.idx (ix3 (0 : Fin 1) u v)
      = ix3 (⟨k, hk⟩ : Fin n0) u v := by
  funext a
  match a with
  | ⟨0, _⟩ => exact Fin.ext (by show k + 1 * 0 = k; omega)
  | ⟨1, _⟩ => exact Fin.ext (by show 0 + 1 * u.val = u.val; omega)
  | ⟨2, _⟩ => exact Fin.ext (by show 0 + 1 * v.val = v.val; omega)

/-! ## The nine taps -/

/-- One tap of the first convolution: the slab window from row `off`, contracted with tap `k`'s weight. -/
theorem slab_tap {sig : RefSig} {κ : Kind} {sp : Space} (V : View sig κ sp S4896x256 .bf16)
    (L : List (View.Piece (Elt Ideal) S4896x256 .bf16))
    (x0 : Vec Ideal S1x1024x256 .bf16) (x1 : Vec Ideal S1x4608x128 .bf16) (x3 : Vec Ideal S256x512 .bf16) (x4 : Vec Ideal S1x512 .f32)
    (x5 : Vec Ideal S9x256x128 .bf16)
    (hL : ∀ (q : Fin 4896) (ci : Fin 256), View.canon L (ix2 q ci) = slabv x0 x1 x3 x4 q.val ci)
    (off : ℕ) (hoff : off + 4608 ≤ 4896) (inb : ∀ a, (![off, 0] : Fin 2 → ℕ) a + S4608x256.size a ≤ S4896x256.size a)
    (k : ℕ) (hk : k < 9) (inb' : ∀ a, (![k, 0, 0] : Fin 3 → ℕ) a + S1x256x128.size a ≤ S9x256x128.size a)
    (p : Fin 4608) (cm : Fin 128) :
    (∑ ci : Fin 256, (V.readCov L (Rect.unit (s := S4896x256) ![off, 0] S4608x256.size inb).toLoadRect (ix2 p ci) : EReal)
        * (View.ld x5 (Rect.unit (s := S9x256x128) ![k, 0, 0] S1x256x128.size inb') (ix3 (0 : Fin 1) ci cm) : EReal))
      = ∑ ci : Fin 256, slabv x0 x1 x3 x4 (off + p.val) ci * (x5 (ix3 (⟨k, hk⟩ : Fin 9) ci cm) : EReal) := by
  refine Finset.sum_congr rfl fun ci _ => ?_
  have e1 : V.readCov L (Rect.unit (s := S4896x256) ![off, 0] S4608x256.size inb).toLoadRect (ix2 p ci)
      = slabv x0 x1 x3 x4 (off + p.val) ci := by
    refine (congrFun (View.readCov_eq_canon' V L (Rect.unit (s := S4896x256) ![off, 0] S4608x256.size inb).toLoadRect) (ix2 p ci)).trans ?_
    beta_reduce
    rw [idx_rows2 off (by have := p.isLt; omega) inb p ci]
    exact hL _ _
  have e2 : View.ld x5 (Rect.unit (s := S9x256x128) ![k, 0, 0] S1x256x128.size inb') (ix3 (0 : Fin 1) ci cm)
      = x5 (ix3 (⟨k, hk⟩ : Fin 9) ci cm) := by
    show x5 ((Rect.unit (s := S9x256x128) ![k, 0, 0] S1x256x128.size inb').toLoadRect.idx (ix3 (0 : Fin 1) ci cm)) = _
    rw [idx_lead3 k hk inb' ci cm]
  rw [e1, e2]

/-- One tap of the second convolution: the hidden scratch's window from row `off`, contracted with tap `k`'s weight. -/
theorem hs_tap {sig : RefSig} {κ : Kind} {sp : Space} (V : View sig κ sp S4896x128 .bf16)
    (L : List (View.Piece (Elt Ideal) S4896x128 .bf16))
    (x0 : Vec Ideal S1x1024x256 .bf16) (x1 : Vec Ideal S1x4608x128 .bf16) (x2 : Vec Ideal S4608x128 .f32) (x3 : Vec Ideal S256x512 .bf16) (x4 : Vec Ideal S1x512 .f32) (x5 : Vec Ideal S9x256x128 .bf16) (x6 : Vec Ideal S1x128 .f32) (x7 : Vec Ideal S9x128x128 .bf16)
    (hL : ∀ (q : Fin 4896) (cm : Fin 128), View.canon L (ix2 q cm) = hsv x0 x1 x2 x3 x4 x5 x6 q.val cm)
    (off : ℕ) (hoff : off + 4608 ≤ 4896) (inb : ∀ a, (![off, 0] : Fin 2 → ℕ) a + S4608x128.size a ≤ S4896x128.size a)
    (k : ℕ) (hk : k < 9) (inb' : ∀ a, (![k, 0, 0] : Fin 3 → ℕ) a + S1x128x128.size a ≤ S9x128x128.size a)
    (p : Fin 4608) (co : Fin 128) :
    (∑ cm : Fin 128, (V.readCov L (Rect.unit (s := S4896x128) ![off, 0] S4608x128.size inb).toLoadRect (ix2 p cm) : EReal)
        * (View.ld x7 (Rect.unit (s := S9x128x128) ![k, 0, 0] S1x128x128.size inb') (ix3 (0 : Fin 1) cm co) : EReal))
      = ∑ cm : Fin 128, hsv x0 x1 x2 x3 x4 x5 x6 (off + p.val) cm * (x7 (ix3 (⟨k, hk⟩ : Fin 9) cm co) : EReal) := by
  refine Finset.sum_congr rfl fun cm _ => ?_
  have e1 : V.readCov L (Rect.unit (s := S4896x128) ![off, 0] S4608x128.size inb).toLoadRect (ix2 p cm)
      = hsv x0 x1 x2 x3 x4 x5 x6 (off + p.val) cm := by
    refine (congrFun (View.readCov_eq_canon' V L (Rect.unit (s := S4896x128) ![off, 0] S4608x128.size inb).toLoadRect) (ix2 p cm)).trans ?_
    beta_reduce
    rw [idx_rows2 off (by have := p.isLt; omega) inb p cm]
    exact hL _ _
  have e2 : View.ld x7 (Rect.unit (s := S9x128x128) ![k, 0, 0] S1x128x128.size inb') (ix3 (0 : Fin 1) cm co)
      = x7 (ix3 (⟨k, hk⟩ : Fin 9) cm co) := by
    show x7 ((Rect.unit (s := S9x128x128) ![k, 0, 0] S1x128x128.size inb').toLoadRect.idx (ix3 (0 : Fin 1) cm co)) = _
    rw [idx_lead3 k hk inb' cm co]
  rw [e1, e2]
/-! ## The slab on an upsampled row, and the two convolutions as chains of nine taps -/

/-- The matrix product read at rows and columns of equal value. -/
theorem psv_congr (x0 : Vec Ideal S1x1024x256 .bf16) (x3 : Vec Ideal S256x512 .bf16) (x4 : Vec Ideal S1x512 .f32)
    (a a' : Fin 1024) (b b' : Fin 512) (ha : a.val = a'.val) (hb : b.val = b'.val) :
    psv x0 x3 x4 a b = psv x0 x3 x4 a' b' := by
  rw [Fin.ext ha, Fin.ext hb]

/-- On the slab's row `148 + 72 r + j` (pixel `j` of upsampled row `r`), a channel from 128 on holds the matrix product at
    row `32 (r / 2) + j / 2` and column `256 (r % 2) + 128 (j % 2)` plus the channel's offset. -/
theorem slabv_up (x0 : Vec Ideal S1x1024x256 .bf16) (x1 : Vec Ideal S1x4608x128 .bf16) (x3 : Vec Ideal S256x512 .bf16)
    (x4 : Vec Ideal S1x512 .f32) (q : ℕ) (ci : Fin 256) (hc : 128 ≤ ci.val) (r j : ℕ) (hr : r < 64) (hj : j < 64)
    (hq : q = 148 + 72 * r + j) :
    slabv x0 x1 x3 x4 q ci = psv x0 x3 x4 (⟨32 * (r / 2) + j / 2, by omega⟩ : Fin 1024)
      (⟨256 * (r % 2) + 128 * (j % 2) + (ci.val - 128), by have := ci.isLt; omega⟩ : Fin 512) := by
  have hci := ci.isLt
  have hc' : ¬ci.val < 128 := by omega
  have hb : 144 ≤ q ∧ q < 4752 ∧ 4 ≤ (q - 144) % 72 ∧ (q - 144) % 72 < 68 := by omega
  unfold slabv
  rw [dif_neg hc', dif_pos hb]
  exact psv_congr x0 x3 x4 _ _ _ _
    (by show 32 * ((q - 144) / 72 / 2) + ((q - 144) % 72 - 4) / 2 = 32 * (r / 2) + j / 2; omega)
    (by show 256 * ((q - 144) / 72 % 2) + 128 * (((q - 144) % 72 - 4) % 2) + (ci.val - 128)
          = 256 * (r % 2) + 128 * (j % 2) + (ci.val - 128); omega)

/-- The first convolution's accumulator as its bias, a zero, and the nine taps added one after the other: tap
    `(dh, dw)` reads the slab `71 + 72 dh + dw` rows further on and uses weight `3 dh + dw`. -/
theorem acc1v_unroll (x0 : Vec Ideal S1x1024x256 .bf16) (x1 : Vec Ideal S1x4608x128 .bf16) (x3 : Vec Ideal S256x512 .bf16)
    (x4 : Vec Ideal S1x512 .f32) (x5 : Vec Ideal S9x256x128 .bf16) (x6 : Vec Ideal S1x128 .f32) (p : Fin 4608) (cm : Fin 128) :
    acc1v x0 x1 x3 x4 x5 x6 p cm = (x6 (ix2 (0 : Fin 1) cm) : EReal) + 0
      + (∑ ci : Fin 256, slabv x0 x1 x3 x4 (71 + p.val) ci * (x5 (ix3 (⟨0, by decide⟩ : Fin 9) ci cm) : EReal))
      + (∑ ci : Fin 256, slabv x0 x1 x3 x4 (72 + p.val) ci * (x5 (ix3 (⟨1, by decide⟩ : Fin 9) ci cm) : EReal))
      + (∑ ci : Fin 256, slabv x0 x1 x3 x4 (73 + p.val) ci * (x5 (ix3 (⟨2, by decide⟩ : Fin 9) ci cm) : EReal))
      + (∑ ci : Fin 256, slabv x0 x1 x3 x4 (143 + p.val) ci * (x5 (ix3 (⟨3, by decide⟩ : Fin 9) ci cm) : EReal))
      + (∑ ci : Fin 256, slabv x0 x1 x3 x4 (144 + p.val) ci * (x5 (ix3 (⟨4, by decide⟩ : Fin 9) ci cm) : EReal))
      + (∑ ci : Fin 256, slabv x0 x1 x3 x4 (145 + p.val) ci * (x5 (ix3 (⟨5, by decide⟩ : Fin 9) ci cm) : EReal))
      + (∑ ci : Fin 256, slabv x0 x1 x3 x4 (215 + p.val) ci * (x5 (ix3 (⟨6, by decide⟩ : Fin 9) ci cm) : EReal))
      + (∑ ci : Fin 256, slabv x0 x1 x3 x4 (216 + p.val) ci * (x5 (ix3 (⟨7, by decide⟩ : Fin 9) ci cm) : EReal))
      + (∑ ci : Fin 256, slabv x0 x1 x3 x4 (217 + p.val) ci * (x5 (ix3 (⟨8, by decide⟩ : Fin 9) ci cm) : EReal)) := by
  unfold acc1v
  exact (Cert.UpBlock.chain9 (x6 (ix2 (0 : Fin 1) cm) : EReal) (fun dh dw => ∑ ci : Fin 256,
    slabv x0 x1 x3 x4 (71 + 72 * dh.val + dw.val + p.val) ci
      * (x5 (ix3 (⟨3 * dh.val + dw.val, by have := dh.isLt; have := dw.isLt; omega⟩ : Fin 9) ci cm) : EReal))).symm

/-- The output block the same way over the hidden scratch. -/
theorem outv_unroll (x0 : Vec Ideal S1x1024x256 .bf16) (x1 : Vec Ideal S1x4608x128 .bf16) (x2 : Vec Ideal S4608x128 .f32)
    (x3 : Vec Ideal S256x512 .bf16) (x4 : Vec Ideal S1x512 .f32) (x5 : Vec Ideal S9x256x128 .bf16) (x6 : Vec Ideal S1x128 .f32)
    (x7 : Vec Ideal S9x128x128 .bf16) (x8 : Vec Ideal S1x128 .f32) (p : Fin 4608) (co : Fin 128) :
    outv x0 x1 x2 x3 x4 x5 x6 x7 x8 p co = max ((x8 (ix2 (0 : Fin 1) co) : EReal) + 0
      + (∑ cm : Fin 128, hsv x0 x1 x2 x3 x4 x5 x6 (71 + p.val) cm * (x7 (ix3 (⟨0, by decide⟩ : Fin 9) cm co) : EReal))
      + (∑ cm : Fin 128, hsv x0 x1 x2 x3 x4 x5 x6 (72 + p.val) cm * (x7 (ix3 (⟨1, by decide⟩ : Fin 9) cm co) : EReal))
      + (∑ cm : Fin 128, hsv x0 x1 x2 x3 x4 x5 x6 (73 + p.val) cm * (x7 (ix3 (⟨2, by decide⟩ : Fin 9) cm co) : EReal))
      + (∑ cm : Fin 128, hsv x0 x1 x2 x3 x4 x5 x6 (143 + p.val) cm * (x7 (ix3 (⟨3, by decide⟩ : Fin 9) cm co) : EReal))
      + (∑ cm : Fin 128, hsv x0 x1 x2 x3 x4 x5 x6 (144 + p.val) cm * (x7 (ix3 (⟨4, by decide⟩ : Fin 9) cm co) : EReal))
      + (∑ cm : Fin 128, hsv x0 x1 x2 x3 x4 x5 x6 (145 + p.val) cm * (x7 (ix3 (⟨5, by decide⟩ : Fin 9) cm co) : EReal))
      + (∑ cm : Fin 128, hsv x0 x1 x2 x3 x4 x5 x6 (215 + p.val) cm * (x7 (ix3 (⟨6, by decide⟩ : Fin 9) cm co) : EReal))
      + (∑ cm : Fin 128, hsv x0 x1 x2 x3 x4 x5 x6 (216 + p.val) cm * (x7 (ix3 (⟨7, by decide⟩ : Fin 9) cm co) : EReal))
      + (∑ cm : Fin 128, hsv x0 x1 x2 x3 x4 x5 x6 (217 + p.val) cm * (x7 (ix3 (⟨8, by decide⟩ : Fin 9) cm co) : EReal))) 0 := by
  unfold outv
  exact congrArg (fun t : EReal => max t 0) (Cert.UpBlock.chain9 (x8 (ix2 (0 : Fin 1) co) : EReal) (fun dh dw => ∑ cm : Fin 128,
    hsv x0 x1 x2 x3 x4 x5 x6 (71 + 72 * dh.val + dw.val + p.val) cm
      * (x7 (ix3 (⟨3 * dh.val + dw.val, by have := dh.isLt; have := dw.isLt; omega⟩ : Fin 9) cm co) : EReal))).symm

/-- The first convolution's accumulated value, masked, as the run computes it from nine slab windows. -/
theorem conv1_fin {sig : RefSig} {κ : Kind} {sp : Space} (V : View sig κ sp S4896x256 .bf16)
    (L : List (View.Piece (Elt Ideal) S4896x256 .bf16)) (x0 : Vec Ideal S1x1024x256 .bf16) (x1 : Vec Ideal S1x4608x128 .bf16) (x2 : Vec Ideal S4608x128 .f32) (x3 : Vec Ideal S256x512 .bf16) (x4 : Vec Ideal S1x512 .f32) (x5 : Vec Ideal S9x256x128 .bf16) (x6 : Vec Ideal S1x128 .f32)
    (hL : ∀ (q : Fin 4896) (ci : Fin 256), View.canon L (ix2 q ci) = slabv x0 x1 x3 x4 q.val ci)
    (i0 : ∀ a, (![71, 0] : Fin 2 → ℕ) a + S4608x256.size a ≤ S4896x256.size a) (i1 : ∀ a, (![72, 0] : Fin 2 → ℕ) a + S4608x256.size a ≤ S4896x256.size a) (i2 : ∀ a, (![73, 0] : Fin 2 → ℕ) a + S4608x256.size a ≤ S4896x256.size a) (i3 : ∀ a, (![143, 0] : Fin 2 → ℕ) a + S4608x256.size a ≤ S4896x256.size a) (i4 : ∀ a, (![144, 0] : Fin 2 → ℕ) a + S4608x256.size a ≤ S4896x256.size a) (i5 : ∀ a, (![145, 0] : Fin 2 → ℕ) a + S4608x256.size a ≤ S4896x256.size a) (i6 : ∀ a, (![215, 0] : Fin 2 → ℕ) a + S4608x256.size a ≤ S4896x256.size a) (i7 : ∀ a, (![216, 0] : Fin 2 → ℕ) a + S4608x256.size a ≤ S4896x256.size a) (i8 : ∀ a, (![217, 0] : Fin 2 → ℕ) a + S4608x256.size a ≤ S4896x256.size a)
    (j0 : ∀ a, (![0, 0, 0] : Fin 3 → ℕ) a + S1x256x128.size a ≤ S9x256x128.size a) (j1 : ∀ a, (![1, 0, 0] : Fin 3 → ℕ) a + S1x256x128.size a ≤ S9x256x128.size a) (j2 : ∀ a, (![2, 0, 0] : Fin 3 → ℕ) a + S1x256x128.size a ≤ S9x256x128.size a) (j3 : ∀ a, (![3, 0, 0] : Fin 3 → ℕ) a + S1x256x128.size a ≤ S9x256x128.size a) (j4 : ∀ a, (![4, 0, 0] : Fin 3 → ℕ) a + S1x256x128.size a ≤ S9x256x128.size a) (j5 : ∀ a, (![5, 0, 0] : Fin 3 → ℕ) a + S1x256x128.size a ≤ S9x256x128.size a) (j6 : ∀ a, (![6, 0, 0] : Fin 3 → ℕ) a + S1x256x128.size a ≤ S9x256x128.size a) (j7 : ∀ a, (![7, 0, 0] : Fin 3 → ℕ) a + S1x256x128.size a ≤ S9x256x128.size a) (j8 : ∀ a, (![8, 0, 0] : Fin 3 → ℕ) a + S1x256x128.size a ≤ S9x256x128.size a)
    (p : Fin 4608) (cm : Fin 128) :
    max ((x6 (ix2 (0 : Fin 1) cm) : EReal) + 0
      + (∑ ci : Fin 256, (V.readCov L (Rect.unit (s := S4896x256) ![71, 0] S4608x256.size i0).toLoadRect (ix2 p ci) : EReal)
          * (View.ld x5 (Rect.unit (s := S9x256x128) ![0, 0, 0] S1x256x128.size j0) (ix3 (0 : Fin 1) ci cm) : EReal))
      + (∑ ci : Fin 256, (V.readCov L (Rect.unit (s := S4896x256) ![72, 0] S4608x256.size i1).toLoadRect (ix2 p ci) : EReal)
          * (View.ld x5 (Rect.unit (s := S9x256x128) ![1, 0, 0] S1x256x128.size j1) (ix3 (0 : Fin 1) ci cm) : EReal))
      + (∑ ci : Fin 256, (V.readCov L (Rect.unit (s := S4896x256) ![73, 0] S4608x256.size i2).toLoadRect (ix2 p ci) : EReal)
          * (View.ld x5 (Rect.unit (s := S9x256x128) ![2, 0, 0] S1x256x128.size j2) (ix3 (0 : Fin 1) ci cm) : EReal))
      + (∑ ci : Fin 256, (V.readCov L (Rect.unit (s := S4896x256) ![143, 0] S4608x256.size i3).toLoadRect (ix2 p ci) : EReal)
          * (View.ld x5 (Rect.unit (s := S9x256x128) ![3, 0, 0] S1x256x128.size j3) (ix3 (0 : Fin 1) ci cm) : EReal))
      + (∑ ci : Fin 256, (V.readCov L (Rect.unit (s := S4896x256) ![144, 0] S4608x256.size i4).toLoadRect (ix2 p ci) : EReal)
          * (View.ld x5 (Rect.unit (s := S9x256x128) ![4, 0, 0] S1x256x128.size j4) (ix3 (0 : Fin 1) ci cm) : EReal))
      + (∑ ci : Fin 256, (V.readCov L (Rect.unit (s := S4896x256) ![145, 0] S4608x256.size i5).toLoadRect (ix2 p ci) : EReal)
          * (View.ld x5 (Rect.unit (s := S9x256x128) ![5, 0, 0] S1x256x128.size j5) (ix3 (0 : Fin 1) ci cm) : EReal))
      + (∑ ci : Fin 256, (V.readCov L (Rect.unit (s := S4896x256) ![215, 0] S4608x256.size i6).toLoadRect (ix2 p ci) : EReal)
          * (View.ld x5 (Rect.unit (s := S9x256x128) ![6, 0, 0] S1x256x128.size j6) (ix3 (0 : Fin 1) ci cm) : EReal))
      + (∑ ci : Fin 256, (V.readCov L (Rect.unit (s := S4896x256) ![216, 0] S4608x256.size i7).toLoadRect (ix2 p ci) : EReal)
          * (View.ld x5 (Rect.unit (s := S9x256x128) ![7, 0, 0] S1x256x128.size j7) (ix3 (0 : Fin 1) ci cm) : EReal))
      + (∑ ci : Fin 256, (V.readCov L (Rect.unit (s := S4896x256) ![217, 0] S4608x256.size i8).toLoadRect (ix2 p ci) : EReal)
          * (View.ld x5 (Rect.unit (s := S9x256x128) ![8, 0, 0] S1x256x128.size j8) (ix3 (0 : Fin 1) ci cm) : EReal))) 0 * (x2 (ix2 p cm) : EReal)
      = max (acc1v x0 x1 x3 x4 x5 x6 p cm) 0 * (x2 (ix2 p cm) : EReal) := by
  rw [slab_tap V L x0 x1 x3 x4 x5 hL 71 (by decide) i0 0 (by decide) j0 p cm,
    slab_tap V L x0 x1 x3 x4 x5 hL 72 (by decide) i1 1 (by decide) j1 p cm,
    slab_tap V L x0 x1 x3 x4 x5 hL 73 (by decide) i2 2 (by decide) j2 p cm,
    slab_tap V L x0 x1 x3 x4 x5 hL 143 (by decide) i3 3 (by decide) j3 p cm,
    slab_tap V L x0 x1 x3 x4 x5 hL 144 (by decide) i4 4 (by decide) j4 p cm,
    slab_tap V L x0 x1 x3 x4 x5 hL 145 (by decide) i5 5 (by decide) j5 p cm,
    slab_tap V L x0 x1 x3 x4 x5 hL 215 (by decide) i6 6 (by decide) j6 p cm,
    slab_tap V L x0 x1 x3 x4 x5 hL 216 (by decide) i7 7 (by decide) j7 p cm,
    slab_tap V L x0 x1 x3 x4 x5 hL 217 (by decide) i8 8 (by decide) j8 p cm,
    acc1v_unroll]

/-- The output block's value as the run computes it from nine windows of the hidden scratch. -/
theorem conv2_fin {sig : RefSig} {κ : Kind} {sp : Space} (V : View sig κ sp S4896x128 .bf16)
    (L : List (View.Piece (Elt Ideal) S4896x128 .bf16)) (x0 : Vec Ideal S1x1024x256 .bf16) (x1 : Vec Ideal S1x4608x128 .bf16) (x2 : Vec Ideal S4608x128 .f32) (x3 : Vec Ideal S256x512 .bf16) (x4 : Vec Ideal S1x512 .f32) (x5 : Vec Ideal S9x256x128 .bf16) (x6 : Vec Ideal S1x128 .f32) (x7 : Vec Ideal S9x128x128 .bf16) (x8 : Vec Ideal S1x128 .f32)
    (hL : ∀ (q : Fin 4896) (cm : Fin 128), View.canon L (ix2 q cm) = hsv x0 x1 x2 x3 x4 x5 x6 q.val cm)
    (i0 : ∀ a, (![71, 0] : Fin 2 → ℕ) a + S4608x128.size a ≤ S4896x128.size a) (i1 : ∀ a, (![72, 0] : Fin 2 → ℕ) a + S4608x128.size a ≤ S4896x128.size a) (i2 : ∀ a, (![73, 0] : Fin 2 → ℕ) a + S4608x128.size a ≤ S4896x128.size a) (i3 : ∀ a, (![143, 0] : Fin 2 → ℕ) a + S4608x128.size a ≤ S4896x128.size a) (i4 : ∀ a, (![144, 0] : Fin 2 → ℕ) a + S4608x128.size a ≤ S4896x128.size a) (i5 : ∀ a, (![145, 0] : Fin 2 → ℕ) a + S4608x128.size a ≤ S4896x128.size a) (i6 : ∀ a, (![215, 0] : Fin 2 → ℕ) a + S4608x128.size a ≤ S4896x128.size a) (i7 : ∀ a, (![216, 0] : Fin 2 → ℕ) a + S4608x128.size a ≤ S4896x128.size a) (i8 : ∀ a, (![217, 0] : Fin 2 → ℕ) a + S4608x128.size a ≤ S4896x128.size a)
    (j0 : ∀ a, (![0, 0, 0] : Fin 3 → ℕ) a + S1x128x128.size a ≤ S9x128x128.size a) (j1 : ∀ a, (![1, 0, 0] : Fin 3 → ℕ) a + S1x128x128.size a ≤ S9x128x128.size a) (j2 : ∀ a, (![2, 0, 0] : Fin 3 → ℕ) a + S1x128x128.size a ≤ S9x128x128.size a) (j3 : ∀ a, (![3, 0, 0] : Fin 3 → ℕ) a + S1x128x128.size a ≤ S9x128x128.size a) (j4 : ∀ a, (![4, 0, 0] : Fin 3 → ℕ) a + S1x128x128.size a ≤ S9x128x128.size a) (j5 : ∀ a, (![5, 0, 0] : Fin 3 → ℕ) a + S1x128x128.size a ≤ S9x128x128.size a) (j6 : ∀ a, (![6, 0, 0] : Fin 3 → ℕ) a + S1x128x128.size a ≤ S9x128x128.size a) (j7 : ∀ a, (![7, 0, 0] : Fin 3 → ℕ) a + S1x128x128.size a ≤ S9x128x128.size a) (j8 : ∀ a, (![8, 0, 0] : Fin 3 → ℕ) a + S1x128x128.size a ≤ S9x128x128.size a)
    (p : Fin 4608) (co : Fin 128) :
    max ((x8 (ix2 (0 : Fin 1) co) : EReal) + 0
      + (∑ cm : Fin 128, (V.readCov L (Rect.unit (s := S4896x128) ![71, 0] S4608x128.size i0).toLoadRect (ix2 p cm) : EReal)
          * (View.ld x7 (Rect.unit (s := S9x128x128) ![0, 0, 0] S1x128x128.size j0) (ix3 (0 : Fin 1) cm co) : EReal))
      + (∑ cm : Fin 128, (V.readCov L (Rect.unit (s := S4896x128) ![72, 0] S4608x128.size i1).toLoadRect (ix2 p cm) : EReal)
          * (View.ld x7 (Rect.unit (s := S9x128x128) ![1, 0, 0] S1x128x128.size j1) (ix3 (0 : Fin 1) cm co) : EReal))
      + (∑ cm : Fin 128, (V.readCov L (Rect.unit (s := S4896x128) ![73, 0] S4608x128.size i2).toLoadRect (ix2 p cm) : EReal)
          * (View.ld x7 (Rect.unit (s := S9x128x128) ![2, 0, 0] S1x128x128.size j2) (ix3 (0 : Fin 1) cm co) : EReal))
      + (∑ cm : Fin 128, (V.readCov L (Rect.unit (s := S4896x128) ![143, 0] S4608x128.size i3).toLoadRect (ix2 p cm) : EReal)
          * (View.ld x7 (Rect.unit (s := S9x128x128) ![3, 0, 0] S1x128x128.size j3) (ix3 (0 : Fin 1) cm co) : EReal))
      + (∑ cm : Fin 128, (V.readCov L (Rect.unit (s := S4896x128) ![144, 0] S4608x128.size i4).toLoadRect (ix2 p cm) : EReal)
          * (View.ld x7 (Rect.unit (s := S9x128x128) ![4, 0, 0] S1x128x128.size j4) (ix3 (0 : Fin 1) cm co) : EReal))
      + (∑ cm : Fin 128, (V.readCov L (Rect.unit (s := S4896x128) ![145, 0] S4608x128.size i5).toLoadRect (ix2 p cm) : EReal)
          * (View.ld x7 (Rect.unit (s := S9x128x128) ![5, 0, 0] S1x128x128.size j5) (ix3 (0 : Fin 1) cm co) : EReal))
      + (∑ cm : Fin 128, (V.readCov L (Rect.unit (s := S4896x128) ![215, 0] S4608x128.size i6).toLoadRect (ix2 p cm) : EReal)
          * (View.ld x7 (Rect.unit (s := S9x128x128) ![6, 0, 0] S1x128x128.size j6) (ix3 (0 : Fin 1) cm co) : EReal))
      + (∑ cm : Fin 128, (V.readCov L (Rect.unit (s := S4896x128) ![216, 0] S4608x128.size i7).toLoadRect (ix2 p cm) : EReal)
          * (View.ld x7 (Rect.unit (s := S9x128x128) ![7, 0, 0] S1x128x128.size j7) (ix3 (0 : Fin 1) cm co) : EReal))
      + (∑ cm : Fin 128, (V.readCov L (Rect.unit (s := S4896x128) ![217, 0] S4608x128.size i8).toLoadRect (ix2 p cm) : EReal)
          * (View.ld x7 (Rect.unit (s := S9x128x128) ![8, 0, 0] S1x128x128.size j8) (ix3 (0 : Fin 1) cm co) : EReal))) 0
      = outv x0 x1 x2 x3 x4 x5 x6 x7 x8 p co := by
  rw [hs_tap V L x0 x1 x2 x3 x4 x5 x6 x7 hL 71 (by decide) i0 0 (by decide) j0 p co,
    hs_tap V L x0 x1 x2 x3 x4 x5 x6 x7 hL 72 (by decide) i1 1 (by decide) j1 p co,
    hs_tap V L x0 x1 x2 x3 x4 x5 x6 x7 hL 73 (by decide) i2 2 (by decide) j2 p co,
    hs_tap V L x0 x1 x2 x3 x4 x5 x6 x7 hL 143 (by decide) i3 3 (by decide) j3 p co,
    hs_tap V L x0 x1 x2 x3 x4 x5 x6 x7 hL 144 (by decide) i4 4 (by decide) j4 p co,
    hs_tap V L x0 x1 x2 x3 x4 x5 x6 x7 hL 145 (by decide) i5 5 (by decide) j5 p co,
    hs_tap V L x0 x1 x2 x3 x4 x5 x6 x7 hL 215 (by decide) i6 6 (by decide) j6 p co,
    hs_tap V L x0 x1 x2 x3 x4 x5 x6 x7 hL 216 (by decide) i7 7 (by decide) j7 p co,
    hs_tap V L x0 x1 x2 x3 x4 x5 x6 x7 hL 217 (by decide) i8 8 (by decide) j8 p co,
    outv_unroll]

/-! ## The upsampling scratch and the slab's row stores -/

/-- A window of the upsampling scratch, read after its one whole store, holds `psv` at the window's place. -/
theorem ps_load {sig : RefSig} {κ : Kind} {sp : Space} (V : View sig κ sp S1024x512 .f32)
    (x0 : Vec Ideal S1x1024x256 .bf16) (x3 : Vec Ideal S256x512 .bf16) (x4 : Vec Ideal S1x512 .f32)
    (inb0 : ∀ a, (![0, 0] : Fin 2 → ℕ) a + S1024x512.size a ≤ S1024x512.size a)
    (a b : ℕ) (ha : a + 32 ≤ 1024) (hb : b + 256 ≤ 512)
    (inb : ∀ a', (![a, b] : Fin 2 → ℕ) a' + S32x256.size a' ≤ S1024x512.size a') (u : Fin 32) (v : Fin 256) :
    V.readCov ([⟨Rect.unit (s := S1024x512) ![0, 0] S1024x512.size inb0, k0_pay2 x0 x3 x4⟩] : List (View.Piece (Elt Ideal) S1024x512 .f32))
        (Rect.unit (s := S1024x512) ![a, b] S32x256.size inb).toLoadRect (ix2 u v)
      = psv x0 x3 x4 (⟨a + u.val, by have := u.isLt; omega⟩ : Fin 1024) (⟨b + v.val, by have := v.isLt; omega⟩ : Fin 512) := by
  rw [View.readCov_eq_canon']
  show View.canon _ _ = _
  rw [View.canon_unit_zero hz2, idx_unit2 a b ha hb inb u v, pay2_apply]
  rfl

/-- The row store at slab rows `o … o + 63` (`o = 148 + 72 r`), whose payload re-lays the scratch window at rows
    `32 (r / 2) …`, columns `256 (r % 2) …`, is a block of `slabG`. -/
theorem row_piece {sig : RefSig} {κ : Kind} {sp : Space} (V : View sig κ sp S1024x512 .f32)
    (x0 : Vec Ideal S1x1024x256 .bf16) (x1 : Vec Ideal S1x4608x128 .bf16) (x3 : Vec Ideal S256x512 .bf16) (x4 : Vec Ideal S1x512 .f32)
    (inb0 : ∀ a, (![0, 0] : Fin 2 → ℕ) a + S1024x512.size a ≤ S1024x512.size a)
    (o a b : ℕ) (h1 : 148 ≤ o) (h2 : (o - 148) % 72 = 0) (h3 : o < 148 + 72 * 64)
    (ha : a = 32 * ((o - 148) / 72 / 2)) (hb : b = 256 * ((o - 148) / 72 % 2))
    (inb : ∀ a', (![o, 128] : Fin 2 → ℕ) a' + S64x128.size a' ≤ S4896x256.size a')
    (inb' : ∀ a', (![a, b] : Fin 2 → ℕ) a' + S32x256.size a' ≤ S1024x512.size a')
    (x : S64x128.Idx) :
    rowPay (V.readCov ([⟨Rect.unit (s := S1024x512) ![0, 0] S1024x512.size inb0, k0_pay2 x0 x3 x4⟩] : List (View.Piece (Elt Ideal) S1024x512 .f32))
        (Rect.unit (s := S1024x512) ![a, b] S32x256.size inb').toLoadRect) x
      = slabG x0 x1 x3 x4 ((Rect.unit (s := S4896x256) ![o, 128] S64x128.size inb).emb x) := by
  obtain ⟨j, c, rfl⟩ : ∃ (j : Fin 64) (c : Fin 128), x = ix2 j c := ⟨x 0, x 1, eq_ix2 x⟩
  have hj := j.isLt
  have hcl := c.isLt
  rw [rowPay_apply, ps_load V x0 x3 x4 inb0 a b (by omega) (by omega) inb']
  unfold slabG
  refine Eq.trans ?_ (slabv_up x0 x1 x3 x4 _ _ (by show 128 ≤ 128 + 1 * c.val; omega) ((o - 148) / 72) j.val (by omega) hj
    (by show o + 1 * j.val = 148 + 72 * ((o - 148) / 72) + j.val; omega)).symm
  exact psv_congr x0 x3 x4 _ _ _ _
    (by show a + j.val / 2 = 32 * ((o - 148) / 72 / 2) + j.val / 2; omega)
    (by show b + (j.val % 2 * 128 + c.val) = 256 * ((o - 148) / 72 % 2) + 128 * (j.val % 2) + (128 + 1 * c.val - 128); omega)

/-! ## The output block -/

set_option maxRecDepth 16384 in
set_option maxHeartbeats 4000000 in
theorem out_eq (c : Dev nD) (i : grid0.Coords) (arg1 : Memref sig .tc .vmem S1x1024x256 .bf16) (harg1 : arg1.IsWhole) (arg2 : Memref sig .tc .vmem S1x4608x128 .bf16) (harg2 : arg2.IsWhole) (arg3 : Memref sig .tc .vmem S4608x128 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S9x256x128 .bf16) (harg6 : arg6.IsWhole) (arg7 : Memref sig .tc .vmem S1x128 .f32) (harg7 : arg7.IsWhole) (arg8 : Memref sig .tc .vmem S9x128x128 .bf16) (harg8 : arg8.IsWhole) (arg9 : Memref sig .tc .vmem S1x128 .f32) (harg9 : arg9.IsWhole) (arg10 : Memref sig .tc .vmem S1x4608x128 .f32) (harg10 : arg10.IsWhole) (arg11 : Memref sig .tc .vmem S4896x256 .bf16) (harg11 : arg11.IsWhole) (arg12 : Memref sig .tc .vmem S4896x128 .bf16) (harg12 : arg12.IsWhole) (arg13 : Memref sig .tc .vmem S1024x512 .f32) (harg13 : arg13.IsWhole)
    (x0 : Vec Ideal S1x1024x256 .bf16) (x1 : Vec Ideal S1x4608x128 .bf16) (x2 : Vec Ideal S4608x128 .f32) (x3 : Vec Ideal S256x512 .bf16) (x4 : Vec Ideal S1x512 .f32) (x5 : Vec Ideal S9x256x128 .bf16) (x6 : Vec Ideal S1x128 .f32) (x7 : Vec Ideal S9x128x128 .bf16) (x8 : Vec Ideal S1x128 .f32)
    (p : Fin 4608) (co : Fin 128) :
    (out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 : S1x4608x128.Idx → EReal) (ix3 (0 : Fin 1) p co)
      = outv x0 x1 x2 x3 x4 x5 x6 x7 x8 p co := by
  unfold out0_A_9
  rw [View.read_writes_junk_eq_canon]
  unfold kernelRun0_A
  dsimp only
  rw [View.canon_unit_zero hz3]
  sl_unfold_run_names
  simp only [View.readAt_eq_ld, harg1.read_unread, harg2.read_unread, harg3.read_unread, harg4.read_unread, harg5.read_unread,
    harg6.read_unread, harg7.read_unread, harg8.read_unread, harg9.read_unread,
    View.ld_unit_zero (S := S1x1024x256) hz3, View.ld_unit_zero (S := S1x4608x128) hz3, View.ld_unit_zero (S := S4608x128) hz2,
    View.ld_unit_zero (S := S256x512) hz2, View.ld_unit_zero (S := S1x512) hz2, View.ld_unit_zero (S := S1x128) hz2,
    pay3_eq, pay4_eq, pay5_eq, pay80_eq, pay81_eq,
    row7_eq, row8_eq, row9_eq, row10_eq, row11_eq, row13_eq, row14_eq, row15_eq, row16_eq, row17_eq, row18_eq, row19_eq, row20_eq, row21_eq, row22_eq, row23_eq, row25_eq, row26_eq, row27_eq, row28_eq, row29_eq, row30_eq, row31_eq, row32_eq, row33_eq, row34_eq, row35_eq, row37_eq, row38_eq, row39_eq, row40_eq, row41_eq, row43_eq, row44_eq, row45_eq, row46_eq, row47_eq, row48_eq, row49_eq, row50_eq, row51_eq, row52_eq, row53_eq, row55_eq, row56_eq, row57_eq, row58_eq, row59_eq, row60_eq, row61_eq, row62_eq, row63_eq, row64_eq, row65_eq, row67_eq, row68_eq, row69_eq, row70_eq, row71_eq, row72_eq, row73_eq, row74_eq, row75_eq, row76_eq]
  rw [conv2_apply]
  refine conv2_fin arg12.view _ x0 x1 x2 x3 x4 x5 x6 x7 x8 ?_ _ _ _ _ _ _ _ _ _ _ _ _ _ _ _ _ _ _ p co
  intro q cm
  refine hs_canon x0 x1 x2 x3 x4 x5 x6 _ ?_ q cm
  intro q cm
  rw [conv1_apply]
  refine conv1_fin arg11.view _ x0 x1 x2 x3 x4 x5 x6 ?_ _ _ _ _ _ _ _ _ _ _ _ _ _ _ _ _ _ _ q cm
  intro q ci
  refine slab_canon x0 x1 x3 x4 _ (k0_pay6 x1) (pay6_apply x1) (by rfl) ?_ (by rfl) q ci
  refine AllFirst.forall_mem_take 64 _ ?_
  repeat' apply And.intro
  all_goals first
    | exact trivial
    | exact row_piece arg13.view x0 x1 x3 x4 _ _ _ _ (by decide) (by decide) (by decide) (by decide) (by decide) (by decide) (by decide)

end Cert.KernelIdeal.RunValue

end
-- ==== Proof.KAlg.lean ====
/-
  The kernel's closed forms are the specification: on a valid band row `y · 72 + 4 + x` the output block is the block's
  result at pixel `(y, x)`, given that the mask is one exactly on columns 4..67, that the skip image's block is zero on
  its padded columns, and that the transposed convolution's bias repeats with period 128.
-/
import proofs.«177498_g2000606872001322_pallasbulk_142_4_alg».proof.Proof.KDefs

noncomputable section

namespace Cert.KernelIdeal.BodyValue

open Idealize.ShloMosaic Idealize.ShloMosaic.TcCoe Idealize.ShloMosaic.ValueIdx Cert.KernelIdeal
open scoped BigOperators

variable (x0 : Vec Ideal S1x1024x256 .bf16) (x1 : Vec Ideal S1x4608x128 .bf16) (x2 : Vec Ideal S4608x128 .f32)
  (x3 : Vec Ideal S256x512 .bf16) (x4 : Vec Ideal S1x512 .f32) (x5 : Vec Ideal S9x256x128 .bf16) (x6 : Vec Ideal S1x128 .f32)
  (x7 : Vec Ideal S9x128x128 .bf16) (x8 : Vec Ideal S1x128 .f32)

/-! ## The kernel's closed form is the specification

  Output band row `p = 72 y + 4 + x` and tap `(dh, dw)` read scratch row
  `71 + 72 dh + dw + p = 72 (Y + 1) + (X + 3)` with `(Y, X) = (y + dh, x + dw)` the padded position of the
  specification. That row lies in the band `144 ≤ q < 4752` exactly when `1 ≤ Y ≤ 64`, and its column `X + 3` lies
  in `4 .. 67` exactly when `1 ≤ X ≤ 64`. -/

section Steps

variable {x0 x1 x2 x3 x4 x5 x6 x7 x8}

/-- The four planes of the matrix product, read at the row and column the slab takes for upsampled pixel `(r, j)`,
    are the transposed convolution there: row `32 (r / 2) + j / 2` is input pixel `(r / 2, j / 2)`, column
    `128 (2 (r % 2) + j % 2) + co` is kernel entry `(r % 2, j % 2)` of output channel `co`, and the bias is the same
    in each of the four planes. -/
theorem psv_eq_up
    (htile : ∀ (k : Fin 4) (co : Fin 128),
      (x4 (ix2 (0 : Fin 1) (⟨k.val * 128 + co.val, by have := k.isLt; have := co.isLt; omega⟩ : Fin 512)) : EReal)
        = x4 (ix2 (0 : Fin 1) (⟨co.val, by have := co.isLt; omega⟩ : Fin 512)))
    (r j : Fin 64) (co : Fin 128) (a : Fin 1024) (b : Fin 512)
    (ha : a.val = r.val / 2 * 32 + j.val / 2) (hb : b.val = (r.val % 2 * 2 + j.val % 2) * 128 + co.val) :
    psv x0 x3 x4 a b = Cert.UpBlock.up (X1 x0) (WT x3) (BT x4) co r j := by
  have hr := r.isLt
  have hj := j.isLt
  have hco := co.isLt
  have ea : a = ⟨r.val / 2 * 32 + j.val / 2, by omega⟩ := Fin.ext ha
  have eb : b = ⟨(r.val % 2 * 2 + j.val % 2) * 128 + co.val, by omega⟩ := Fin.ext hb
  rw [ea, eb]
  unfold psv Cert.UpBlock.up
  refine congrArg₂ (· + ·) rfl ?_
  exact htile ⟨r.val % 2 * 2 + j.val % 2, by omega⟩ co

/-- The slab at the row of padded position `(Y, X)` is the padded concatenation there. -/
theorem slabv_eq_cat
    (hpad : ∀ (y : Fin 64) (X : Fin 72) (ch : Fin 128), ¬(4 ≤ X.val ∧ X.val < 68) →
      (x1 (ix3 (0 : Fin 1) (⟨y.val * 72 + X.val, by have := y.isLt; have := X.isLt; omega⟩ : Fin 4608) ch) : EReal) = 0)
    (htile : ∀ (k : Fin 4) (co : Fin 128),
      (x4 (ix2 (0 : Fin 1) (⟨k.val * 128 + co.val, by have := k.isLt; have := co.isLt; omega⟩ : Fin 512)) : EReal)
        = x4 (ix2 (0 : Fin 1) (⟨co.val, by have := co.isLt; omega⟩ : Fin 512)))
    (q Y X : ℕ) (hq : q = (Y + 1) * 72 + (X + 3)) (hY : Y ≤ 65) (hX : X ≤ 65) (ci : Fin 256) :
    slabv x0 x1 x3 x4 q ci
      = Cert.UpBlock.cat (X2 x1) (Cert.UpBlock.up (X1 x0) (WT x3) (BT x4)) Y X ci := by
  have hci := ci.isLt
  unfold slabv Cert.UpBlock.cat
  by_cases hI : Cert.UpBlock.Inside Y X
  · obtain ⟨h1, h2, h3, h4⟩ := id hI
    rw [dif_pos hI]
    by_cases hc : ci.val < 128
    · have hb : 144 ≤ q ∧ q < 4752 := by omega
      rw [dif_pos hc, dif_pos hc, dif_pos hb]
      exact congrArg (fun k : Fin 4608 => (x1 (ix3 (0 : Fin 1) k (⟨ci.val, hc⟩ : Fin 128)) : EReal))
        (Fin.ext (by show q - 144 = (Y - 1) * 72 + 4 + (X - 1); omega))
    · have hb : 144 ≤ q ∧ q < 4752 ∧ 4 ≤ (q - 144) % 72 ∧ (q - 144) % 72 < 68 := by omega
      rw [dif_neg hc, dif_neg hc, dif_pos hb]
      exact psv_eq_up htile ⟨Y - 1, by omega⟩ ⟨X - 1, by omega⟩ ⟨ci.val - 128, by omega⟩ _ _
        (by show 32 * ((q - 144) / 72 / 2) + ((q - 144) % 72 - 4) / 2 = (Y - 1) / 2 * 32 + (X - 1) / 2; omega)
        (by show 256 * ((q - 144) / 72 % 2) + 128 * (((q - 144) % 72 - 4) % 2) + (ci.val - 128)
              = ((Y - 1) % 2 * 2 + (X - 1) % 2) * 128 + (ci.val - 128); omega)
  · have hI' : ¬(1 ≤ Y ∧ Y ≤ 64 ∧ 1 ≤ X ∧ X ≤ 64) := hI
    rw [dif_neg hI]
    by_cases hc : ci.val < 128
    · rw [dif_pos hc]
      by_cases hb : 144 ≤ q ∧ q < 4752
      · rw [dif_pos hb]
        have h0 := hpad ⟨(q - 144) / 72, by omega⟩ ⟨(q - 144) % 72, by omega⟩ ⟨ci.val, hc⟩
          (by show ¬(4 ≤ (q - 144) % 72 ∧ (q - 144) % 72 < 68); omega)
        rw [← h0]
        exact congrArg (fun k : Fin 4608 => (x1 (ix3 (0 : Fin 1) k (⟨ci.val, hc⟩ : Fin 128)) : EReal))
          (Fin.ext (by show q - 144 = (q - 144) / 72 * 72 + (q - 144) % 72; omega))
      · rw [dif_neg hb]
    · have hb : ¬(144 ≤ q ∧ q < 4752 ∧ 4 ≤ (q - 144) % 72 ∧ (q - 144) % 72 < 68) := by omega
      rw [dif_neg hc, dif_neg hb]

/-- The first convolution's accumulator at the band row of pixel `(y, x)` is the specification's. -/
theorem acc1v_eq_conv1
    (hpad : ∀ (y : Fin 64) (X : Fin 72) (ch : Fin 128), ¬(4 ≤ X.val ∧ X.val < 68) →
      (x1 (ix3 (0 : Fin 1) (⟨y.val * 72 + X.val, by have := y.isLt; have := X.isLt; omega⟩ : Fin 4608) ch) : EReal) = 0)
    (htile : ∀ (k : Fin 4) (co : Fin 128),
      (x4 (ix2 (0 : Fin 1) (⟨k.val * 128 + co.val, by have := k.isLt; have := co.isLt; omega⟩ : Fin 512)) : EReal)
        = x4 (ix2 (0 : Fin 1) (⟨co.val, by have := co.isLt; omega⟩ : Fin 512)))
    (y x : Fin 64) (cm : Fin 128) (p : Fin 4608) (hp : p.val = y.val * 72 + 4 + x.val) :
    acc1v x0 x1 x3 x4 x5 x6 p cm
      = Cert.UpBlock.conv1 (X2 x1) (Cert.UpBlock.up (X1 x0) (WT x3) (BT x4)) (W1 x5) (B1 x6) cm y x := by
  have hy := y.isLt
  have hx := x.isLt
  unfold acc1v Cert.UpBlock.conv1
  refine congrArg₂ (· + ·) rfl ?_
  refine Finset.sum_congr rfl fun dh _ => Finset.sum_congr rfl fun dw _ => Finset.sum_congr rfl fun ci _ => ?_
  have hdh := dh.isLt
  have hdw := dw.isLt
  rw [slabv_eq_cat hpad htile _ (y.val + dh.val) (x.val + dw.val) (by omega) (by omega) (by omega) ci]
  rfl

/-- The hidden scratch at the row of padded position `(Y, X)` is the hidden activation there: on the band the mask is
    one on the image's columns and zero on the others. -/
theorem hsv_eq_hid
    (hmask : ∀ (y : Fin 64) (X : Fin 72) (cm : Fin 128),
      (x2 (ix2 (⟨y.val * 72 + X.val, by have := y.isLt; have := X.isLt; omega⟩ : Fin 4608) cm) : EReal)
        = if 4 ≤ X.val ∧ X.val < 68 then 1 else 0)
    (hpad : ∀ (y : Fin 64) (X : Fin 72) (ch : Fin 128), ¬(4 ≤ X.val ∧ X.val < 68) →
      (x1 (ix3 (0 : Fin 1) (⟨y.val * 72 + X.val, by have := y.isLt; have := X.isLt; omega⟩ : Fin 4608) ch) : EReal) = 0)
    (htile : ∀ (k : Fin 4) (co : Fin 128),
      (x4 (ix2 (0 : Fin 1) (⟨k.val * 128 + co.val, by have := k.isLt; have := co.isLt; omega⟩ : Fin 512)) : EReal)
        = x4 (ix2 (0 : Fin 1) (⟨co.val, by have := co.isLt; omega⟩ : Fin 512)))
    (q Y X : ℕ) (hq : q = (Y + 1) * 72 + (X + 3)) (hY : Y ≤ 65) (hX : X ≤ 65) (cm : Fin 128) :
    hsv x0 x1 x2 x3 x4 x5 x6 q cm
      = Cert.UpBlock.hid (X2 x1) (Cert.UpBlock.up (X1 x0) (WT x3) (BT x4)) (W1 x5) (B1 x6) Y X cm := by
  unfold hsv Cert.UpBlock.hid
  by_cases hI : Cert.UpBlock.Inside Y X
  · obtain ⟨h1, h2, h3, h4⟩ := id hI
    have hb : 144 ≤ q ∧ q < 4752 := by omega
    rw [dif_pos hI, dif_pos hb]
    rw [acc1v_eq_conv1 hpad htile ⟨Y - 1, by omega⟩ ⟨X - 1, by omega⟩ cm _
      (by show q - 144 = (Y - 1) * 72 + 4 + (X - 1); omega)]
    have hm := hmask ⟨Y - 1, by omega⟩ ⟨X + 3, by omega⟩ cm
    rw [if_pos (by show 4 ≤ X + 3 ∧ X + 3 < 68; omega)] at hm
    have e : (x2 (ix2 (⟨q - 144, by omega⟩ : Fin 4608) cm) : EReal) = 1 := by
      rw [← hm]
      exact congrArg (fun k : Fin 4608 => (x2 (ix2 k cm) : EReal))
        (Fin.ext (by show q - 144 = (Y - 1) * 72 + (X + 3); omega))
    rw [e, mul_one]
  · have hI' : ¬(1 ≤ Y ∧ Y ≤ 64 ∧ 1 ≤ X ∧ X ≤ 64) := hI
    rw [dif_neg hI]
    by_cases hb : 144 ≤ q ∧ q < 4752
    · rw [dif_pos hb]
      have hm := hmask ⟨(q - 144) / 72, by omega⟩ ⟨(q - 144) % 72, by omega⟩ cm
      rw [if_neg (by show ¬(4 ≤ (q - 144) % 72 ∧ (q - 144) % 72 < 68); omega)] at hm
      have e : (x2 (ix2 (⟨q - 144, by omega⟩ : Fin 4608) cm) : EReal) = 0 := by
        rw [← hm]
        exact congrArg (fun k : Fin 4608 => (x2 (ix2 k cm) : EReal))
          (Fin.ext (by show q - 144 = (q - 144) / 72 * 72 + (q - 144) % 72; omega))
      rw [e, mul_zero]
    · rw [dif_neg hb]

end Steps

/-- The output block at the band row of pixel `(y, x)` is the specification's result there. -/
theorem outv_eq_spec
    (hmask : ∀ (y : Fin 64) (X : Fin 72) (cm : Fin 128),
      (x2 (ix2 (⟨y.val * 72 + X.val, by have := y.isLt; have := X.isLt; omega⟩ : Fin 4608) cm) : EReal)
        = if 4 ≤ X.val ∧ X.val < 68 then 1 else 0)
    (hpad : ∀ (y : Fin 64) (X : Fin 72) (ch : Fin 128), ¬(4 ≤ X.val ∧ X.val < 68) →
      (x1 (ix3 (0 : Fin 1) (⟨y.val * 72 + X.val, by have := y.isLt; have := X.isLt; omega⟩ : Fin 4608) ch) : EReal) = 0)
    (htile : ∀ (k : Fin 4) (co : Fin 128),
      (x4 (ix2 (0 : Fin 1) (⟨k.val * 128 + co.val, by have := k.isLt; have := co.isLt; omega⟩ : Fin 512)) : EReal)
        = x4 (ix2 (0 : Fin 1) (⟨co.val, by have := co.isLt; omega⟩ : Fin 512)))
    (y x : Fin 64) (co : Fin 128) :
    outv x0 x1 x2 x3 x4 x5 x6 x7 x8 ⟨y.val * 72 + 4 + x.val, by have := y.isLt; have := x.isLt; omega⟩ co
      = Cert.UpBlock.out (X2 x1) (Cert.UpBlock.up (X1 x0) (WT x3) (BT x4)) (W1 x5) (B1 x6) (W2 x7) (B2 x8) co y x := by
  have hy := y.isLt
  have hx := x.isLt
  unfold outv Cert.UpBlock.out
  refine congrArg (fun t : EReal => max t 0) ?_
  refine congrArg₂ (· + ·) rfl ?_
  refine Finset.sum_congr rfl fun dh _ => Finset.sum_congr rfl fun dw _ => Finset.sum_congr rfl fun cm _ => ?_
  have hdh := dh.isLt
  have hdw := dw.isLt
  rw [hsv_eq_hid hmask hpad htile _ (y.val + dh.val) (x.val + dw.val)
    (by show 71 + 72 * dh.val + dw.val + (y.val * 72 + 4 + x.val) = _; omega) (by omega) (by omega) cm]
  rfl

end Cert.KernelIdeal.BodyValue

end
-- ==== Proof.KTail.lean ====
/-
  The host's last three steps read at an index. The [16, 4608, 128] array of band rows is reshaped to [16, 64, 72, 128]
  (band row `72 y + c` is padded column `c` of image row `y`, since `4608 n + 72 y + c = 72 (64 n + y) + c`), columns
  `4 .. 67` are kept, and the channel axis is moved in front of the two image axes. So pixel `(y, x)` of channel `co` of
  sample `n` is band row `72 y + 4 + x`.
-/
import proofs.«177498_g2000606872001322_pallasbulk_142_4_alg».proof.Proof.Gen.KernelIdeal
import Idealize.ShloMosaic.Lib.Pipeline.Value
import Idealize.ShloMosaic.Lib.ValueIdx
import Idealize.ShloMosaic.Lib.ValueLayout

set_option maxHeartbeats 400000

noncomputable section

namespace Cert.KernelIdeal.TailValue

open Idealize.ShloMosaic Idealize.ShloMosaic.ValueIdx Cert.KernelIdeal Cert.KernelIdeal.Gen

theorem tail_apply (Y : S16x4608x128.Idx → EReal) (n : Fin 16) (co : Fin 128) (y x : Fin 64) :
    (transpose S16x128x64x64 [0, 3, 1, 2]
        (extractStridedSlice S16x64x64x128 ![0, 0, 4, 0]
          (shapeCast S16x64x72x128 Y shapeCasts_S16x4608x128_S16x64x72x128)
          slices_S16x64x72x128_S16x64x64x128_0_0_4_0)
        transposes_S16x64x64x128_S16x128x64x64_0_3_1_2 : S16x128x64x64.Idx → EReal) (ix4 n co y x)
      = Y (ix3 n (⟨y.val * 72 + 4 + x.val, by have := y.isLt; have := x.isLt; omega⟩ : Fin 4608) co) := by
  -- the channel axis goes back behind the image axes
  refine (transpose_apply _ _ _ (ix4 n co y x) (ix4 n y x co) (fun b => ?_)).trans ?_
  · match b with
    | ⟨0, _⟩ => rfl
    | ⟨1, _⟩ => rfl
    | ⟨2, _⟩ => rfl
    | ⟨3, _⟩ => rfl
  -- kept column `x` is padded column `4 + x`
  refine (extractStridedSlice_apply _ _ _ (ix4 n y x co)
    (ix4 n y (⟨4 + x.val, by have := x.isLt; omega⟩ : Fin 72) co) (fun a => ?_)).trans ?_
  · match a with
    | ⟨0, _⟩ => exact (Nat.zero_add _).symm
    | ⟨1, _⟩ => exact (Nat.zero_add _).symm
    | ⟨2, _⟩ => rfl
    | ⟨3, _⟩ => exact (Nat.zero_add _).symm
  -- image row `y`, padded column `c` is band row `72 y + c`
  refine shapeCast_apply Y _ _ _ ?_
  rw [Shape.rowMajor_val_three, Shape.rowMajor_val_four]
  show (n.val * 4608 + (y.val * 72 + 4 + x.val)) * 128 + co.val = ((n.val * 64 + y.val) * 72 + (4 + x.val)) * 128 + co.val
  omega

end Cert.KernelIdeal.TailValue

end
-- ==== Proof.Result.lean ====
/-
  The whole block's result as ONE function of its eight arrays: sample `n`, channel `co`, pixel `(y, x)` of the
  [16, 128, 64, 64] result is `out` of sample `n`'s slices of the two images and of the weight and bias arrays (the two
  convolutions' weights and biases are taken as arrays: whatever scaling produced them is outside this function).
-/
import proofs.«177498_g2000606872001322_pallasbulk_142_4_alg».proof.Proof.Spec
import Idealize.ShloMosaic.Lib.ValueIdx

noncomputable section

namespace Cert.UpBlock

open Idealize.ShloMosaic Idealize.ShloMosaic.ValueIdx

/-- The result array. -/
def result (a0 : (⟨4, ![16, 256, 32, 32]⟩ : Shape).Idx → EReal) (a1 : (⟨4, ![16, 128, 64, 64]⟩ : Shape).Idx → EReal)
    (a2 : (⟨4, ![256, 128, 2, 2]⟩ : Shape).Idx → EReal) (a3 : (⟨1, ![128]⟩ : Shape).Idx → EReal)
    (w1 : (⟨4, ![128, 256, 3, 3]⟩ : Shape).Idx → EReal) (b1 : (⟨1, ![128]⟩ : Shape).Idx → EReal)
    (w2 : (⟨4, ![128, 128, 3, 3]⟩ : Shape).Idx → EReal) (b2 : (⟨1, ![128]⟩ : Shape).Idx → EReal) :
    (⟨4, ![16, 128, 64, 64]⟩ : Shape).Idx → EReal := fun j =>
  let n : Fin 16 := j 0
  let co : Fin 128 := j 1
  let y : Fin 64 := j 2
  let x : Fin 64 := j 3
  block (fun ci h w => a0 (ix4 n ci h w)) (fun ch y' x' => a1 (ix4 n ch y' x')) (fun ci c di dj => a2 (ix4 ci c di dj))
    (fun c => a3 (ix1 c)) (fun cm ci dh dw => w1 (ix4 cm ci dh dw)) (fun cm => b1 (ix1 cm))
    (fun c cm dh dw => w2 (ix4 c cm dh dw)) (fun c => b2 (ix1 c)) co y x

end Cert.UpBlock

end
-- ==== Proof.KFinal.lean ====
/-
  From the body's block to the program's result: point `t` of the grid handles sample `t`; its output block is block `t` of
  ONE function of the [16, 4608, 128] array's index; the host's reshape, slice of columns 4..67 and transpose read band
  row `y · 72 + 4 + x` of sample `n` as pixel `(y, x)`; so the result array is the block's specification of the arguments.
-/
import proofs.«177498_g2000606872001322_pallasbulk_142_4_alg».proof.Proof.Gen.KernelIdeal.Frame
import proofs.«177498_g2000606872001322_pallasbulk_142_4_alg».proof.Proof.KHost
import proofs.«177498_g2000606872001322_pallasbulk_142_4_alg».proof.Proof.KRun
import proofs.«177498_g2000606872001322_pallasbulk_142_4_alg».proof.Proof.KAlg
import proofs.«177498_g2000606872001322_pallasbulk_142_4_alg».proof.Proof.KTail
import proofs.«177498_g2000606872001322_pallasbulk_142_4_alg».proof.Proof.Result
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.FinalValue

open Cert.KernelIdeal Cert.KernelIdeal.Gen Cert.KernelIdeal.BodyValue Cert.KernelIdeal.HostValue Cert.KernelIdeal.RunValue
  Cert.KernelIdeal.TailValue

variable (m : (ℓ : Loc nD τ sig) → Buf (Elt Ideal) ℓ) (ρ : Dev nD → PrngReg)

/-! ## The grid's index maps and the blocks the windows read -/

/-- The block indices of the three windows that move with the sample, decided once over the sixteen points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-- The windows that hold a whole array stay at block zero. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0 :=
  (by decide +kernel : ∀ t : Fin grid0.N, _)

/-- Block `n` of a [16, 1024, 256] array, read through the window at sample `n`'s point. -/
theorem read0 (t : Fin cfg0.N) (A : S16x1024x256.Idx → EReal) (n : Fin 16) (hn : n.val = t.val) (a : Fin 1024) (ci : Fin 256) :
    (((cfg0.win 0).blk t).view.read (Elt Ideal) A : S1x1024x256.Idx → EReal) (ix3 (0 : Fin 1) a ci) = A (ix3 n a ci) := by
  obtain ⟨e0, e1, e2, -⟩ := idx_facts t
  show A (((cfg0.win 0).blk t).view.emb (ix3 (0 : Fin 1) a ci)) = A (ix3 n a ci)
  refine congrArg A (funext fun d => Fin.ext ?_)
  match d with
  | ⟨0, _⟩ => show win0_0.index t (0 : Fin 3) * 1 + 1 * 0 = n.val; omega
  | ⟨1, _⟩ => show win0_0.index t (1 : Fin 3) * 1024 + 1 * a.val = a.val; omega
  | ⟨2, _⟩ => show win0_0.index t (2 : Fin 3) * 256 + 1 * ci.val = ci.val; omega

theorem blk0_apply (c : Dev nD) (t : Fin cfg0.N) (n : Fin 16) (hn : n.val = t.val) (a : Fin 1024) (ci : Fin 256) :
    (iblk m c 0 t : S1x1024x256.Idx → EReal) (ix3 (0 : Fin 1) a ci) = (V m c main_v37 : S16x1024x256.Idx → EReal) (ix3 n a ci) :=
  read0 t (V m c main_v37) n hn a ci

/-- Block `n` of a [16, 4608, 128] array, read through the skip image's window. -/
theorem read1 (t : Fin cfg0.N) (A : S16x4608x128.Idx → EReal) (n : Fin 16) (hn : n.val = t.val) (q : Fin 4608) (ch : Fin 128) :
    (((cfg0.win 1).blk t).view.read (Elt Ideal) A : S1x4608x128.Idx → EReal) (ix3 (0 : Fin 1) q ch) = A (ix3 n q ch) := by
  obtain ⟨-, -, -, e0, e1, e2, -⟩ := idx_facts t
  show A (((cfg0.win 1).blk t).view.emb (ix3 (0 : Fin 1) q ch)) = A (ix3 n q ch)
  refine congrArg A (funext fun d => Fin.ext ?_)
  match d with
  | ⟨0, _⟩ => show win0_1.index t (0 : Fin 3) * 1 + 1 * 0 = n.val; omega
  | ⟨1, _⟩ => show win0_1.index t (1 : Fin 3) * 4608 + 1 * q.val = q.val; omega
  | ⟨2, _⟩ => show win0_1.index t (2 : Fin 3) * 128 + 1 * ch.val = ch.val; omega

theorem blk1_apply (c : Dev nD) (t : Fin cfg0.N) (n : Fin 16) (hn : n.val = t.val) (q : Fin 4608) (ch : Fin 128) :
    (iblk m c 1 t : S1x4608x128.Idx → EReal) (ix3 (0 : Fin 1) q ch) = (V m c main_v41 : S16x4608x128.Idx → EReal) (ix3 n q ch) :=
  read1 t (V m c main_v41) n hn q ch

/-- The column mask's block is the whole array, -/
theorem read2 (t : Fin cfg0.N) (A : S4608x128.Idx → EReal) (q : Fin 4608) (cm : Fin 128) :
    (((cfg0.win 2).blk t).view.read (Elt Ideal) A : S4608x128.Idx → EReal) (ix2 q cm) = A (ix2 q cm) := by
  obtain ⟨e0, e1, -⟩ := idx_whole t
  show A (((cfg0.win 2).blk t).view.emb (ix2 q cm)) = A (ix2 q cm)
  refine congrArg A (funext fun d => Fin.ext ?_)
  match d with
  | ⟨0, _⟩ => show win0_2.index t (0 : Fin 2) * 4608 + 1 * q.val = q.val; omega
  | ⟨1, _⟩ => show win0_2.index t (1 : Fin 2) * 128 + 1 * cm.val = cm.val; omega

theorem blk2_apply (c : Dev nD) (t : Fin cfg0.N) (q : Fin 4608) (cm : Fin 128) :
    (iblk m c 2 t : S4608x128.Idx → EReal) (ix2 q cm) = (V m c main_v53 : S4608x128.Idx → EReal) (ix2 q cm) :=
  read2 t (V m c main_v53) q cm

/-- and so are the transposed convolution's weight, -/
theorem read3 (t : Fin cfg0.N) (A : S256x512.Idx → EReal) (ci : Fin 256) (b : Fin 512) :
    (((cfg0.win 3).blk t).view.read (Elt Ideal) A : S256x512.Idx → EReal) (ix2 ci b) = A (ix2 ci b) := by
  obtain ⟨-, -, e0, e1, -⟩ := idx_whole t
  show A (((cfg0.win 3).blk t).view.emb (ix2 ci b)) = A (ix2 ci b)
  refine congrArg A (funext fun d => Fin.ext ?_)
  match d with
  | ⟨0, _⟩ => show win0_3.index t (0 : Fin 2) * 256 + 1 * ci.val = ci.val; omega
  | ⟨1, _⟩ => show win0_3.index t (1 : Fin 2) * 512 + 1 * b.val = b.val; omega

theorem blk3_apply (c : Dev nD) (t : Fin cfg0.N) (ci : Fin 256) (b : Fin 512) :
    (iblk m c 3 t : S256x512.Idx → EReal) (ix2 ci b) = (V m c main_v22 : S256x512.Idx → EReal) (ix2 ci b) :=
  read3 t (V m c main_v22) ci b

/-- its bias, -/
theorem read4 (t : Fin cfg0.N) (A : S1x512.Idx → EReal) (b : Fin 512) :
    (((cfg0.win 4).blk t).view.read (Elt Ideal) A : S1x512.Idx → EReal) (ix2 (0 : Fin 1) b) = A (ix2 (0 : Fin 1) b) := by
  obtain ⟨-, -, -, -, e0, e1, -⟩ := idx_whole t
  show A (((cfg0.win 4).blk t).view.emb (ix2 (0 : Fin 1) b)) = A (ix2 (0 : Fin 1) b)
  refine congrArg A (funext fun d => Fin.ext ?_)
  match d with
  | ⟨0, _⟩ => show win0_4.index t (0 : Fin 2) * 1 + 1 * 0 = 0; omega
  | ⟨1, _⟩ => show win0_4.index t (1 : Fin 2) * 512 + 1 * b.val = b.val; omega

theorem blk4_apply (c : Dev nD) (t : Fin cfg0.N) (b : Fin 512) :
    (iblk m c 4 t : S1x512.Idx → EReal) (ix2 (0 : Fin 1) b) = (V m c main_v26 : S1x512.Idx → EReal) (ix2 (0 : Fin 1) b) :=
  read4 t (V m c main_v26) b

/-- the first convolution's taps, -/
theorem read5 (t : Fin cfg0.N) (A : S9x256x128.Idx → EReal) (k : Fin 9) (ci : Fin 256) (cm : Fin 128) :
    (((cfg0.win 5).blk t).view.read (Elt Ideal) A : S9x256x128.Idx → EReal) (ix3 k ci cm) = A (ix3 k ci cm) := by
  obtain ⟨-, -, -, -, -, -, e0, e1, e2, -⟩ := idx_whole t
  show A (((cfg0.win 5).blk t).view.emb (ix3 k ci cm)) = A (ix3 k ci cm)
  refine congrArg A (funext fun d => Fin.ext ?_)
  match d with
  | ⟨0, _⟩ => show win0_5.index t (0 : Fin 3) * 9 + 1 * k.val = k.val; omega
  | ⟨1, _⟩ => show win0_5.index t (1 : Fin 3) * 256 + 1 * ci.val = ci.val; omega
  | ⟨2, _⟩ => show win0_5.index t (2 : Fin 3) * 128 + 1 * cm.val = cm.val; omega

theorem blk5_apply (c : Dev nD) (t : Fin cfg0.N) (k : Fin 9) (ci : Fin 256) (cm : Fin 128) :
    (iblk m c 5 t : S9x256x128.Idx → EReal) (ix3 k ci cm) = (V m c main_v29 : S9x256x128.Idx → EReal) (ix3 k ci cm) :=
  read5 t (V m c main_v29) k ci cm

/-- its bias, -/
theorem read6 (t : Fin cfg0.N) (A : S1x128.Idx → EReal) (cm : Fin 128) :
    (((cfg0.win 6).blk t).view.read (Elt Ideal) A : S1x128.Idx → EReal) (ix2 (0 : Fin 1) cm) = A (ix2 (0 : Fin 1) cm) := by
  obtain ⟨-, -, -, -, -, -, -, -, -, e0, e1, -⟩ := idx_whole t
  show A (((cfg0.win 6).blk t).view.emb (ix2 (0 : Fin 1) cm)) = A (ix2 (0 : Fin 1) cm)
  refine congrArg A (funext fun d => Fin.ext ?_)
  match d with
  | ⟨0, _⟩ => show win0_6.index t (0 : Fin 2) * 1 + 1 * 0 = 0; omega
  | ⟨1, _⟩ => show win0_6.index t (1 : Fin 2) * 128 + 1 * cm.val = cm.val; omega

theorem blk6_apply (c : Dev nD) (t : Fin cfg0.N) (cm : Fin 128) :
    (iblk m c 6 t : S1x128.Idx → EReal) (ix2 (0 : Fin 1) cm) = (V m c main_v33 : S1x128.Idx → EReal) (ix2 (0 : Fin 1) cm) :=
  read6 t (V m c main_v33) cm

/-- the second convolution's taps, -/
theorem read7 (t : Fin cfg0.N) (A : S9x128x128.Idx → EReal) (k : Fin 9) (cm : Fin 128) (co : Fin 128) :
    (((cfg0.win 7).blk t).view.read (Elt Ideal) A : S9x128x128.Idx → EReal) (ix3 k cm co) = A (ix3 k cm co) := by
  obtain ⟨-, -, -, -, -, -, -, -, -, -, -, e0, e1, e2, -⟩ := idx_whole t
  show A (((cfg0.win 7).blk t).view.emb (ix3 k cm co)) = A (ix3 k cm co)
  refine congrArg A (funext fun d => Fin.ext ?_)
  match d with
  | ⟨0, _⟩ => show win0_7.index t (0 : Fin 3) * 9 + 1 * k.val = k.val; omega
  | ⟨1, _⟩ => show win0_7.index t (1 : Fin 3) * 128 + 1 * cm.val = cm.val; omega
  | ⟨2, _⟩ => show win0_7.index t (2 : Fin 3) * 128 + 1 * co.val = co.val; omega

theorem blk7_apply (c : Dev nD) (t : Fin cfg0.N) (k : Fin 9) (cm : Fin 128) (co : Fin 128) :
    (iblk m c 7 t : S9x128x128.Idx → EReal) (ix3 k cm co) = (V m c main_v32 : S9x128x128.Idx → EReal) (ix3 k cm co) :=
  read7 t (V m c main_v32) k cm co

/-- and its bias. -/
theorem read8 (t : Fin cfg0.N) (A : S1x128.Idx → EReal) (co : Fin 128) :
    (((cfg0.win 8).blk t).view.read (Elt Ideal) A : S1x128.Idx → EReal) (ix2 (0 : Fin 1) co) = A (ix2 (0 : Fin 1) co) := by
  obtain ⟨-, -, -, -, -, -, -, -, -, -, -, -, -, -, e0, e1⟩ := idx_whole t
  show A (((cfg0.win 8).blk t).view.emb (ix2 (0 : Fin 1) co)) = A (ix2 (0 : Fin 1) co)
  refine congrArg A (funext fun d => Fin.ext ?_)
  match d with
  | ⟨0, _⟩ => show win0_8.index t (0 : Fin 2) * 1 + 1 * 0 = 0; omega
  | ⟨1, _⟩ => show win0_8.index t (1 : Fin 2) * 128 + 1 * co.val = co.val; omega

theorem blk8_apply (c : Dev nD) (t : Fin cfg0.N) (co : Fin 128) :
    (iblk m c 8 t : S1x128.Idx → EReal) (ix2 (0 : Fin 1) co) = (V m c main_v34 : S1x128.Idx → EReal) (ix2 (0 : Fin 1) co) :=
  read8 t (V m c main_v34) co

/-- Block `n` of a [16, 4608, 128] array, read through the output's window. -/
theorem read9 (t : Fin cfg0.N) (A : S16x4608x128.Idx → EReal) (n : Fin 16) (hn : n.val = t.val) (q : Fin 4608) (co : Fin 128) :
    (((cfg0.win 9).blk t).view.read (Elt Ideal) A : S1x4608x128.Idx → EReal) (ix3 (0 : Fin 1) q co) = A (ix3 n q co) := by
  obtain ⟨-, -, -, -, -, -, e0, e1, e2⟩ := idx_facts t
  show A (((cfg0.win 9).blk t).view.emb (ix3 (0 : Fin 1) q co)) = A (ix3 n q co)
  refine congrArg A (funext fun d => Fin.ext ?_)
  match d with
  | ⟨0, _⟩ => show win0_9.index t (0 : Fin 3) * 1 + 1 * 0 = n.val; omega
  | ⟨1, _⟩ => show win0_9.index t (1 : Fin 3) * 4608 + 1 * q.val = q.val; omega
  | ⟨2, _⟩ => show win0_9.index t (2 : Fin 3) * 128 + 1 * co.val = co.val; omega

/-! ## The output array after the region -/

/-- The grid point that handles sample `n`. -/
def pt (n : Fin 16) : Fin cfg0.N := ⟨n.val, lt_of_lt_of_eq n.isLt N_0.symm⟩

/-- Every grid point is some sample's. -/
theorem exists_pt (t : Fin cfg0.N) : ∃ n : Fin 16, t = pt n :=
  ⟨⟨t.val, lt_of_lt_of_eq t.isLt N_0⟩, Fin.ext rfl⟩

/-- The nine input blocks at a point, at their literal types. -/
abbrev Bk0 (c : Dev nD) (t : Fin cfg0.N) : Vec Ideal S1x1024x256 .bf16 := iblk m c 0 t
abbrev Bk1 (c : Dev nD) (t : Fin cfg0.N) : Vec Ideal S1x4608x128 .bf16 := iblk m c 1 t
abbrev Bk2 (c : Dev nD) (t : Fin cfg0.N) : Vec Ideal S4608x128 .f32 := iblk m c 2 t
abbrev Bk3 (c : Dev nD) (t : Fin cfg0.N) : Vec Ideal S256x512 .bf16 := iblk m c 3 t
abbrev Bk4 (c : Dev nD) (t : Fin cfg0.N) : Vec Ideal S1x512 .f32 := iblk m c 4 t
abbrev Bk5 (c : Dev nD) (t : Fin cfg0.N) : Vec Ideal S9x256x128 .bf16 := iblk m c 5 t
abbrev Bk6 (c : Dev nD) (t : Fin cfg0.N) : Vec Ideal S1x128 .f32 := iblk m c 6 t
abbrev Bk7 (c : Dev nD) (t : Fin cfg0.N) : Vec Ideal S9x128x128 .bf16 := iblk m c 7 t
abbrev Bk8 (c : Dev nD) (t : Fin cfg0.N) : Vec Ideal S1x128 .f32 := iblk m c 8 t

/-- Sixteen [1, 4608, 128] blocks, one per grid point, side by side as ONE function of the [16, 4608, 128] array's index. -/
def glue (O : Fin cfg0.N → Vec Ideal S1x4608x128 .f32) : S16x4608x128.Idx → EReal := fun i =>
  O (pt (i 0)) (ix3 (0 : Fin 1) (i 1) (i 2))

theorem glue_apply (O : Fin cfg0.N → Vec Ideal S1x4608x128 .f32) (n : Fin 16) (q : Fin 4608) (co : Fin 128) :
    glue O (ix3 n q co) = O (pt n) (ix3 (0 : Fin 1) q co) := rfl

/-- What a point writes back of its block is that point's block of the sixteen side by side. -/
theorem cut_eq_read (O : Fin cfg0.N → Vec Ideal S1x4608x128 .f32) (n : Fin 16) :
    (cfg0.win 9).cut (grid0.coords (pt n)) (O (pt n)) = ((cfg0.win 9).blk (pt n)).view.read (Elt Ideal) (glue O) := by
  funext j
  obtain ⟨z, p, co, rfl⟩ : ∃ (z : Fin 1) (p : Fin 4608) (co : Fin 128), j = ix3 z p co := ⟨j 0, j 1, j 2, eq_ix3 j⟩
  obtain rfl : z = 0 := Subsingleton.elim _ _
  refine Eq.trans ?_ (read9 (pt n) (glue O) n rfl p co).symm
  rfl

/-- The array the region leaves in the output window. -/
def G9 (c : Dev nD) : S16x4608x128.Idx → EReal := glue (fun t => outsAt0 m c t)

theorem flushed_eq (c : Dev nD) (t : Fin cfg0.N) :
    (dats m 0 c).flushed 9 t = ((cfg0.win 9).blk t).view.read (Elt Ideal) (G9 m c) := by
  obtain ⟨n, rfl⟩ := exists_pt t
  show (cfg0.win 9).cut (grid0.coords (pt n)) ((dats m 0 c).after 9 (pt n)) = _
  rw [after0_9]
  exact cut_eq_read (fun t => outsAt0 m c t) n

/-- An index of the array is in point `t`'s block iff each coordinate is in the block's range on its axis. -/
theorem mem_blk9 (t : Fin cfg0.N) (i : S16x4608x128.Idx) :
    i ∈ ((cfg0.win 9).blk t).view.set ↔ ∀ a : Fin 3, win0_9.index t a * S1x4608x128.size a ≤ (i a).val ∧ (i a).val < win0_9.index t a * S1x4608x128.size a + S1x4608x128.size a := by
  show i ∈ ((View.whole main_v54).slice (win0_9.rect t)).set ↔ _
  rw [View.set_slice_whole, Rect.mem_set_unit]
  exact Iff.rfl

/-- The sixteen blocks cover the array: sample `n`'s rows are in point `pt n`'s block. -/
theorem cover9 (i : S16x4608x128.Idx) :
    ∃ t : Fin cfg0.N, (cfg0.win 9).flush t = true ∧ i ∈ ((cfg0.win 9).blk t).view.set := by
  have h0 : (i 0).val < 16 := (i 0).isLt
  have h1 : (i 1).val < 4608 := (i 1).isLt
  have h2 : (i 2).val < 128 := (i 2).isLt
  refine ⟨pt (i 0), flush0_9 _, ?_⟩
  obtain ⟨-, -, -, -, -, -, e0, e1, e2⟩ := idx_facts (pt (i 0))
  have hv : (pt (i 0)).val = (i 0).val := rfl
  rw [mem_blk9]
  intro a
  match a with
  | ⟨0, _⟩ => show win0_9.index (pt (i 0)) (0 : Fin 3) * 1 ≤ (i 0).val ∧ (i 0).val < win0_9.index (pt (i 0)) (0 : Fin 3) * 1 + 1; omega
  | ⟨1, _⟩ => show win0_9.index (pt (i 0)) (1 : Fin 3) * 4608 ≤ (i 1).val ∧ (i 1).val < win0_9.index (pt (i 0)) (1 : Fin 3) * 4608 + 4608; omega
  | ⟨2, _⟩ => show win0_9.index (pt (i 0)) (2 : Fin 3) * 128 ≤ (i 2).val ∧ (i 2).val < win0_9.index (pt (i 0)) (2 : Fin 3) * 128 + 128; omega

/-- So the output array ends holding the sixteen blocks side by side. -/
theorem final9 (c : Dev nD) : (dats m 0 c).arrAt 9 cfg0.N = G9 m c :=
  (dats m 0 c).arrAt_eq_of_cover 9 (G9 m c) (fun t _ => flushed_eq m c t) cover9

/-- The body's output block at a point is the closed form of the point's input blocks. -/
theorem outs_apply (c : Dev nD) (t : Fin cfg0.N) (p : Fin 4608) (co : Fin 128) :
    (outsAt0 m c t : S1x4608x128.Idx → EReal) (ix3 (0 : Fin 1) p co)
      = outv (Bk0 m c t) (Bk1 m c t) (Bk2 m c t) (Bk3 m c t) (Bk4 m c t) (Bk5 m c t) (Bk6 m c t) (Bk7 m c t) (Bk8 m c t) p co := by
  unfold outsAt0
  exact out_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) p co

/-- The output array at sample `n`, band row `q`, channel `co`. -/
theorem G9_apply (c : Dev nD) (n : Fin 16) (q : Fin 4608) (co : Fin 128) :
    G9 m c (ix3 n q co) = outv (Bk0 m c (pt n)) (Bk1 m c (pt n)) (Bk2 m c (pt n)) (Bk3 m c (pt n)) (Bk4 m c (pt n))
      (Bk5 m c (pt n)) (Bk6 m c (pt n)) (Bk7 m c (pt n)) (Bk8 m c (pt n)) q co :=
  (glue_apply (fun t => outsAt0 m c t) n q co).trans (outs_apply m c (pt n) q co)

/-! ## The host operations after the region -/

/-- After the region the host reshapes the output array to [16, 64, 72, 128], keeps columns 4..67 of each padded row and
    moves the channel axis forward. -/
theorem tail_eq (c : Dev nD) :
    Pipeline.afterTail₀ cfgs (dats m) 0 (V0 m) [hostOps1] c main_v57
      = transpose S16x128x64x64 [0, 3, 1, 2]
          (extractStridedSlice S16x64x64x128 ![0, 0, 4, 0]
            (shapeCast S16x64x72x128 (G9 m c) shapeCasts_S16x4608x128_S16x64x72x128)
            slices_S16x64x72x128_S16x64x64x128_0_0_4_0)
          transposes_S16x64x64x128_S16x128x64x64_0_3_1_2 := by
  unfold Pipeline.afterTail₀
  show StableHlo.after hostOps1 _ (Proc.devRef .tc main_v57) = _
  after_results
  have e : Pipeline.withArrays (cfgs 0).spec c (V0 m c) (fun w => (dats m 0 c).arrAt w (cfgs 0).N) (Proc.devRef .tc main_v54) = G9 m c :=
    (Pipeline.withArrays_arr spec0 launch0.win.arr_inj c (V0 m c) (fun w => (dats m 0 c).arrAt w cfg0.N) 9).trans (final9 m c)
  rw [e]
  rfl

/-! ## The blocks read as the specification's arrays -/

section Accessors

variable (c : Dev nD) (n : Fin 16)

/-- Sample `n`'s input image. -/
theorem hX1 : X1 (Bk0 m c (pt n)) = fun ci h w => (m ((c : Thread nD τ).loc main_arg0) : S16x256x32x32.Idx → EReal) (ix4 n ci h w) := by
  funext ci h w
  exact (blk0_apply m c (pt n) n rfl _ ci).trans (v37_apply m c n h w ci)

/-- Sample `n`'s skip image: pixel `(y, x)` sits at padded column `4 + x`. -/
theorem hX2 : X2 (Bk1 m c (pt n)) = fun ch y x => (m ((c : Thread nD τ).loc main_arg1) : S16x128x64x64.Idx → EReal) (ix4 n ch y x) := by
  funext ch y x
  have hx : x.val < 64 := x.isLt
  have hy : y.val < 64 := y.isLt
  have h := v41_apply m c n y (⟨4 + x.val, by omega⟩ : Fin 72) ch
  rw [dif_pos (show 4 ≤ 4 + x.val ∧ 4 + x.val < 68 from ⟨by omega, by omega⟩)] at h
  have hq : (⟨y.val * 72 + 4 + x.val, by omega⟩ : Fin 4608) = ⟨y.val * 72 + (4 + x.val), by omega⟩ := Fin.ext (Nat.add_assoc _ _ _)
  have hb : (⟨4 + x.val - 4, by omega⟩ : Fin 64) = x := Fin.ext (by show 4 + x.val - 4 = x.val; omega)
  show (iblk m c 1 (pt n) : S1x4608x128.Idx → EReal) (ix3 (0 : Fin 1) (⟨y.val * 72 + 4 + x.val, by omega⟩ : Fin 4608) ch) = _
  rw [blk1_apply m c (pt n) n rfl, hq]
  refine h.trans ?_
  rw [hb]

/-- The transposed convolution's weight and bias. -/
theorem hWT : WT (Bk3 m c (pt n)) = fun ci co di dj => (m ((c : Thread nD τ).loc main_arg2) : S256x128x2x2.Idx → EReal) (ix4 ci co di dj) := by
  funext ci co di dj
  exact (blk3_apply m c (pt n) ci _).trans (v22_apply m c ci di dj co)

theorem v26_zero (co : Fin 128) :
    (V m c main_v26 : S1x512.Idx → EReal) (ix2 (0 : Fin 1) (⟨co.val, by have := co.isLt; omega⟩ : Fin 512))
      = (m ((c : Thread nD τ).loc main_arg3) : S128.Idx → EReal) (ix1 co) := by
  have h := v26_apply m c (0 : Fin 4) co
  have hq : (⟨(0 : Fin 4).val * 128 + co.val, by have := co.isLt; show 0 * 128 + co.val < 512; omega⟩ : Fin 512) = ⟨co.val, by have := co.isLt; omega⟩ :=
    Fin.ext (by show 0 * 128 + co.val = co.val; omega)
  rw [hq] at h
  exact h

theorem hBT : BT (Bk4 m c (pt n)) = fun co => (m ((c : Thread nD τ).loc main_arg3) : S128.Idx → EReal) (ix1 co) := by
  funext co
  exact (blk4_apply m c (pt n) _).trans (v26_zero m c co)

/-- The two convolutions' weights and biases. -/
theorem hW1 : W1 (Bk5 m c (pt n)) = fun cm ci dh dw => (V m c main_v6 : S128x256x3x3.Idx → EReal) (ix4 cm ci dh dw) := by
  funext cm ci dh dw
  exact (blk5_apply m c (pt n) _ ci cm).trans (v29_apply m c dh dw ci cm)

theorem hB1 : BodyValue.B1 (Bk6 m c (pt n)) = fun cm => (V m c main_v9 : S128.Idx → EReal) (ix1 cm) := by
  funext cm
  exact (blk6_apply m c (pt n) cm).trans (v33_apply m c cm)

theorem hW2 : W2 (Bk7 m c (pt n)) = fun co cm dh dw => (V m c main_v16 : S128x128x3x3.Idx → EReal) (ix4 co cm dh dw) := by
  funext co cm dh dw
  exact (blk7_apply m c (pt n) _ cm co).trans (v32_apply m c dh dw cm co)

theorem hB2 : BodyValue.B2 (Bk8 m c (pt n)) = fun co => (V m c main_v19 : S128.Idx → EReal) (ix1 co) := by
  funext co
  exact (blk8_apply m c (pt n) co).trans (v34_apply m c co)

/-- The mask is one exactly on columns 4..67 of every padded row, -/
theorem hmask (y : Fin 64) (X : Fin 72) (cm : Fin 128) :
    (Bk2 m c (pt n) (ix2 (⟨y.val * 72 + X.val, by have := y.isLt; have := X.isLt; omega⟩ : Fin 4608) cm) : EReal) = if 4 ≤ X.val ∧ X.val < 68 then 1 else 0 :=
  (blk2_apply m c (pt n) _ cm).trans (v53_apply m c y X cm)

/-- the skip image's block is zero on its padded columns, -/
theorem hpad (y : Fin 64) (X : Fin 72) (ch : Fin 128) (hX : ¬(4 ≤ X.val ∧ X.val < 68)) :
    (Bk1 m c (pt n) (ix3 (0 : Fin 1) (⟨y.val * 72 + X.val, by have := y.isLt; have := X.isLt; omega⟩ : Fin 4608) ch) : EReal) = 0 :=
  (blk1_apply m c (pt n) n rfl _ ch).trans ((v41_apply m c n y X ch).trans (dif_neg hX))

/-- and the transposed convolution's bias repeats with period 128. -/
theorem htile (k : Fin 4) (co : Fin 128) :
    (Bk4 m c (pt n) (ix2 (0 : Fin 1) (⟨k.val * 128 + co.val, by have := k.isLt; have := co.isLt; omega⟩ : Fin 512)) : EReal)
      = Bk4 m c (pt n) (ix2 (0 : Fin 1) (⟨co.val, by have := co.isLt; omega⟩ : Fin 512)) :=
  ((blk4_apply m c (pt n) _).trans (v26_apply m c k co)).trans ((blk4_apply m c (pt n) _).trans (v26_zero m c co)).symm

end Accessors

/-! ## The program's result -/

/-- The array the program returns is the block's specification of the arguments: pixel `(y, x)` of sample `n` is band row
    `72 y + 4 + x` of sample `n`'s output block. -/
theorem result_eq (c : Dev nD) :
    Pipeline.afterTail₀ cfgs (dats m) 0 (V0 m) [hostOps1] c main_v57
      = Cert.UpBlock.result (m ((c.tc : Thread nD τ).loc main_arg0)) (m ((c.tc : Thread nD τ).loc main_arg1))
          (m ((c.tc : Thread nD τ).loc main_arg2)) (m ((c.tc : Thread nD τ).loc main_arg3))
          (V m c main_v6) (V m c main_v9) (V m c main_v16) (V m c main_v19) := by
  rw [tail_eq]
  funext j
  obtain ⟨n, co, y, x, rfl⟩ : ∃ (n : Fin 16) (co : Fin 128) (y x : Fin 64), j = ix4 n co y x := ⟨j 0, j 1, j 2, j 3, eq_ix4 j⟩
  refine (tail_apply (G9 m c) n co y x).trans ?_
  refine (G9_apply m c n _ co).trans ?_
  refine (outv_eq_spec (Bk0 m c (pt n)) (Bk1 m c (pt n)) (Bk2 m c (pt n)) (Bk3 m c (pt n)) (Bk4 m c (pt n)) (Bk5 m c (pt n))
    (Bk6 m c (pt n)) (Bk7 m c (pt n)) (Bk8 m c (pt n)) (hmask m c n) (hpad m c n) (htile m c n) y x co).trans ?_
  rw [hX1 m c n, hX2 m c n, hWT m c n, hBT m c n, hW1 m c n, hB1 m c n, hW2 m c n, hB2 m c n]
  rfl

theorem krun : θ_run defs (onTc (τ := τ) (main (F := Ideal))) ⟨m, fun _ => 0, ρ⟩ (fun r => ∀ c : Dev nD,
      r.2.mem ((c.tc : Thread nD τ).loc main_v57)
        = Cert.UpBlock.result (m ((c.tc : Thread nD τ).loc main_arg0)) (m ((c.tc : Thread nD τ).loc main_arg1))
            (m ((c.tc : Thread nD τ).loc main_arg2)) (m ((c.tc : Thread nD τ).loc main_arg3))
            (V m c main_v6) (V m c main_v9) (V m c main_v16) (V m c main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_v57 (Pipeline.mem_restRefs_of main_v57 (by decide) (by decide))).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩)
    (run_main m ρ)

end Cert.KernelIdeal.FinalValue

end
-- ==== Proof.RDefs.lean ====
/-
  The reference's second kernel (the two convolutions) at one grid point, in closed form, as functions of its eight
  input blocks read as extended reals: `av q ch` and `bv q ch` are what row `q` of the two [4624, 128] scratch slabs
  hold — the skip image's block, resp. the upsampled image's block, on the image rows and columns of the padded
  68-wide layout (pixel `(y, x)` at row `(y + 2) 68 + 2 + x`) and zero on the ring; `racc1v` adds, tap by tap, the two
  slabs' shifted windows contracted with the two halves of the tap's weight to the bias; `rhv` is `max · 0` of it
  times the column mask on the band rows 136..4487 and zero off them; `routv` is the second convolution with
  `max · 0`. A tap `(dh, dw)` reads row `67 + 68 dh + dw + p`.
-/
import proofs.«177498_g2000606872001322_pallasbulk_142_4_alg».proof.ReferenceIdeal
import proofs.«177498_g2000606872001322_pallasbulk_142_4_alg».proof.Proof.Spec
import Idealize.ShloMosaic.Lib.ValueIdx

noncomputable section

namespace Cert.ReferenceIdeal.BodyValue

open Idealize.ShloMosaic Idealize.ShloMosaic.TcCoe Idealize.ShloMosaic.ValueIdx Cert.ReferenceIdeal
open scoped BigOperators

variable (x0 : Vec Ideal S1x64x64x128 .f32) (x1 : Vec Ideal S1x64x64x128 .f32) (x2 : Vec Ideal S4352x1 .f32)
  (x3 : Vec Ideal S9x128x128 .f32) (x4 : Vec Ideal S9x128x128 .f32) (x5 : Vec Ideal S1x128 .f32)
  (x6 : Vec Ideal S9x128x128 .f32) (x7 : Vec Ideal S1x128 .f32)

/-- A padded slab over an image block `z` at row `q`, channel `ch`. -/
def padv (z : Vec Ideal S1x64x64x128 .f32) (q : ℕ) (ch : Fin 128) : EReal :=
  if hq : 136 ≤ q ∧ q < 4488 ∧ 2 ≤ (q - 136) % 68 ∧ (q - 136) % 68 < 66 then
    (z (ix4 (0 : Fin 1) (⟨(q - 136) / 68, by omega⟩ : Fin 64) (⟨(q - 136) % 68 - 2, by omega⟩ : Fin 64) ch) : EReal)
  else 0

/-- The skip image's slab. -/
def av (q : ℕ) (ch : Fin 128) : EReal := padv x0 q ch
/-- The upsampled image's slab. -/
def bv (q : ℕ) (ch : Fin 128) : EReal := padv x1 q ch

/-- The first convolution before its `max`, at band row `p`. -/
def racc1v (p : Fin 4352) (cm : Fin 128) : EReal :=
  (x5 (ix2 (0 : Fin 1) cm) : EReal) + ∑ dh : Fin 3, ∑ dw : Fin 3,
    ((∑ ch : Fin 128, av x0 (67 + 68 * dh.val + dw.val + p.val) ch
        * (x3 (ix3 (⟨3 * dh.val + dw.val, by have := dh.isLt; have := dw.isLt; omega⟩ : Fin 9) ch cm) : EReal))
     + ∑ ch : Fin 128, bv x1 (67 + 68 * dh.val + dw.val + p.val) ch
        * (x4 (ix3 (⟨3 * dh.val + dw.val, by have := dh.isLt; have := dw.isLt; omega⟩ : Fin 9) ch cm) : EReal))

/-- The hidden scratch at row `q`. -/
def rhv (q : ℕ) (cm : Fin 128) : EReal :=
  if hq : 136 ≤ q ∧ q < 4488 then
    max (racc1v x0 x1 x3 x4 x5 ⟨q - 136, by omega⟩ cm) 0 * (x2 (ix2 (⟨q - 136, by omega⟩ : Fin 4352) (0 : Fin 1)) : EReal)
  else 0

/-- The output block at band row `p`. -/
def routv (p : Fin 4352) (co : Fin 128) : EReal :=
  max ((x7 (ix2 (0 : Fin 1) co) : EReal) + ∑ dh : Fin 3, ∑ dw : Fin 3, ∑ cm : Fin 128,
    rhv x0 x1 x2 x3 x4 x5 (67 + 68 * dh.val + dw.val + p.val) cm
      * (x6 (ix3 (⟨3 * dh.val + dw.val, by have := dh.isLt; have := dw.isLt; omega⟩ : Fin 9) cm co) : EReal)) 0

end Cert.ReferenceIdeal.BodyValue

end
-- ==== Proof.RHost.lean ====
/-
  What the reference's host operations leave in the arrays its two kernels stage, read at an index (the extended-real
  instance): the first kernel takes the image as [16, 1024, 256] and the transposed-convolution weight and tiled bias;
  the second takes the skip image channels-last, the first kernel's result re-read as a [16, 64, 64, 128] image, the column
  mask (one on columns 2..65 of every 68-wide row), the two halves of the first convolution's scaled weight tap by tap,
  and the second convolution's; the scaled weights and biases are read through as arrays, never opened.
-/
import proofs.«177498_g2000606872001322_pallasbulk_142_4_alg».proof.Proof.Gen.ReferenceIdeal.Frame
import proofs.«177498_g2000606872001322_pallasbulk_142_4_alg».proof.Proof.RDefs
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.ReferenceIdeal.HostValue

open Cert.ReferenceIdeal Cert.ReferenceIdeal.Gen

variable (m : (ℓ : Loc nD τ sig) → Buf (Elt Ideal) ℓ) (ρ : Dev nD → PrngReg)

/-! ## Two permutations of a rank-4 array, read at coordinates -/

section Idx
variable {α : Type}

/-- The permutation [0, 2, 3, 1] of a rank-4 array: the result at (a, c, d, b) is the operand at (a, b, c, d). -/
theorem transpose_0231_apply {n0 n1 n2 n3 : ℕ} (x : (⟨4, ![n0, n1, n2, n3]⟩ : Shape).Idx → α)
    (h : (⟨4, ![n0, n1, n2, n3]⟩ : Shape).Transposes [0, 2, 3, 1] ⟨4, ![n0, n2, n3, n1]⟩)
    (a : Fin n0) (b : Fin n1) (c : Fin n2) (d : Fin n3) :
    transpose ⟨4, ![n0, n2, n3, n1]⟩ [0, 2, 3, 1] x h (ix4 a c d b) = x (ix4 a b c d) :=
  transpose_apply _ x h _ _ fun e => match e with | ⟨0, _⟩ => rfl | ⟨1, _⟩ => rfl | ⟨2, _⟩ => rfl | ⟨3, _⟩ => rfl

/-- The permutation [2, 3, 1, 0] of a rank-4 array: the result at (c, d, b, a) is the operand at (a, b, c, d). -/
theorem transpose_2310_apply {n0 n1 n2 n3 : ℕ} (x : (⟨4, ![n0, n1, n2, n3]⟩ : Shape).Idx → α)
    (h : (⟨4, ![n0, n1, n2, n3]⟩ : Shape).Transposes [2, 3, 1, 0] ⟨4, ![n2, n3, n1, n0]⟩)
    (a : Fin n0) (b : Fin n1) (c : Fin n2) (d : Fin n3) :
    transpose ⟨4, ![n2, n3, n1, n0]⟩ [2, 3, 1, 0] x h (ix4 c d b a) = x (ix4 a b c d) :=
  transpose_apply _ x h _ _ fun e => match e with | ⟨0, _⟩ => rfl | ⟨1, _⟩ => rfl | ⟨2, _⟩ => rfl | ⟨3, _⟩ => rfl

end Idx

/-! ## The first kernel's arrays (at its entry contents) -/

/-- The image, channels moved last and the two spatial axes merged. -/
theorem v8_term (c : Dev nD) :
    (V1 m ρ c main_v8 : S16x1024x256.Idx → EReal) =
      shapeCast S16x1024x256 (transpose S16x32x32x256 [0, 2, 3, 1] (m ((c : Thread nD τ).loc main_arg0))
        transposes_S16x256x32x32_S16x32x32x256_0_2_3_1) shapeCasts_S16x32x32x256_S16x1024x256 := by
  show StableHlo.after hostOps0 (W0 m ρ c) (Proc.devRef .tc main_v8) = _
  simp only [hostOps0]
  after_results
  rfl

theorem v8_apply (c : Dev nD) (n : Fin 16) (h w : Fin 32) (ci : Fin 256) :
    (V1 m ρ c main_v8 : S16x1024x256.Idx → EReal) (ix3 n (⟨h.val * 32 + w.val, by have := h.isLt; have := w.isLt; omega⟩ : Fin 1024) ci)
      = (m ((c : Thread nD τ).loc main_arg0) : S16x256x32x32.Idx → EReal) (ix4 n ci h w) := by
  rw [v8_term]
  refine (shapeCast_apply _ _ _ (ix4 n h w ci) ?_).trans ?_
  · rw [Shape.rowMajor_val_four, Shape.rowMajor_val_three]
    show ((n.val * 32 + h.val) * 32 + w.val) * 256 + ci.val = (n.val * 1024 + (h.val * 32 + w.val)) * 256 + ci.val
    omega
  · exact transpose_0231_apply _ _ n ci h w

/-- The transposed convolution's weight, the output channel moved last and the three trailing axes merged. -/
theorem v3_term (c : Dev nD) :
    (V1 m ρ c main_v3 : S256x512.Idx → EReal) =
      shapeCast S256x512 (transpose S256x2x2x128 [0, 2, 3, 1] (m ((c : Thread nD τ).loc main_arg2))
        transposes_S256x128x2x2_S256x2x2x128_0_2_3_1) shapeCasts_S256x2x2x128_S256x512 := by
  show StableHlo.after hostOps0 (W0 m ρ c) (Proc.devRef .tc main_v3) = _
  simp only [hostOps0]
  after_results
  rfl

theorem v3_apply (c : Dev nD) (ci : Fin 256) (di dj : Fin 2) (co : Fin 128) :
    (V1 m ρ c main_v3 : S256x512.Idx → EReal) (ix2 ci (⟨(di.val * 2 + dj.val) * 128 + co.val, by have := di.isLt; have := dj.isLt; have := co.isLt; omega⟩ : Fin 512))
      = (m ((c : Thread nD τ).loc main_arg2) : S256x128x2x2.Idx → EReal) (ix4 ci co di dj) := by
  rw [v3_term]
  refine (shapeCast_apply _ _ _ (ix4 ci di dj co) ?_).trans ?_
  · rw [Shape.rowMajor_val_four, Shape.rowMajor_val_two]
    show ((ci.val * 2 + di.val) * 2 + dj.val) * 128 + co.val = ci.val * 512 + ((di.val * 2 + dj.val) * 128 + co.val)
    omega
  · exact transpose_0231_apply _ _ ci co di dj

/-- The transposed convolution's bias, tiled four times along one row. -/
theorem v7_term (c : Dev nD) :
    (V1 m ρ c main_v7 : S1x512.Idx → EReal) =
      shapeCast S1x512 (shapeCast S512 (broadcastInDim S4x128 ![0, 1] bcast_S1x128_S4x128_0_1
        (shapeCast S1x128 (m ((c : Thread nD τ).loc main_arg3)) shapeCasts_S128_S1x128)) shapeCasts_S4x128_S512) shapeCasts_S512_S1x512 := by
  show StableHlo.after hostOps0 (W0 m ρ c) (Proc.devRef .tc main_v7) = _
  simp only [hostOps0]
  after_results
  rfl

theorem v7_apply (c : Dev nD) (k : Fin 4) (co : Fin 128) :
    (V1 m ρ c main_v7 : S1x512.Idx → EReal) (ix2 (0 : Fin 1) (⟨k.val * 128 + co.val, by have := k.isLt; have := co.isLt; omega⟩ : Fin 512))
      = (m ((c : Thread nD τ).loc main_arg3) : S128.Idx → EReal) (ix1 co) := by
  rw [v7_term]
  refine (shapeCast_apply _ _ _ (ix1 (⟨k.val * 128 + co.val, by have := k.isLt; have := co.isLt; omega⟩ : Fin 512)) ?_).trans ?_
  · rw [Shape.rowMajor_val_two, Shape.rowMajor_val_one]
    show k.val * 128 + co.val = 0 * 512 + (k.val * 128 + co.val)
    omega
  refine (shapeCast_apply _ _ _ (ix2 k co) ?_).trans ?_
  · rw [Shape.rowMajor_val_two, Shape.rowMajor_val_one]
    rfl
  refine (broadcastInDim_apply _ _ _ _ (ix2 (0 : Fin 1) co) (fun a => match a with | ⟨0, _⟩ => rfl | ⟨1, _⟩ => rfl)).trans ?_
  exact shapeCast_a_1a_apply _ _ _ co

/-! ## The second kernel's arrays (at its entry contents) -/

/-- Closes `∀ op ∈ ops, b ∉ op.writes` for a literal stretch of host operations and a literal buffer: the stretch's
    result buffers are listed and each is another reference. -/
macro "not_written" l:ident : tactic =>
  `(tactic| (refine List.forall_iff_forall_mem.mp ?_
             simp only [$l:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

/-- A buffer that neither the remainder's stretch nor the mask's stretch writes holds at the second kernel's entry what
    the first stretch after the first kernel left in it. -/
theorem W5_eq_W3 (c : Dev nD) (b : Ref sig .tc)
    (h1 : ∀ op ∈ (hostOps1_1 : List (HloOp τ sig (Elt Ideal))), (Proc.devRef .tc b : DevRef τ sig) ∉ op.writes)
    (h2 : ∀ op ∈ (hostOps1_2 : List (HloOp τ sig (Elt Ideal))), (Proc.devRef .tc b : DevRef τ sig) ∉ op.writes) :
    W5 m ρ c (Proc.devRef .tc b) = W3 m ρ c (Proc.devRef .tc b) :=
  (StableHlo.after_of_forall_not_mem _ _ h2).trans (StableHlo.after_of_forall_not_mem _ _ h1)

/-- The skip image, channels moved last: written before the first kernel, untouched since. -/
theorem v1_term (c : Dev nD) :
    (V5 m ρ c main_v1 : S16x64x64x128.Idx → EReal) =
      transpose S16x64x64x128 [0, 2, 3, 1] (m ((c : Thread nD τ).loc main_arg1)) transposes_S16x128x64x64_S16x64x64x128_0_2_3_1 := by
  show W5 m ρ c (Proc.devRef .tc main_v1) = _
  rw [W5_eq_W3 m ρ c main_v1 (by not_written hostOps1_1) (by not_written hostOps1_2)]
  show StableHlo.after hostOps1 (W2 m ρ c) (Proc.devRef .tc main_v1) = _
  rw [StableHlo.after_of_forall_not_mem _ _ (by not_written hostOps1), W2_of_ne m ρ c main_v1 (by decide)]
  show StableHlo.after hostOps0 (W0 m ρ c) (Proc.devRef .tc main_v1) = _
  simp only [hostOps0]
  after_results

theorem v1_apply (c : Dev nD) (n : Fin 16) (y x : Fin 64) (ch : Fin 128) :
    (V5 m ρ c main_v1 : S16x64x64x128.Idx → EReal) (ix4 n y x ch)
      = (m ((c : Thread nD τ).loc main_arg1) : S16x128x64x64.Idx → EReal) (ix4 n ch y x) := by
  rw [v1_term]
  exact transpose_0231_apply _ _ n ch y x

/-- The first kernel's result array, re-read as an image of 128 channels. -/
theorem v10_term (c : Dev nD) :
    (V5 m ρ c main_v10 : S16x64x64x128.Idx → EReal) =
      shapeCast S16x64x64x128 ((dat0 (V1 m ρ) c).arrAt 3 cfg0.N : S16x32x2x32x256.Idx → EReal) shapeCasts_S16x32x2x32x256_S16x64x64x128 := by
  show W5 m ρ c (Proc.devRef .tc main_v10) = _
  rw [W5_eq_W3 m ρ c main_v10 (by not_written hostOps1_1) (by not_written hostOps1_2)]
  show StableHlo.after hostOps1 (W2 m ρ c) (Proc.devRef .tc main_v10) = _
  simp only [hostOps1]
  after_results_simp
  exact congrArg (fun v => shapeCast S16x64x64x128 v shapeCasts_S16x32x2x32x256_S16x64x64x128) (W2_arr m ρ c 3)

theorem v10_apply (c : Dev nD) (n : Fin 16) (y x : Fin 64) (co : Fin 128) :
    (V5 m ρ c main_v10 : S16x64x64x128.Idx → EReal) (ix4 n y x co)
      = ((dat0 (V1 m ρ) c).arrAt 3 cfg0.N : S16x32x2x32x256.Idx → EReal)
          (ix5 n (⟨y.val / 2, by have := y.isLt; omega⟩ : Fin 32) (⟨y.val % 2, by omega⟩ : Fin 2) (⟨x.val / 2, by have := x.isLt; omega⟩ : Fin 32)
            (⟨(x.val % 2) * 128 + co.val, by have := co.isLt; omega⟩ : Fin 256)) := by
  rw [v10_term]
  refine shapeCast_apply (s := S16x32x2x32x256) (t := S16x64x64x128) _ _ _ _ ?_
  rw [Shape.rowMajor_val_five, Shape.rowMajor_val_four]
  show (((n.val * 32 + y.val / 2) * 2 + y.val % 2) * 32 + x.val / 2) * 256 + ((x.val % 2) * 128 + co.val)
    = ((n.val * 64 + y.val) * 64 + x.val) * 128 + co.val
  omega

/-! ## The column mask -/

/-- One element of the remainder function's result, as a function of the position's word: the remainder by 68 of the
    dividend's sign, moved into the divisor's sign class when the two differ. -/
def colWord (w : BitVec 32) : BitVec 32 :=
  Scalar.select
    (IntOp.andi
      (IntOp.cmpi .ne (IntOp.cmpi .slt (IntOp.remsi .host w (Scalar.select (IntOp.cmpi .eq 68#32 0#32) 1#32 68#32)) 0#32)
        (IntOp.cmpi .slt (Scalar.select (IntOp.cmpi .eq 68#32 0#32) 1#32 68#32) 0#32))
      (IntOp.cmpi .ne (IntOp.remsi .host w (Scalar.select (IntOp.cmpi .eq 68#32 0#32) 1#32 68#32)) 0#32))
    (IntOp.addi (IntOp.remsi .host w (Scalar.select (IntOp.cmpi .eq 68#32 0#32) 1#32 68#32)) (Scalar.select (IntOp.cmpi .eq 68#32 0#32) 1#32 68#32))
    (IntOp.remsi .host w (Scalar.select (IntOp.cmpi .eq 68#32 0#32) 1#32 68#32))

/-- One bit of the mask: the column is at least 2 and at most 65. -/
def maskBit (w : BitVec 32) : BitVec 1 :=
  IntOp.andi (IntOp.cmpi .sge (colWord w) 2#32) (IntOp.cmpi .sle (colWord w) 65#32)

/-- At position `68 y + X` of the 64 rows of 68 columns the bit says whether `2 ≤ X ≤ 65`: the 4352 positions are
    evaluated. -/
theorem maskBit_eq : ∀ (y : Fin 64) (X : Fin 68),
    maskBit (BitVec.ofNat 32 (y.val * 68 + X.val)) = if 2 ≤ X.val ∧ X.val ≤ 65 then 1#1 else 0#1 := by
  decide +kernel

/-- The positions 0..4351 as words, left by the stretch after the first kernel. -/
theorem v41_term (c : Dev nD) :
    (W3 m ρ c (Proc.devRef .tc main_v41) : S4352.Idx → BitVec 32) = iotaInDim S4352 32 0 := by
  show StableHlo.after hostOps1 (W2 m ρ c) (Proc.devRef .tc main_v41) = _
  simp only [hostOps1]
  after_results_simp

/-- The row length 68 as a word, left by the same stretch. -/
theorem c68_term (c : Dev nD) :
    (W3 m ρ c (Proc.devRef .tc main_c) : S_.Idx → BitVec 32) = constantI S_ 32 68#32 := by
  show StableHlo.after hostOps1 (W2 m ρ c) (Proc.devRef .tc main_c) = _
  simp only [hostOps1]
  after_results_simp

/-- The remainder function's result: each position's column. -/
theorem v42_term (c : Dev nD) :
    (W4 m ρ c (Proc.devRef .tc main_v42) : S4352.Idx → BitVec 32) = fun i => colWord (BitVec.ofNat 32 (i 0).val) := by
  show StableHlo.after hostOps1_1 (W3 m ρ c) (Proc.devRef .tc main_v42) = _
  generalize hV : W3 m ρ c = V3
  simp only [hostOps1_1]
  after_results_simp
  subst hV
  rw [v41_term, c68_term]
  funext i
  simp only [StableHlo.TRef.toBuf, StableHlo.TRef.ofBuf, id, cast_eq]
  rfl

/-- The mask: each position's bit as a float, in one column. -/
theorem v49_term (c : Dev nD) :
    (V5 m ρ c main_v49 : S4352x1.Idx → EReal) =
      shapeCast S4352x1 (uitofp (F := Ideal) .f32 (fun i : S4352.Idx => maskBit (BitVec.ofNat 32 (i 0).val))) shapeCasts_S4352_S4352x1 := by
  show StableHlo.after hostOps1_2 (W4 m ρ c) (Proc.devRef .tc main_v49) = _
  generalize hV : W4 m ρ c = V4
  simp only [hostOps1_2]
  after_results
  subst hV
  rw [v42_term]
  rfl

theorem v49_apply (c : Dev nD) (y : Fin 64) (X : Fin 68) :
    (V5 m ρ c main_v49 : S4352x1.Idx → EReal) (ix2 (⟨y.val * 68 + X.val, by have := y.isLt; have := X.isLt; omega⟩ : Fin 4352) (0 : Fin 1))
      = if 2 ≤ X.val ∧ X.val ≤ 65 then (1 : EReal) else 0 := by
  rw [v49_term]
  refine (shapeCast_apply _ _ _ (ix1 (⟨y.val * 68 + X.val, by have := y.isLt; have := X.isLt; omega⟩ : Fin 4352)) ?_).trans ?_
  · rw [Shape.rowMajor_val_two, Shape.rowMajor_val_one]
    show y.val * 68 + X.val = (y.val * 68 + X.val) * 1 + 0
    omega
  show (((maskBit (BitVec.ofNat 32 (y.val * 68 + X.val))).toNat : ℝ) : EReal) = _
  rw [maskBit_eq y X]
  by_cases h : 2 ≤ X.val ∧ X.val ≤ 65
  · rw [if_pos h, if_pos h]; simp
  · rw [if_neg h, if_neg h]; simp

/-- The first convolution's scaled weight restricted to input channels 0..127, taps first. -/
theorem v33_term (c : Dev nD) :
    (V5 m ρ c main_v33 : S9x128x128.Idx → EReal) =
      shapeCast S9x128x128 (transpose S3x3x128x128 [2, 3, 1, 0]
        (extractStridedSlice S128x128x3x3 ![0, 0, 0, 0] (V5 m ρ c main_v17 : S128x256x3x3.Idx → EReal) slices_S128x256x3x3_S128x128x3x3_0_0_0_0)
        transposes_S128x128x3x3_S3x3x128x128_2_3_1_0) shapeCasts_S3x3x128x128_S9x128x128 := by
  show W5 m ρ c (Proc.devRef .tc main_v33) = shapeCast S9x128x128 (transpose S3x3x128x128 [2, 3, 1, 0]
        (extractStridedSlice S128x128x3x3 ![0, 0, 0, 0] (W5 m ρ c (Proc.devRef .tc main_v17)) slices_S128x256x3x3_S128x128x3x3_0_0_0_0)
        transposes_S128x128x3x3_S3x3x128x128_2_3_1_0) shapeCasts_S3x3x128x128_S9x128x128
  rw [W5_eq_W3 m ρ c main_v33 (by not_written hostOps1_1) (by not_written hostOps1_2),
    W5_eq_W3 m ρ c main_v17 (by not_written hostOps1_1) (by not_written hostOps1_2)]
  show StableHlo.after hostOps1 (W2 m ρ c) (Proc.devRef .tc main_v33) = shapeCast S9x128x128 (transpose S3x3x128x128 [2, 3, 1, 0]
        (extractStridedSlice S128x128x3x3 ![0, 0, 0, 0] (StableHlo.after hostOps1 (W2 m ρ c) (Proc.devRef .tc main_v17)) slices_S128x256x3x3_S128x128x3x3_0_0_0_0)
        transposes_S128x128x3x3_S3x3x128x128_2_3_1_0) shapeCasts_S3x3x128x128_S9x128x128
  simp only [hostOps1]
  after_results_simp
  rfl

theorem v33_apply (c : Dev nD) (dh dw : Fin 3) (ci : Fin 128) (cm : Fin 128) :
    (V5 m ρ c main_v33 : S9x128x128.Idx → EReal) (ix3 (⟨3 * dh.val + dw.val, by have := dh.isLt; have := dw.isLt; omega⟩ : Fin 9) ci cm)
      = (V5 m ρ c main_v17 : S128x256x3x3.Idx → EReal) (ix4 cm (⟨ci.val, by have := ci.isLt; omega⟩ : Fin 256) dh dw) := by
  rw [v33_term]
  refine (shapeCast_apply _ _ _ (ix4 dh dw ci cm) ?_).trans ?_
  · rw [Shape.rowMajor_val_four, Shape.rowMajor_val_three]
    show ((dh.val * 3 + dw.val) * 128 + ci.val) * 128 + cm.val = ((3 * dh.val + dw.val) * 128 + ci.val) * 128 + cm.val
    omega
  refine (transpose_2310_apply _ _ cm ci dh dw).trans ?_
  exact slice4_axis1_apply 0 _ _ cm ci dh dw _ (Nat.zero_add _).symm

/-- The first convolution's scaled weight restricted to input channels 128..255, taps first. -/
theorem v36_term (c : Dev nD) :
    (V5 m ρ c main_v36 : S9x128x128.Idx → EReal) =
      shapeCast S9x128x128 (transpose S3x3x128x128 [2, 3, 1, 0]
        (extractStridedSlice S128x128x3x3 ![0, 128, 0, 0] (V5 m ρ c main_v17 : S128x256x3x3.Idx → EReal) slices_S128x256x3x3_S128x128x3x3_0_128_0_0)
        transposes_S128x128x3x3_S3x3x128x128_2_3_1_0) shapeCasts_S3x3x128x128_S9x128x128 := by
  show W5 m ρ c (Proc.devRef .tc main_v36) = shapeCast S9x128x128 (transpose S3x3x128x128 [2, 3, 1, 0]
        (extractStridedSlice S128x128x3x3 ![0, 128, 0, 0] (W5 m ρ c (Proc.devRef .tc main_v17)) slices_S128x256x3x3_S128x128x3x3_0_128_0_0)
        transposes_S128x128x3x3_S3x3x128x128_2_3_1_0) shapeCasts_S3x3x128x128_S9x128x128
  rw [W5_eq_W3 m ρ c main_v36 (by not_written hostOps1_1) (by not_written hostOps1_2),
    W5_eq_W3 m ρ c main_v17 (by not_written hostOps1_1) (by not_written hostOps1_2)]
  show StableHlo.after hostOps1 (W2 m ρ c) (Proc.devRef .tc main_v36) = shapeCast S9x128x128 (transpose S3x3x128x128 [2, 3, 1, 0]
        (extractStridedSlice S128x128x3x3 ![0, 128, 0, 0] (StableHlo.after hostOps1 (W2 m ρ c) (Proc.devRef .tc main_v17)) slices_S128x256x3x3_S128x128x3x3_0_128_0_0)
        transposes_S128x128x3x3_S3x3x128x128_2_3_1_0) shapeCasts_S3x3x128x128_S9x128x128
  simp only [hostOps1]
  after_results_simp
  rfl

theorem v36_apply (c : Dev nD) (dh dw : Fin 3) (ci : Fin 128) (cm : Fin 128) :
    (V5 m ρ c main_v36 : S9x128x128.Idx → EReal) (ix3 (⟨3 * dh.val + dw.val, by have := dh.isLt; have := dw.isLt; omega⟩ : Fin 9) ci cm)
      = (V5 m ρ c main_v17 : S128x256x3x3.Idx → EReal) (ix4 cm (⟨128 + ci.val, by have := ci.isLt; omega⟩ : Fin 256) dh dw) := by
  rw [v36_term]
  refine (shapeCast_apply _ _ _ (ix4 dh dw ci cm) ?_).trans ?_
  · rw [Shape.rowMajor_val_four, Shape.rowMajor_val_three]
    show ((dh.val * 3 + dw.val) * 128 + ci.val) * 128 + cm.val = ((3 * dh.val + dw.val) * 128 + ci.val) * 128 + cm.val
    omega
  refine (transpose_2310_apply _ _ cm ci dh dw).trans ?_
  exact slice4_axis1_apply 128 _ _ cm ci dh dw _ rfl

/-- The second convolution's scaled weight, taps first. -/
theorem v38_term (c : Dev nD) :
    (V5 m ρ c main_v38 : S9x128x128.Idx → EReal) =
      shapeCast S9x128x128 (transpose S3x3x128x128 [2, 3, 1, 0] (V5 m ρ c main_v27 : S128x128x3x3.Idx → EReal)
        transposes_S128x128x3x3_S3x3x128x128_2_3_1_0) shapeCasts_S3x3x128x128_S9x128x128 := by
  show W5 m ρ c (Proc.devRef .tc main_v38) = shapeCast S9x128x128 (transpose S3x3x128x128 [2, 3, 1, 0]
        (W5 m ρ c (Proc.devRef .tc main_v27)) transposes_S128x128x3x3_S3x3x128x128_2_3_1_0) shapeCasts_S3x3x128x128_S9x128x128
  rw [W5_eq_W3 m ρ c main_v38 (by not_written hostOps1_1) (by not_written hostOps1_2),
    W5_eq_W3 m ρ c main_v27 (by not_written hostOps1_1) (by not_written hostOps1_2)]
  show StableHlo.after hostOps1 (W2 m ρ c) (Proc.devRef .tc main_v38) = shapeCast S9x128x128 (transpose S3x3x128x128 [2, 3, 1, 0]
        (StableHlo.after hostOps1 (W2 m ρ c) (Proc.devRef .tc main_v27)) transposes_S128x128x3x3_S3x3x128x128_2_3_1_0) shapeCasts_S3x3x128x128_S9x128x128
  simp only [hostOps1]
  after_results_simp
  rfl

theorem v38_apply (c : Dev nD) (dh dw : Fin 3) (cm co : Fin 128) :
    (V5 m ρ c main_v38 : S9x128x128.Idx → EReal) (ix3 (⟨3 * dh.val + dw.val, by have := dh.isLt; have := dw.isLt; omega⟩ : Fin 9) cm co)
      = (V5 m ρ c main_v27 : S128x128x3x3.Idx → EReal) (ix4 co cm dh dw) := by
  rw [v38_term]
  refine (shapeCast_apply _ _ _ (ix4 dh dw cm co) ?_).trans ?_
  · rw [Shape.rowMajor_val_four, Shape.rowMajor_val_three]
    show ((dh.val * 3 + dw.val) * 128 + cm.val) * 128 + co.val = ((3 * dh.val + dw.val) * 128 + cm.val) * 128 + co.val
    omega
  exact transpose_2310_apply _ _ co cm dh dw

/-- The first convolution's folded bias as one row. -/
theorem v39_term (c : Dev nD) :
    (V5 m ρ c main_v39 : S1x128.Idx → EReal) = shapeCast S1x128 (V5 m ρ c main_v20 : S128.Idx → EReal) shapeCasts_S128_S1x128 := by
  show W5 m ρ c (Proc.devRef .tc main_v39) = shapeCast S1x128 (W5 m ρ c (Proc.devRef .tc main_v20)) shapeCasts_S128_S1x128
  rw [W5_eq_W3 m ρ c main_v39 (by not_written hostOps1_1) (by not_written hostOps1_2),
    W5_eq_W3 m ρ c main_v20 (by not_written hostOps1_1) (by not_written hostOps1_2)]
  show StableHlo.after hostOps1 (W2 m ρ c) (Proc.devRef .tc main_v39)
    = shapeCast S1x128 (StableHlo.after hostOps1 (W2 m ρ c) (Proc.devRef .tc main_v20)) shapeCasts_S128_S1x128
  simp only [hostOps1]
  after_results_simp
  rfl

theorem v39_apply (c : Dev nD) (cm : Fin 128) :
    (V5 m ρ c main_v39 : S1x128.Idx → EReal) (ix2 (0 : Fin 1) cm) = (V5 m ρ c main_v20 : S128.Idx → EReal) (ix1 cm) := by
  rw [v39_term]
  exact shapeCast_a_1a_apply _ _ _ cm

/-- The second convolution's folded bias as one row. -/
theorem v40_term (c : Dev nD) :
    (V5 m ρ c main_v40 : S1x128.Idx → EReal) = shapeCast S1x128 (V5 m ρ c main_v30 : S128.Idx → EReal) shapeCasts_S128_S1x128 := by
  show W5 m ρ c (Proc.devRef .tc main_v40) = shapeCast S1x128 (W5 m ρ c (Proc.devRef .tc main_v30)) shapeCasts_S128_S1x128
  rw [W5_eq_W3 m ρ c main_v40 (by not_written hostOps1_1) (by not_written hostOps1_2),
    W5_eq_W3 m ρ c main_v30 (by not_written hostOps1_1) (by not_written hostOps1_2)]
  show StableHlo.after hostOps1 (W2 m ρ c) (Proc.devRef .tc main_v40)
    = shapeCast S1x128 (StableHlo.after hostOps1 (W2 m ρ c) (Proc.devRef .tc main_v30)) shapeCasts_S128_S1x128
  simp only [hostOps1]
  after_results_simp
  rfl

theorem v40_apply (c : Dev nD) (co : Fin 128) :
    (V5 m ρ c main_v40 : S1x128.Idx → EReal) (ix2 (0 : Fin 1) co) = (V5 m ρ c main_v30 : S128.Idx → EReal) (ix1 co) := by
  rw [v40_term]
  exact shapeCast_a_1a_apply _ _ _ co

end Cert.ReferenceIdeal.HostValue

end
-- ==== Proof.RUp.lean ====
/-
  The reference's first kernel (the transposed convolution) read back as values: its [1, 32, 2, 32, 256] output block holds,
  at (h, di, w, 128 dj + co), the product of image row `32 h + w` with column `128 (2 di + dj) + co` of the weight, plus
  the bias there — pixel `(2 h + di, 2 w + dj)`, channel `co`, of the upsampled image.
-/
import proofs.«177498_g2000606872001322_pallasbulk_142_4_alg».proof.Proof.Gen.ReferenceIdeal.Frame
import proofs.«177498_g2000606872001322_pallasbulk_142_4_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.UpValue

open Cert.ReferenceIdeal Cert.ReferenceIdeal.Gen
open scoped BigOperators

/-! ## The matrix product's operand indices -/

theorem lhs_up_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl

theorem lhs_up_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q

theorem rhs_up_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q

theorem rhs_up_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

variable (x0 : Vec Ideal S1x1024x256 .f32) (x1 : Vec Ideal S256x512 .f32) (x2 : Vec Ideal S1x512 .f32)

set_option maxHeartbeats 400000 in
theorem prod_apply (r : Fin 1024) (c : Fin 512) :
    k0_pay5 x0 x1 x2 (ix2 r c) = (∑ ci : Fin 256, x0 (ix3 0 r ci) * x1 (ix2 ci c)) + x2 (ix2 0 c) := by
  unfold k0_pay5
  refine (addf_apply _ _ _).trans ?_
  refine congrArg₂ (· + ·) ?_ ?_
  · simp only [matmul]
    rw [Ideal.matmul_constant_zero_apply, ← Equiv.sum_comp (contrEquiv1 dot_S1024x256_S256x512_S1024x512_1_0_0_1_n_n 256 rfl rfl).symm]
    refine Finset.sum_congr rfl fun k _ => ?_
    have hk := contrEquiv1_symm_val dot_S1024x256_S256x512_S1024x512_1_0_0_1_n_n 256 rfl rfl k
    have el : dot_S1024x256_S256x512_S1024x512_1_0_0_1_n_n.lhsIdx (ix2 r c) ((contrEquiv1 dot_S1024x256_S256x512_S1024x512_1_0_0_1_n_n 256 rfl rfl).symm k) = ix2 r k :=
      funext fun a => Fin.ext (by
        match a with
        | ⟨0, _⟩ => exact lhs_up_0 _ _
        | ⟨1, _⟩ => exact (lhs_up_1 _ _).trans hk)
    have er : dot_S1024x256_S256x512_S1024x512_1_0_0_1_n_n.rhsIdx (ix2 r c) ((contrEquiv1 dot_S1024x256_S256x512_S1024x512_1_0_0_1_n_n 256 rfl rfl).symm k) = ix2 k c :=
      funext fun a => Fin.ext (by
        match a with
        | ⟨0, _⟩ => exact (rhs_up_0 _ _).trans hk
        | ⟨1, _⟩ => exact rhs_up_1 _ _)
    rw [el, er]
    refine congrArg₂ (· * ·) ?_ ?_
    · exact shapeCast_1ab_ab_apply x0 _ r k
    · exact congrFun (shapeCast_self x1 _) _
  · refine (broadcastTo_1b_ab_apply _ _ r c).trans ?_
    exact congrFun (shapeCast_self x2 _) _

/-! ## One stored tile read at an index -/

/-- The row and column of the product that output index `i = (0, h, di, w, e)` shows: row `32 h + w`, column `256 di + e`. -/
def prodIdx (i : S1x32x2x32x256.Idx) : S1024x512.Idx :=
  ix2 (⟨(i 1).val * 32 + (i 3).val, by
        have h1 : (i 1).val < 32 := (i 1).isLt
        have h3 : (i 3).val < 32 := (i 3).isLt
        omega⟩ : Fin 1024)
      (⟨(i 2).val * 256 + (i 4).val, by
        have h2 : (i 2).val < 2 := (i 2).isLt
        have h4 : (i 4).val < 256 := (i 4).isLt
        omega⟩ : Fin 512)

/-- A [32, 256] tile of a [1024, 512] matrix, cut as rows `o ..` then columns `c ..` and viewed as [1, 1, 1, 32, 256],
    read at `x`, is the matrix at row `o + x₃`, column `c + x₄`. -/
theorem tile_apply (V : S1024x512.Idx → EReal) (o c : Nat) (h1 : S1024x512.Slices ![o, 0] S32x512)
    (h2 : S32x512.Slices ![0, c] S32x256) (h3 : S32x256.ShapeCasts S1x1x1x32x256) (x : S1x1x1x32x256.Idx)
    (k : S1024x512.Idx) (hk0 : (k 0).val = o + (x 3).val) (hk1 : (k 1).val = c + (x 4).val) :
    shapeCast S1x1x1x32x256 (extractStridedSlice S32x256 ![0, c] (extractStridedSlice S32x512 ![o, 0] V h1) h2) h3 x = V k := by
  have l0 : (x 0).val < 1 := (x 0).isLt
  have l1 : (x 1).val < 1 := (x 1).isLt
  have l2 : (x 2).val < 1 := (x 2).isLt
  have l3 : (x 3).val < 32 := (x 3).isLt
  have l4 : (x 4).val < 256 := (x 4).isLt
  have m0 : (k 0).val < 1024 := (k 0).isLt
  have m1 : (k 1).val < 512 := (k 1).isLt
  refine (shapeCast_apply _ h3 x (ix2 (⟨(x 3).val, l3⟩ : Fin 32) (⟨(x 4).val, l4⟩ : Fin 256)) ?_).trans ?_
  · rw [Shape.rowMajor_val_two, Shape.rowMajor_val_five]
    show (x 3).val * 256 + (x 4).val = ((((x 0).val * 1 + (x 1).val) * 1 + (x 2).val) * 32 + (x 3).val) * 256 + (x 4).val
    omega
  refine (slice2_axis1_apply c _ h2 (⟨(x 3).val, l3⟩ : Fin 32) (⟨(x 4).val, l4⟩ : Fin 256)
    (⟨c + (x 4).val, by omega⟩ : Fin 512) rfl).trans ?_
  refine (slice2_axis0_apply o V h1 (⟨(x 3).val, l3⟩ : Fin 32) (⟨c + (x 4).val, by omega⟩ : Fin 512)
    (⟨o + (x 3).val, by omega⟩ : Fin 1024) rfl).trans ?_
  exact congrArg V (funext fun a => Fin.ext (by
    match a with
    | ⟨0, _⟩ => exact hk0.symm
    | ⟨1, _⟩ => exact hk1.symm))

/-- The tile stored at offsets `(0, hh, di, 0, 0)` is rows `32 hh ..`, columns `256 di ..` of the product: at each of
    its indices it is the product at the row and column that index shows. -/
theorem tile_ok (V : S1024x512.Idx → EReal) (hh di o c : Nat)
    (inb : ∀ a, (![0, hh, di, 0, 0] : Fin S1x32x2x32x256.rank → Nat) a + S1x1x1x32x256.size a ≤ S1x32x2x32x256.size a)
    (ho : o = 32 * hh) (hc : c = 256 * di)
    (h1 : S1024x512.Slices ![o, 0] S32x512) (h2 : S32x512.Slices ![0, c] S32x256) (h3 : S32x256.ShapeCasts S1x1x1x32x256)
    (x : (Rect.unit (s := S1x32x2x32x256) ![0, hh, di, 0, 0] S1x1x1x32x256.size inb).shape.Idx) :
    shapeCast S1x1x1x32x256 (extractStridedSlice S32x256 ![0, c] (extractStridedSlice S32x512 ![o, 0] V h1) h2) h3 x
      = V (prodIdx ((Rect.unit (s := S1x32x2x32x256) ![0, hh, di, 0, 0] S1x1x1x32x256.size inb).emb x)) := by
  have l1 : (x 1).val < 1 := (x 1).isLt
  have l2 : (x 2).val < 1 := (x 2).isLt
  refine tile_apply V o c h1 h2 h3 x _ ?_ ?_
  · show (hh + 1 * (x 1).val) * 32 + (0 + 1 * (x 3).val) = o + (x 3).val
    omega
  · show (di + 1 * (x 2).val) * 256 + (0 + 1 * (x 4).val) = c + (x 4).val
    omega

/-! ## The stored tiles are the product, index by index -/

/-- What the pieces of one buffer are asked: each payload is one function `G` of the buffer's index, under its rectangle. -/
theorem cons_ok (G : S1x32x2x32x256.Idx → EReal) {p : View.Piece (Elt Ideal) S1x32x2x32x256 .f32}
    {L : List (View.Piece (Elt Ideal) S1x32x2x32x256 .f32)}
    (hp : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) :=
  List.forall_mem_cons.mpr ⟨hp, hL⟩

theorem nil_ok (G : S1x32x2x32x256.Idx → EReal) :
    ∀ q ∈ ([] : List (View.Piece (Elt Ideal) S1x32x2x32x256 .f32)), ∀ x : q.1.shape.Idx, q.2 x = G (q.1.emb x) :=
  fun q hq => absurd hq List.not_mem_nil

theorem hz3 : (![0, 0, 0] : Fin S1x1024x256.rank → Nat) = fun _ => 0 := by
  funext a; match a with | ⟨0, _⟩ => rfl | ⟨1, _⟩ => rfl | ⟨2, _⟩ => rfl
theorem hz2a : (![0, 0] : Fin S256x512.rank → Nat) = fun _ => 0 := by
  funext a; match a with | ⟨0, _⟩ => rfl | ⟨1, _⟩ => rfl
theorem hz2b : (![0, 0] : Fin S1x512.rank → Nat) = fun _ => 0 := by
  funext a; match a with | ⟨0, _⟩ => rfl | ⟨1, _⟩ => rfl

/-- The product over the three input blocks as the body loads them. -/
abbrev ldProd : S1024x512.Idx → EReal := k0_pay5 (View.ld x0 r0_0) (View.ld x1 r0_1) (View.ld x2 r0_2)
/-- The output block as one function of its index: the product at the row and column the index shows. -/
abbrev ldG : S1x32x2x32x256.Idx → EReal := fun i => ldProd x0 x1 x2 (prodIdx i)

set_option maxRecDepth 16384 in
set_option maxHeartbeats 1000000 in
/-- The whole output block, index by index, is the product at the row and column the index shows. -/
theorem out_eq_prod (i : S1x32x2x32x256.Idx) : out0_3 x0 x1 x2 i = k0_pay5 x0 x1 x2 (prodIdx i) := by
  unfold out0_3
  refine (View.canon_apply_of_pieces (ldG x0 x1 x2) _ ?_ i (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ i)).trans ?_
  · refine cons_ok (ldG x0 x1 x2) (tile_ok (ldProd x0 x1 x2) 31 1 992 256 inb_S1x32x2x32x256_S1x1x1x32x256_0_31_1_0_0 rfl rfl
      slices_S1024x512_o992_0_S32x512 slices_S32x512_o0_256_S32x256 shapeCasts_S32x256_S1x1x1x32x256) ?_
    refine cons_ok (ldG x0 x1 x2) (tile_ok (ldProd x0 x1 x2) 31 0 992 0 inb_S1x32x2x32x256_S1x1x1x32x256_0_31_0_0_0 rfl rfl
      slices_S1024x512_o992_0_S32x512 slices_S32x512_o0_0_S32x256 shapeCasts_S32x256_S1x1x1x32x256) ?_
    refine cons_ok (ldG x0 x1 x2) (tile_ok (ldProd x0 x1 x2) 30 1 960 256 inb_S1x32x2x32x256_S1x1x1x32x256_0_30_1_0_0 rfl rfl
      slices_S1024x512_o960_0_S32x512 slices_S32x512_o0_256_S32x256 shapeCasts_S32x256_S1x1x1x32x256) ?_
    refine cons_ok (ldG x0 x1 x2) (tile_ok (ldProd x0 x1 x2) 30 0 960 0 inb_S1x32x2x32x256_S1x1x1x32x256_0_30_0_0_0 rfl rfl
      slices_S1024x512_o960_0_S32x512 slices_S32x512_o0_0_S32x256 shapeCasts_S32x256_S1x1x1x32x256) ?_
    refine cons_ok (ldG x0 x1 x2) (tile_ok (ldProd x0 x1 x2) 29 1 928 256 inb_S1x32x2x32x256_S1x1x1x32x256_0_29_1_0_0 rfl rfl
      slices_S1024x512_o928_0_S32x512 slices_S32x512_o0_256_S32x256 shapeCasts_S32x256_S1x1x1x32x256) ?_
    refine cons_ok (ldG x0 x1 x2) (tile_ok (ldProd x0 x1 x2) 29 0 928 0 inb_S1x32x2x32x256_S1x1x1x32x256_0_29_0_0_0 rfl rfl
      slices_S1024x512_o928_0_S32x512 slices_S32x512_o0_0_S32x256 shapeCasts_S32x256_S1x1x1x32x256) ?_
    refine cons_ok (ldG x0 x1 x2) (tile_ok (ldProd x0 x1 x2) 28 1 896 256 inb_S1x32x2x32x256_S1x1x1x32x256_0_28_1_0_0 rfl rfl
      slices_S1024x512_o896_0_S32x512 slices_S32x512_o0_256_S32x256 shapeCasts_S32x256_S1x1x1x32x256) ?_
    refine cons_ok (ldG x0 x1 x2) (tile_ok (ldProd x0 x1 x2) 28 0 896 0 inb_S1x32x2x32x256_S1x1x1x32x256_0_28_0_0_0 rfl rfl
      slices_S1024x512_o896_0_S32x512 slices_S32x512_o0_0_S32x256 shapeCasts_S32x256_S1x1x1x32x256) ?_
    refine cons_ok (ldG x0 x1 x2) (tile_ok (ldProd x0 x1 x2) 27 1 864 256 inb_S1x32x2x32x256_S1x1x1x32x256_0_27_1_0_0 rfl rfl
      slices_S1024x512_o864_0_S32x512 slices_S32x512_o0_256_S32x256 shapeCasts_S32x256_S1x1x1x32x256) ?_
    refine cons_ok (ldG x0 x1 x2) (tile_ok (ldProd x0 x1 x2) 27 0 864 0 inb_S1x32x2x32x256_S1x1x1x32x256_0_27_0_0_0 rfl rfl
      slices_S1024x512_o864_0_S32x512 slices_S32x512_o0_0_S32x256 shapeCasts_S32x256_S1x1x1x32x256) ?_
    refine cons_ok (ldG x0 x1 x2) (tile_ok (ldProd x0 x1 x2) 26 1 832 256 inb_S1x32x2x32x256_S1x1x1x32x256_0_26_1_0_0 rfl rfl
      slices_S1024x512_o832_0_S32x512 slices_S32x512_o0_256_S32x256 shapeCasts_S32x256_S1x1x1x32x256) ?_
    refine cons_ok (ldG x0 x1 x2) (tile_ok (ldProd x0 x1 x2) 26 0 832 0 inb_S1x32x2x32x256_S1x1x1x32x256_0_26_0_0_0 rfl rfl
      slices_S1024x512_o832_0_S32x512 slices_S32x512_o0_0_S32x256 shapeCasts_S32x256_S1x1x1x32x256) ?_
    refine cons_ok (ldG x0 x1 x2) (tile_ok (ldProd x0 x1 x2) 25 1 800 256 inb_S1x32x2x32x256_S1x1x1x32x256_0_25_1_0_0 rfl rfl
      slices_S1024x512_o800_0_S32x512 slices_S32x512_o0_256_S32x256 shapeCasts_S32x256_S1x1x1x32x256) ?_
    refine cons_ok (ldG x0 x1 x2) (tile_ok (ldProd x0 x1 x2) 25 0 800 0 inb_S1x32x2x32x256_S1x1x1x32x256_0_25_0_0_0 rfl rfl
      slices_S1024x512_o800_0_S32x512 slices_S32x512_o0_0_S32x256 shapeCasts_S32x256_S1x1x1x32x256) ?_
    refine cons_ok (ldG x0 x1 x2) (tile_ok (ldProd x0 x1 x2) 24 1 768 256 inb_S1x32x2x32x256_S1x1x1x32x256_0_24_1_0_0 rfl rfl
      slices_S1024x512_o768_0_S32x512 slices_S32x512_o0_256_S32x256 shapeCasts_S32x256_S1x1x1x32x256) ?_
    refine cons_ok (ldG x0 x1 x2) (tile_ok (ldProd x0 x1 x2) 24 0 768 0 inb_S1x32x2x32x256_S1x1x1x32x256_0_24_0_0_0 rfl rfl
      slices_S1024x512_o768_0_S32x512 slices_S32x512_o0_0_S32x256 shapeCasts_S32x256_S1x1x1x32x256) ?_
    refine cons_ok (ldG x0 x1 x2) (tile_ok (ldProd x0 x1 x2) 23 1 736 256 inb_S1x32x2x32x256_S1x1x1x32x256_0_23_1_0_0 rfl rfl
      slices_S1024x512_o736_0_S32x512 slices_S32x512_o0_256_S32x256 shapeCasts_S32x256_S1x1x1x32x256) ?_
    refine cons_ok (ldG x0 x1 x2) (tile_ok (ldProd x0 x1 x2) 23 0 736 0 inb_S1x32x2x32x256_S1x1x1x32x256_0_23_0_0_0 rfl rfl
      slices_S1024x512_o736_0_S32x512 slices_S32x512_o0_0_S32x256 shapeCasts_S32x256_S1x1x1x32x256) ?_
    refine cons_ok (ldG x0 x1 x2) (tile_ok (ldProd x0 x1 x2) 22 1 704 256 inb_S1x32x2x32x256_S1x1x1x32x256_0_22_1_0_0 rfl rfl
      slices_S1024x512_o704_0_S32x512 slices_S32x512_o0_256_S32x256 shapeCasts_S32x256_S1x1x1x32x256) ?_
    refine cons_ok (ldG x0 x1 x2) (tile_ok (ldProd x0 x1 x2) 22 0 704 0 inb_S1x32x2x32x256_S1x1x1x32x256_0_22_0_0_0 rfl rfl
      slices_S1024x512_o704_0_S32x512 slices_S32x512_o0_0_S32x256 shapeCasts_S32x256_S1x1x1x32x256) ?_
    refine cons_ok (ldG x0 x1 x2) (tile_ok (ldProd x0 x1 x2) 21 1 672 256 inb_S1x32x2x32x256_S1x1x1x32x256_0_21_1_0_0 rfl rfl
      slices_S1024x512_o672_0_S32x512 slices_S32x512_o0_256_S32x256 shapeCasts_S32x256_S1x1x1x32x256) ?_
    refine cons_ok (ldG x0 x1 x2) (tile_ok (ldProd x0 x1 x2) 21 0 672 0 inb_S1x32x2x32x256_S1x1x1x32x256_0_21_0_0_0 rfl rfl
      slices_S1024x512_o672_0_S32x512 slices_S32x512_o0_0_S32x256 shapeCasts_S32x256_S1x1x1x32x256) ?_
    refine cons_ok (ldG x0 x1 x2) (tile_ok (ldProd x0 x1 x2) 20 1 640 256 inb_S1x32x2x32x256_S1x1x1x32x256_0_20_1_0_0 rfl rfl
      slices_S1024x512_o640_0_S32x512 slices_S32x512_o0_256_S32x256 shapeCasts_S32x256_S1x1x1x32x256) ?_
    refine cons_ok (ldG x0 x1 x2) (tile_ok (ldProd x0 x1 x2) 20 0 640 0 inb_S1x32x2x32x256_S1x1x1x32x256_0_20_0_0_0 rfl rfl
      slices_S1024x512_o640_0_S32x512 slices_S32x512_o0_0_S32x256 shapeCasts_S32x256_S1x1x1x32x256) ?_
    refine cons_ok (ldG x0 x1 x2) (tile_ok (ldProd x0 x1 x2) 19 1 608 256 inb_S1x32x2x32x256_S1x1x1x32x256_0_19_1_0_0 rfl rfl
      slices_S1024x512_o608_0_S32x512 slices_S32x512_o0_256_S32x256 shapeCasts_S32x256_S1x1x1x32x256) ?_
    refine cons_ok (ldG x0 x1 x2) (tile_ok (ldProd x0 x1 x2) 19 0 608 0 inb_S1x32x2x32x256_S1x1x1x32x256_0_19_0_0_0 rfl rfl
      slices_S1024x512_o608_0_S32x512 slices_S32x512_o0_0_S32x256 shapeCasts_S32x256_S1x1x1x32x256) ?_
    refine cons_ok (ldG x0 x1 x2) (tile_ok (ldProd x0 x1 x2) 18 1 576 256 inb_S1x32x2x32x256_S1x1x1x32x256_0_18_1_0_0 rfl rfl
      slices_S1024x512_o576_0_S32x512 slices_S32x512_o0_256_S32x256 shapeCasts_S32x256_S1x1x1x32x256) ?_
    refine cons_ok (ldG x0 x1 x2) (tile_ok (ldProd x0 x1 x2) 18 0 576 0 inb_S1x32x2x32x256_S1x1x1x32x256_0_18_0_0_0 rfl rfl
      slices_S1024x512_o576_0_S32x512 slices_S32x512_o0_0_S32x256 shapeCasts_S32x256_S1x1x1x32x256) ?_
    refine cons_ok (ldG x0 x1 x2) (tile_ok (ldProd x0 x1 x2) 17 1 544 256 inb_S1x32x2x32x256_S1x1x1x32x256_0_17_1_0_0 rfl rfl
      slices_S1024x512_o544_0_S32x512 slices_S32x512_o0_256_S32x256 shapeCasts_S32x256_S1x1x1x32x256) ?_
    refine cons_ok (ldG x0 x1 x2) (tile_ok (ldProd x0 x1 x2) 17 0 544 0 inb_S1x32x2x32x256_S1x1x1x32x256_0_17_0_0_0 rfl rfl
      slices_S1024x512_o544_0_S32x512 slices_S32x512_o0_0_S32x256 shapeCasts_S32x256_S1x1x1x32x256) ?_
    refine cons_ok (ldG x0 x1 x2) (tile_ok (ldProd x0 x1 x2) 16 1 512 256 inb_S1x32x2x32x256_S1x1x1x32x256_0_16_1_0_0 rfl rfl
      slices_S1024x512_o512_0_S32x512 slices_S32x512_o0_256_S32x256 shapeCasts_S32x256_S1x1x1x32x256) ?_
    refine cons_ok (ldG x0 x1 x2) (tile_ok (ldProd x0 x1 x2) 16 0 512 0 inb_S1x32x2x32x256_S1x1x1x32x256_0_16_0_0_0 rfl rfl
      slices_S1024x512_o512_0_S32x512 slices_S32x512_o0_0_S32x256 shapeCasts_S32x256_S1x1x1x32x256) ?_
    refine cons_ok (ldG x0 x1 x2) (tile_ok (ldProd x0 x1 x2) 15 1 480 256 inb_S1x32x2x32x256_S1x1x1x32x256_0_15_1_0_0 rfl rfl
      slices_S1024x512_o480_0_S32x512 slices_S32x512_o0_256_S32x256 shapeCasts_S32x256_S1x1x1x32x256) ?_
    refine cons_ok (ldG x0 x1 x2) (tile_ok (ldProd x0 x1 x2) 15 0 480 0 inb_S1x32x2x32x256_S1x1x1x32x256_0_15_0_0_0 rfl rfl
      slices_S1024x512_o480_0_S32x512 slices_S32x512_o0_0_S32x256 shapeCasts_S32x256_S1x1x1x32x256) ?_
    refine cons_ok (ldG x0 x1 x2) (tile_ok (ldProd x0 x1 x2) 14 1 448 256 inb_S1x32x2x32x256_S1x1x1x32x256_0_14_1_0_0 rfl rfl
      slices_S1024x512_o448_0_S32x512 slices_S32x512_o0_256_S32x256 shapeCasts_S32x256_S1x1x1x32x256) ?_
    refine cons_ok (ldG x0 x1 x2) (tile_ok (ldProd x0 x1 x2) 14 0 448 0 inb_S1x32x2x32x256_S1x1x1x32x256_0_14_0_0_0 rfl rfl
      slices_S1024x512_o448_0_S32x512 slices_S32x512_o0_0_S32x256 shapeCasts_S32x256_S1x1x1x32x256) ?_
    refine cons_ok (ldG x0 x1 x2) (tile_ok (ldProd x0 x1 x2) 13 1 416 256 inb_S1x32x2x32x256_S1x1x1x32x256_0_13_1_0_0 rfl rfl
      slices_S1024x512_o416_0_S32x512 slices_S32x512_o0_256_S32x256 shapeCasts_S32x256_S1x1x1x32x256) ?_
    refine cons_ok (ldG x0 x1 x2) (tile_ok (ldProd x0 x1 x2) 13 0 416 0 inb_S1x32x2x32x256_S1x1x1x32x256_0_13_0_0_0 rfl rfl
      slices_S1024x512_o416_0_S32x512 slices_S32x512_o0_0_S32x256 shapeCasts_S32x256_S1x1x1x32x256) ?_
    refine cons_ok (ldG x0 x1 x2) (tile_ok (ldProd x0 x1 x2) 12 1 384 256 inb_S1x32x2x32x256_S1x1x1x32x256_0_12_1_0_0 rfl rfl
      slices_S1024x512_o384_0_S32x512 slices_S32x512_o0_256_S32x256 shapeCasts_S32x256_S1x1x1x32x256) ?_
    refine cons_ok (ldG x0 x1 x2) (tile_ok (ldProd x0 x1 x2) 12 0 384 0 inb_S1x32x2x32x256_S1x1x1x32x256_0_12_0_0_0 rfl rfl
      slices_S1024x512_o384_0_S32x512 slices_S32x512_o0_0_S32x256 shapeCasts_S32x256_S1x1x1x32x256) ?_
    refine cons_ok (ldG x0 x1 x2) (tile_ok (ldProd x0 x1 x2) 11 1 352 256 inb_S1x32x2x32x256_S1x1x1x32x256_0_11_1_0_0 rfl rfl
      slices_S1024x512_o352_0_S32x512 slices_S32x512_o0_256_S32x256 shapeCasts_S32x256_S1x1x1x32x256) ?_
    refine cons_ok (ldG x0 x1 x2) (tile_ok (ldProd x0 x1 x2) 11 0 352 0 inb_S1x32x2x32x256_S1x1x1x32x256_0_11_0_0_0 rfl rfl
      slices_S1024x512_o352_0_S32x512 slices_S32x512_o0_0_S32x256 shapeCasts_S32x256_S1x1x1x32x256) ?_
    refine cons_ok (ldG x0 x1 x2) (tile_ok (ldProd x0 x1 x2) 10 1 320 256 inb_S1x32x2x32x256_S1x1x1x32x256_0_10_1_0_0 rfl rfl
      slices_S1024x512_o320_0_S32x512 slices_S32x512_o0_256_S32x256 shapeCasts_S32x256_S1x1x1x32x256) ?_
    refine cons_ok (ldG x0 x1 x2) (tile_ok (ldProd x0 x1 x2) 10 0 320 0 inb_S1x32x2x32x256_S1x1x1x32x256_0_10_0_0_0 rfl rfl
      slices_S1024x512_o320_0_S32x512 slices_S32x512_o0_0_S32x256 shapeCasts_S32x256_S1x1x1x32x256) ?_
    refine cons_ok (ldG x0 x1 x2) (tile_ok (ldProd x0 x1 x2) 9 1 288 256 inb_S1x32x2x32x256_S1x1x1x32x256_0_9_1_0_0 rfl rfl
      slices_S1024x512_o288_0_S32x512 slices_S32x512_o0_256_S32x256 shapeCasts_S32x256_S1x1x1x32x256) ?_
    refine cons_ok (ldG x0 x1 x2) (tile_ok (ldProd x0 x1 x2) 9 0 288 0 inb_S1x32x2x32x256_S1x1x1x32x256_0_9_0_0_0 rfl rfl
      slices_S1024x512_o288_0_S32x512 slices_S32x512_o0_0_S32x256 shapeCasts_S32x256_S1x1x1x32x256) ?_
    refine cons_ok (ldG x0 x1 x2) (tile_ok (ldProd x0 x1 x2) 8 1 256 256 inb_S1x32x2x32x256_S1x1x1x32x256_0_8_1_0_0 rfl rfl
      slices_S1024x512_o256_0_S32x512 slices_S32x512_o0_256_S32x256 shapeCasts_S32x256_S1x1x1x32x256) ?_
    refine cons_ok (ldG x0 x1 x2) (tile_ok (ldProd x0 x1 x2) 8 0 256 0 inb_S1x32x2x32x256_S1x1x1x32x256_0_8_0_0_0 rfl rfl
      slices_S1024x512_o256_0_S32x512 slices_S32x512_o0_0_S32x256 shapeCasts_S32x256_S1x1x1x32x256) ?_
    refine cons_ok (ldG x0 x1 x2) (tile_ok (ldProd x0 x1 x2) 7 1 224 256 inb_S1x32x2x32x256_S1x1x1x32x256_0_7_1_0_0 rfl rfl
      slices_S1024x512_o224_0_S32x512 slices_S32x512_o0_256_S32x256 shapeCasts_S32x256_S1x1x1x32x256) ?_
    refine cons_ok (ldG x0 x1 x2) (tile_ok (ldProd x0 x1 x2) 7 0 224 0 inb_S1x32x2x32x256_S1x1x1x32x256_0_7_0_0_0 rfl rfl
      slices_S1024x512_o224_0_S32x512 slices_S32x512_o0_0_S32x256 shapeCasts_S32x256_S1x1x1x32x256) ?_
    refine cons_ok (ldG x0 x1 x2) (tile_ok (ldProd x0 x1 x2) 6 1 192 256 inb_S1x32x2x32x256_S1x1x1x32x256_0_6_1_0_0 rfl rfl
      slices_S1024x512_o192_0_S32x512 slices_S32x512_o0_256_S32x256 shapeCasts_S32x256_S1x1x1x32x256) ?_
    refine cons_ok (ldG x0 x1 x2) (tile_ok (ldProd x0 x1 x2) 6 0 192 0 inb_S1x32x2x32x256_S1x1x1x32x256_0_6_0_0_0 rfl rfl
      slices_S1024x512_o192_0_S32x512 slices_S32x512_o0_0_S32x256 shapeCasts_S32x256_S1x1x1x32x256) ?_
    refine cons_ok (ldG x0 x1 x2) (tile_ok (ldProd x0 x1 x2) 5 1 160 256 inb_S1x32x2x32x256_S1x1x1x32x256_0_5_1_0_0 rfl rfl
      slices_S1024x512_o160_0_S32x512 slices_S32x512_o0_256_S32x256 shapeCasts_S32x256_S1x1x1x32x256) ?_
    refine cons_ok (ldG x0 x1 x2) (tile_ok (ldProd x0 x1 x2) 5 0 160 0 inb_S1x32x2x32x256_S1x1x1x32x256_0_5_0_0_0 rfl rfl
      slices_S1024x512_o160_0_S32x512 slices_S32x512_o0_0_S32x256 shapeCasts_S32x256_S1x1x1x32x256) ?_
    refine cons_ok (ldG x0 x1 x2) (tile_ok (ldProd x0 x1 x2) 4 1 128 256 inb_S1x32x2x32x256_S1x1x1x32x256_0_4_1_0_0 rfl rfl
      slices_S1024x512_o128_0_S32x512 slices_S32x512_o0_256_S32x256 shapeCasts_S32x256_S1x1x1x32x256) ?_
    refine cons_ok (ldG x0 x1 x2) (tile_ok (ldProd x0 x1 x2) 4 0 128 0 inb_S1x32x2x32x256_S1x1x1x32x256_0_4_0_0_0 rfl rfl
      slices_S1024x512_o128_0_S32x512 slices_S32x512_o0_0_S32x256 shapeCasts_S32x256_S1x1x1x32x256) ?_
    refine cons_ok (ldG x0 x1 x2) (tile_ok (ldProd x0 x1 x2) 3 1 96 256 inb_S1x32x2x32x256_S1x1x1x32x256_0_3_1_0_0 rfl rfl
      slices_S1024x512_o96_0_S32x512 slices_S32x512_o0_256_S32x256 shapeCasts_S32x256_S1x1x1x32x256) ?_
    refine cons_ok (ldG x0 x1 x2) (tile_ok (ldProd x0 x1 x2) 3 0 96 0 inb_S1x32x2x32x256_S1x1x1x32x256_0_3_0_0_0 rfl rfl
      slices_S1024x512_o96_0_S32x512 slices_S32x512_o0_0_S32x256 shapeCasts_S32x256_S1x1x1x32x256) ?_
    refine cons_ok (ldG x0 x1 x2) (tile_ok (ldProd x0 x1 x2) 2 1 64 256 inb_S1x32x2x32x256_S1x1x1x32x256_0_2_1_0_0 rfl rfl
      slices_S1024x512_o64_0_S32x512 slices_S32x512_o0_256_S32x256 shapeCasts_S32x256_S1x1x1x32x256) ?_
    refine cons_ok (ldG x0 x1 x2) (tile_ok (ldProd x0 x1 x2) 2 0 64 0 inb_S1x32x2x32x256_S1x1x1x32x256_0_2_0_0_0 rfl rfl
      slices_S1024x512_o64_0_S32x512 slices_S32x512_o0_0_S32x256 shapeCasts_S32x256_S1x1x1x32x256) ?_
    refine cons_ok (ldG x0 x1 x2) (tile_ok (ldProd x0 x1 x2) 1 1 32 256 inb_S1x32x2x32x256_S1x1x1x32x256_0_1_1_0_0 rfl rfl
      slices_S1024x512_o32_0_S32x512 slices_S32x512_o0_256_S32x256 shapeCasts_S32x256_S1x1x1x32x256) ?_
    refine cons_ok (ldG x0 x1 x2) (tile_ok (ldProd x0 x1 x2) 1 0 32 0 inb_S1x32x2x32x256_S1x1x1x32x256_0_1_0_0_0 rfl rfl
      slices_S1024x512_o32_0_S32x512 slices_S32x512_o0_0_S32x256 shapeCasts_S32x256_S1x1x1x32x256) ?_
    refine cons_ok (ldG x0 x1 x2) (tile_ok (ldProd x0 x1 x2) 0 1 0 256 inb_S1x32x2x32x256_S1x1x1x32x256_0_0_1_0_0 rfl rfl
      slices_S1024x512_o0_0_S32x512 slices_S32x512_o0_256_S32x256 shapeCasts_S32x256_S1x1x1x32x256) ?_
    refine cons_ok (ldG x0 x1 x2) (tile_ok (ldProd x0 x1 x2) 0 0 0 0 inb_S1x32x2x32x256_S1x1x1x32x256_0_0_0_0_0 rfl rfl
      slices_S1024x512_o0_0_S32x512 slices_S32x512_o0_0_S32x256 shapeCasts_S32x256_S1x1x1x32x256) ?_
    exact nil_ok _
  · show k0_pay5 (View.ld x0 r0_0) (View.ld x1 r0_1) (View.ld x2 r0_2) (prodIdx i) = _
    rw [View.ld_unit_zero hz3, View.ld_unit_zero hz2a, View.ld_unit_zero hz2b]

/-! ## The block at an index, and as the transposed convolution -/

theorem up_block_apply (h : Fin 32) (di : Fin 2) (w : Fin 32) (dj : Fin 2) (co : Fin 128) :
    (out0_3 (F := Ideal) x0 x1 x2 : S1x32x2x32x256.Idx → EReal)
        (ix5 (0 : Fin 1) h di w (⟨dj.val * 128 + co.val, by have := dj.isLt; have := co.isLt; omega⟩ : Fin 256))
      = (∑ ci : Fin 256, (x0 (ix3 (0 : Fin 1) (⟨h.val * 32 + w.val, by have := h.isLt; have := w.isLt; omega⟩ : Fin 1024) ci) : EReal)
            * (x1 (ix2 ci (⟨(di.val * 2 + dj.val) * 128 + co.val, by have := di.isLt; have := dj.isLt; have := co.isLt; omega⟩ : Fin 512)) : EReal))
          + (x2 (ix2 (0 : Fin 1) (⟨(di.val * 2 + dj.val) * 128 + co.val, by have := di.isLt; have := dj.isLt; have := co.isLt; omega⟩ : Fin 512)) : EReal) := by
  have e : prodIdx (ix5 (0 : Fin 1) h di w (⟨dj.val * 128 + co.val, by have := dj.isLt; have := co.isLt; omega⟩ : Fin 256))
      = ix2 (⟨h.val * 32 + w.val, by have := h.isLt; have := w.isLt; omega⟩ : Fin 1024)
          (⟨(di.val * 2 + dj.val) * 128 + co.val, by have := di.isLt; have := dj.isLt; have := co.isLt; omega⟩ : Fin 512) := by
    funext a
    match a with
    | ⟨0, _⟩ => rfl
    | ⟨1, _⟩ =>
      exact Fin.ext (by
        show di.val * 256 + (dj.val * 128 + co.val) = (di.val * 2 + dj.val) * 128 + co.val
        omega)
  refine (out_eq_prod x0 x1 x2 _).trans ?_
  rw [e]
  exact prod_apply x0 x1 x2 _ _

theorem up_block_spec
    (htile : ∀ (k : Fin 4) (co : Fin 128),
      (x2 (ix2 (0 : Fin 1) (⟨k.val * 128 + co.val, by have := k.isLt; have := co.isLt; omega⟩ : Fin 512)) : EReal)
        = x2 (ix2 (0 : Fin 1) (⟨co.val, by have := co.isLt; omega⟩ : Fin 512)))
    (y x : Fin 64) (co : Fin 128) :
    (out0_3 (F := Ideal) x0 x1 x2 : S1x32x2x32x256.Idx → EReal)
        (ix5 (0 : Fin 1) (⟨y.val / 2, by have := y.isLt; omega⟩ : Fin 32) (⟨y.val % 2, by omega⟩ : Fin 2) (⟨x.val / 2, by have := x.isLt; omega⟩ : Fin 32)
          (⟨(x.val % 2) * 128 + co.val, by have := co.isLt; omega⟩ : Fin 256))
      = Cert.UpBlock.up
          (fun ci h w => (x0 (ix3 (0 : Fin 1) (⟨h.val * 32 + w.val, by have := h.isLt; have := w.isLt; omega⟩ : Fin 1024) ci) : EReal))
          (fun ci co di dj => (x1 (ix2 ci (⟨(di.val * 2 + dj.val) * 128 + co.val, by have := di.isLt; have := dj.isLt; have := co.isLt; omega⟩ : Fin 512)) : EReal))
          (fun co => (x2 (ix2 (0 : Fin 1) (⟨co.val, by have := co.isLt; omega⟩ : Fin 512)) : EReal)) co y x := by
  refine (up_block_apply x0 x1 x2 (⟨y.val / 2, by have := y.isLt; omega⟩ : Fin 32) (⟨y.val % 2, by omega⟩ : Fin 2)
    (⟨x.val / 2, by have := x.isLt; omega⟩ : Fin 32) (⟨x.val % 2, by omega⟩ : Fin 2) co).trans ?_
  unfold Cert.UpBlock.up
  exact congrArg₂ (· + ·) rfl (htile (⟨(y.val % 2) * 2 + x.val % 2, by omega⟩ : Fin 4) co)

end Cert.ReferenceIdeal.UpValue

end
-- ==== Proof.RSlab.lean ====
/-
  The two padded slabs of the reference's second kernel, read back from the stores its body makes.

  A slab is a [4624, 128] array: 68 rows of 68 pixels, flattened, so that pixel `(y, x)` of a 64×64 image block sits at
  row `(y + 2) 68 + 2 + x`. The body first stores zero over the whole slab and then, for each image row `i`, stores the
  block's row `i` over the 64 slab rows from `68 i + 138`. The list of these sixty-five stores, as the run finds it, IS
  (by unfolding alone) the list `rows 64 ++ [zero store]` built here by recursion on the number of image rows, and such a
  list is read at a slab row `q` symbolically: if `q` lies in the 64 rows of image row `(q - 136) / 68`, that row store
  holds it and its payload there is the block's pixel; otherwise no row store holds it and the zero store's payload is
  read. Both cases are the closed form `padv`. A load of 4352 consecutive slab rows from row `o` then reads, at its
  local row `p`, the slab at row `o + p`.
-/
import proofs.«177498_g2000606872001322_pallasbulk_142_4_alg».proof.Proof.Gen.ReferenceIdeal.Frame
import proofs.«177498_g2000606872001322_pallasbulk_142_4_alg».proof.Proof.RDefs
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem

namespace Cert.ReferenceIdeal.RunValue

open Cert.ReferenceIdeal Cert.ReferenceIdeal.Gen Cert.ReferenceIdeal.BodyValue

/-! ## Lists of stores: the newer stores first, the older after them -/

section Canon
variable {Val : EltTy → Type} [∀ e, Nonempty (Val e)] {s : Shape} {e : EltTy}

/-- At an index none of the newer stores holds, the stores leave what the older ones left. -/
theorem canon_append_of_not_mem (L1 L2 : List (View.Piece Val s e)) (y : s.Idx) (h : ∀ pc ∈ L1, y ∉ pc.1.set) :
    View.canon (L1 ++ L2) y = View.canon L2 y := by
  induction L1 with
  | nil => rfl
  | cons q L ih =>
    rw [List.cons_append, View.canon_cons_of_not_mem _ _ (h q List.mem_cons_self)]
    exact ih (fun pc hp => h pc (List.mem_cons_of_mem _ hp))

end Canon

/-- A unit-stride rectangle of rows `o … o + k - 1`, all columns, of a rank-two array sends its local index `(r, ch)` to `(o + r, ch)`. -/
theorem emb_rows {m n k : ℕ} (o : ℕ) (inb : ∀ a, (![o, 0] : Fin 2 → ℕ) a + (⟨2, ![k, n]⟩ : Shape).size a ≤ (⟨2, ![m, n]⟩ : Shape).size a)
    (r : Fin k) (ch : Fin n) (h : o + r.val < m) :
    (Rect.unit (s := (⟨2, ![m, n]⟩ : Shape)) ![o, 0] (⟨2, ![k, n]⟩ : Shape).size inb).emb (ix2 r ch) = ix2 (⟨o + r.val, h⟩ : Fin m) ch := by
  funext a; apply Fin.ext
  fin_cases a
  · show o + 1 * r.val = o + r.val; omega
  · show 0 + 1 * ch.val = ch.val; omega

/-- Membership in such a rectangle is a condition on the row alone. -/
theorem mem_rows_iff {m n k : ℕ} (o : ℕ) (inb : ∀ a, (![o, 0] : Fin 2 → ℕ) a + (⟨2, ![k, n]⟩ : Shape).size a ≤ (⟨2, ![m, n]⟩ : Shape).size a)
    (q : Fin m) (ch : Fin n) :
    ix2 q ch ∈ (Rect.unit (s := (⟨2, ![m, n]⟩ : Shape)) ![o, 0] (⟨2, ![k, n]⟩ : Shape).size inb).set ↔ o ≤ q.val ∧ q.val < o + k := by
  rw [Rect.mem_set_unit]
  constructor
  · intro h; exact h 0
  · intro h a
    fin_cases a
    · exact h
    · show 0 ≤ ch.val ∧ ch.val < 0 + n
      have := ch.isLt; omega

/-! ## The two padded slabs -/

section Slab
variable (arg : Memref sig .tc .vmem S1x64x64x128 .f32) (harg : arg.IsWhole) (z : Vec Ideal S1x64x64x128 .f32)

theorem rowInb (i : ℕ) (hi : i < 64) : ∀ a, (![68 * i + 138, 0] : Fin 2 → ℕ) a + S64x128.size a ≤ S4624x128.size a := by
  intro a; fin_cases a
  · show 68 * i + 138 + 64 ≤ 4624; omega
  · show 0 + 128 ≤ 128; omega

theorem srcInb (i : ℕ) (hi : i < 64) : ∀ a, (![0, i, 0, 0] : Fin 4 → ℕ) a + S1x1x64x128.size a ≤ S1x64x64x128.size a := by
  intro a; fin_cases a
  · show 0 + 1 ≤ 1; omega
  · show i + 1 ≤ 64; omega
  · show 0 + 64 ≤ 64; omega
  · show 0 + 128 ≤ 128; omega

/-- The store of image row `i`: rows `68 i + 138 … + 63` of the slab take row `i` of the block. -/
def rowPiece (i : ℕ) (hi : i < 64) : View.Piece (Elt Ideal) S4624x128 .f32 :=
  ⟨Rect.unit ![68 * i + 138, 0] S64x128.size (rowInb i hi),
    shapeCast S64x128 (shapeCast S64x128
      (View.readAt (Elt Ideal) arg.view (Rect.unit (s := S1x64x64x128) ![0, i, 0, 0] S1x1x64x128.size (srcInb i hi)).toLoadRect (harg.unread z))
      shapeCasts_S1x1x64x128_S64x128) shapeCasts_S64x128_S64x128⟩

/-- The row stores of image rows `n - 1, …, 0`, the last made first. -/
def rows : (n : ℕ) → n ≤ 64 → List (View.Piece (Elt Ideal) S4624x128 .f32)
  | 0, _ => []
  | n + 1, h => rowPiece arg harg z n (by omega) :: rows n (by omega)

theorem mem_rows {n : ℕ} {h : n ≤ 64} {pc : View.Piece (Elt Ideal) S4624x128 .f32} :
    pc ∈ rows arg harg z n h ↔ ∃ i, ∃ hi : i < n, pc = rowPiece arg harg z i (by omega) := by
  induction n with
  | zero => simp [rows]
  | succ n ih =>
    rw [rows, List.mem_cons, ih]
    constructor
    · rintro (rfl | ⟨i, hi, rfl⟩)
      · exact ⟨n, Nat.lt_succ_self n, rfl⟩
      · exact ⟨i, Nat.lt_succ_of_lt hi, rfl⟩
    · rintro ⟨i, hi, rfl⟩
      rcases Nat.lt_succ_iff_lt_or_eq.mp hi with h' | rfl
      · exact Or.inr ⟨i, h', rfl⟩
      · exact Or.inl rfl

/-- The whole zero store under the row stores. -/
def zeroPiece : View.Piece (Elt Ideal) S4624x128 .f32 :=
  ⟨Rect.unit ![0, 0] S4624x128.size inb_S4624x128_S4624x128_0_0, k1_pay2 (F := Ideal)⟩

/-- Row `r` of the store of image row `i` is the block's pixel `(i, r)`, which is the padded slab at row `68 i + 138 + r`. -/
theorem rowPiece_agree (i : ℕ) (hi : i < 64) (r : Fin 64) (ch : Fin 128) :
    (rowPiece arg harg z i hi).2 (ix2 r ch) = padv z (68 * i + 138 + r.val) ch := by
  have hq : 136 ≤ 68 * i + 138 + r.val ∧ 68 * i + 138 + r.val < 4488 ∧ 2 ≤ (68 * i + 138 + r.val - 136) % 68
      ∧ (68 * i + 138 + r.val - 136) % 68 < 66 := by
    have := r.isLt; omega
  rw [padv, dif_pos hq]
  unfold rowPiece
  dsimp only
  rw [shapeCast_self]
  refine (shapeCast_apply _ _ (ix2 r ch) (ix4 (0 : Fin 1) (0 : Fin 1) r ch) ?_).trans ?_
  · rw [Shape.rowMajor_val_four, Shape.rowMajor_val_two]
    show ((0 * 1 + 0) * 64 + r.val) * 128 + ch.val = r.val * 128 + ch.val
    omega
  · rw [View.readAt_eq_ld, harg.read_unread]
    show z ((Rect.unit (s := S1x64x64x128) ![0, i, 0, 0] S1x1x64x128.size (srcInb i hi)).emb (ix4 (0 : Fin 1) (0 : Fin 1) r ch)) = z _
    refine congrArg z ?_
    funext a; apply Fin.ext
    have := r.isLt
    fin_cases a
    · show 0 + 1 * 0 = 0; omega
    · show i + 1 * 0 = (68 * i + 138 + r.val - 136) / 68; omega
    · show 0 + 1 * r.val = (68 * i + 138 + r.val - 136) % 68 - 2; omega
    · show 0 + 1 * ch.val = ch.val; omega

theorem hz2 : (![0, 0] : Fin 2 → Nat) = fun _ => 0 := funext fun a => by fin_cases a <;> rfl

/-- The slab the sixty-four row stores leave over the whole zero store, read at row `q`: the block on the image rows and columns, zero on the ring. -/
theorem canon_slab (q : Fin 4624) (ch : Fin 128) :
    View.canon (rows arg harg z 64 le_rfl ++ [zeroPiece]) (ix2 q ch) = padv z q.val ch := by
  by_cases hq : 136 ≤ q.val ∧ q.val < 4488 ∧ 2 ≤ (q.val - 136) % 68 ∧ (q.val - 136) % 68 < 66
  · have hi : (q.val - 136) / 68 < 64 := by omega
    have hmem : ix2 q ch ∈ (rowPiece arg harg z ((q.val - 136) / 68) hi).1.set := by
      show ix2 q ch ∈ (Rect.unit (s := S4624x128) ![68 * ((q.val - 136) / 68) + 138, 0] S64x128.size (rowInb _ hi)).set
      rw [mem_rows_iff]; omega
    refine View.canon_append_of_pieces (fun y : S4624x128.Idx => padv z (y 0).val (y 1)) _ _ ?_ (ix2 q ch)
      ⟨_, (mem_rows arg harg z).mpr ⟨_, hi, rfl⟩, hmem⟩
    intro pc hpc x
    obtain ⟨i, hi', rfl⟩ := (mem_rows arg harg z).mp hpc
    obtain ⟨r, c', rfl⟩ : ∃ (r : Fin 64) (c' : Fin 128), x = ix2 r c' := ⟨x 0, x 1, eq_ix2 x⟩
    refine (rowPiece_agree arg harg z i _ r c').trans ?_
    exact congrArg (fun y : S4624x128.Idx => padv z (y 0).val (y 1))
      (emb_rows (68 * i + 138) (rowInb i (by omega)) r c' (by have := r.isLt; omega)).symm
  · rw [canon_append_of_not_mem, padv, dif_neg hq]
    · show View.canon [(⟨Rect.unit ![0, 0] S4624x128.size inb_S4624x128_S4624x128_0_0, k1_pay2 (F := Ideal)⟩ : View.Piece (Elt Ideal) S4624x128 .f32)] (ix2 q ch) = 0
      rw [View.canon_unit_zero hz2]
      unfold k1_pay2
      rw [shapeCast_self]
      exact Ideal.ofBits_zero_f32
    · intro pc hpc hm
      obtain ⟨i, hi', rfl⟩ := (mem_rows arg harg z).mp hpc
      have h1 : 68 * i + 138 ≤ q.val ∧ q.val < 68 * i + 138 + 64 :=
        (mem_rows_iff (68 * i + 138) (rowInb i (by omega)) q ch).mp hm
      exact hq (by omega)

/-- The first slab's stores as the run lists them are the row stores over the zero store. -/
theorem slabA_list (c : Dev nD) :
    kernelRun1_A.sl.HS0_65 (F := Ideal) c arg harg z = rows arg harg z 64 le_rfl ++ [zeroPiece] := rfl

/-- The second slab's likewise. -/
theorem slabB_list (c : Dev nD) :
    kernelRun1_A.sl.HS1_65 (F := Ideal) c arg harg z = rows arg harg z 64 le_rfl ++ [zeroPiece] := rfl

end Slab

/-! ## A window of 4352 rows of a slab -/

/-- A load of rows `o … o + 4351` after the stores `L` reads, at `(p, k)`, what the stores left at row `o + p`. -/
theorem rows_read {sig' : RefSig} {κ : Kind} {sp : Space} (v : View sig' κ sp S4624x128 .f32)
    (L : List (View.Piece (Elt Ideal) S4624x128 .f32)) (o : ℕ)
    (inb : ∀ a, (![o, 0] : Fin 2 → ℕ) a + S4352x128.size a ≤ S4624x128.size a) (p : Fin 4352) (k : Fin 128) :
    v.readCov L (Rect.unit (s := S4624x128) ![o, 0] S4352x128.size inb).toLoadRect (ix2 p k)
      = View.canon L (ix2 (⟨o + p.val, by have ho : o + 4352 ≤ 4624 := inb 0; have := p.isLt; omega⟩ : Fin 4624) k) := by
  have ho : o + 4352 ≤ 4624 := inb 0
  rw [View.readCov_eq_canon']
  show View.canon L ((Rect.unit (s := S4624x128) ![o, 0] S4352x128.size inb).emb (ix2 p k)) = _
  rw [emb_rows o inb p k (by have := p.isLt; omega)]

/-- The first slab through such a window. -/
theorem slabA_read {sig' : RefSig} {κ : Kind} {sp : Space} (v : View sig' κ sp S4624x128 .f32) (c : Dev nD)
    (arg : Memref sig .tc .vmem S1x64x64x128 .f32) (harg : arg.IsWhole) (z : Vec Ideal S1x64x64x128 .f32) (o : ℕ)
    (inb : ∀ a, (![o, 0] : Fin 2 → ℕ) a + S4352x128.size a ≤ S4624x128.size a) (p : Fin 4352) (k : Fin 128) :
    v.readCov (kernelRun1_A.sl.HS0_65 (F := Ideal) c arg harg z) (Rect.unit (s := S4624x128) ![o, 0] S4352x128.size inb).toLoadRect (ix2 p k)
      = padv z (o + p.val) k := by
  rw [rows_read v _ o inb p k, slabA_list arg harg z c]
  exact canon_slab arg harg z _ k

/-- The second slab through such a window. -/
theorem slabB_read {sig' : RefSig} {κ : Kind} {sp : Space} (v : View sig' κ sp S4624x128 .f32) (c : Dev nD)
    (arg : Memref sig .tc .vmem S1x64x64x128 .f32) (harg : arg.IsWhole) (z : Vec Ideal S1x64x64x128 .f32) (o : ℕ)
    (inb : ∀ a, (![o, 0] : Fin 2 → ℕ) a + S4352x128.size a ≤ S4624x128.size a) (p : Fin 4352) (k : Fin 128) :
    v.readCov (kernelRun1_A.sl.HS1_65 (F := Ideal) c arg harg z) (Rect.unit (s := S4624x128) ![o, 0] S4352x128.size inb).toLoadRect (ix2 p k)
      = padv z (o + p.val) k := by
  rw [rows_read v _ o inb p k, slabB_list arg harg z c]
  exact canon_slab arg harg z _ k

end Cert.ReferenceIdeal.RunValue

end
-- ==== Proof.RPay.lean ====
/-
  The pure values of the reference's second kernel (the two 3×3 convolutions), each read at an index on the extended
  reals, over variables standing for the blocks it loads.

  Three families. The zero fills of the two padded slabs and of the hidden scratch's two margins are zero everywhere. A
  row of an image block, of shape [1, 1, 64, 128], placed into a padded slab is that row with its two unit axes dropped:
  entry (j, ch) is the block's entry (0, 0, j, ch). And the two convolutions are chains of additions: at band row p and
  output channel c the first one starts from zero plus the bias at c and adds, tap after tap, the contraction over the
  128 channels of row p of a shifted window of the skip slab with that tap's first weight half, then the same for the
  upsampled slab and the second half; its result is the maximum with zero times the column mask at row p. The second
  one adds nine such contractions over windows of the hidden scratch and ends in the maximum with zero. A product of a
  [4352, 128] window with a [128, 128] weight matrix into a zero accumulator is, entry by entry, the plain sum over the
  contracted channel; the sums are kept in the order the additions are made, left-nested.
-/
import proofs.«177498_g2000606872001322_pallasbulk_142_4_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.PayValue

open Idealize.ShloMosaic Idealize.ShloMosaic.ValueIdx Cert.ReferenceIdeal.Gen
open scoped BigOperators

/-- The f32 zero word is the extended real zero. -/
theorem zero_word : (Scalar.ofBits (F := Ideal) .f32 0x00000000#32) = (0 : EReal) := Ideal.ofBits_zero_f32

/-- An array of shape [1, 1, a, b] cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-! ## The dot record's operand indices, axis by axis -/

theorem lhs_dd_0 (i : S4352x128.Idx) (q : dot_S4352x128_S128x128_S4352x128_1_0_0_1_n_n.contr.Idx) :
    (dot_S4352x128_S128x128_S4352x128_1_0_0_1_n_n.lhsIdx i q 0).val = (i 0).val := by
  unfold DotDims.lhsIdx
  rw [dif_neg (show ¬(0 : Fin S4352x128.rank) ∈ dot_S4352x128_S128x128_S4352x128_1_0_0_1_n_n.lhsBatch by decide),
    dif_pos (show (0 : Fin S4352x128.rank) ∈ dot_S4352x128_S128x128_S4352x128_1_0_0_1_n_n.lhsNonContracting by decide)]
  rfl

theorem lhs_dd_1 (i : S4352x128.Idx) (q : dot_S4352x128_S128x128_S4352x128_1_0_0_1_n_n.contr.Idx) :
    (dot_S4352x128_S128x128_S4352x128_1_0_0_1_n_n.lhsIdx i q 1).val = (q ⟨0, by decide⟩).val :=
  dot_S4352x128_S128x128_S4352x128_1_0_0_1_n_n.lhsIdx_val_of_single rfl i q

theorem rhs_dd_0 (i : S4352x128.Idx) (q : dot_S4352x128_S128x128_S4352x128_1_0_0_1_n_n.contr.Idx) :
    (dot_S4352x128_S128x128_S4352x128_1_0_0_1_n_n.rhsIdx i q 0).val = (q ⟨0, by decide⟩).val :=
  dot_S4352x128_S128x128_S4352x128_1_0_0_1_n_n.rhsIdx_val_of_single rfl i q

theorem rhs_dd_1 (i : S4352x128.Idx) (q : dot_S4352x128_S128x128_S4352x128_1_0_0_1_n_n.contr.Idx) :
    (dot_S4352x128_S128x128_S4352x128_1_0_0_1_n_n.rhsIdx i q 1).val = (i 1).val := by
  unfold DotDims.rhsIdx
  rw [dif_neg (show ¬(1 : Fin S128x128.rank) ∈ dot_S4352x128_S128x128_S4352x128_1_0_0_1_n_n.rhsBatch by decide),
    dif_pos (show (1 : Fin S128x128.rank) ∈ dot_S4352x128_S128x128_S4352x128_1_0_0_1_n_n.rhsNonContracting by decide)]
  rfl

/-- A matrix product into the zero accumulator, at row p and column c: the sum over the 128 contracted channels. -/
theorem mm_apply (l : FVec Ideal S4352x128 .f32) (w : FVec Ideal S128x128 .f32) (p : Fin 4352) (c : Fin 128) :
    matmul (F := Ideal) dot_S4352x128_S128x128_S4352x128_1_0_0_1_n_n none l w (constant S4352x128 .f32 0x00000000#32) (ix2 p c)
      = ∑ ch : Fin 128, l (ix2 p ch) * w (ix2 ch c) := by
  simp only [matmul]
  rw [Ideal.matmul_constant_zero_apply, ← Equiv.sum_comp (contrEquiv1 dot_S4352x128_S128x128_S4352x128_1_0_0_1_n_n 128 rfl rfl).symm]
  refine Finset.sum_congr rfl fun k _ => ?_
  have hk := contrEquiv1_symm_val dot_S4352x128_S128x128_S4352x128_1_0_0_1_n_n 128 rfl rfl k
  have el : dot_S4352x128_S128x128_S4352x128_1_0_0_1_n_n.lhsIdx (ix2 p c) ((contrEquiv1 dot_S4352x128_S128x128_S4352x128_1_0_0_1_n_n 128 rfl rfl).symm k) = ix2 p k :=
    funext fun a => Fin.ext (by
      match a with
      | ⟨0, _⟩ => exact lhs_dd_0 _ _
      | ⟨1, _⟩ => exact (lhs_dd_1 _ _).trans hk)
  have er : dot_S4352x128_S128x128_S4352x128_1_0_0_1_n_n.rhsIdx (ix2 p c) ((contrEquiv1 dot_S4352x128_S128x128_S4352x128_1_0_0_1_n_n 128 rfl rfl).symm k) = ix2 k c :=
    funext fun a => Fin.ext (by
      match a with
      | ⟨0, _⟩ => exact (rhs_dd_0 _ _).trans hk
      | ⟨1, _⟩ => exact rhs_dd_1 _ _)
  rw [el, er]

/-! ## The zero payloads -/

theorem k1_pay2_apply (q : Fin 4624) (ch : Fin 128) : k1_pay2 (F := Ideal) (ix2 q ch) = (0 : EReal) := by
  unfold k1_pay2; rw [shapeCast_self]; exact zero_word

theorem k1_pay3_apply (q : Fin 4624) (ch : Fin 128) : k1_pay3 (F := Ideal) (ix2 q ch) = (0 : EReal) := by
  unfold k1_pay3; rw [shapeCast_self]; exact zero_word

theorem k1_pay163_apply (q : Fin 136) (ch : Fin 128) : k1_pay163 (F := Ideal) (ix2 q ch) = (0 : EReal) := by
  unfold k1_pay163; rw [shapeCast_self]; exact zero_word

theorem k1_pay164_apply (q : Fin 136) (ch : Fin 128) : k1_pay164 (F := Ideal) (ix2 q ch) = (0 : EReal) := by
  unfold k1_pay164; rw [shapeCast_self]; exact zero_word

theorem k1_pay157_apply (p : Fin 4352) (co : Fin 128) : k1_pay157 (F := Ideal) (ix2 p co) = (0 : EReal) := zero_word

/-! ## The row payloads: each is the loaded [1, 1, 64, 128] row with its two unit axes dropped -/

/-- A row cast to [64, 128] and cast once more to the same shape, at (j, ch). -/
theorem row_apply (v : Vec Ideal S1x1x64x128 .f32) (h1 : S1x1x64x128.ShapeCasts S64x128) (h2 : S64x128.ShapeCasts S64x128)
    (j : Fin 64) (ch : Fin 128) :
    shapeCast S64x128 (shapeCast S64x128 v h1) h2 (ix2 j ch) = v (ix4 0 0 j ch) := by
  rw [shapeCast_self]
  exact shapeCast_11ab_ab_apply v h1 j ch

section Rows
variable (v : Vec Ideal S1x1x64x128 .f32) (j : Fin 64) (ch : Fin 128)

theorem k1_pay4_apply : k1_pay4 v (ix2 j ch) = v (ix4 0 0 j ch) := row_apply v _ _ j ch
theorem k1_pay5_apply : k1_pay5 v (ix2 j ch) = v (ix4 0 0 j ch) := row_apply v _ _ j ch
theorem k1_pay6_apply : k1_pay6 v (ix2 j ch) = v (ix4 0 0 j ch) := row_apply v _ _ j ch
theorem k1_pay7_apply : k1_pay7 v (ix2 j ch) = v (ix4 0 0 j ch) := shapeCast_11ab_ab_apply v _ j ch
theorem k1_pay8_eq (x : FVec Ideal S64x128 .f32) : k1_pay8 x = x := shapeCast_self x _
theorem k1_pay8_pay7_apply : k1_pay8 (k1_pay7 v) (ix2 j ch) = v (ix4 0 0 j ch) := row_apply v _ _ j ch
theorem k1_pay9_apply : k1_pay9 v (ix2 j ch) = v (ix4 0 0 j ch) := row_apply v _ _ j ch
theorem k1_pay10_apply : k1_pay10 v (ix2 j ch) = v (ix4 0 0 j ch) := row_apply v _ _ j ch
theorem k1_pay11_apply : k1_pay11 v (ix2 j ch) = v (ix4 0 0 j ch) := row_apply v _ _ j ch
theorem k1_pay12_apply : k1_pay12 v (ix2 j ch) = v (ix4 0 0 j ch) := row_apply v _ _ j ch
theorem k1_pay13_apply : k1_pay13 v (ix2 j ch) = v (ix4 0 0 j ch) := shapeCast_11ab_ab_apply v _ j ch
theorem k1_pay14_eq (x : FVec Ideal S64x128 .f32) : k1_pay14 x = x := shapeCast_self x _
theorem k1_pay14_pay13_apply : k1_pay14 (k1_pay13 v) (ix2 j ch) = v (ix4 0 0 j ch) := row_apply v _ _ j ch
theorem k1_pay15_apply : k1_pay15 v (ix2 j ch) = v (ix4 0 0 j ch) := row_apply v _ _ j ch
theorem k1_pay16_apply : k1_pay16 v (ix2 j ch) = v (ix4 0 0 j ch) := row_apply v _ _ j ch
theorem k1_pay17_apply : k1_pay17 v (ix2 j ch) = v (ix4 0 0 j ch) := row_apply v _ _ j ch
theorem k1_pay18_apply : k1_pay18 v (ix2 j ch) = v (ix4 0 0 j ch) := row_apply v _ _ j ch
theorem k1_pay19_apply : k1_pay19 v (ix2 j ch) = v (ix4 0 0 j ch) := shapeCast_11ab_ab_apply v _ j ch
theorem k1_pay20_eq (x : FVec Ideal S64x128 .f32) : k1_pay20 x = x := shapeCast_self x _
theorem k1_pay20_pay19_apply : k1_pay20 (k1_pay19 v) (ix2 j ch) = v (ix4 0 0 j ch) := row_apply v _ _ j ch
theorem k1_pay21_apply : k1_pay21 v (ix2 j ch) = v (ix4 0 0 j ch) := row_apply v _ _ j ch
theorem k1_pay22_apply : k1_pay22 v (ix2 j ch) = v (ix4 0 0 j ch) := row_apply v _ _ j ch
theorem k1_pay23_apply : k1_pay23 v (ix2 j ch) = v (ix4 0 0 j ch) := row_apply v _ _ j ch
theorem k1_pay24_apply : k1_pay24 v (ix2 j ch) = v (ix4 0 0 j ch) := row_apply v _ _ j ch
theorem k1_pay25_apply : k1_pay25 v (ix2 j ch) = v (ix4 0 0 j ch) := shapeCast_11ab_ab_apply v _ j ch
theorem k1_pay26_eq (x : FVec Ideal S64x128 .f32) : k1_pay26 x = x := shapeCast_self x _
theorem k1_pay26_pay25_apply : k1_pay26 (k1_pay25 v) (ix2 j ch) = v (ix4 0 0 j ch) := row_apply v _ _ j ch
theorem k1_pay27_apply : k1_pay27 v (ix2 j ch) = v (ix4 0 0 j ch) := row_apply v _ _ j ch
theorem k1_pay28_apply : k1_pay28 v (ix2 j ch) = v (ix4 0 0 j ch) := row_apply v _ _ j ch
theorem k1_pay29_apply : k1_pay29 v (ix2 j ch) = v (ix4 0 0 j ch) := row_apply v _ _ j ch
theorem k1_pay30_apply : k1_pay30 v (ix2 j ch) = v (ix4 0 0 j ch) := row_apply v _ _ j ch
theorem k1_pay31_apply : k1_pay31 v (ix2 j ch) = v (ix4 0 0 j ch) := shapeCast_11ab_ab_apply v _ j ch
theorem k1_pay32_eq (x : FVec Ideal S64x128 .f32) : k1_pay32 x = x := shapeCast_self x _
theorem k1_pay32_pay31_apply : k1_pay32 (k1_pay31 v) (ix2 j ch) = v (ix4 0 0 j ch) := row_apply v _ _ j ch
theorem k1_pay33_apply : k1_pay33 v (ix2 j ch) = v (ix4 0 0 j ch) := row_apply v _ _ j ch
theorem k1_pay34_apply : k1_pay34 v (ix2 j ch) = v (ix4 0 0 j ch) := row_apply v _ _ j ch
theorem k1_pay35_apply : k1_pay35 v (ix2 j ch) = v (ix4 0 0 j ch) := row_apply v _ _ j ch
theorem k1_pay36_apply : k1_pay36 v (ix2 j ch) = v (ix4 0 0 j ch) := row_apply v _ _ j ch
theorem k1_pay37_apply : k1_pay37 v (ix2 j ch) = v (ix4 0 0 j ch) := shapeCast_11ab_ab_apply v _ j ch
theorem k1_pay38_eq (x : FVec Ideal S64x128 .f32) : k1_pay38 x = x := shapeCast_self x _
theorem k1_pay38_pay37_apply : k1_pay38 (k1_pay37 v) (ix2 j ch) = v (ix4 0 0 j ch) := row_apply v _ _ j ch
theorem k1_pay39_apply : k1_pay39 v (ix2 j ch) = v (ix4 0 0 j ch) := row_apply v _ _ j ch
theorem k1_pay40_apply : k1_pay40 v (ix2 j ch) = v (ix4 0 0 j ch) := row_apply v _ _ j ch
theorem k1_pay41_apply : k1_pay41 v (ix2 j ch) = v (ix4 0 0 j ch) := row_apply v _ _ j ch
theorem k1_pay42_apply : k1_pay42 v (ix2 j ch) = v (ix4 0 0 j ch) := row_apply v _ _ j ch
theorem k1_pay43_apply : k1_pay43 v (ix2 j ch) = v (ix4 0 0 j ch) := shapeCast_11ab_ab_apply v _ j ch
theorem k1_pay44_eq (x : FVec Ideal S64x128 .f32) : k1_pay44 x = x := shapeCast_self x _
theorem k1_pay44_pay43_apply : k1_pay44 (k1_pay43 v) (ix2 j ch) = v (ix4 0 0 j ch) := row_apply v _ _ j ch
theorem k1_pay45_apply : k1_pay45 v (ix2 j ch) = v (ix4 0 0 j ch) := row_apply v _ _ j ch
theorem k1_pay46_apply : k1_pay46 v (ix2 j ch) = v (ix4 0 0 j ch) := row_apply v _ _ j ch
theorem k1_pay47_apply : k1_pay47 v (ix2 j ch) = v (ix4 0 0 j ch) := row_apply v _ _ j ch
theorem k1_pay48_apply : k1_pay48 v (ix2 j ch) = v (ix4 0 0 j ch) := row_apply v _ _ j ch
theorem k1_pay49_apply : k1_pay49 v (ix2 j ch) = v (ix4 0 0 j ch) := shapeCast_11ab_ab_apply v _ j ch
theorem k1_pay50_eq (x : FVec Ideal S64x128 .f32) : k1_pay50 x = x := shapeCast_self x _
theorem k1_pay50_pay49_apply : k1_pay50 (k1_pay49 v) (ix2 j ch) = v (ix4 0 0 j ch) := row_apply v _ _ j ch
theorem k1_pay51_apply : k1_pay51 v (ix2 j ch) = v (ix4 0 0 j ch) := row_apply v _ _ j ch
theorem k1_pay52_apply : k1_pay52 v (ix2 j ch) = v (ix4 0 0 j ch) := row_apply v _ _ j ch
theorem k1_pay53_apply : k1_pay53 v (ix2 j ch) = v (ix4 0 0 j ch) := row_apply v _ _ j ch
theorem k1_pay54_apply : k1_pay54 v (ix2 j ch) = v (ix4 0 0 j ch) := row_apply v _ _ j ch
theorem k1_pay55_apply : k1_pay55 v (ix2 j ch) = v (ix4 0 0 j ch) := shapeCast_11ab_ab_apply v _ j ch
theorem k1_pay56_eq (x : FVec Ideal S64x128 .f32) : k1_pay56 x = x := shapeCast_self x _
theorem k1_pay56_pay55_apply : k1_pay56 (k1_pay55 v) (ix2 j ch) = v (ix4 0 0 j ch) := row_apply v _ _ j ch
theorem k1_pay57_apply : k1_pay57 v (ix2 j ch) = v (ix4 0 0 j ch) := row_apply v _ _ j ch
theorem k1_pay58_apply : k1_pay58 v (ix2 j ch) = v (ix4 0 0 j ch) := row_apply v _ _ j ch
theorem k1_pay59_apply : k1_pay59 v (ix2 j ch) = v (ix4 0 0 j ch) := row_apply v _ _ j ch
theorem k1_pay60_apply : k1_pay60 v (ix2 j ch) = v (ix4 0 0 j ch) := row_apply v _ _ j ch
theorem k1_pay61_apply : k1_pay61 v (ix2 j ch) = v (ix4 0 0 j ch) := shapeCast_11ab_ab_apply v _ j ch
theorem k1_pay62_eq (x : FVec Ideal S64x128 .f32) : k1_pay62 x = x := shapeCast_self x _
theorem k1_pay62_pay61_apply : k1_pay62 (k1_pay61 v) (ix2 j ch) = v (ix4 0 0 j ch) := row_apply v _ _ j ch
theorem k1_pay63_apply : k1_pay63 v (ix2 j ch) = v (ix4 0 0 j ch) := row_apply v _ _ j ch
theorem k1_pay64_apply : k1_pay64 v (ix2 j ch) = v (ix4 0 0 j ch) := row_apply v _ _ j ch
theorem k1_pay65_apply : k1_pay65 v (ix2 j ch) = v (ix4 0 0 j ch) := row_apply v _ _ j ch
theorem k1_pay66_apply : k1_pay66 v (ix2 j ch) = v (ix4 0 0 j ch) := row_apply v _ _ j ch
theorem k1_pay67_apply : k1_pay67 v (ix2 j ch) = v (ix4 0 0 j ch) := shapeCast_11ab_ab_apply v _ j ch
theorem k1_pay68_eq (x : FVec Ideal S64x128 .f32) : k1_pay68 x = x := shapeCast_self x _
theorem k1_pay68_pay67_apply : k1_pay68 (k1_pay67 v) (ix2 j ch) = v (ix4 0 0 j ch) := row_apply v _ _ j ch
theorem k1_pay69_apply : k1_pay69 v (ix2 j ch) = v (ix4 0 0 j ch) := row_apply v _ _ j ch
theorem k1_pay70_apply : k1_pay70 v (ix2 j ch) = v (ix4 0 0 j ch) := row_apply v _ _ j ch
theorem k1_pay71_apply : k1_pay71 v (ix2 j ch) = v (ix4 0 0 j ch) := row_apply v _ _ j ch
theorem k1_pay72_apply : k1_pay72 v (ix2 j ch) = v (ix4 0 0 j ch) := row_apply v _ _ j ch
theorem k1_pay73_apply : k1_pay73 v (ix2 j ch) = v (ix4 0 0 j ch) := shapeCast_11ab_ab_apply v _ j ch
theorem k1_pay74_eq (x : FVec Ideal S64x128 .f32) : k1_pay74 x = x := shapeCast_self x _
theorem k1_pay74_pay73_apply : k1_pay74 (k1_pay73 v) (ix2 j ch) = v (ix4 0 0 j ch) := row_apply v _ _ j ch
theorem k1_pay75_apply : k1_pay75 v (ix2 j ch) = v (ix4 0 0 j ch) := row_apply v _ _ j ch
theorem k1_pay76_apply : k1_pay76 v (ix2 j ch) = v (ix4 0 0 j ch) := row_apply v _ _ j ch
theorem k1_pay77_apply : k1_pay77 v (ix2 j ch) = v (ix4 0 0 j ch) := row_apply v _ _ j ch
theorem k1_pay78_apply : k1_pay78 v (ix2 j ch) = v (ix4 0 0 j ch) := row_apply v _ _ j ch
theorem k1_pay79_apply : k1_pay79 v (ix2 j ch) = v (ix4 0 0 j ch) := shapeCast_11ab_ab_apply v _ j ch
theorem k1_pay80_eq (x : FVec Ideal S64x128 .f32) : k1_pay80 x = x := shapeCast_self x _
theorem k1_pay80_pay79_apply : k1_pay80 (k1_pay79 v) (ix2 j ch) = v (ix4 0 0 j ch) := row_apply v _ _ j ch
theorem k1_pay81_apply : k1_pay81 v (ix2 j ch) = v (ix4 0 0 j ch) := row_apply v _ _ j ch
theorem k1_pay82_apply : k1_pay82 v (ix2 j ch) = v (ix4 0 0 j ch) := row_apply v _ _ j ch
theorem k1_pay83_apply : k1_pay83 v (ix2 j ch) = v (ix4 0 0 j ch) := row_apply v _ _ j ch
theorem k1_pay84_apply : k1_pay84 v (ix2 j ch) = v (ix4 0 0 j ch) := row_apply v _ _ j ch
theorem k1_pay85_apply : k1_pay85 v (ix2 j ch) = v (ix4 0 0 j ch) := shapeCast_11ab_ab_apply v _ j ch
theorem k1_pay86_eq (x : FVec Ideal S64x128 .f32) : k1_pay86 x = x := shapeCast_self x _
theorem k1_pay86_pay85_apply : k1_pay86 (k1_pay85 v) (ix2 j ch) = v (ix4 0 0 j ch) := row_apply v _ _ j ch
theorem k1_pay87_apply : k1_pay87 v (ix2 j ch) = v (ix4 0 0 j ch) := row_apply v _ _ j ch
theorem k1_pay88_apply : k1_pay88 v (ix2 j ch) = v (ix4 0 0 j ch) := row_apply v _ _ j ch
theorem k1_pay89_apply : k1_pay89 v (ix2 j ch) = v (ix4 0 0 j ch) := row_apply v _ _ j ch
theorem k1_pay90_apply : k1_pay90 v (ix2 j ch) = v (ix4 0 0 j ch) := row_apply v _ _ j ch
theorem k1_pay91_apply : k1_pay91 v (ix2 j ch) = v (ix4 0 0 j ch) := shapeCast_11ab_ab_apply v _ j ch
theorem k1_pay92_eq (x : FVec Ideal S64x128 .f32) : k1_pay92 x = x := shapeCast_self x _
theorem k1_pay92_pay91_apply : k1_pay92 (k1_pay91 v) (ix2 j ch) = v (ix4 0 0 j ch) := row_apply v _ _ j ch
theorem k1_pay93_apply : k1_pay93 v (ix2 j ch) = v (ix4 0 0 j ch) := row_apply v _ _ j ch
theorem k1_pay94_apply : k1_pay94 v (ix2 j ch) = v (ix4 0 0 j ch) := row_apply v _ _ j ch
theorem k1_pay95_apply : k1_pay95 v (ix2 j ch) = v (ix4 0 0 j ch) := row_apply v _ _ j ch
theorem k1_pay96_apply : k1_pay96 v (ix2 j ch) = v (ix4 0 0 j ch) := row_apply v _ _ j ch
theorem k1_pay97_apply : k1_pay97 v (ix2 j ch) = v (ix4 0 0 j ch) := shapeCast_11ab_ab_apply v _ j ch
theorem k1_pay98_eq (x : FVec Ideal S64x128 .f32) : k1_pay98 x = x := shapeCast_self x _
theorem k1_pay98_pay97_apply : k1_pay98 (k1_pay97 v) (ix2 j ch) = v (ix4 0 0 j ch) := row_apply v _ _ j ch
theorem k1_pay99_apply : k1_pay99 v (ix2 j ch) = v (ix4 0 0 j ch) := row_apply v _ _ j ch
theorem k1_pay100_apply : k1_pay100 v (ix2 j ch) = v (ix4 0 0 j ch) := row_apply v _ _ j ch
theorem k1_pay101_apply : k1_pay101 v (ix2 j ch) = v (ix4 0 0 j ch) := row_apply v _ _ j ch
theorem k1_pay102_apply : k1_pay102 v (ix2 j ch) = v (ix4 0 0 j ch) := row_apply v _ _ j ch
theorem k1_pay103_apply : k1_pay103 v (ix2 j ch) = v (ix4 0 0 j ch) := shapeCast_11ab_ab_apply v _ j ch
theorem k1_pay104_eq (x : FVec Ideal S64x128 .f32) : k1_pay104 x = x := shapeCast_self x _
theorem k1_pay104_pay103_apply : k1_pay104 (k1_pay103 v) (ix2 j ch) = v (ix4 0 0 j ch) := row_apply v _ _ j ch
theorem k1_pay105_apply : k1_pay105 v (ix2 j ch) = v (ix4 0 0 j ch) := row_apply v _ _ j ch
theorem k1_pay106_apply : k1_pay106 v (ix2 j ch) = v (ix4 0 0 j ch) := row_apply v _ _ j ch
theorem k1_pay107_apply : k1_pay107 v (ix2 j ch) = v (ix4 0 0 j ch) := row_apply v _ _ j ch
theorem k1_pay108_apply : k1_pay108 v (ix2 j ch) = v (ix4 0 0 j ch) := row_apply v _ _ j ch
theorem k1_pay109_apply : k1_pay109 v (ix2 j ch) = v (ix4 0 0 j ch) := shapeCast_11ab_ab_apply v _ j ch
theorem k1_pay110_eq (x : FVec Ideal S64x128 .f32) : k1_pay110 x = x := shapeCast_self x _
theorem k1_pay110_pay109_apply : k1_pay110 (k1_pay109 v) (ix2 j ch) = v (ix4 0 0 j ch) := row_apply v _ _ j ch
theorem k1_pay111_apply : k1_pay111 v (ix2 j ch) = v (ix4 0 0 j ch) := row_apply v _ _ j ch
theorem k1_pay112_apply : k1_pay112 v (ix2 j ch) = v (ix4 0 0 j ch) := row_apply v _ _ j ch
theorem k1_pay113_apply : k1_pay113 v (ix2 j ch) = v (ix4 0 0 j ch) := row_apply v _ _ j ch
theorem k1_pay114_apply : k1_pay114 v (ix2 j ch) = v (ix4 0 0 j ch) := row_apply v _ _ j ch
theorem k1_pay115_apply : k1_pay115 v (ix2 j ch) = v (ix4 0 0 j ch) := shapeCast_11ab_ab_apply v _ j ch
theorem k1_pay116_eq (x : FVec Ideal S64x128 .f32) : k1_pay116 x = x := shapeCast_self x _
theorem k1_pay116_pay115_apply : k1_pay116 (k1_pay115 v) (ix2 j ch) = v (ix4 0 0 j ch) := row_apply v _ _ j ch
theorem k1_pay117_apply : k1_pay117 v (ix2 j ch) = v (ix4 0 0 j ch) := row_apply v _ _ j ch
theorem k1_pay118_apply : k1_pay118 v (ix2 j ch) = v (ix4 0 0 j ch) := row_apply v _ _ j ch
theorem k1_pay119_apply : k1_pay119 v (ix2 j ch) = v (ix4 0 0 j ch) := row_apply v _ _ j ch
theorem k1_pay120_apply : k1_pay120 v (ix2 j ch) = v (ix4 0 0 j ch) := row_apply v _ _ j ch
theorem k1_pay121_apply : k1_pay121 v (ix2 j ch) = v (ix4 0 0 j ch) := shapeCast_11ab_ab_apply v _ j ch
theorem k1_pay122_eq (x : FVec Ideal S64x128 .f32) : k1_pay122 x = x := shapeCast_self x _
theorem k1_pay122_pay121_apply : k1_pay122 (k1_pay121 v) (ix2 j ch) = v (ix4 0 0 j ch) := row_apply v _ _ j ch
theorem k1_pay123_apply : k1_pay123 v (ix2 j ch) = v (ix4 0 0 j ch) := row_apply v _ _ j ch
theorem k1_pay124_apply : k1_pay124 v (ix2 j ch) = v (ix4 0 0 j ch) := row_apply v _ _ j ch
theorem k1_pay125_apply : k1_pay125 v (ix2 j ch) = v (ix4 0 0 j ch) := row_apply v _ _ j ch
theorem k1_pay126_apply : k1_pay126 v (ix2 j ch) = v (ix4 0 0 j ch) := row_apply v _ _ j ch
theorem k1_pay127_apply : k1_pay127 v (ix2 j ch) = v (ix4 0 0 j ch) := shapeCast_11ab_ab_apply v _ j ch
theorem k1_pay128_eq (x : FVec Ideal S64x128 .f32) : k1_pay128 x = x := shapeCast_self x _
theorem k1_pay128_pay127_apply : k1_pay128 (k1_pay127 v) (ix2 j ch) = v (ix4 0 0 j ch) := row_apply v _ _ j ch
theorem k1_pay129_apply : k1_pay129 v (ix2 j ch) = v (ix4 0 0 j ch) := row_apply v _ _ j ch
theorem k1_pay130_apply : k1_pay130 v (ix2 j ch) = v (ix4 0 0 j ch) := row_apply v _ _ j ch
theorem k1_pay131_apply : k1_pay131 v (ix2 j ch) = v (ix4 0 0 j ch) := row_apply v _ _ j ch
theorem k1_pay132_apply : k1_pay132 v (ix2 j ch) = v (ix4 0 0 j ch) := row_apply v _ _ j ch
theorem k1_pay133_apply : k1_pay133 v (ix2 j ch) = v (ix4 0 0 j ch) := shapeCast_11ab_ab_apply v _ j ch
theorem k1_pay134_eq (x : FVec Ideal S64x128 .f32) : k1_pay134 x = x := shapeCast_self x _
theorem k1_pay134_pay133_apply : k1_pay134 (k1_pay133 v) (ix2 j ch) = v (ix4 0 0 j ch) := row_apply v _ _ j ch
theorem k1_pay135_apply : k1_pay135 v (ix2 j ch) = v (ix4 0 0 j ch) := row_apply v _ _ j ch
theorem k1_pay136_apply : k1_pay136 v (ix2 j ch) = v (ix4 0 0 j ch) := row_apply v _ _ j ch
theorem k1_pay137_apply : k1_pay137 v (ix2 j ch) = v (ix4 0 0 j ch) := row_apply v _ _ j ch
theorem k1_pay138_apply : k1_pay138 v (ix2 j ch) = v (ix4 0 0 j ch) := row_apply v _ _ j ch
theorem k1_pay139_apply : k1_pay139 v (ix2 j ch) = v (ix4 0 0 j ch) := shapeCast_11ab_ab_apply v _ j ch
theorem k1_pay140_eq (x : FVec Ideal S64x128 .f32) : k1_pay140 x = x := shapeCast_self x _
theorem k1_pay140_pay139_apply : k1_pay140 (k1_pay139 v) (ix2 j ch) = v (ix4 0 0 j ch) := row_apply v _ _ j ch
theorem k1_pay141_apply : k1_pay141 v (ix2 j ch) = v (ix4 0 0 j ch) := row_apply v _ _ j ch
theorem k1_pay142_apply : k1_pay142 v (ix2 j ch) = v (ix4 0 0 j ch) := row_apply v _ _ j ch
theorem k1_pay143_apply : k1_pay143 v (ix2 j ch) = v (ix4 0 0 j ch) := row_apply v _ _ j ch
theorem k1_pay144_apply : k1_pay144 v (ix2 j ch) = v (ix4 0 0 j ch) := row_apply v _ _ j ch
theorem k1_pay145_apply : k1_pay145 v (ix2 j ch) = v (ix4 0 0 j ch) := shapeCast_11ab_ab_apply v _ j ch
theorem k1_pay146_eq (x : FVec Ideal S64x128 .f32) : k1_pay146 x = x := shapeCast_self x _
theorem k1_pay146_pay145_apply : k1_pay146 (k1_pay145 v) (ix2 j ch) = v (ix4 0 0 j ch) := row_apply v _ _ j ch
theorem k1_pay147_apply : k1_pay147 v (ix2 j ch) = v (ix4 0 0 j ch) := row_apply v _ _ j ch
theorem k1_pay148_apply : k1_pay148 v (ix2 j ch) = v (ix4 0 0 j ch) := row_apply v _ _ j ch
theorem k1_pay149_apply : k1_pay149 v (ix2 j ch) = v (ix4 0 0 j ch) := row_apply v _ _ j ch
theorem k1_pay150_apply : k1_pay150 v (ix2 j ch) = v (ix4 0 0 j ch) := row_apply v _ _ j ch
theorem k1_pay151_apply : k1_pay151 v (ix2 j ch) = v (ix4 0 0 j ch) := shapeCast_11ab_ab_apply v _ j ch
theorem k1_pay152_eq (x : FVec Ideal S64x128 .f32) : k1_pay152 x = x := shapeCast_self x _
theorem k1_pay152_pay151_apply : k1_pay152 (k1_pay151 v) (ix2 j ch) = v (ix4 0 0 j ch) := row_apply v _ _ j ch
theorem k1_pay153_apply : k1_pay153 v (ix2 j ch) = v (ix4 0 0 j ch) := row_apply v _ _ j ch
theorem k1_pay154_apply : k1_pay154 v (ix2 j ch) = v (ix4 0 0 j ch) := row_apply v _ _ j ch
theorem k1_pay155_apply : k1_pay155 v (ix2 j ch) = v (ix4 0 0 j ch) := row_apply v _ _ j ch
theorem k1_pay156_apply : k1_pay156 v (ix2 j ch) = v (ix4 0 0 j ch) := row_apply v _ _ j ch

end Rows

/-! ## The two convolutions' chains -/

/-- A column of shape [a, 1] broadcast to [a, b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Conv
variable (p : Fin 4352) (co : Fin 128)

/-- The bias row broadcast over the band. -/
theorem k1_pay158_apply (v649 : Vec Ideal S1x128 .f32) : k1_pay158 v649 (ix2 p co) = v649 (ix2 0 co) := by
  unfold k1_pay158
  rw [shapeCast_self]
  exact broadcastTo_1b_ab_apply v649 _ p co

/-- A weight slab [1, 128, 128] with its unit axis dropped. -/
theorem k1_pay161_apply (v704 : Vec Ideal S1x128x128 .f32) (k : Fin 128) : k1_pay161 v704 (ix2 k co) = v704 (ix3 0 k co) :=
  shapeCast_1ab_ab_apply v704 _ k co

/-- Zero, the bias, and the first five half-taps of the first convolution. -/
theorem k1_pay159_apply (v648 v651 : FVec Ideal S4352x128 .f32) (v653 : Vec Ideal S4352x128 .f32) (v654 : Vec Ideal S1x128x128 .f32) (v658 : Vec Ideal S4352x128 .f32) (v659 : Vec Ideal S1x128x128 .f32) (v663 : Vec Ideal S4352x128 .f32) (v664 : Vec Ideal S1x128x128 .f32) (v668 : Vec Ideal S4352x128 .f32) (v669 : Vec Ideal S1x128x128 .f32) (v673 : Vec Ideal S4352x128 .f32) (v674 : Vec Ideal S1x128x128 .f32) :
    k1_pay159 v648 v651 v653 v654 v658 v659 v663 v664 v668 v669 v673 v674 (ix2 p co)
      = (v648 (ix2 p co) : EReal) + v651 (ix2 p co)
        + ∑ k : Fin 128, (v653 (ix2 p k) : EReal) * (v654 (ix3 (0 : Fin 1) k co) : EReal)
        + ∑ k : Fin 128, (v658 (ix2 p k) : EReal) * (v659 (ix3 (0 : Fin 1) k co) : EReal)
        + ∑ k : Fin 128, (v663 (ix2 p k) : EReal) * (v664 (ix3 (0 : Fin 1) k co) : EReal)
        + ∑ k : Fin 128, (v668 (ix2 p k) : EReal) * (v669 (ix3 (0 : Fin 1) k co) : EReal)
        + ∑ k : Fin 128, (v673 (ix2 p k) : EReal) * (v674 (ix3 (0 : Fin 1) k co) : EReal) := by
  unfold k1_pay159
  simp only [addf_apply, mm_apply, shapeCast_1ab_ab_apply]

/-- The next five half-taps. -/
theorem k1_pay160_apply (v677 : FVec Ideal S4352x128 .f32) (v678 : Vec Ideal S4352x128 .f32) (v679 : Vec Ideal S1x128x128 .f32) (v683 : Vec Ideal S4352x128 .f32) (v684 : Vec Ideal S1x128x128 .f32) (v688 : Vec Ideal S4352x128 .f32) (v689 : Vec Ideal S1x128x128 .f32) (v693 : Vec Ideal S4352x128 .f32) (v694 : Vec Ideal S1x128x128 .f32) (v698 : Vec Ideal S4352x128 .f32) (v699 : Vec Ideal S1x128x128 .f32) :
    k1_pay160 v677 v678 v679 v683 v684 v688 v689 v693 v694 v698 v699 (ix2 p co)
      = (v677 (ix2 p co) : EReal)
        + ∑ k : Fin 128, (v678 (ix2 p k) : EReal) * (v679 (ix3 (0 : Fin 1) k co) : EReal)
        + ∑ k : Fin 128, (v683 (ix2 p k) : EReal) * (v684 (ix3 (0 : Fin 1) k co) : EReal)
        + ∑ k : Fin 128, (v688 (ix2 p k) : EReal) * (v689 (ix3 (0 : Fin 1) k co) : EReal)
        + ∑ k : Fin 128, (v693 (ix2 p k) : EReal) * (v694 (ix3 (0 : Fin 1) k co) : EReal)
        + ∑ k : Fin 128, (v698 (ix2 p k) : EReal) * (v699 (ix3 (0 : Fin 1) k co) : EReal) := by
  unfold k1_pay160
  simp only [addf_apply, mm_apply, shapeCast_1ab_ab_apply]

/-- The next six half-taps; the first one's weight slab arrives with its unit axis already dropped, its accumulator
    as a value that is the zero constant. -/
theorem k1_pay162_apply (v702 : FVec Ideal S4352x128 .f32) (v703 : Vec Ideal S4352x128 .f32) (v705 : FVec Ideal S128x128 .f32) (cst_707 : FVec Ideal S4352x128 .f32) (v708 : Vec Ideal S4352x128 .f32) (v709 : Vec Ideal S1x128x128 .f32) (v713 : Vec Ideal S4352x128 .f32) (v714 : Vec Ideal S1x128x128 .f32) (v718 : Vec Ideal S4352x128 .f32) (v719 : Vec Ideal S1x128x128 .f32) (v723 : Vec Ideal S4352x128 .f32) (v724 : Vec Ideal S1x128x128 .f32) (v728 : Vec Ideal S4352x128 .f32) (v729 : Vec Ideal S1x128x128 .f32)
    (hc : cst_707 = constant S4352x128 .f32 0x00000000#32) :
    k1_pay162 v702 v703 v705 cst_707 v708 v709 v713 v714 v718 v719 v723 v724 v728 v729 (ix2 p co)
      = (v702 (ix2 p co) : EReal)
        + ∑ k : Fin 128, (v703 (ix2 p k) : EReal) * (v705 (ix2 k co) : EReal)
        + ∑ k : Fin 128, (v708 (ix2 p k) : EReal) * (v709 (ix3 (0 : Fin 1) k co) : EReal)
        + ∑ k : Fin 128, (v713 (ix2 p k) : EReal) * (v714 (ix3 (0 : Fin 1) k co) : EReal)
        + ∑ k : Fin 128, (v718 (ix2 p k) : EReal) * (v719 (ix3 (0 : Fin 1) k co) : EReal)
        + ∑ k : Fin 128, (v723 (ix2 p k) : EReal) * (v724 (ix3 (0 : Fin 1) k co) : EReal)
        + ∑ k : Fin 128, (v728 (ix2 p k) : EReal) * (v729 (ix3 (0 : Fin 1) k co) : EReal) := by
  subst hc
  unfold k1_pay162
  simp only [addf_apply, mm_apply, shapeCast_1ab_ab_apply]

/-- The last two half-taps, the maximum with zero, and the column mask. -/
theorem k1_pay165_apply (v732 : FVec Ideal S4352x128 .f32) (v733 : Vec Ideal S4352x128 .f32) (v734 : Vec Ideal S1x128x128 .f32) (v738 : Vec Ideal S4352x128 .f32) (v739 : Vec Ideal S1x128x128 .f32) (v753 : Vec Ideal S4352x1 .f32) :
    k1_pay165 v732 v733 v734 v738 v739 v753 (ix2 p co)
      = max ((v732 (ix2 p co) : EReal)
        + ∑ k : Fin 128, (v733 (ix2 p k) : EReal) * (v734 (ix3 (0 : Fin 1) k co) : EReal)
        + ∑ k : Fin 128, (v738 (ix2 p k) : EReal) * (v739 (ix3 (0 : Fin 1) k co) : EReal)) 0 * (v753 (ix2 p (0 : Fin 1)) : EReal) := by
  unfold k1_pay165
  simp only [shapeCast_self, mulf_apply, maximumf_apply, addf_apply, mm_apply, shapeCast_1ab_ab_apply, broadcast_apply,
    zero_word, broadcastTo_a1_ab_apply]

/-- Zero plus the second convolution's bias row. -/
theorem k1_pay166_apply (v761 : Vec Ideal S1x128 .f32) : k1_pay166 v761 (ix2 p co) = (0 : EReal) + v761 (ix2 0 co) := by
  unfold k1_pay166
  simp only [addf_apply, broadcast_apply, zero_word, shapeCast_self, broadcastTo_1b_ab_apply]

/-- The second convolution's first five taps. -/
theorem k1_pay167_apply (v764 : FVec Ideal S4352x128 .f32) (v765 : Vec Ideal S4352x128 .f32) (v766 : Vec Ideal S1x128x128 .f32) (v770 : Vec Ideal S4352x128 .f32) (v771 : Vec Ideal S1x128x128 .f32) (v775 : Vec Ideal S4352x128 .f32) (v776 : Vec Ideal S1x128x128 .f32) (v780 : Vec Ideal S4352x128 .f32) (v781 : Vec Ideal S1x128x128 .f32) (v785 : Vec Ideal S4352x128 .f32) (v786 : Vec Ideal S1x128x128 .f32) :
    k1_pay167 v764 v765 v766 v770 v771 v775 v776 v780 v781 v785 v786 (ix2 p co)
      = (v764 (ix2 p co) : EReal)
        + ∑ k : Fin 128, (v765 (ix2 p k) : EReal) * (v766 (ix3 (0 : Fin 1) k co) : EReal)
        + ∑ k : Fin 128, (v770 (ix2 p k) : EReal) * (v771 (ix3 (0 : Fin 1) k co) : EReal)
        + ∑ k : Fin 128, (v775 (ix2 p k) : EReal) * (v776 (ix3 (0 : Fin 1) k co) : EReal)
        + ∑ k : Fin 128, (v780 (ix2 p k) : EReal) * (v781 (ix3 (0 : Fin 1) k co) : EReal)
        + ∑ k : Fin 128, (v785 (ix2 p k) : EReal) * (v786 (ix3 (0 : Fin 1) k co) : EReal) := by
  unfold k1_pay167
  simp only [addf_apply, mm_apply, shapeCast_1ab_ab_apply]

/-- Its next three taps. -/
theorem k1_pay168_apply (v789 : FVec Ideal S4352x128 .f32) (v790 : Vec Ideal S4352x128 .f32) (v791 : Vec Ideal S1x128x128 .f32) (v795 : Vec Ideal S4352x128 .f32) (v796 : Vec Ideal S1x128x128 .f32) (v800 : Vec Ideal S4352x128 .f32) (v801 : Vec Ideal S1x128x128 .f32) :
    k1_pay168 v789 v790 v791 v795 v796 v800 v801 (ix2 p co)
      = (v789 (ix2 p co) : EReal)
        + ∑ k : Fin 128, (v790 (ix2 p k) : EReal) * (v791 (ix3 (0 : Fin 1) k co) : EReal)
        + ∑ k : Fin 128, (v795 (ix2 p k) : EReal) * (v796 (ix3 (0 : Fin 1) k co) : EReal)
        + ∑ k : Fin 128, (v800 (ix2 p k) : EReal) * (v801 (ix3 (0 : Fin 1) k co) : EReal) := by
  unfold k1_pay168
  simp only [addf_apply, mm_apply, shapeCast_1ab_ab_apply]

/-- Its last tap and the maximum with zero, under a leading unit axis. -/
theorem k1_pay1_apply (v804 : FVec Ideal S4352x128 .f32) (v805 : Vec Ideal S4352x128 .f32) (v806 : Vec Ideal S1x128x128 .f32) :
    k1_pay1 v804 v805 v806 (ix3 0 p co)
      = max ((v804 (ix2 p co) : EReal) + ∑ k : Fin 128, (v805 (ix2 p k) : EReal) * (v806 (ix3 (0 : Fin 1) k co) : EReal)) 0 := by
  unfold k1_pay1
  simp only [shapeCast_ab_1ab_apply, maximumf_apply, addf_apply, mm_apply, shapeCast_1ab_ab_apply, broadcast_apply, zero_word]

end Conv

/-! ## The chains composed -/

section Chains
variable (p : Fin 4352) (co : Fin 128)

/-- The payload stored into the hidden scratch's band, at band row p and channel co: zero, the first bias, then for
    each of the nine taps in order the skip half and the upsampled half, added one after the other; the maximum with
    zero; times the column mask at row p. -/
theorem conv1_chain_apply (b1 : Vec Ideal S1x128 .f32)
    (a0 : Vec Ideal S4352x128 .f32) (wa0 : Vec Ideal S1x128x128 .f32) (e0 : Vec Ideal S4352x128 .f32) (wb0 : Vec Ideal S1x128x128 .f32)
    (a1 : Vec Ideal S4352x128 .f32) (wa1 : Vec Ideal S1x128x128 .f32) (e1 : Vec Ideal S4352x128 .f32) (wb1 : Vec Ideal S1x128x128 .f32)
    (a2 : Vec Ideal S4352x128 .f32) (wa2 : Vec Ideal S1x128x128 .f32) (e2 : Vec Ideal S4352x128 .f32) (wb2 : Vec Ideal S1x128x128 .f32)
    (a3 : Vec Ideal S4352x128 .f32) (wa3 : Vec Ideal S1x128x128 .f32) (e3 : Vec Ideal S4352x128 .f32) (wb3 : Vec Ideal S1x128x128 .f32)
    (a4 : Vec Ideal S4352x128 .f32) (wa4 : Vec Ideal S1x128x128 .f32) (e4 : Vec Ideal S4352x128 .f32) (wb4 : Vec Ideal S1x128x128 .f32)
    (a5 : Vec Ideal S4352x128 .f32) (wa5 : Vec Ideal S1x128x128 .f32) (e5 : Vec Ideal S4352x128 .f32) (wb5 : Vec Ideal S1x128x128 .f32)
    (a6 : Vec Ideal S4352x128 .f32) (wa6 : Vec Ideal S1x128x128 .f32) (e6 : Vec Ideal S4352x128 .f32) (wb6 : Vec Ideal S1x128x128 .f32)
    (a7 : Vec Ideal S4352x128 .f32) (wa7 : Vec Ideal S1x128x128 .f32) (e7 : Vec Ideal S4352x128 .f32) (wb7 : Vec Ideal S1x128x128 .f32)
    (a8 : Vec Ideal S4352x128 .f32) (wa8 : Vec Ideal S1x128x128 .f32) (e8 : Vec Ideal S4352x128 .f32) (wb8 : Vec Ideal S1x128x128 .f32)
    (mask : Vec Ideal S4352x1 .f32) :
    k1_pay165
        (k1_pay162
          (k1_pay160
            (k1_pay159 (k1_pay157 (F := Ideal)) (k1_pay158 b1) a0 wa0 e0 wb0 a1 wa1 e1 wb1 a2 wa2)
            e2 wb2 a3 wa3 e3 wb3 a4 wa4 e4 wb4)
          a5 (k1_pay161 wa5) (constant S4352x128 .f32 0x00000000#32) e5 wb5 a6 wa6 e6 wb6 a7 wa7 e7 wb7)
        a8 wa8 e8 wb8 mask (ix2 p co)
      = max ((0 : EReal) + (b1 (ix2 (0 : Fin 1) co) : EReal)
        + ∑ k : Fin 128, (a0 (ix2 p k) : EReal) * (wa0 (ix3 (0 : Fin 1) k co) : EReal)
        + ∑ k : Fin 128, (e0 (ix2 p k) : EReal) * (wb0 (ix3 (0 : Fin 1) k co) : EReal)
        + ∑ k : Fin 128, (a1 (ix2 p k) : EReal) * (wa1 (ix3 (0 : Fin 1) k co) : EReal)
        + ∑ k : Fin 128, (e1 (ix2 p k) : EReal) * (wb1 (ix3 (0 : Fin 1) k co) : EReal)
        + ∑ k : Fin 128, (a2 (ix2 p k) : EReal) * (wa2 (ix3 (0 : Fin 1) k co) : EReal)
        + ∑ k : Fin 128, (e2 (ix2 p k) : EReal) * (wb2 (ix3 (0 : Fin 1) k co) : EReal)
        + ∑ k : Fin 128, (a3 (ix2 p k) : EReal) * (wa3 (ix3 (0 : Fin 1) k co) : EReal)
        + ∑ k : Fin 128, (e3 (ix2 p k) : EReal) * (wb3 (ix3 (0 : Fin 1) k co) : EReal)
        + ∑ k : Fin 128, (a4 (ix2 p k) : EReal) * (wa4 (ix3 (0 : Fin 1) k co) : EReal)
        + ∑ k : Fin 128, (e4 (ix2 p k) : EReal) * (wb4 (ix3 (0 : Fin 1) k co) : EReal)
        + ∑ k : Fin 128, (a5 (ix2 p k) : EReal) * (wa5 (ix3 (0 : Fin 1) k co) : EReal)
        + ∑ k : Fin 128, (e5 (ix2 p k) : EReal) * (wb5 (ix3 (0 : Fin 1) k co) : EReal)
        + ∑ k : Fin 128, (a6 (ix2 p k) : EReal) * (wa6 (ix3 (0 : Fin 1) k co) : EReal)
        + ∑ k : Fin 128, (e6 (ix2 p k) : EReal) * (wb6 (ix3 (0 : Fin 1) k co) : EReal)
        + ∑ k : Fin 128, (a7 (ix2 p k) : EReal) * (wa7 (ix3 (0 : Fin 1) k co) : EReal)
        + ∑ k : Fin 128, (e7 (ix2 p k) : EReal) * (wb7 (ix3 (0 : Fin 1) k co) : EReal)
        + ∑ k : Fin 128, (a8 (ix2 p k) : EReal) * (wa8 (ix3 (0 : Fin 1) k co) : EReal)
        + ∑ k : Fin 128, (e8 (ix2 p k) : EReal) * (wb8 (ix3 (0 : Fin 1) k co) : EReal)) 0
          * (mask (ix2 p (0 : Fin 1)) : EReal) := by
  rw [k1_pay165_apply, k1_pay162_apply p co _ _ _ _ _ _ _ _ _ _ _ _ _ _ rfl, k1_pay160_apply, k1_pay159_apply,
    k1_pay157_apply, k1_pay158_apply]
  simp only [k1_pay161_apply]

/-- The payload stored into the output block, at band row p and channel co: zero, the second bias, the nine taps over
    the hidden scratch's windows in order, and the maximum with zero. -/
theorem conv2_chain_apply (b2 : Vec Ideal S1x128 .f32) (h0 : Vec Ideal S4352x128 .f32) (w0 : Vec Ideal S1x128x128 .f32) (h1 : Vec Ideal S4352x128 .f32) (w1 : Vec Ideal S1x128x128 .f32) (h2 : Vec Ideal S4352x128 .f32) (w2 : Vec Ideal S1x128x128 .f32) (h3 : Vec Ideal S4352x128 .f32) (w3 : Vec Ideal S1x128x128 .f32) (h4 : Vec Ideal S4352x128 .f32) (w4 : Vec Ideal S1x128x128 .f32) (h5 : Vec Ideal S4352x128 .f32) (w5 : Vec Ideal S1x128x128 .f32) (h6 : Vec Ideal S4352x128 .f32) (w6 : Vec Ideal S1x128x128 .f32) (h7 : Vec Ideal S4352x128 .f32) (w7 : Vec Ideal S1x128x128 .f32) (h8 : Vec Ideal S4352x128 .f32) (w8 : Vec Ideal S1x128x128 .f32) :
    k1_pay1 (k1_pay168 (k1_pay167 (k1_pay166 b2) h0 w0 h1 w1 h2 w2 h3 w3 h4 w4) h5 w5 h6 w6 h7 w7) h8 w8 (ix3 0 p co)
      = max ((0 : EReal) + (b2 (ix2 (0 : Fin 1) co) : EReal)
        + ∑ k : Fin 128, (h0 (ix2 p k) : EReal) * (w0 (ix3 (0 : Fin 1) k co) : EReal)
        + ∑ k : Fin 128, (h1 (ix2 p k) : EReal) * (w1 (ix3 (0 : Fin 1) k co) : EReal)
        + ∑ k : Fin 128, (h2 (ix2 p k) : EReal) * (w2 (ix3 (0 : Fin 1) k co) : EReal)
        + ∑ k : Fin 128, (h3 (ix2 p k) : EReal) * (w3 (ix3 (0 : Fin 1) k co) : EReal)
        + ∑ k : Fin 128, (h4 (ix2 p k) : EReal) * (w4 (ix3 (0 : Fin 1) k co) : EReal)
        + ∑ k : Fin 128, (h5 (ix2 p k) : EReal) * (w5 (ix3 (0 : Fin 1) k co) : EReal)
        + ∑ k : Fin 128, (h6 (ix2 p k) : EReal) * (w6 (ix3 (0 : Fin 1) k co) : EReal)
        + ∑ k : Fin 128, (h7 (ix2 p k) : EReal) * (w7 (ix3 (0 : Fin 1) k co) : EReal)
        + ∑ k : Fin 128, (h8 (ix2 p k) : EReal) * (w8 (ix3 (0 : Fin 1) k co) : EReal)) 0 := by
  rw [k1_pay1_apply, k1_pay168_apply, k1_pay167_apply, k1_pay166_apply]

end Chains

end Cert.ReferenceIdeal.PayValue

end
-- ==== Proof.RArith.lean ====
/-
  The two convolutions' unrolled chains of additions are their double sums over the nine taps.

  Tap (dh, dw) of a 3×3 convolution on the padded 68-wide layout reads, for band row p, the slab row
  67 + 68 dh + dw + p, and takes slab 3 dh + dw of the weights; unrolled, the nine taps read the rows 67, 68, 69, 135,
  136, 137, 203, 204, 205 (plus p) with the slabs 0 to 8. The first convolution adds, onto zero plus its bias, for each
  tap the contraction of the skip slab's row and then of the upsampled slab's row; the second one adds nine contractions
  of the hidden scratch's rows and ends in the maximum with zero. On the extended reals addition is commutative and
  associative, so each chain is the bias plus the double sum over the taps. The slabs are arbitrary functions of the
  row here; the closed forms of the second kernel are the instances at the padded slabs and the hidden scratch.
-/
import proofs.«177498_g2000606872001322_pallasbulk_142_4_alg».proof.Proof.RDefs
import proofs.«177498_g2000606872001322_pallasbulk_142_4_alg».proof.Proof.Spec

noncomputable section

namespace Cert.ReferenceIdeal.ConvArith

open Idealize.ShloMosaic Idealize.ShloMosaic.ValueIdx Cert.ReferenceIdeal Cert.ReferenceIdeal.BodyValue
open scoped BigOperators

/-- The second convolution: nine contractions over the rows of a slab g, added in order onto zero plus the bias,
    under the maximum with zero. -/
theorem conv2_arith (g : ℕ → Fin 128 → EReal) (x6 : Vec Ideal S9x128x128 .f32) (x7 : Vec Ideal S1x128 .f32)
    (p : Fin 4352) (co : Fin 128) :
    max ((0 : EReal) + (x7 (ix2 (0 : Fin 1) co) : EReal)
        + ∑ k : Fin 128, g (67 + p.val) k * (x6 (ix3 (⟨0, by omega⟩ : Fin 9) k co) : EReal)
        + ∑ k : Fin 128, g (68 + p.val) k * (x6 (ix3 (⟨1, by omega⟩ : Fin 9) k co) : EReal)
        + ∑ k : Fin 128, g (69 + p.val) k * (x6 (ix3 (⟨2, by omega⟩ : Fin 9) k co) : EReal)
        + ∑ k : Fin 128, g (135 + p.val) k * (x6 (ix3 (⟨3, by omega⟩ : Fin 9) k co) : EReal)
        + ∑ k : Fin 128, g (136 + p.val) k * (x6 (ix3 (⟨4, by omega⟩ : Fin 9) k co) : EReal)
        + ∑ k : Fin 128, g (137 + p.val) k * (x6 (ix3 (⟨5, by omega⟩ : Fin 9) k co) : EReal)
        + ∑ k : Fin 128, g (203 + p.val) k * (x6 (ix3 (⟨6, by omega⟩ : Fin 9) k co) : EReal)
        + ∑ k : Fin 128, g (204 + p.val) k * (x6 (ix3 (⟨7, by omega⟩ : Fin 9) k co) : EReal)
        + ∑ k : Fin 128, g (205 + p.val) k * (x6 (ix3 (⟨8, by omega⟩ : Fin 9) k co) : EReal)) 0
      = max ((x7 (ix2 (0 : Fin 1) co) : EReal) + ∑ dh : Fin 3, ∑ dw : Fin 3, ∑ cm : Fin 128,
          g (67 + 68 * dh.val + dw.val + p.val) cm * (x6 (ix3 (⟨3 * dh.val + dw.val, by have := dh.isLt; have := dw.isLt; omega⟩ : Fin 9) cm co) : EReal)) 0 :=
  congrArg (fun z : EReal => max z 0)
    (Cert.UpBlock.chain9' (x7 (ix2 (0 : Fin 1) co) : EReal) (fun dh dw : Fin 3 => ∑ cm : Fin 128,
      g (67 + 68 * dh.val + dw.val + p.val) cm * (x6 (ix3 (⟨3 * dh.val + dw.val, by have := dh.isLt; have := dw.isLt; omega⟩ : Fin 9) cm co) : EReal)))

/-- At the hidden scratch it is the output block's closed form. -/
theorem conv2_arith_routv (x0 x1 : Vec Ideal S1x64x64x128 .f32) (x2 : Vec Ideal S4352x1 .f32)
    (x3 x4 : Vec Ideal S9x128x128 .f32) (x5 : Vec Ideal S1x128 .f32) (x6 : Vec Ideal S9x128x128 .f32)
    (x7 : Vec Ideal S1x128 .f32) (p : Fin 4352) (co : Fin 128) :
    max ((0 : EReal) + (x7 (ix2 (0 : Fin 1) co) : EReal)
        + ∑ k : Fin 128, rhv x0 x1 x2 x3 x4 x5 (67 + p.val) k * (x6 (ix3 (⟨0, by omega⟩ : Fin 9) k co) : EReal)
        + ∑ k : Fin 128, rhv x0 x1 x2 x3 x4 x5 (68 + p.val) k * (x6 (ix3 (⟨1, by omega⟩ : Fin 9) k co) : EReal)
        + ∑ k : Fin 128, rhv x0 x1 x2 x3 x4 x5 (69 + p.val) k * (x6 (ix3 (⟨2, by omega⟩ : Fin 9) k co) : EReal)
        + ∑ k : Fin 128, rhv x0 x1 x2 x3 x4 x5 (135 + p.val) k * (x6 (ix3 (⟨3, by omega⟩ : Fin 9) k co) : EReal)
        + ∑ k : Fin 128, rhv x0 x1 x2 x3 x4 x5 (136 + p.val) k * (x6 (ix3 (⟨4, by omega⟩ : Fin 9) k co) : EReal)
        + ∑ k : Fin 128, rhv x0 x1 x2 x3 x4 x5 (137 + p.val) k * (x6 (ix3 (⟨5, by omega⟩ : Fin 9) k co) : EReal)
        + ∑ k : Fin 128, rhv x0 x1 x2 x3 x4 x5 (203 + p.val) k * (x6 (ix3 (⟨6, by omega⟩ : Fin 9) k co) : EReal)
        + ∑ k : Fin 128, rhv x0 x1 x2 x3 x4 x5 (204 + p.val) k * (x6 (ix3 (⟨7, by omega⟩ : Fin 9) k co) : EReal)
        + ∑ k : Fin 128, rhv x0 x1 x2 x3 x4 x5 (205 + p.val) k * (x6 (ix3 (⟨8, by omega⟩ : Fin 9) k co) : EReal)) 0
      = routv x0 x1 x2 x3 x4 x5 x6 x7 p co :=
  conv2_arith (rhv x0 x1 x2 x3 x4 x5) x6 x7 p co

/-- The first convolution before its maximum: for each tap a contraction over the rows of a slab ga and then one over
    the rows of a slab gb, added in order onto zero plus the bias. -/
theorem conv1_arith (ga gb : ℕ → Fin 128 → EReal) (x3 x4 : Vec Ideal S9x128x128 .f32) (x5 : Vec Ideal S1x128 .f32)
    (p : Fin 4352) (cm : Fin 128) :
    (0 : EReal) + (x5 (ix2 (0 : Fin 1) cm) : EReal)
      + ∑ k : Fin 128, ga (67 + p.val) k * (x3 (ix3 (⟨0, by omega⟩ : Fin 9) k cm) : EReal)
      + ∑ k : Fin 128, gb (67 + p.val) k * (x4 (ix3 (⟨0, by omega⟩ : Fin 9) k cm) : EReal)
      + ∑ k : Fin 128, ga (68 + p.val) k * (x3 (ix3 (⟨1, by omega⟩ : Fin 9) k cm) : EReal)
      + ∑ k : Fin 128, gb (68 + p.val) k * (x4 (ix3 (⟨1, by omega⟩ : Fin 9) k cm) : EReal)
      + ∑ k : Fin 128, ga (69 + p.val) k * (x3 (ix3 (⟨2, by omega⟩ : Fin 9) k cm) : EReal)
      + ∑ k : Fin 128, gb (69 + p.val) k * (x4 (ix3 (⟨2, by omega⟩ : Fin 9) k cm) : EReal)
      + ∑ k : Fin 128, ga (135 + p.val) k * (x3 (ix3 (⟨3, by omega⟩ : Fin 9) k cm) : EReal)
      + ∑ k : Fin 128, gb (135 + p.val) k * (x4 (ix3 (⟨3, by omega⟩ : Fin 9) k cm) : EReal)
      + ∑ k : Fin 128, ga (136 + p.val) k * (x3 (ix3 (⟨4, by omega⟩ : Fin 9) k cm) : EReal)
      + ∑ k : Fin 128, gb (136 + p.val) k * (x4 (ix3 (⟨4, by omega⟩ : Fin 9) k cm) : EReal)
      + ∑ k : Fin 128, ga (137 + p.val) k * (x3 (ix3 (⟨5, by omega⟩ : Fin 9) k cm) : EReal)
      + ∑ k : Fin 128, gb (137 + p.val) k * (x4 (ix3 (⟨5, by omega⟩ : Fin 9) k cm) : EReal)
      + ∑ k : Fin 128, ga (203 + p.val) k * (x3 (ix3 (⟨6, by omega⟩ : Fin 9) k cm) : EReal)
      + ∑ k : Fin 128, gb (203 + p.val) k * (x4 (ix3 (⟨6, by omega⟩ : Fin 9) k cm) : EReal)
      + ∑ k : Fin 128, ga (204 + p.val) k * (x3 (ix3 (⟨7, by omega⟩ : Fin 9) k cm) : EReal)
      + ∑ k : Fin 128, gb (204 + p.val) k * (x4 (ix3 (⟨7, by omega⟩ : Fin 9) k cm) : EReal)
      + ∑ k : Fin 128, ga (205 + p.val) k * (x3 (ix3 (⟨8, by omega⟩ : Fin 9) k cm) : EReal)
      + ∑ k : Fin 128, gb (205 + p.val) k * (x4 (ix3 (⟨8, by omega⟩ : Fin 9) k cm) : EReal)
      = (x5 (ix2 (0 : Fin 1) cm) : EReal) + ∑ dh : Fin 3, ∑ dw : Fin 3,
          ((∑ ch : Fin 128, ga (67 + 68 * dh.val + dw.val + p.val) ch * (x3 (ix3 (⟨3 * dh.val + dw.val, by have := dh.isLt; have := dw.isLt; omega⟩ : Fin 9) ch cm) : EReal))
           + ∑ ch : Fin 128, gb (67 + 68 * dh.val + dw.val + p.val) ch * (x4 (ix3 (⟨3 * dh.val + dw.val, by have := dh.isLt; have := dw.isLt; omega⟩ : Fin 9) ch cm) : EReal)) :=
  Cert.UpBlock.chain18 (x5 (ix2 (0 : Fin 1) cm) : EReal)
    (fun dh dw : Fin 3 => ∑ ch : Fin 128, ga (67 + 68 * dh.val + dw.val + p.val) ch * (x3 (ix3 (⟨3 * dh.val + dw.val, by have := dh.isLt; have := dw.isLt; omega⟩ : Fin 9) ch cm) : EReal))
    (fun dh dw : Fin 3 => ∑ ch : Fin 128, gb (67 + 68 * dh.val + dw.val + p.val) ch * (x4 (ix3 (⟨3 * dh.val + dw.val, by have := dh.isLt; have := dw.isLt; omega⟩ : Fin 9) ch cm) : EReal))

/-- At the two padded slabs it is the first convolution's closed form. -/
theorem conv1_arith_racc (x0 x1 : Vec Ideal S1x64x64x128 .f32) (x3 x4 : Vec Ideal S9x128x128 .f32)
    (x5 : Vec Ideal S1x128 .f32) (p : Fin 4352) (cm : Fin 128) :
    (0 : EReal) + (x5 (ix2 (0 : Fin 1) cm) : EReal)
      + ∑ k : Fin 128, av x0 (67 + p.val) k * (x3 (ix3 (⟨0, by omega⟩ : Fin 9) k cm) : EReal)
      + ∑ k : Fin 128, bv x1 (67 + p.val) k * (x4 (ix3 (⟨0, by omega⟩ : Fin 9) k cm) : EReal)
      + ∑ k : Fin 128, av x0 (68 + p.val) k * (x3 (ix3 (⟨1, by omega⟩ : Fin 9) k cm) : EReal)
      + ∑ k : Fin 128, bv x1 (68 + p.val) k * (x4 (ix3 (⟨1, by omega⟩ : Fin 9) k cm) : EReal)
      + ∑ k : Fin 128, av x0 (69 + p.val) k * (x3 (ix3 (⟨2, by omega⟩ : Fin 9) k cm) : EReal)
      + ∑ k : Fin 128, bv x1 (69 + p.val) k * (x4 (ix3 (⟨2, by omega⟩ : Fin 9) k cm) : EReal)
      + ∑ k : Fin 128, av x0 (135 + p.val) k * (x3 (ix3 (⟨3, by omega⟩ : Fin 9) k cm) : EReal)
      + ∑ k : Fin 128, bv x1 (135 + p.val) k * (x4 (ix3 (⟨3, by omega⟩ : Fin 9) k cm) : EReal)
      + ∑ k : Fin 128, av x0 (136 + p.val) k * (x3 (ix3 (⟨4, by omega⟩ : Fin 9) k cm) : EReal)
      + ∑ k : Fin 128, bv x1 (136 + p.val) k * (x4 (ix3 (⟨4, by omega⟩ : Fin 9) k cm) : EReal)
      + ∑ k : Fin 128, av x0 (137 + p.val) k * (x3 (ix3 (⟨5, by omega⟩ : Fin 9) k cm) : EReal)
      + ∑ k : Fin 128, bv x1 (137 + p.val) k * (x4 (ix3 (⟨5, by omega⟩ : Fin 9) k cm) : EReal)
      + ∑ k : Fin 128, av x0 (203 + p.val) k * (x3 (ix3 (⟨6, by omega⟩ : Fin 9) k cm) : EReal)
      + ∑ k : Fin 128, bv x1 (203 + p.val) k * (x4 (ix3 (⟨6, by omega⟩ : Fin 9) k cm) : EReal)
      + ∑ k : Fin 128, av x0 (204 + p.val) k * (x3 (ix3 (⟨7, by omega⟩ : Fin 9) k cm) : EReal)
      + ∑ k : Fin 128, bv x1 (204 + p.val) k * (x4 (ix3 (⟨7, by omega⟩ : Fin 9) k cm) : EReal)
      + ∑ k : Fin 128, av x0 (205 + p.val) k * (x3 (ix3 (⟨8, by omega⟩ : Fin 9) k cm) : EReal)
      + ∑ k : Fin 128, bv x1 (205 + p.val) k * (x4 (ix3 (⟨8, by omega⟩ : Fin 9) k cm) : EReal)
      = racc1v x0 x1 x3 x4 x5 p cm :=
  conv1_arith (av x0) (bv x1) x3 x4 x5 p cm

end Cert.ReferenceIdeal.ConvArith

end
-- ==== Proof.RRun.lean ====
/-
  The reference's second kernel read back as values: the output block its body's run leaves, at band row `p` and
  channel `co`, is the closed form `routv` of the eight input blocks — the two padded slabs and the hidden scratch each
  read back as ONE function of their index from the stores the run made.

  The output's one store holds the second convolution: nine products of a 4352-row window of the hidden scratch with a
  weight tap, added one after the other onto zero plus the bias, then `max · 0`. Each window, read at its local row
  `p`, is the hidden scratch at row `o + p` (`o` the window's first row), each weight tap the weight block at its tap,
  so the value at `(p, co)` is the chain of nine sums over the 128 hidden channels, and that chain is `routv`'s double
  sum over the taps. The hidden scratch is three stores: at a band row `136 ≤ q < 4488` the band store holds it and its
  payload there is the first convolution — eighteen such products, of windows of the two padded slabs, onto zero plus
  the first bias — under `max · 0` and times the column mask, which is `rhv` on the band; at a row before or after the
  band one of the two zero stores holds it.
-/
import proofs.«177498_g2000606872001322_pallasbulk_142_4_alg».proof.Proof.Gen.ReferenceIdeal.Frame
import proofs.«177498_g2000606872001322_pallasbulk_142_4_alg».proof.Proof.RDefs
import proofs.«177498_g2000606872001322_pallasbulk_142_4_alg».proof.Proof.RSlab
import proofs.«177498_g2000606872001322_pallasbulk_142_4_alg».proof.Proof.RPay
import proofs.«177498_g2000606872001322_pallasbulk_142_4_alg».proof.Proof.RArith
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.ReferenceIdeal.RunValue

open Cert.ReferenceIdeal Cert.ReferenceIdeal.Gen Cert.ReferenceIdeal.BodyValue
open scoped BigOperators

/-! ## Loads of a weight tap, of a bias row -/

/-- Tap `t` of a [9, 128, 128] weight block, loaded as a [1, 128, 128] slab, reads at `(0, k, co)` the block at `(t, k, co)`. -/
theorem tap_weight (arg : Memref sig .tc .vmem S9x128x128 .f32) (harg : arg.IsWhole) (w : Vec Ideal S9x128x128 .f32) (t : ℕ)
    (inb : ∀ a, (![t, 0, 0] : Fin 3 → ℕ) a + S1x128x128.size a ≤ S9x128x128.size a) (k co : Fin 128) :
    View.readAt (Elt Ideal) arg.view (Rect.unit (s := S9x128x128) ![t, 0, 0] S1x128x128.size inb).toLoadRect (harg.unread w)
        (ix3 (0 : Fin 1) k co)
      = w (ix3 (⟨t, inb 0⟩ : Fin 9) k co) := by
  rw [View.readAt_eq_ld, harg.read_unread]
  show w ((Rect.unit (s := S9x128x128) ![t, 0, 0] S1x128x128.size inb).emb (ix3 (0 : Fin 1) k co)) = _
  refine congrArg w ?_
  funext a; apply Fin.ext
  fin_cases a
  · show t + 1 * 0 = t; omega
  · show 0 + 1 * k.val = k.val; omega
  · show 0 + 1 * co.val = co.val; omega

/-- A [1, 128] bias block loaded whole reads itself. -/
theorem bias_read (arg : Memref sig .tc .vmem S1x128 .f32) (harg : arg.IsWhole) (b : Vec Ideal S1x128 .f32)
    (inb : ∀ a, (![0, 0] : Fin 2 → ℕ) a + S1x128.size a ≤ S1x128.size a) :
    View.readAt (Elt Ideal) arg.view (Rect.unit (s := S1x128) ![0, 0] S1x128.size inb).toLoadRect (harg.unread b) = b := by
  rw [View.readAt_eq_ld, harg.read_unread, View.ld_unit_zero (S := S1x128) hz2]

/-- A [4352, 1] column block loaded whole reads itself. -/
theorem col_read (arg : Memref sig .tc .vmem S4352x1 .f32) (harg : arg.IsWhole) (m : Vec Ideal S4352x1 .f32)
    (inb : ∀ a, (![0, 0] : Fin 2 → ℕ) a + S4352x1.size a ≤ S4352x1.size a) :
    View.readAt (Elt Ideal) arg.view (Rect.unit (s := S4352x1) ![0, 0] S4352x1.size inb).toLoadRect (harg.unread m) = m := by
  rw [View.readAt_eq_ld, harg.read_unread, View.ld_unit_zero (S := S4352x1) hz2]

/-- A store whose rectangle does not hold the index is passed over. -/
theorem canon_cons_skip {Val : EltTy → Type} [∀ e, Nonempty (Val e)] {s : Shape} {e : EltTy} (r : Rect s) (w : r.shape.Idx → Val e)
    (L : List (View.Piece Val s e)) {y : s.Idx} (h : y ∉ r.set) : View.canon (⟨r, w⟩ :: L) y = View.canon L y :=
  View.canon_cons_of_not_mem ⟨r, w⟩ L h

/-- The hidden scratch as its three stores leave it: on the band rows 136..4487 the first convolution's `max · 0` times the column
    mask, zero on the 136 rows before and the 136 rows after. -/
theorem hid_read (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 : Memref sig .tc .vmem S4624x128 .f32)
    (x0 x1 : Vec Ideal S1x64x64x128 .f32) (x2 : Vec Ideal S4352x1 .f32) (x3 x4 : Vec Ideal S9x128x128 .f32) (x5 : Vec Ideal S1x128 .f32)
    (q : Fin 4624) (cm : Fin 128) :
    View.canon (kernelRun1_A.sl.HS2_3 (F := Ideal) c arg1 harg1 arg2 harg2 arg3 harg3 arg4 harg4 arg5 harg5 arg6 harg6 arg10 arg11 x0 x1 x2 x3 x4 x5) (ix2 q cm)
      = rhv x0 x1 x2 x3 x4 x5 q.val cm := by
  unfold kernelRun1_A.sl.HS2_3
  by_cases hq : 136 ≤ q.val ∧ q.val < 4488
  · rw [rhv, dif_pos hq]
    have he : (Rect.unit (s := S4624x128) ![136, 0] S4352x128.size inb_S4624x128_S4352x128_136_0).emb
        (ix2 (⟨q.val - 136, by omega⟩ : Fin 4352) cm) = ix2 q cm := by
      rw [emb_rows 136 inb_S4624x128_S4352x128_136_0 (⟨q.val - 136, by omega⟩ : Fin 4352) cm (by show 136 + (q.val - 136) < 4624; omega)]
      exact congrArg (fun r : Fin 4624 => ix2 r cm) (Fin.ext (by show 136 + (q.val - 136) = q.val; omega))
    rw [← he, View.canon_cons_emb]
    generalize (⟨q.val - 136, _⟩ : Fin 4352) = p
    unfold kernelRun1_A.sl.r_5 kernelRun1_A.sl.r_4 kernelRun1_A.sl.r_3 kernelRun1_A.sl.r_2 kernelRun1_A.sl.r_1 kernelRun1_A.sl.cst_707
    rw [PayValue.conv1_chain_apply]
    unfold kernelRun1_A.sl.v653 kernelRun1_A.sl.v663 kernelRun1_A.sl.v673 kernelRun1_A.sl.v683 kernelRun1_A.sl.v693 kernelRun1_A.sl.v703 kernelRun1_A.sl.v713 kernelRun1_A.sl.v723 kernelRun1_A.sl.v733 kernelRun1_A.sl.v658 kernelRun1_A.sl.v668 kernelRun1_A.sl.v678 kernelRun1_A.sl.v688 kernelRun1_A.sl.v698 kernelRun1_A.sl.v708 kernelRun1_A.sl.v718 kernelRun1_A.sl.v728 kernelRun1_A.sl.v738
    rw [bias_read arg6 harg6 x5, col_read arg3 harg3 x2]
    have hA := fun o inb k => slabA_read arg10.view c arg1 harg1 x0 o inb p k
    have hB := fun o inb k => slabB_read arg11.view c arg2 harg2 x1 o inb p k
    have hW3 := fun t inb k => tap_weight arg4 harg4 x3 t inb k cm
    have hW4 := fun t inb k => tap_weight arg5 harg5 x4 t inb k cm
    simp only [hA, hB, hW3, hW4]
    exact congrArg (fun t : EReal => max t 0 * (x2 (ix2 p (0 : Fin 1)) : EReal)) (ConvArith.conv1_arith_racc x0 x1 x3 x4 x5 p cm)
  · rw [rhv, dif_neg hq]
    have hn1 : ix2 q cm ∉ (Rect.unit (s := S4624x128) ![136, 0] S4352x128.size inb_S4624x128_S4352x128_136_0).set := fun hm => by
      have := (mem_rows_iff 136 inb_S4624x128_S4352x128_136_0 q cm).mp hm; omega
    rw [canon_cons_skip (Rect.unit (s := S4624x128) ![136, 0] S4352x128.size inb_S4624x128_S4352x128_136_0) _ _ hn1]
    by_cases hq2 : 4488 ≤ q.val
    · have he : (Rect.unit (s := S4624x128) ![4488, 0] S136x128.size inb_S4624x128_S136x128_4488_0).emb
          (ix2 (⟨q.val - 4488, by have := q.isLt; omega⟩ : Fin 136) cm) = ix2 q cm := by
        rw [emb_rows 4488 inb_S4624x128_S136x128_4488_0 (⟨q.val - 4488, by have := q.isLt; omega⟩ : Fin 136) cm (by show 4488 + (q.val - 4488) < 4624; have := q.isLt; omega)]
        exact congrArg (fun r : Fin 4624 => ix2 r cm) (Fin.ext (by show 4488 + (q.val - 4488) = q.val; omega))
      rw [← he, View.canon_cons_emb]
      exact PayValue.k1_pay164_apply _ _
    · have hn2 : ix2 q cm ∉ (Rect.unit (s := S4624x128) ![4488, 0] S136x128.size inb_S4624x128_S136x128_4488_0).set := fun hm => by
        have := (mem_rows_iff 4488 inb_S4624x128_S136x128_4488_0 q cm).mp hm; omega
      rw [canon_cons_skip (Rect.unit (s := S4624x128) ![4488, 0] S136x128.size inb_S4624x128_S136x128_4488_0) _ _ hn2]
      have he : (Rect.unit (s := S4624x128) ![0, 0] S136x128.size inb_S4624x128_S136x128_0_0).emb
          (ix2 (⟨q.val, by omega⟩ : Fin 136) cm) = ix2 q cm := by
        rw [emb_rows 0 inb_S4624x128_S136x128_0_0 (⟨q.val, by omega⟩ : Fin 136) cm (by show 0 + q.val < 4624; have := q.isLt; omega)]
        exact congrArg (fun r : Fin 4624 => ix2 r cm) (Fin.ext (by show 0 + q.val = q.val; omega))
      rw [← he, View.canon_cons_emb]
      exact PayValue.k1_pay163_apply _ _

/-! ## The hidden scratch through a window of 4352 rows -/

theorem hid_tap {sig' : RefSig} {κ : Kind} {sp : Space} (v : View sig' κ sp S4624x128 .f32) (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole)
    (arg10 arg11 : Memref sig .tc .vmem S4624x128 .f32)
    (x0 x1 : Vec Ideal S1x64x64x128 .f32) (x2 : Vec Ideal S4352x1 .f32) (x3 x4 : Vec Ideal S9x128x128 .f32) (x5 : Vec Ideal S1x128 .f32) (o : ℕ)
    (inb : ∀ a, (![o, 0] : Fin 2 → ℕ) a + S4352x128.size a ≤ S4624x128.size a) (p : Fin 4352) (k : Fin 128) :
    v.readCov (kernelRun1_A.sl.HS2_3 (F := Ideal) c arg1 harg1 arg2 harg2 arg3 harg3 arg4 harg4 arg5 harg5 arg6 harg6 arg10 arg11 x0 x1 x2 x3 x4 x5)
        (Rect.unit (s := S4624x128) ![o, 0] S4352x128.size inb).toLoadRect (ix2 p k)
      = rhv x0 x1 x2 x3 x4 x5 (o + p.val) k := by
  rw [rows_read v _ o inb p k]
  exact hid_read c arg1 harg1 arg2 harg2 arg3 harg3 arg4 harg4 arg5 harg5 arg6 harg6 arg10 arg11 x0 x1 x2 x3 x4 x5 _ k

theorem hz3 : (![0, 0, 0] : Fin 3 → Nat) = fun _ => 0 := funext fun a => by fin_cases a <;> rfl

/-! ## The output block -/

theorem out_eq (c : Dev nD) (i : grid1.Coords) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg7 : Memref sig .tc .vmem S9x128x128 .f32) (harg7 : arg7.IsWhole) (arg8 : Memref sig .tc .vmem S1x128 .f32) (harg8 : arg8.IsWhole) (arg9 : Memref sig .tc .vmem S1x4352x128 .f32) (harg9 : arg9.IsWhole) (arg10 : Memref sig .tc .vmem S4624x128 .f32) (harg10 : arg10.IsWhole) (arg11 : Memref sig .tc .vmem S4624x128 .f32) (harg11 : arg11.IsWhole) (arg12 : Memref sig .tc .vmem S4624x128 .f32) (harg12 : arg12.IsWhole)
    (x0 : Vec Ideal S1x64x64x128 .f32) (x1 : Vec Ideal S1x64x64x128 .f32) (x2 : Vec Ideal S4352x1 .f32) (x3 : Vec Ideal S9x128x128 .f32) (x4 : Vec Ideal S9x128x128 .f32) (x5 : Vec Ideal S1x128 .f32) (x6 : Vec Ideal S9x128x128 .f32) (x7 : Vec Ideal S1x128 .f32)
    (p : Fin 4352) (co : Fin 128) :
    (out1_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 : S1x4352x128.Idx → EReal) (ix3 (0 : Fin 1) p co)
      = routv x0 x1 x2 x3 x4 x5 x6 x7 p co := by
  unfold out1_A_8
  rw [View.read_writes_junk_eq_canon]
  unfold kernelRun1_A
  dsimp only
  rw [View.canon_unit_zero (S := S1x4352x128) hz3]
  unfold kernelRun1_A.sl.r_9 kernelRun1_A.sl.r_8 kernelRun1_A.sl.r_7 kernelRun1_A.sl.r_6
  rw [PayValue.conv2_chain_apply]
  unfold kernelRun1_A.sl.v765 kernelRun1_A.sl.v770 kernelRun1_A.sl.v775 kernelRun1_A.sl.v780 kernelRun1_A.sl.v785 kernelRun1_A.sl.v790 kernelRun1_A.sl.v795 kernelRun1_A.sl.v800 kernelRun1_A.sl.v805
  rw [bias_read arg8 harg8 x7]
  have hH := fun o inb k => hid_tap arg12.view c arg1 harg1 arg2 harg2 arg3 harg3 arg4 harg4 arg5 harg5 arg6 harg6 arg10 arg11 x0 x1 x2 x3 x4 x5 o inb p k
  have hW := fun t inb k => tap_weight arg7 harg7 x6 t inb k co
  simp only [hH, hW]
  exact ConvArith.conv2_arith_routv x0 x1 x2 x3 x4 x5 x6 x7 p co

end Cert.ReferenceIdeal.RunValue

end
-- ==== Proof.RAlg.lean ====
/-
  The reference's closed forms are the specification: on a valid band row y · 68 + 2 + x the second kernel's output block
  is the two convolutions' result at pixel (y, x) over the skip image's block and the upsampled image's block, the
  first convolution's weight being its two halves side by side along the input channels, given that the mask is one
  exactly on columns 2..65.

  The closed forms are functions of the row of a 68-wide padded layout; the specification speaks of padded positions
  (Y, X) of a 66-wide one. Padded position (Y, X), with Y and X at most 65, is slab row (Y + 1) 68 + (X + 1): the column
  X + 1 stays below 68, so the row's quotient and remainder by 68 are Y + 1 and X + 1. Band row 68 y + 2 + x is image
  pixel (y, x), and its tap (dh, dw) reads slab row 67 + 68 dh + dw + (68 y + 2 + x) = (y + dh + 1) 68 + (x + dw + 1),
  padded position (y + dh, x + dw). So: the two slabs at such a row are the two halves of the padded concatenation; the
  accumulator is the first convolution (the sum over 256 channels split into its halves); the hidden scratch is the
  hidden activation (the mask is one on the image's columns and zero on the ring's, the rows off the band hold zero, a
  product with one is the factor and a product with zero is zero on the extended reals); the output block is the result.
-/
import proofs.«177498_g2000606872001322_pallasbulk_142_4_alg».proof.Proof.RDefs

noncomputable section

namespace Cert.ReferenceIdeal.BodyValue

open Idealize.ShloMosaic Idealize.ShloMosaic.TcCoe Idealize.ShloMosaic.ValueIdx Cert.ReferenceIdeal
open scoped BigOperators

variable (x0 : Vec Ideal S1x64x64x128 .f32) (x1 : Vec Ideal S1x64x64x128 .f32) (x2 : Vec Ideal S4352x1 .f32)
  (x3 : Vec Ideal S9x128x128 .f32) (x4 : Vec Ideal S9x128x128 .f32) (x5 : Vec Ideal S1x128 .f32)
  (x6 : Vec Ideal S9x128x128 .f32) (x7 : Vec Ideal S1x128 .f32)

/-- The first convolution's weight from its two halves. -/
def W1R : Fin 128 → Fin 256 → Fin 3 → Fin 3 → EReal := fun cm ci dh dw =>
  if h : ci.val < 128 then (x3 (ix3 (⟨3 * dh.val + dw.val, by have := dh.isLt; have := dw.isLt; omega⟩ : Fin 9) (⟨ci.val, h⟩ : Fin 128) cm) : EReal)
  else (x4 (ix3 (⟨3 * dh.val + dw.val, by have := dh.isLt; have := dw.isLt; omega⟩ : Fin 9) (⟨ci.val - 128, by have := ci.isLt; omega⟩ : Fin 128) cm) : EReal)

/-! ## The blocks read as the specification's arrays -/

/-- The skip image: channel, row, column. -/
abbrev skipA : Fin 128 → Fin 64 → Fin 64 → EReal := fun ch y x => x0 (ix4 (0 : Fin 1) y x ch)
/-- The upsampled image. -/
abbrev upA : Fin 128 → Fin 64 → Fin 64 → EReal := fun c y x => x1 (ix4 (0 : Fin 1) y x c)
/-- The first bias. -/
abbrev b1A : Fin 128 → EReal := fun cm => x5 (ix2 (0 : Fin 1) cm)
/-- The second convolution's weight. -/
abbrev w2A : Fin 128 → Fin 128 → Fin 3 → Fin 3 → EReal := fun c cm dh dw =>
  x6 (ix3 (⟨3 * dh.val + dw.val, by have := dh.isLt; have := dw.isLt; omega⟩ : Fin 9) cm c)
/-- The second bias. -/
abbrev b2A : Fin 128 → EReal := fun c => x7 (ix2 (0 : Fin 1) c)

/-! ## The slabs at a tap's row

Padded position (Y, X) of the specification, with Y and X at most 65, is row (Y + 1) 68 + (X + 1) of a slab: the
column X + 1 stays below 68, so the row's quotient and remainder by 68 are Y + 1 and X + 1. -/

/-- An image block read at two equal pixel positions. -/
theorem img_congr (z : Vec Ideal S1x64x64x128 .f32) (a a' b b' : Fin 64) (ch : Fin 128) (ea : a.val = a'.val)
    (eb : b.val = b'.val) : (z (ix4 (0 : Fin 1) a b ch) : EReal) = z (ix4 (0 : Fin 1) a' b' ch) := by
  rw [Fin.ext ea, Fin.ext eb]

/-- A padded slab at the row of padded position (Y, X): the image pixel inside, zero on the ring. -/
theorem padv_at (z : Vec Ideal S1x64x64x128 .f32) (Y X : ℕ) (hY : Y ≤ 65) (hX : X ≤ 65) (ch : Fin 128) :
    padv z ((Y + 1) * 68 + (X + 1)) ch
      = if h : Cert.UpBlock.Inside Y X then
          (z (ix4 (0 : Fin 1) (⟨Y - 1, h.y_lt⟩ : Fin 64) (⟨X - 1, h.x_lt⟩ : Fin 64) ch) : EReal) else 0 := by
  unfold padv
  by_cases h : Cert.UpBlock.Inside Y X
  · obtain ⟨h1, h2, h3, h4⟩ := id h
    have hq : 136 ≤ (Y + 1) * 68 + (X + 1) ∧ (Y + 1) * 68 + (X + 1) < 4488
        ∧ 2 ≤ ((Y + 1) * 68 + (X + 1) - 136) % 68 ∧ ((Y + 1) * 68 + (X + 1) - 136) % 68 < 66 := by omega
    rw [dif_pos hq, dif_pos h]
    exact img_congr z _ _ _ _ ch (by show ((Y + 1) * 68 + (X + 1) - 136) / 68 = Y - 1; omega)
      (by show ((Y + 1) * 68 + (X + 1) - 136) % 68 - 2 = X - 1; omega)
  · have h' : ¬(1 ≤ Y ∧ Y ≤ 64 ∧ 1 ≤ X ∧ X ≤ 64) := h
    have hq : ¬(136 ≤ (Y + 1) * 68 + (X + 1) ∧ (Y + 1) * 68 + (X + 1) < 4488
        ∧ 2 ≤ ((Y + 1) * 68 + (X + 1) - 136) % 68 ∧ ((Y + 1) * 68 + (X + 1) - 136) % 68 < 66) := by omega
    rw [dif_neg hq, dif_neg h]

section Cat
variable (s u : Fin 128 → Fin 64 → Fin 64 → EReal)

/-- The concatenation below channel 128 is the first image. -/
theorem cat_lo (Y X : ℕ) (ch : Fin 128) :
    Cert.UpBlock.cat s u Y X (⟨ch.val, by have := ch.isLt; omega⟩ : Fin 256)
      = if h : Cert.UpBlock.Inside Y X then s ch ⟨Y - 1, h.y_lt⟩ ⟨X - 1, h.x_lt⟩ else 0 := by
  unfold Cert.UpBlock.cat
  by_cases h : Cert.UpBlock.Inside Y X
  · rw [dif_pos h, dif_pos h]
    split
    · rfl
    · rename_i hc; exact absurd ch.isLt hc
  · rw [dif_neg h, dif_neg h]

/-- The concatenation from channel 128 on is the second image. -/
theorem cat_hi (Y X : ℕ) (ch : Fin 128) :
    Cert.UpBlock.cat s u Y X (⟨128 + ch.val, by have := ch.isLt; omega⟩ : Fin 256)
      = if h : Cert.UpBlock.Inside Y X then u ch ⟨Y - 1, h.y_lt⟩ ⟨X - 1, h.x_lt⟩ else 0 := by
  unfold Cert.UpBlock.cat
  by_cases h : Cert.UpBlock.Inside Y X
  · rw [dif_pos h, dif_pos h]
    split
    · rename_i hc; exact absurd hc (by show ¬(128 + ch.val < 128); omega)
    · exact congrArg (fun c => u c ⟨Y - 1, h.y_lt⟩ ⟨X - 1, h.x_lt⟩)
        (Fin.ext (Nat.add_sub_cancel_left (n := 128) (m := ch.val)))
  · rw [dif_neg h, dif_neg h]

end Cat

/-- The skip slab at a tap's row is the concatenation's lower half. -/
theorem av_at (Y X : ℕ) (hY : Y ≤ 65) (hX : X ≤ 65) (ch : Fin 128) :
    av x0 ((Y + 1) * 68 + (X + 1)) ch
      = Cert.UpBlock.cat (skipA x0) (upA x1) Y X (⟨ch.val, by have := ch.isLt; omega⟩ : Fin 256) := by
  rw [cat_lo, av, padv_at x0 Y X hY hX ch]

/-- The upsampled slab at a tap's row is the concatenation's upper half. -/
theorem bv_at (Y X : ℕ) (hY : Y ≤ 65) (hX : X ≤ 65) (ch : Fin 128) :
    bv x1 ((Y + 1) * 68 + (X + 1)) ch
      = Cert.UpBlock.cat (skipA x0) (upA x1) Y X (⟨128 + ch.val, by have := ch.isLt; omega⟩ : Fin 256) := by
  rw [cat_hi, bv, padv_at x1 Y X hY hX ch]

/-! ## The first convolution

Band row p = 68 y + 2 + x is image pixel (y, x); its tap (dh, dw) reads slab row
67 + 68 dh + dw + p = (y + dh + 1) 68 + (x + dw + 1), padded position (y + dh, x + dw). -/

/-- The weight below channel 128 is the first half. -/
theorem W1R_lo (cm ch : Fin 128) (dh dw : Fin 3) :
    W1R x3 x4 cm (⟨ch.val, by have := ch.isLt; omega⟩ : Fin 256) dh dw
      = x3 (ix3 (⟨3 * dh.val + dw.val, by have := dh.isLt; have := dw.isLt; omega⟩ : Fin 9) ch cm) := by
  unfold W1R
  split
  · rfl
  · rename_i hc; exact absurd ch.isLt hc

/-- A weight read at two equal channel positions. -/
theorem wt_congr (w : Vec Ideal S9x128x128 .f32) (k : Fin 9) (a a' : Fin 128) (c : Fin 128) (e : a.val = a'.val) :
    (w (ix3 k a c) : EReal) = w (ix3 k a' c) := by
  rw [Fin.ext e]

/-- The weight from channel 128 on is the second half. -/
theorem W1R_hi (cm ch : Fin 128) (dh dw : Fin 3) :
    W1R x3 x4 cm (⟨128 + ch.val, by have := ch.isLt; omega⟩ : Fin 256) dh dw
      = x4 (ix3 (⟨3 * dh.val + dw.val, by have := dh.isLt; have := dw.isLt; omega⟩ : Fin 9) ch cm) := by
  unfold W1R
  split
  · rename_i hc; exact absurd hc (by show ¬(128 + ch.val < 128); omega)
  · exact wt_congr x4 _ _ _ cm (Nat.add_sub_cancel_left (n := 128) (m := ch.val))

/-- The accumulator at the band row of pixel (y, x) is the specification's first convolution there. -/
theorem racc1v_eq_conv1 (y x : Fin 64) (p : Fin 4352) (hp : p.val = y.val * 68 + 2 + x.val) (cm : Fin 128) :
    racc1v x0 x1 x3 x4 x5 p cm
      = Cert.UpBlock.conv1 (skipA x0) (upA x1) (W1R x3 x4) (b1A x5) cm y x := by
  have hy := y.isLt
  have hx := x.isLt
  unfold racc1v Cert.UpBlock.conv1
  refine congrArg (fun t => (x5 (ix2 (0 : Fin 1) cm) : EReal) + t) ?_
  refine Finset.sum_congr rfl fun dh _ => Finset.sum_congr rfl fun dw _ => ?_
  have hdh := dh.isLt
  have hdw := dw.isLt
  have hrow : 67 + 68 * dh.val + dw.val + p.val = (y.val + dh.val + 1) * 68 + (x.val + dw.val + 1) := by omega
  rw [Cert.UpBlock.sum256_split, hrow]
  refine congrArg₂ (· + ·) (Finset.sum_congr rfl fun ch _ => ?_) (Finset.sum_congr rfl fun ch _ => ?_)
  · rw [av_at x0 x1 _ _ (by omega) (by omega) ch, W1R_lo]
  · rw [bv_at x0 x1 _ _ (by omega) (by omega) ch, W1R_hi]

/-! ## The hidden activation -/

/-- The mask read at two equal rows. -/
theorem mask_congr (a a' : Fin 4352) (e : a.val = a'.val) :
    (x2 (ix2 a (0 : Fin 1)) : EReal) = x2 (ix2 a' (0 : Fin 1)) := by
  rw [Fin.ext e]

/-- The hidden scratch at a tap's row is the specification's hidden activation at that padded position: the mask is
    one on the image's columns and zero on the ring's, and the rows off the band hold zero. -/
theorem rhv_at
    (hmask : ∀ (y : Fin 64) (X : Fin 68),
      (x2 (ix2 (⟨y.val * 68 + X.val, by have := y.isLt; have := X.isLt; omega⟩ : Fin 4352) (0 : Fin 1)) : EReal)
        = if 2 ≤ X.val ∧ X.val ≤ 65 then 1 else 0)
    (Y X : ℕ) (hY : Y ≤ 65) (hX : X ≤ 65) (cm : Fin 128) :
    rhv x0 x1 x2 x3 x4 x5 ((Y + 1) * 68 + (X + 1)) cm
      = Cert.UpBlock.hid (skipA x0) (upA x1) (W1R x3 x4) (b1A x5) Y X cm := by
  unfold rhv Cert.UpBlock.hid
  by_cases h : Cert.UpBlock.Inside Y X
  · obtain ⟨h1, h2, h3, h4⟩ := id h
    have hq : 136 ≤ (Y + 1) * 68 + (X + 1) ∧ (Y + 1) * 68 + (X + 1) < 4488 := by omega
    rw [dif_pos hq, dif_pos h]
    have hr := racc1v_eq_conv1 x0 x1 x3 x4 x5 (⟨Y - 1, h.y_lt⟩ : Fin 64) (⟨X - 1, h.x_lt⟩ : Fin 64)
      (⟨(Y + 1) * 68 + (X + 1) - 136, by omega⟩ : Fin 4352)
      (by show (Y + 1) * 68 + (X + 1) - 136 = (Y - 1) * 68 + 2 + (X - 1); omega) cm
    have hm := hmask (⟨Y - 1, h.y_lt⟩ : Fin 64) (⟨X + 1, by omega⟩ : Fin 68)
    rw [if_pos (by show 2 ≤ X + 1 ∧ X + 1 ≤ 65; omega)] at hm
    have hm' : (x2 (ix2 (⟨(Y + 1) * 68 + (X + 1) - 136, by omega⟩ : Fin 4352) (0 : Fin 1)) : EReal) = 1 :=
      (mask_congr x2 _ _ (by show (Y + 1) * 68 + (X + 1) - 136 = (Y - 1) * 68 + (X + 1); omega)).trans hm
    rw [hr, hm', mul_one]
  · have h' : ¬(1 ≤ Y ∧ Y ≤ 64 ∧ 1 ≤ X ∧ X ≤ 64) := h
    rw [dif_neg h]
    by_cases hq : 136 ≤ (Y + 1) * 68 + (X + 1) ∧ (Y + 1) * 68 + (X + 1) < 4488
    · rw [dif_pos hq]
      have hY1 : Y - 1 < 64 := by omega
      have hm := hmask (⟨Y - 1, hY1⟩ : Fin 64) (⟨X + 1, by omega⟩ : Fin 68)
      rw [if_neg (by show ¬(2 ≤ X + 1 ∧ X + 1 ≤ 65); omega)] at hm
      have hm' : (x2 (ix2 (⟨(Y + 1) * 68 + (X + 1) - 136, by omega⟩ : Fin 4352) (0 : Fin 1)) : EReal) = 0 :=
        (mask_congr x2 _ _ (by show (Y + 1) * 68 + (X + 1) - 136 = (Y - 1) * 68 + (X + 1); omega)).trans hm
      rw [hm', mul_zero]
    · rw [dif_neg hq]

/-! ## The second convolution -/

/-- The output block at the band row of pixel (y, x) is the specification's result there. -/
theorem routv_eq_out
    (hmask : ∀ (y : Fin 64) (X : Fin 68),
      (x2 (ix2 (⟨y.val * 68 + X.val, by have := y.isLt; have := X.isLt; omega⟩ : Fin 4352) (0 : Fin 1)) : EReal)
        = if 2 ≤ X.val ∧ X.val ≤ 65 then 1 else 0)
    (y x : Fin 64) (p : Fin 4352) (hp : p.val = y.val * 68 + 2 + x.val) (co : Fin 128) :
    routv x0 x1 x2 x3 x4 x5 x6 x7 p co
      = Cert.UpBlock.out (skipA x0) (upA x1) (W1R x3 x4) (b1A x5) (w2A x6) (b2A x7) co y x := by
  have hy := y.isLt
  have hx := x.isLt
  unfold routv Cert.UpBlock.out
  refine congrArg (fun t => max t (0 : EReal)) ?_
  refine congrArg (fun t => (x7 (ix2 (0 : Fin 1) co) : EReal) + t) ?_
  refine Finset.sum_congr rfl fun dh _ => Finset.sum_congr rfl fun dw _ => Finset.sum_congr rfl fun cm _ => ?_
  have hdh := dh.isLt
  have hdw := dw.isLt
  have hrow : 67 + 68 * dh.val + dw.val + p.val = (y.val + dh.val + 1) * 68 + (x.val + dw.val + 1) := by omega
  rw [hrow, rhv_at x0 x1 x2 x3 x4 x5 hmask _ _ (by omega) (by omega) cm]

theorem routv_eq_spec
    (hmask : ∀ (y : Fin 64) (X : Fin 68),
      (x2 (ix2 (⟨y.val * 68 + X.val, by have := y.isLt; have := X.isLt; omega⟩ : Fin 4352) (0 : Fin 1)) : EReal) = if 2 ≤ X.val ∧ X.val ≤ 65 then 1 else 0)
    (y x : Fin 64) (co : Fin 128) :
    routv x0 x1 x2 x3 x4 x5 x6 x7 (⟨y.val * 68 + 2 + x.val, by have := y.isLt; have := x.isLt; omega⟩ : Fin 4352) co
      = Cert.UpBlock.out (fun ch y' x' => (x0 (ix4 (0 : Fin 1) y' x' ch) : EReal)) (fun c y' x' => (x1 (ix4 (0 : Fin 1) y' x' c) : EReal))
          (W1R x3 x4) (fun cm => (x5 (ix2 (0 : Fin 1) cm) : EReal))
          (fun c cm dh dw => (x6 (ix3 (⟨3 * dh.val + dw.val, by have := dh.isLt; have := dw.isLt; omega⟩ : Fin 9) cm c) : EReal)) (fun c => (x7 (ix2 (0 : Fin 1) c) : EReal)) co y x :=
  routv_eq_out x0 x1 x2 x3 x4 x5 x6 x7 hmask y x _ rfl co

end Cert.ReferenceIdeal.BodyValue

end
-- ==== Proof.RFinal.lean ====
/-
  From the two kernels' blocks to the reference's result: point `t` of each grid handles sample `t`; the first kernel's
  blocks make the upsampled image, which the host re-reads as [16, 64, 64, 128]; the second kernel's output block is block
  `t` of ONE function of the [16, 4352, 128] array's index; the host's reshape, slice of columns 2..65 and transpose read
  band row `y · 68 + 2 + x` of sample `n` as pixel `(y, x)`; so the result array is the block's specification of the
  arguments.
-/
import proofs.«177498_g2000606872001322_pallasbulk_142_4_alg».proof.Proof.Gen.ReferenceIdeal.Frame
import proofs.«177498_g2000606872001322_pallasbulk_142_4_alg».proof.Proof.RFrame
import proofs.«177498_g2000606872001322_pallasbulk_142_4_alg».proof.Proof.RHost
import proofs.«177498_g2000606872001322_pallasbulk_142_4_alg».proof.Proof.RUp
import proofs.«177498_g2000606872001322_pallasbulk_142_4_alg».proof.Proof.RRun
import proofs.«177498_g2000606872001322_pallasbulk_142_4_alg».proof.Proof.RAlg
import proofs.«177498_g2000606872001322_pallasbulk_142_4_alg».proof.Proof.Result
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.ReferenceIdeal.FinalValue

open Cert.ReferenceIdeal Cert.ReferenceIdeal.Gen Cert.ReferenceIdeal.BodyValue

/-! ## The grids' points are the samples -/

/-- Sample `n`'s point of the first grid. -/
def pt0 (n : Fin 16) : Fin cfg0.N := ⟨n.val, by rw [show cfg0.N = 16 from N_0]; exact n.isLt⟩
/-- Sample `n`'s point of the second grid. -/
def pt1 (n : Fin 16) : Fin cfg1.N := ⟨n.val, by rw [show cfg1.N = 16 from N_1]; exact n.isLt⟩

/-! ## The windows' blocks read at an index, at any entry contents -/

section Blocks
variable (V : (c : Dev nD) → (b : Ref sig .tc) → Buf (Elt Ideal) ((c : Thread nD τ).loc b))

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The first kernel's image window at sample `n`'s point is sample `n` of the [16, 1024, 256] array. -/
theorem iblk0_0_apply (c : Dev nD) (n : Fin 16) (r : Fin 1024) (ci : Fin 256) :
    (iblk0 V c 0 (pt0 n) : S1x1024x256.Idx → EReal) (ix3 (0 : Fin 1) r ci) = (V c main_v8 : S16x1024x256.Idx → EReal) (ix3 n r ci) := by
  obtain ⟨e0, e1, e2⟩ := idx0_0 (pt0 n)
  have hp : (pt0 n).val = n.val := rfl
  show V c main_v8 (((cfg0.win 0).blk (pt0 n)).view.emb (ix3 (0 : Fin 1) r ci)) = V c main_v8 (ix3 n r ci)
  refine congrArg (V c main_v8) (funext fun a => Fin.ext ?_)
  match a with
  | ⟨0, _⟩ => show win0_0.index (pt0 n) (0 : Fin 3) * 1 + 1 * 0 = n.val; omega
  | ⟨1, _⟩ => show win0_0.index (pt0 n) (1 : Fin 3) * 1024 + 1 * r.val = r.val; omega
  | ⟨2, _⟩ => show win0_0.index (pt0 n) (2 : Fin 3) * 256 + 1 * ci.val = ci.val; omega

theorem idx0_1 : ∀ t : Fin cfg0.N, win0_1.index t (0 : Fin 2) = 0 ∧ win0_1.index t (1 : Fin 2) = 0 :=
  (by decide +kernel : ∀ t : Fin grid0.N, _)

/-- The window's block is the whole array at every point. -/
theorem iblk0_1_eq (c : Dev nD) (t : Fin cfg0.N) : (iblk0 V c 1 t : S256x512.Idx → EReal) = V c main_v3 := by
  obtain ⟨e0, e1⟩ := idx0_1 t
  funext j
  show V c main_v3 (((cfg0.win 1).blk t).view.emb j) = V c main_v3 j
  refine congrArg (V c main_v3) (funext fun a => Fin.ext ?_)
  match a with
  | ⟨0, _⟩ => show win0_1.index t (0 : Fin 2) * 256 + 1 * (j 0).val = (j 0).val; omega
  | ⟨1, _⟩ => show win0_1.index t (1 : Fin 2) * 512 + 1 * (j 1).val = (j 1).val; omega

theorem idx0_2 : ∀ t : Fin cfg0.N, win0_2.index t (0 : Fin 2) = 0 ∧ win0_2.index t (1 : Fin 2) = 0 :=
  (by decide +kernel : ∀ t : Fin grid0.N, _)

/-- The window's block is the whole array at every point. -/
theorem iblk0_2_eq (c : Dev nD) (t : Fin cfg0.N) : (iblk0 V c 2 t : S1x512.Idx → EReal) = V c main_v7 := by
  obtain ⟨e0, e1⟩ := idx0_2 t
  funext j
  show V c main_v7 (((cfg0.win 2).blk t).view.emb j) = V c main_v7 j
  refine congrArg (V c main_v7) (funext fun a => Fin.ext ?_)
  match a with
  | ⟨0, _⟩ => show win0_2.index t (0 : Fin 2) * 1 + 1 * (j 0).val = (j 0).val; omega
  | ⟨1, _⟩ => show win0_2.index t (1 : Fin 2) * 512 + 1 * (j 1).val = (j 1).val; omega

theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
theorem idx1_1 : ∀ t : Fin cfg1.N, win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)

/-- The second kernel's skip-image window at sample `n`'s point is sample `n` of the [16, 64, 64, 128] array. -/
theorem iblk1_0_apply (c : Dev nD) (n : Fin 16) (y x : Fin 64) (ch : Fin 128) :
    (iblk1 V c 0 (pt1 n) : S1x64x64x128.Idx → EReal) (ix4 (0 : Fin 1) y x ch) = (V c main_v1 : S16x64x64x128.Idx → EReal) (ix4 n y x ch) := by
  obtain ⟨e0, e1, e2, e3⟩ := idx1_0 (pt1 n)
  have hp : (pt1 n).val = n.val := rfl
  show V c main_v1 (((cfg1.win 0).blk (pt1 n)).view.emb (ix4 (0 : Fin 1) y x ch)) = V c main_v1 (ix4 n y x ch)
  refine congrArg (V c main_v1) (funext fun a => Fin.ext ?_)
  match a with
  | ⟨0, _⟩ => show win1_0.index (pt1 n) (0 : Fin 4) * 1 + 1 * 0 = n.val; omega
  | ⟨1, _⟩ => show win1_0.index (pt1 n) (1 : Fin 4) * 64 + 1 * y.val = y.val; omega
  | ⟨2, _⟩ => show win1_0.index (pt1 n) (2 : Fin 4) * 64 + 1 * x.val = x.val; omega
  | ⟨3, _⟩ => show win1_0.index (pt1 n) (3 : Fin 4) * 128 + 1 * ch.val = ch.val; omega

/-- Its upsampled-image window likewise. -/
theorem iblk1_1_apply (c : Dev nD) (n : Fin 16) (y x : Fin 64) (ch : Fin 128) :
    (iblk1 V c 1 (pt1 n) : S1x64x64x128.Idx → EReal) (ix4 (0 : Fin 1) y x ch) = (V c main_v10 : S16x64x64x128.Idx → EReal) (ix4 n y x ch) := by
  obtain ⟨e0, e1, e2, e3⟩ := idx1_1 (pt1 n)
  have hp : (pt1 n).val = n.val := rfl
  show V c main_v10 (((cfg1.win 1).blk (pt1 n)).view.emb (ix4 (0 : Fin 1) y x ch)) = V c main_v10 (ix4 n y x ch)
  refine congrArg (V c main_v10) (funext fun a => Fin.ext ?_)
  match a with
  | ⟨0, _⟩ => show win1_1.index (pt1 n) (0 : Fin 4) * 1 + 1 * 0 = n.val; omega
  | ⟨1, _⟩ => show win1_1.index (pt1 n) (1 : Fin 4) * 64 + 1 * y.val = y.val; omega
  | ⟨2, _⟩ => show win1_1.index (pt1 n) (2 : Fin 4) * 64 + 1 * x.val = x.val; omega
  | ⟨3, _⟩ => show win1_1.index (pt1 n) (3 : Fin 4) * 128 + 1 * ch.val = ch.val; omega

theorem idx1_2 : ∀ t : Fin cfg1.N, win1_2.index t (0 : Fin 2) = 0 ∧ win1_2.index t (1 : Fin 2) = 0 :=
  (by decide +kernel : ∀ t : Fin grid1.N, _)

/-- The window's block is the whole array at every point. -/
theorem iblk1_2_eq (c : Dev nD) (t : Fin cfg1.N) : (iblk1 V c 2 t : S4352x1.Idx → EReal) = V c main_v49 := by
  obtain ⟨e0, e1⟩ := idx1_2 t
  funext j
  show V c main_v49 (((cfg1.win 2).blk t).view.emb j) = V c main_v49 j
  refine congrArg (V c main_v49) (funext fun a => Fin.ext ?_)
  match a with
  | ⟨0, _⟩ => show win1_2.index t (0 : Fin 2) * 4352 + 1 * (j 0).val = (j 0).val; omega
  | ⟨1, _⟩ => show win1_2.index t (1 : Fin 2) * 1 + 1 * (j 1).val = (j 1).val; omega

theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)

/-- The window's block is the whole array at every point. -/
theorem iblk1_3_eq (c : Dev nD) (t : Fin cfg1.N) : (iblk1 V c 3 t : S9x128x128.Idx → EReal) = V c main_v33 := by
  obtain ⟨e0, e1, e2⟩ := idx1_3 t
  funext j
  show V c main_v33 (((cfg1.win 3).blk t).view.emb j) = V c main_v33 j
  refine congrArg (V c main_v33) (funext fun a => Fin.ext ?_)
  match a with
  | ⟨0, _⟩ => show win1_3.index t (0 : Fin 3) * 9 + 1 * (j 0).val = (j 0).val; omega
  | ⟨1, _⟩ => show win1_3.index t (1 : Fin 3) * 128 + 1 * (j 1).val = (j 1).val; omega
  | ⟨2, _⟩ => show win1_3.index t (2 : Fin 3) * 128 + 1 * (j 2).val = (j 2).val; omega

theorem idx1_4 : ∀ t : Fin cfg1.N, win1_4.index t (0 : Fin 3) = 0 ∧ win1_4.index t (1 : Fin 3) = 0 ∧ win1_4.index t (2 : Fin 3) = 0 :=
  (by decide +kernel : ∀ t : Fin grid1.N, _)

/-- The window's block is the whole array at every point. -/
theorem iblk1_4_eq (c : Dev nD) (t : Fin cfg1.N) : (iblk1 V c 4 t : S9x128x128.Idx → EReal) = V c main_v36 := by
  obtain ⟨e0, e1, e2⟩ := idx1_4 t
  funext j
  show V c main_v36 (((cfg1.win 4).blk t).view.emb j) = V c main_v36 j
  refine congrArg (V c main_v36) (funext fun a => Fin.ext ?_)
  match a with
  | ⟨0, _⟩ => show win1_4.index t (0 : Fin 3) * 9 + 1 * (j 0).val = (j 0).val; omega
  | ⟨1, _⟩ => show win1_4.index t (1 : Fin 3) * 128 + 1 * (j 1).val = (j 1).val; omega
  | ⟨2, _⟩ => show win1_4.index t (2 : Fin 3) * 128 + 1 * (j 2).val = (j 2).val; omega

theorem idx1_5 : ∀ t : Fin cfg1.N, win1_5.index t (0 : Fin 2) = 0 ∧ win1_5.index t (1 : Fin 2) = 0 :=
  (by decide +kernel : ∀ t : Fin grid1.N, _)

/-- The window's block is the whole array at every point. -/
theorem iblk1_5_eq (c : Dev nD) (t : Fin cfg1.N) : (iblk1 V c 5 t : S1x128.Idx → EReal) = V c main_v39 := by
  obtain ⟨e0, e1⟩ := idx1_5 t
  funext j
  show V c main_v39 (((cfg1.win 5).blk t).view.emb j) = V c main_v39 j
  refine congrArg (V c main_v39) (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

theorem idx1_6 : ∀ t : Fin cfg1.N, win1_6.index t (0 : Fin 3) = 0 ∧ win1_6.index t (1 : Fin 3) = 0 ∧ win1_6.index t (2 : Fin 3) = 0 :=
  (by decide +kernel : ∀ t : Fin grid1.N, _)

/-- The window's block is the whole array at every point. -/
theorem iblk1_6_eq (c : Dev nD) (t : Fin cfg1.N) : (iblk1 V c 6 t : S9x128x128.Idx → EReal) = V c main_v38 := by
  obtain ⟨e0, e1, e2⟩ := idx1_6 t
  funext j
  show V c main_v38 (((cfg1.win 6).blk t).view.emb j) = V c main_v38 j
  refine congrArg (V c main_v38) (funext fun a => Fin.ext ?_)
  match a with
  | ⟨0, _⟩ => show win1_6.index t (0 : Fin 3) * 9 + 1 * (j 0).val = (j 0).val; omega
  | ⟨1, _⟩ => show win1_6.index t (1 : Fin 3) * 128 + 1 * (j 1).val = (j 1).val; omega
  | ⟨2, _⟩ => show win1_6.index t (2 : Fin 3) * 128 + 1 * (j 2).val = (j 2).val; omega

theorem idx1_7 : ∀ t : Fin cfg1.N, win1_7.index t (0 : Fin 2) = 0 ∧ win1_7.index t (1 : Fin 2) = 0 :=
  (by decide +kernel : ∀ t : Fin grid1.N, _)

/-- The window's block is the whole array at every point. -/
theorem iblk1_7_eq (c : Dev nD) (t : Fin cfg1.N) : (iblk1 V c 7 t : S1x128.Idx → EReal) = V c main_v40 := by
  obtain ⟨e0, e1⟩ := idx1_7 t
  funext j
  show V c main_v40 (((cfg1.win 7).blk t).view.emb j) = V c main_v40 j
  refine congrArg (V c main_v40) (funext fun a => Fin.ext ?_)
  match a with
  | ⟨0, _⟩ => show win1_7.index t (0 : Fin 2) * 1 + 1 * (j 0).val = (j 0).val; omega
  | ⟨1, _⟩ => show win1_7.index t (1 : Fin 2) * 128 + 1 * (j 1).val = (j 1).val; omega

end Blocks

variable (m : (ℓ : Loc nD τ sig) → Buf (Elt Ideal) ℓ) (ρ : Dev nD → PrngReg)

/-! ## The first kernel's result array as ONE function of its index -/

theorem idx0_3 : ∀ t : Fin cfg0.N, win0_3.index t (0 : Fin 5) = t.val ∧ win0_3.index t (1 : Fin 5) = 0 ∧ win0_3.index t (2 : Fin 5) = 0
    ∧ win0_3.index t (3 : Fin 5) = 0 ∧ win0_3.index t (4 : Fin 5) = 0 :=
  (by decide +kernel : ∀ t : Fin grid0.N, _)

/-- An array whose sample `n` is what point `n` leaves. -/
def glue0 (O : Fin cfg0.N → Vec Ideal S1x32x2x32x256 .f32) : S16x32x2x32x256.Idx → Elt Ideal .f32 :=
  fun i => O (pt0 (i 0)) (ix5 (0 : Fin 1) (i 1) (i 2) (i 3) (i 4))

theorem glue0_apply (O : Fin cfg0.N → Vec Ideal S1x32x2x32x256 .f32) (n : Fin 16) (h : Fin 32) (di : Fin 2) (w : Fin 32) (q : Fin 256) :
    glue0 O (ix5 n h di w q) = O (pt0 n) (ix5 (0 : Fin 1) h di w q) := rfl

/-- Point `t`'s block of such an array is what point `t` leaves. -/
theorem blk0_3_read (O : Fin cfg0.N → Vec Ideal S1x32x2x32x256 .f32) (t : Fin cfg0.N) :
    (cfg0.win 3).cut (grid0.coords t) (O t) = ((cfg0.win 3).blk t).view.read (Elt Ideal) (glue0 O) := by
  funext j
  show O t ((cfg0.win 3).xinj (grid0.coords t) j)
    = O (pt0 ((((cfg0.win 3).blk t).view.emb j) 0)) (ix5 (0 : Fin 1) ((((cfg0.win 3).blk t).view.emb j) 1) ((((cfg0.win 3).blk t).view.emb j) 2)
        ((((cfg0.win 3).blk t).view.emb j) 3) ((((cfg0.win 3).blk t).view.emb j) 4))
  obtain ⟨e0, e1, e2, e3, e4⟩ := idx0_3 t
  have hj0 : (j 0).val < 1 := (j 0).isLt
  have ht : pt0 ((((cfg0.win 3).blk t).view.emb j) 0) = t := Fin.ext (by
    show win0_3.index t (0 : Fin 5) * 1 + 1 * (j 0).val = t.val
    omega)
  rw [ht]
  refine congrArg (O t) (funext fun a => Fin.ext ?_)
  match a with
  | ⟨0, _⟩ => show (j 0).val = 0; omega
  | ⟨1, _⟩ => show (j 1).val = win0_3.index t (1 : Fin 5) * 32 + 1 * (j 1).val; omega
  | ⟨2, _⟩ => show (j 2).val = win0_3.index t (2 : Fin 5) * 2 + 1 * (j 2).val; omega
  | ⟨3, _⟩ => show (j 3).val = win0_3.index t (3 : Fin 5) * 32 + 1 * (j 3).val; omega
  | ⟨4, _⟩ => show (j 4).val = win0_3.index t (4 : Fin 5) * 256 + 1 * (j 4).val; omega

/-- What point `t` of the first grid leaves in its output block. -/
def O0 (c : Dev nD) (t : Fin cfg0.N) : Vec Ideal S1x32x2x32x256 .f32 :=
  out0_3 (iblk0 (V1 m ρ) c 0 t) (iblk0 (V1 m ρ) c 1 t) (iblk0 (V1 m ρ) c 2 t)

theorem flushed0_eq (c : Dev nD) (t : Fin cfg0.N) :
    (dat0 (V1 m ρ) c).flushed 3 t = ((cfg0.win 3).blk t).view.read (Elt Ideal) (glue0 (O0 m ρ c)) := by
  show (cfg0.win 3).cut (grid0.coords t) ((dat0 (V1 m ρ) c).after 3 t) = _
  rw [after0_3]
  exact blk0_3_read (O0 m ρ c) t

theorem mem_blk0_3 (t : Fin cfg0.N) (i : S16x32x2x32x256.Idx) :
    i ∈ ((cfg0.win 3).blk t).view.set ↔ ∀ a : Fin 5, win0_3.index t a * S1x32x2x32x256.size a ≤ (i a).val
      ∧ (i a).val < win0_3.index t a * S1x32x2x32x256.size a + S1x32x2x32x256.size a := by
  show i ∈ ((View.whole main_v9).slice (win0_3.rect t)).set ↔ _
  rw [View.set_slice_whole, Rect.mem_set_unit]
  exact Iff.rfl

/-- The sixteen blocks tile the array, so it ends as the glued function. -/
theorem final0 (c : Dev nD) : (dat0 (V1 m ρ) c).arrAt 3 cfg0.N = glue0 (O0 m ρ c) :=
  (dat0 (V1 m ρ) c).arrAt_eq_of_cover 3 (glue0 (O0 m ρ c)) (fun t _ => flushed0_eq m ρ c t) fun i => by
    refine ⟨pt0 (i 0), flush0_3 _, ?_⟩
    rw [mem_blk0_3]
    obtain ⟨e0, e1, e2, e3, e4⟩ := idx0_3 (pt0 (i 0))
    have h1 : (i 1).val < 32 := (i 1).isLt
    have h2 : (i 2).val < 2 := (i 2).isLt
    have h3 : (i 3).val < 32 := (i 3).isLt
    have h4 : (i 4).val < 256 := (i 4).isLt
    have hp : (pt0 (i 0)).val = (i 0).val := rfl
    intro a
    match a with
    | ⟨0, _⟩ => show win0_3.index (pt0 (i 0)) (0 : Fin 5) * 1 ≤ (i 0).val ∧ (i 0).val < win0_3.index (pt0 (i 0)) (0 : Fin 5) * 1 + 1
                omega
    | ⟨1, _⟩ => show win0_3.index (pt0 (i 0)) (1 : Fin 5) * 32 ≤ (i 1).val ∧ (i 1).val < win0_3.index (pt0 (i 0)) (1 : Fin 5) * 32 + 32
                omega
    | ⟨2, _⟩ => show win0_3.index (pt0 (i 0)) (2 : Fin 5) * 2 ≤ (i 2).val ∧ (i 2).val < win0_3.index (pt0 (i 0)) (2 : Fin 5) * 2 + 2
                omega
    | ⟨3, _⟩ => show win0_3.index (pt0 (i 0)) (3 : Fin 5) * 32 ≤ (i 3).val ∧ (i 3).val < win0_3.index (pt0 (i 0)) (3 : Fin 5) * 32 + 32
                omega
    | ⟨4, _⟩ => show win0_3.index (pt0 (i 0)) (4 : Fin 5) * 256 ≤ (i 4).val ∧ (i 4).val < win0_3.index (pt0 (i 0)) (4 : Fin 5) * 256 + 256
                omega

/-! ## The upsampled image the second kernel reads -/

/-- The tiled bias row at column `co` of any of its four tiles is the bias at `co`. -/
theorem v7_at (c : Dev nD) (k : Fin 4) (co : Fin 128) :
    (V1 m ρ c main_v7 : S1x512.Idx → EReal) (ix2 (0 : Fin 1) (⟨k.val * 128 + co.val, by have := k.isLt; have := co.isLt; omega⟩ : Fin 512))
      = (V1 m ρ c main_v7 : S1x512.Idx → EReal) (ix2 (0 : Fin 1) (⟨co.val, by have := co.isLt; omega⟩ : Fin 512)) := by
  refine (HostValue.v7_apply m ρ c k co).trans ((HostValue.v7_apply m ρ c 0 co).symm.trans ?_)
  refine congrArg (fun q : Fin 512 => (V1 m ρ c main_v7 : S1x512.Idx → EReal) (ix2 (0 : Fin 1) q)) (Fin.ext ?_)
  show (0 : Fin 4).val * 128 + co.val = co.val
  show 0 * 128 + co.val = co.val
  omega

/-- The array the second kernel takes as the upsampled image is the transposed convolution of the first argument. -/
theorem up_eq (c : Dev nD) (n : Fin 16) (y x : Fin 64) (co : Fin 128) :
    (V5 m ρ c main_v10 : S16x64x64x128.Idx → EReal) (ix4 n y x co)
      = Cert.UpBlock.up (fun ci h w => (m ((c.tc : Thread nD τ).loc main_arg0) : S16x256x32x32.Idx → EReal) (ix4 n ci h w))
          (fun ci c' di dj => (m ((c.tc : Thread nD τ).loc main_arg2) : S256x128x2x2.Idx → EReal) (ix4 ci c' di dj))
          (fun c' => (m ((c.tc : Thread nD τ).loc main_arg3) : S128.Idx → EReal) (ix1 c')) co y x := by
  refine (HostValue.v10_apply m ρ c n y x co).trans ?_
  rw [final0]
  refine (glue0_apply (O0 m ρ c) n _ _ _ _).trans ?_
  unfold O0
  refine (UpValue.up_block_spec (iblk0 (V1 m ρ) c 0 (pt0 n)) (iblk0 (V1 m ρ) c 1 (pt0 n)) (iblk0 (V1 m ρ) c 2 (pt0 n)) ?_ y x co).trans ?_
  · intro k co'
    rw [iblk0_2_eq]
    exact v7_at m ρ c k co'
  have h0 : (fun (ci : Fin 256) (h w : Fin 32) => ((iblk0 (V1 m ρ) c 0 (pt0 n) : S1x1024x256.Idx → EReal)
        (ix3 (0 : Fin 1) (⟨h.val * 32 + w.val, by have := h.isLt; have := w.isLt; omega⟩ : Fin 1024) ci) : EReal))
      = fun ci h w => (m ((c.tc : Thread nD τ).loc main_arg0) : S16x256x32x32.Idx → EReal) (ix4 n ci h w) :=
    funext fun ci => funext fun h => funext fun w =>
      (iblk0_0_apply (V1 m ρ) c n _ ci).trans (HostValue.v8_apply m ρ c n h w ci)
  have h1 : (fun (ci : Fin 256) (c' : Fin 128) (di dj : Fin 2) => ((iblk0 (V1 m ρ) c 1 (pt0 n) : S256x512.Idx → EReal)
        (ix2 ci (⟨(di.val * 2 + dj.val) * 128 + c'.val, by have := di.isLt; have := dj.isLt; have := c'.isLt; omega⟩ : Fin 512)) : EReal))
      = fun ci c' di dj => (m ((c.tc : Thread nD τ).loc main_arg2) : S256x128x2x2.Idx → EReal) (ix4 ci c' di dj) :=
    funext fun ci => funext fun c' => funext fun di => funext fun dj => by
      rw [iblk0_1_eq]; exact HostValue.v3_apply m ρ c ci di dj c'
  have h2 : (fun (c' : Fin 128) => ((iblk0 (V1 m ρ) c 2 (pt0 n) : S1x512.Idx → EReal)
        (ix2 (0 : Fin 1) (⟨c'.val, by have := c'.isLt; omega⟩ : Fin 512)) : EReal))
      = fun c' => (m ((c.tc : Thread nD τ).loc main_arg3) : S128.Idx → EReal) (ix1 c') :=
    funext fun c' => by
      rw [iblk0_2_eq]
      refine Eq.trans ?_ (HostValue.v7_apply m ρ c 0 c')
      refine congrArg (fun q : Fin 512 => (V1 m ρ c main_v7 : S1x512.Idx → EReal) (ix2 (0 : Fin 1) q)) (Fin.ext ?_)
      show c'.val = 0 * 128 + c'.val
      omega
  rw [h0, h1, h2]

/-! ## The second kernel's result array as ONE function of its index -/

theorem idx1_8 : ∀ t : Fin cfg1.N, win1_8.index t (0 : Fin 3) = t.val ∧ win1_8.index t (1 : Fin 3) = 0 ∧ win1_8.index t (2 : Fin 3) = 0 :=
  (by decide +kernel : ∀ t : Fin grid1.N, _)

/-- An array whose sample `n` is what point `n` leaves. -/
def glue1 (O : Fin cfg1.N → Vec Ideal S1x4352x128 .f32) : S16x4352x128.Idx → Elt Ideal .f32 :=
  fun i => O (pt1 (i 0)) (ix3 (0 : Fin 1) (i 1) (i 2))

theorem glue1_apply (O : Fin cfg1.N → Vec Ideal S1x4352x128 .f32) (n : Fin 16) (p : Fin 4352) (co : Fin 128) :
    glue1 O (ix3 n p co) = O (pt1 n) (ix3 (0 : Fin 1) p co) := rfl

/-- Point `t`'s block of such an array is what point `t` leaves. -/
theorem blk1_8_read (O : Fin cfg1.N → Vec Ideal S1x4352x128 .f32) (t : Fin cfg1.N) :
    (cfg1.win 8).cut (grid1.coords t) (O t) = ((cfg1.win 8).blk t).view.read (Elt Ideal) (glue1 O) := by
  funext j
  show O t ((cfg1.win 8).xinj (grid1.coords t) j)
    = O (pt1 ((((cfg1.win 8).blk t).view.emb j) 0)) (ix3 (0 : Fin 1) ((((cfg1.win 8).blk t).view.emb j) 1) ((((cfg1.win 8).blk t).view.emb j) 2))
  obtain ⟨e0, e1, e2⟩ := idx1_8 t
  have hj0 : (j 0).val < 1 := (j 0).isLt
  have ht : pt1 ((((cfg1.win 8).blk t).view.emb j) 0) = t := Fin.ext (by
    show win1_8.index t (0 : Fin 3) * 1 + 1 * (j 0).val = t.val
    omega)
  rw [ht]
  refine congrArg (O t) (funext fun a => Fin.ext ?_)
  match a with
  | ⟨0, _⟩ => show (j 0).val = 0; omega
  | ⟨1, _⟩ => show (j 1).val = win1_8.index t (1 : Fin 3) * 4352 + 1 * (j 1).val; omega
  | ⟨2, _⟩ => show (j 2).val = win1_8.index t (2 : Fin 3) * 128 + 1 * (j 2).val; omega

theorem flushed1_eq (c : Dev nD) (t : Fin cfg1.N) :
    (dat1 (V5 m ρ) c).flushed 8 t = ((cfg1.win 8).blk t).view.read (Elt Ideal) (glue1 (outsAt1 (V5 m ρ) c)) := by
  show (cfg1.win 8).cut (grid1.coords t) ((dat1 (V5 m ρ) c).after 8 t) = _
  rw [after1_8]
  exact blk1_8_read (outsAt1 (V5 m ρ) c) t

theorem mem_blk1_8 (t : Fin cfg1.N) (i : S16x4352x128.Idx) :
    i ∈ ((cfg1.win 8).blk t).view.set ↔ ∀ a : Fin 3, win1_8.index t a * S1x4352x128.size a ≤ (i a).val
      ∧ (i a).val < win1_8.index t a * S1x4352x128.size a + S1x4352x128.size a := by
  show i ∈ ((View.whole main_v50).slice (win1_8.rect t)).set ↔ _
  rw [View.set_slice_whole, Rect.mem_set_unit]
  exact Iff.rfl

/-- The sixteen blocks tile the array, so it ends as the glued function. -/
theorem final1 (c : Dev nD) : (dat1 (V5 m ρ) c).arrAt 8 cfg1.N = glue1 (outsAt1 (V5 m ρ) c) :=
  (dat1 (V5 m ρ) c).arrAt_eq_of_cover 8 (glue1 (outsAt1 (V5 m ρ) c)) (fun t _ => flushed1_eq m ρ c t) fun i => by
    refine ⟨pt1 (i 0), flush1_8 _, ?_⟩
    rw [mem_blk1_8]
    obtain ⟨e0, e1, e2⟩ := idx1_8 (pt1 (i 0))
    have h1 : (i 1).val < 4352 := (i 1).isLt
    have h2 : (i 2).val < 128 := (i 2).isLt
    have hp : (pt1 (i 0)).val = (i 0).val := rfl
    intro a
    match a with
    | ⟨0, _⟩ => show win1_8.index (pt1 (i 0)) (0 : Fin 3) * 1 ≤ (i 0).val ∧ (i 0).val < win1_8.index (pt1 (i 0)) (0 : Fin 3) * 1 + 1
                omega
    | ⟨1, _⟩ => show win1_8.index (pt1 (i 0)) (1 : Fin 3) * 4352 ≤ (i 1).val ∧ (i 1).val < win1_8.index (pt1 (i 0)) (1 : Fin 3) * 4352 + 4352
                omega
    | ⟨2, _⟩ => show win1_8.index (pt1 (i 0)) (2 : Fin 3) * 128 ≤ (i 2).val ∧ (i 2).val < win1_8.index (pt1 (i 0)) (2 : Fin 3) * 128 + 128
                omega

/-! ## A point's output block on a valid band row is the two convolutions at that pixel -/

/-- What a point leaves is the closed form of its eight input blocks. -/
theorem outsAt1_apply (V : (c : Dev nD) → (b : Ref sig .tc) → Buf (Elt Ideal) ((c : Thread nD τ).loc b)) (c : Dev nD) (t : Fin cfg1.N)
    (p : Fin 4352) (co : Fin 128) :
    (outsAt1 V c t : S1x4352x128.Idx → EReal) (ix3 (0 : Fin 1) p co)
      = routv (iblk1 V c 0 t) (iblk1 V c 1 t) (iblk1 V c 2 t) (iblk1 V c 3 t) (iblk1 V c 4 t) (iblk1 V c 5 t) (iblk1 V c 6 t) (iblk1 V c 7 t) p co := by
  unfold outsAt1
  exact RunValue.out_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _)
    (iblk1 V c 0 t) (iblk1 V c 1 t) (iblk1 V c 2 t) (iblk1 V c 3 t) (iblk1 V c 4 t) (iblk1 V c 5 t) (iblk1 V c 6 t) (iblk1 V c 7 t) p co

/-- The two convolutions depend on their six arrays only through their entries. -/
theorem out_congr {x2 x2' : Fin 128 → Fin 64 → Fin 64 → EReal} {u u' : Fin 128 → Fin 64 → Fin 64 → EReal}
    {w1 w1' : Fin 128 → Fin 256 → Fin 3 → Fin 3 → EReal} {b1 b1' : Fin 128 → EReal}
    {w2 w2' : Fin 128 → Fin 128 → Fin 3 → Fin 3 → EReal} {b2 b2' : Fin 128 → EReal}
    (h1 : x2 = x2') (h2 : u = u') (h3 : w1 = w1') (h4 : b1 = b1') (h5 : w2 = w2') (h6 : b2 = b2') (co : Fin 128) (y x : Fin 64) :
    Cert.UpBlock.out x2 u w1 b1 w2 b2 co y x = Cert.UpBlock.out x2' u' w1' b1' w2' b2' co y x := by
  subst h1 h2 h3 h4 h5 h6; rfl

/-- Sample `n`'s band row `y · 68 + 2 + x` of the second kernel's result array is the block's value at pixel `(y, x)`. -/
theorem glue1_valid (c : Dev nD) (n : Fin 16) (y x : Fin 64) (co : Fin 128) :
    glue1 (outsAt1 (V5 m ρ) c) (ix3 n (⟨y.val * 68 + 2 + x.val, by have := y.isLt; have := x.isLt; omega⟩ : Fin 4352) co)
      = Cert.UpBlock.out (fun ch y' x' => (m ((c.tc : Thread nD τ).loc main_arg1) : S16x128x64x64.Idx → EReal) (ix4 n ch y' x'))
          (Cert.UpBlock.up (fun ci h w => (m ((c.tc : Thread nD τ).loc main_arg0) : S16x256x32x32.Idx → EReal) (ix4 n ci h w))
            (fun ci c' di dj => (m ((c.tc : Thread nD τ).loc main_arg2) : S256x128x2x2.Idx → EReal) (ix4 ci c' di dj))
            (fun c' => (m ((c.tc : Thread nD τ).loc main_arg3) : S128.Idx → EReal) (ix1 c')))
          (fun cm ci dh dw => (V5 m ρ c main_v17 : S128x256x3x3.Idx → EReal) (ix4 cm ci dh dw))
          (fun cm => (V5 m ρ c main_v20 : S128.Idx → EReal) (ix1 cm))
          (fun c' cm dh dw => (V5 m ρ c main_v27 : S128x128x3x3.Idx → EReal) (ix4 c' cm dh dw))
          (fun c' => (V5 m ρ c main_v30 : S128.Idx → EReal) (ix1 c')) co y x := by
  refine (glue1_apply (outsAt1 (V5 m ρ) c) n _ co).trans ?_
  refine (outsAt1_apply (V5 m ρ) c (pt1 n) _ co).trans ?_
  refine (routv_eq_spec (iblk1 (V5 m ρ) c 0 (pt1 n)) (iblk1 (V5 m ρ) c 1 (pt1 n)) (iblk1 (V5 m ρ) c 2 (pt1 n)) (iblk1 (V5 m ρ) c 3 (pt1 n)) (iblk1 (V5 m ρ) c 4 (pt1 n)) (iblk1 (V5 m ρ) c 5 (pt1 n)) (iblk1 (V5 m ρ) c 6 (pt1 n)) (iblk1 (V5 m ρ) c 7 (pt1 n)) ?_ y x co).trans ?_
  · intro y' X
    rw [iblk1_2_eq]
    exact HostValue.v49_apply m ρ c y' X
  refine out_congr ?_ ?_ ?_ ?_ ?_ ?_ co y x
  · funext ch y' x'
    exact (iblk1_0_apply (V5 m ρ) c n y' x' ch).trans (HostValue.v1_apply m ρ c n y' x' ch)
  · funext c' y' x'
    exact (iblk1_1_apply (V5 m ρ) c n y' x' c').trans (up_eq m ρ c n y' x' c')
  · funext cm ci dh dw
    unfold W1R
    by_cases h : ci.val < 128
    · rw [dif_pos h, iblk1_3_eq]
      exact HostValue.v33_apply m ρ c dh dw ⟨ci.val, h⟩ cm
    · rw [dif_neg h, iblk1_4_eq]
      refine (HostValue.v36_apply m ρ c dh dw ⟨ci.val - 128, by have := ci.isLt; omega⟩ cm).trans ?_
      refine congrArg (fun q : Fin 256 => (V5 m ρ c main_v17 : S128x256x3x3.Idx → EReal) (ix4 cm q dh dw)) (Fin.ext ?_)
      show 128 + (ci.val - 128) = ci.val
      omega
  · funext cm
    rw [iblk1_5_eq]
    exact HostValue.v39_apply m ρ c cm
  · funext c' cm dh dw
    rw [iblk1_6_eq]
    exact HostValue.v38_apply m ρ c dh dw cm c'
  · funext c'
    rw [iblk1_7_eq]
    exact HostValue.v40_apply m ρ c c'

/-! ## The host's last stretch: reshape, slice of columns 2..65, transpose -/

theorem W7_v53 (c : Dev nD) : (W7 m ρ c (Proc.devRef .tc main_v53) : S16x128x64x64.Idx → Elt Ideal .f32) =
    transpose S16x128x64x64 [0, 3, 1, 2]
      (extractStridedSlice S16x64x64x128 ![0, 0, 2, 0]
        (shapeCast S16x64x68x128 (W6 m ρ c (Proc.devRef .tc main_v50)) shapeCasts_S16x4352x128_S16x64x68x128)
        slices_S16x64x68x128_S16x64x64x128_0_0_2_0)
      transposes_S16x64x64x128_S16x128x64x64_0_3_1_2 := by
  show StableHlo.after hostOps2 (W6 m ρ c) (Proc.devRef .tc main_v53) = _
  after_results
  rfl

/-- Pixel `(y, x)`, channel `co`, of sample `n` of the result is band row `y · 68 + 2 + x` of the second kernel's array. -/
theorem tail_apply (c : Dev nD) (n : Fin 16) (co : Fin 128) (y x : Fin 64) :
    W7 m ρ c (Proc.devRef .tc main_v53) (ix4 n co y x)
      = W6 m ρ c (Proc.devRef .tc main_v50) (ix3 n (⟨y.val * 68 + 2 + x.val, by have := y.isLt; have := x.isLt; omega⟩ : Fin 4352) co) := by
  rw [W7_v53]
  have hy := y.isLt
  have hx := x.isLt
  refine (transpose_apply _ _ _ (ix4 n co y x) (ix4 n y x co) ?_).trans ?_
  · intro b
    match b with
    | ⟨0, _⟩ => rfl
    | ⟨1, _⟩ => rfl
    | ⟨2, _⟩ => rfl
    | ⟨3, _⟩ => rfl
  refine (extractStridedSlice_apply _ _ _ (ix4 n y x co) (ix4 n y (⟨x.val + 2, by omega⟩ : Fin 68) co) ?_).trans ?_
  · intro a
    match a with
    | ⟨0, _⟩ => show n.val = 0 + n.val; omega
    | ⟨1, _⟩ => show y.val = 0 + y.val; omega
    | ⟨2, _⟩ => show x.val + 2 = 2 + x.val; omega
    | ⟨3, _⟩ => show co.val = 0 + co.val; omega
  refine shapeCast_apply _ _ (ix4 n y (⟨x.val + 2, by omega⟩ : Fin 68) co) (ix3 n (⟨y.val * 68 + 2 + x.val, by omega⟩ : Fin 4352) co) ?_
  rw [Shape.rowMajor_val_three, Shape.rowMajor_val_four]
  show (n.val * 4352 + (y.val * 68 + 2 + x.val)) * 128 + co.val = ((n.val * 64 + y.val) * 68 + (x.val + 2)) * 128 + co.val
  ring

/-! ## The result -/

/-- The result array is the block's specification of the arguments and the scaled weights. -/
theorem w7_eq (c : Dev nD) :
    W7 m ρ c (Proc.devRef .tc main_v53)
      = Cert.UpBlock.result (m ((c.tc : Thread nD τ).loc main_arg0)) (m ((c.tc : Thread nD τ).loc main_arg1))
          (m ((c.tc : Thread nD τ).loc main_arg2)) (m ((c.tc : Thread nD τ).loc main_arg3))
          (V5 m ρ c main_v17) (V5 m ρ c main_v20) (V5 m ρ c main_v27) (V5 m ρ c main_v30) := by
  funext j
  obtain ⟨n, co, y, x, rfl⟩ : ∃ (n : Fin 16) (co : Fin 128) (y x : Fin 64), j = ix4 n co y x := ⟨j 0, j 1, j 2, j 3, eq_ix4 j⟩
  refine (tail_apply m ρ c n co y x).trans ?_
  have hW : W6 m ρ c (Proc.devRef .tc main_v50) = glue1 (outsAt1 (V5 m ρ) c) := (W6_arr m ρ c 8).trans (final1 m ρ c)
  rw [hW]
  exact glue1_valid m ρ c n y x co

theorem rrun : θ_run defs (onTc (τ := τ) (main (F := Ideal))) ⟨m, fun _ => 0, ρ⟩ (fun r => ∀ c : Dev nD,
      r.2.mem ((c.tc : Thread nD τ).loc main_v53)
        = Cert.UpBlock.result (m ((c.tc : Thread nD τ).loc main_arg0)) (m ((c.tc : Thread nD τ).loc main_arg1))
            (m ((c.tc : Thread nD τ).loc main_arg2)) (m ((c.tc : Thread nD τ).loc main_arg3))
            (V5 m ρ c main_v17) (V5 m ρ c main_v20) (V5 m ρ c main_v27) (V5 m ρ c main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (w7_eq m ρ c), (h c).2⟩) (FrameValue.run_w7 (F := Ideal) m ρ)

end Cert.ReferenceIdeal.FinalValue

end
-- ==== Proof.KFold.lean ====
/-
  The two convolutions' scaled weights and biases as the host computes them from the arguments: the weight of each output
  channel times `g / sqrt (v + ε)` of that channel, and the bias `(b - m) · g / sqrt (v + ε) + β`. The four arrays are
  named as terms of the arguments so that the two programs' arrays can be seen to be the same terms.
-/
import proofs.«177498_g2000606872001322_pallasbulk_142_4_alg».proof.Proof.Gen.KernelIdeal.Frame
import Idealize.ShloMosaic.PureOps.Ideal
import Idealize.ShloMosaic.Lib.StableHlo.Run
import Idealize.ShloMosaic.Lib.Tactic

noncomputable section

open Idealize.ShloMosaic Idealize.ShloMosaic.TcCoe Idealize.SL.Sem

namespace Cert.KernelIdeal.FoldValue

open Cert.KernelIdeal Cert.KernelIdeal.Gen

/-- `g / sqrt (v + ε)`, channel by channel. -/
def scale (g v : FVec Ideal S128 .f32) : FVec Ideal S128 .f32 :=
  Host.divf g (Host.sqrt (addf v (broadcastInDim S128 ![] bcast_S_S128 (constant (F := Ideal) S_ .f32 0x3727C5AC#32))))

/-- The first convolution's weight, each output channel scaled. -/
def w1e (w : FVec Ideal S128x256x3x3 .f32) (g v : FVec Ideal S128 .f32) :
    FVec Ideal S128x256x3x3 .f32 :=
  mulf w (broadcastInDim S128x256x3x3 ![0, 1, 2, 3] bcast_S128x1x1x1_S128x256x3x3_0_1_2_3
    (broadcastInDim S128x1x1x1 ![0] bcast_S128_S128x1x1x1_0 (scale g v)))

/-- The second convolution's weight, each output channel scaled. -/
def w2e (w : FVec Ideal S128x128x3x3 .f32) (g v : FVec Ideal S128 .f32) :
    FVec Ideal S128x128x3x3 .f32 :=
  mulf w (broadcastInDim S128x128x3x3 ![0, 1, 2, 3] bcast_S128x1x1x1_S128x128x3x3_0_1_2_3
    (broadcastInDim S128x1x1x1 ![0] bcast_S128_S128x1x1x1_0 (scale g v)))

/-- A convolution's bias with the normalisation folded in. -/
def be (b mu g v beta : FVec Ideal S128 .f32) : FVec Ideal S128 .f32 :=
  addf (mulf (subf b mu) (scale g v)) beta

variable (m : (ℓ : Loc nD τ sig) → Buf (Elt Ideal) ℓ)

set_option maxHeartbeats 1600000 in
theorem v6_eq (c : Dev nD) : (V m c main_v6 : FVec Ideal S128x256x3x3 .f32) = w1e (m ((c : Thread nD τ).loc main_arg4)) (m ((c : Thread nD τ).loc main_arg6)) (m ((c : Thread nD τ).loc main_arg9)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 1600000 in
theorem v9_eq (c : Dev nD) : (V m c main_v9 : FVec Ideal S128 .f32) = be (m ((c : Thread nD τ).loc main_arg5)) (m ((c : Thread nD τ).loc main_arg8)) (m ((c : Thread nD τ).loc main_arg6)) (m ((c : Thread nD τ).loc main_arg9)) (m ((c : Thread nD τ).loc main_arg7)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 1600000 in
theorem v16_eq (c : Dev nD) : (V m c main_v16 : FVec Ideal S128x128x3x3 .f32) = w2e (m ((c : Thread nD τ).loc main_arg10)) (m ((c : Thread nD τ).loc main_arg12)) (m ((c : Thread nD τ).loc main_arg15)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 1600000 in
theorem v19_eq (c : Dev nD) : (V m c main_v19 : FVec Ideal S128 .f32) = be (m ((c : Thread nD τ).loc main_arg11)) (m ((c : Thread nD τ).loc main_arg14)) (m ((c : Thread nD τ).loc main_arg12)) (m ((c : Thread nD τ).loc main_arg15)) (m ((c : Thread nD τ).loc main_arg13)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

end Cert.KernelIdeal.FoldValue

end
-- ==== Proof.RFold.lean ====
/-
  The two convolutions' scaled weights and biases as the reference's host computes them from the arguments, after its
  first kernel: the weight of each output channel times `g / sqrt (v + ε)` of that channel, and the bias
  `(b - m) · g / sqrt (v + ε) + β`; no later host line and neither kernel writes them or the arguments they read.
-/
import proofs.«177498_g2000606872001322_pallasbulk_142_4_alg».proof.Proof.Gen.ReferenceIdeal.Frame
import Idealize.ShloMosaic.PureOps.Ideal
import Idealize.ShloMosaic.Lib.StableHlo.Run
import Idealize.ShloMosaic.Lib.Tactic

noncomputable section

open Idealize.ShloMosaic Idealize.ShloMosaic.TcCoe Idealize.SL.Sem

namespace Cert.ReferenceIdeal.FoldValue

open Cert.ReferenceIdeal Cert.ReferenceIdeal.Gen

/-- `g / sqrt (v + ε)`, channel by channel. -/
def scale (g v : FVec Ideal S128 .f32) : FVec Ideal S128 .f32 :=
  Host.divf g (Host.sqrt (addf v (broadcastInDim S128 ![] bcast_S_S128 (constant (F := Ideal) S_ .f32 0x3727C5AC#32))))

/-- The first convolution's weight, each output channel scaled. -/
def w1e (w : FVec Ideal S128x256x3x3 .f32) (g v : FVec Ideal S128 .f32) :
    FVec Ideal S128x256x3x3 .f32 :=
  mulf w (broadcastInDim S128x256x3x3 ![0, 1, 2, 3] bcast_S128x1x1x1_S128x256x3x3_0_1_2_3
    (broadcastInDim S128x1x1x1 ![0] bcast_S128_S128x1x1x1_0 (scale g v)))

/-- The second convolution's weight, each output channel scaled. -/
def w2e (w : FVec Ideal S128x128x3x3 .f32) (g v : FVec Ideal S128 .f32) :
    FVec Ideal S128x128x3x3 .f32 :=
  mulf w (broadcastInDim S128x128x3x3 ![0, 1, 2, 3] bcast_S128x1x1x1_S128x128x3x3_0_1_2_3
    (broadcastInDim S128x1x1x1 ![0] bcast_S128_S128x1x1x1_0 (scale g v)))

/-- A convolution's bias with the normalisation folded in. -/
def be (b mu g v beta : FVec Ideal S128 .f32) : FVec Ideal S128 .f32 :=
  addf (mulf (subf b mu) (scale g v)) beta

variable (m : (ℓ : Loc nD τ sig) → Buf (Elt Ideal) ℓ) (ρ : Dev nD → PrngReg)

/-! ## The arguments at the first kernel's exit are the launch memory's -/

theorem w2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem w2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem w2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem w2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem w2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem w2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem w2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem w2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem w2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem w2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem w2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem w2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-! ## The four arrays are computed in the host stretch right after the first kernel and never written again -/

theorem v5_main_v17 (c : Dev nD) : W5 m ρ c (Proc.devRef .tc main_v17) = StableHlo.after hostOps1 (W2 m ρ c) (Proc.devRef .tc main_v17) :=
  calc W5 m ρ c (Proc.devRef .tc main_v17)
    _ = W4 m ρ c (Proc.devRef .tc main_v17) := StableHlo.after_of_forall_not_mem (b := Proc.devRef .tc main_v17) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v17) := StableHlo.after_of_forall_not_mem (b := Proc.devRef .tc main_v17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = StableHlo.after hostOps1 (W2 m ρ c) (Proc.devRef .tc main_v17) := rfl

theorem v5_main_v20 (c : Dev nD) : W5 m ρ c (Proc.devRef .tc main_v20) = StableHlo.after hostOps1 (W2 m ρ c) (Proc.devRef .tc main_v20) :=
  calc W5 m ρ c (Proc.devRef .tc main_v20)
    _ = W4 m ρ c (Proc.devRef .tc main_v20) := StableHlo.after_of_forall_not_mem (b := Proc.devRef .tc main_v20) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v20) := StableHlo.after_of_forall_not_mem (b := Proc.devRef .tc main_v20) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = StableHlo.after hostOps1 (W2 m ρ c) (Proc.devRef .tc main_v20) := rfl

theorem v5_main_v27 (c : Dev nD) : W5 m ρ c (Proc.devRef .tc main_v27) = StableHlo.after hostOps1 (W2 m ρ c) (Proc.devRef .tc main_v27) :=
  calc W5 m ρ c (Proc.devRef .tc main_v27)
    _ = W4 m ρ c (Proc.devRef .tc main_v27) := StableHlo.after_of_forall_not_mem (b := Proc.devRef .tc main_v27) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v27) := StableHlo.after_of_forall_not_mem (b := Proc.devRef .tc main_v27) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = StableHlo.after hostOps1 (W2 m ρ c) (Proc.devRef .tc main_v27) := rfl

theorem v5_main_v30 (c : Dev nD) : W5 m ρ c (Proc.devRef .tc main_v30) = StableHlo.after hostOps1 (W2 m ρ c) (Proc.devRef .tc main_v30) :=
  calc W5 m ρ c (Proc.devRef .tc main_v30)
    _ = W4 m ρ c (Proc.devRef .tc main_v30) := StableHlo.after_of_forall_not_mem (b := Proc.devRef .tc main_v30) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v30) := StableHlo.after_of_forall_not_mem (b := Proc.devRef .tc main_v30) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = StableHlo.after hostOps1 (W2 m ρ c) (Proc.devRef .tc main_v30) := rfl

set_option maxHeartbeats 1600000 in
theorem v17_eq (c : Dev nD) : (V5 m ρ c main_v17 : FVec Ideal S128x256x3x3 .f32) = w1e (m ((c : Thread nD τ).loc main_arg4)) (m ((c : Thread nD τ).loc main_arg6)) (m ((c : Thread nD τ).loc main_arg9)) := by
  show W5 m ρ c (Proc.devRef .tc main_v17) = _
  rw [v5_main_v17]
  simp only [Gen.hostOps1]
  after_results_simp
  rw [w2_arg4, w2_arg6, w2_arg9]
  rfl

set_option maxHeartbeats 1600000 in
theorem v20_eq (c : Dev nD) : (V5 m ρ c main_v20 : FVec Ideal S128 .f32) = be (m ((c : Thread nD τ).loc main_arg5)) (m ((c : Thread nD τ).loc main_arg8)) (m ((c : Thread nD τ).loc main_arg6)) (m ((c : Thread nD τ).loc main_arg9)) (m ((c : Thread nD τ).loc main_arg7)) := by
  show W5 m ρ c (Proc.devRef .tc main_v20) = _
  rw [v5_main_v20]
  simp only [Gen.hostOps1]
  after_results_simp
  rw [w2_arg5, w2_arg8, w2_arg6, w2_arg9, w2_arg7]
  rfl

set_option maxHeartbeats 1600000 in
theorem v27_eq (c : Dev nD) : (V5 m ρ c main_v27 : FVec Ideal S128x128x3x3 .f32) = w2e (m ((c : Thread nD τ).loc main_arg10)) (m ((c : Thread nD τ).loc main_arg12)) (m ((c : Thread nD τ).loc main_arg15)) := by
  show W5 m ρ c (Proc.devRef .tc main_v27) = _
  rw [v5_main_v27]
  simp only [Gen.hostOps1]
  after_results_simp
  rw [w2_arg10, w2_arg12, w2_arg15]
  rfl

set_option maxHeartbeats 1600000 in
theorem v30_eq (c : Dev nD) : (V5 m ρ c main_v30 : FVec Ideal S128 .f32) = be (m ((c : Thread nD τ).loc main_arg11)) (m ((c : Thread nD τ).loc main_arg14)) (m ((c : Thread nD τ).loc main_arg12)) (m ((c : Thread nD τ).loc main_arg15)) (m ((c : Thread nD τ).loc main_arg13)) := by
  show W5 m ρ c (Proc.devRef .tc main_v30) = _
  rw [v5_main_v30]
  simp only [Gen.hostOps1]
  after_results_simp
  rw [w2_arg11, w2_arg14, w2_arg12, w2_arg15, w2_arg13]
  rfl

end Cert.ReferenceIdeal.FoldValue

end
-- ==== Proof.lean ====
/-
  The certificate of the upsampling block: the kernel fuses a 2×2 stride-2 transposed convolution, the zero-padded
  concatenation with the skip image and two 3×3 convolutions (each with its normalisation folded into weight and bias,
  followed by `max · 0`) into one call; the reference does the transposed convolution in one call and the two
  convolutions in another. On the extended reals both results are ONE function of the sixteen arguments
  (`Cert.UpBlock.result`): a change of float format is the identity, a sum over 256 input channels is the sum of its two
  halves, nine taps added in any order are the same sum, and a padded or masked position contributes zero on both sides.
  The three frames are the programs' own runs; the idealization rewrote nothing.
-/
import proofs.«177498_g2000606872001322_pallasbulk_142_4_alg».proof.Defs
import proofs.«177498_g2000606872001322_pallasbulk_142_4_alg».proof.Proof.Gen.Kernel.Frame
import proofs.«177498_g2000606872001322_pallasbulk_142_4_alg».proof.Proof.Gen.KernelIdeal.Frame
import proofs.«177498_g2000606872001322_pallasbulk_142_4_alg».proof.Proof.Gen.ReferenceIdeal.Frame
import proofs.«177498_g2000606872001322_pallasbulk_142_4_alg».proof.Proof.Gen.Pre_finite_inputs
import proofs.«177498_g2000606872001322_pallasbulk_142_4_alg».proof.Proof.KFinal
import proofs.«177498_g2000606872001322_pallasbulk_142_4_alg».proof.Proof.RFinal
import proofs.«177498_g2000606872001322_pallasbulk_142_4_alg».proof.Proof.KFold
import proofs.«177498_g2000606872001322_pallasbulk_142_4_alg».proof.Proof.RFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization's ledger is empty. -/
theorem preserves : Cert.preserves_Kernel_KernelIdeal := trivial

/-! ## The scaled weights and biases are the same terms of the arguments in both programs -/

theorem w1e_eq (w : FVec Ideal Cert.KernelIdeal.S128x256x3x3 .f32) (g v : FVec Ideal Cert.KernelIdeal.S128 .f32) :
    Cert.KernelIdeal.FoldValue.w1e w g v = Cert.ReferenceIdeal.FoldValue.w1e w g v := rfl
theorem w2e_eq (w : FVec Ideal Cert.KernelIdeal.S128x128x3x3 .f32) (g v : FVec Ideal Cert.KernelIdeal.S128 .f32) :
    Cert.KernelIdeal.FoldValue.w2e w g v = Cert.ReferenceIdeal.FoldValue.w2e w g v := rfl
theorem be_eq (b mu g v beta : FVec Ideal Cert.KernelIdeal.S128 .f32) :
    Cert.KernelIdeal.FoldValue.be b mu g v beta = Cert.ReferenceIdeal.FoldValue.be b mu g v beta := rfl

/-- The result array as a function of the launch memory: the block's specification of the arguments, the two
    convolutions' weights and biases being the host's scaled ones. -/
def res (m : (ℓ : Loc Cert.KernelIdeal.nD Cert.KernelIdeal.τ Cert.KernelIdeal.sig) → Buf (Elt Ideal) ℓ) :
    (c : Dev Cert.KernelIdeal.nD) → Buf (Elt Ideal) ((c.tc : Thread Cert.KernelIdeal.nD Cert.KernelIdeal.τ).loc Cert.KernelIdeal.main_v57) :=
  fun c => Cert.UpBlock.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (Cert.KernelIdeal.FoldValue.w1e (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)))
      (Cert.KernelIdeal.FoldValue.be (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg7)))
      (Cert.KernelIdeal.FoldValue.w2e (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)))
      (Cert.KernelIdeal.FoldValue.be (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg13)))

set_option maxHeartbeats 1600000 in
/-- The kernel's run ends with the result array at `res`. -/
theorem krun_res (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v57) = res m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) := by
  refine (θ_run (Cert.KernelIdeal.defs (F := Ideal)) _ _).mono (fun r h c => ⟨(h c).1.trans ?_, (h c).2⟩)
    (Cert.KernelIdeal.FinalValue.krun m ρ)
  rw [Cert.KernelIdeal.FoldValue.v6_eq, Cert.KernelIdeal.FoldValue.v9_eq, Cert.KernelIdeal.FoldValue.v16_eq, Cert.KernelIdeal.FoldValue.v19_eq]
  rfl

set_option maxHeartbeats 1600000 in
/-- Both programs end with the result array at the block's specification of the arguments. -/
theorem algebraic : Cert.algebraic_KernelIdeal_ReferenceIdeal := by
  intro m ρ m' ρ' _ hagree
  refine ⟨res m, krun_res m ρ, ?_⟩
  refine (θ_run (Cert.ReferenceIdeal.defs (F := Ideal)) _ _).mono (fun r h c => ⟨(h c).1.trans ?_, (h c).2⟩)
    (Cert.ReferenceIdeal.FinalValue.rrun m' ρ')
  obtain ⟨h0, h1, h2, h3, h4, h5, h6, h7, h8, h9, h10, h11, h12, h13, h14, h15⟩ := hagree c
  rw [Cert.ReferenceIdeal.FoldValue.v17_eq, Cert.ReferenceIdeal.FoldValue.v20_eq, Cert.ReferenceIdeal.FoldValue.v27_eq, Cert.ReferenceIdeal.FoldValue.v30_eq,
    h0, h1, h2, h3, h4, h5, h6, h7, h8, h9, h10, h11, h12, h13, h14, h15]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
